-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12000x128 : Shape := ⟨2, ![12000, 128]⟩
abbrev S2x384000 : Shape := ⟨2, ![2, 384000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S12000x128 : S_.BroadcastsInDim S12000x128 (![] : Fin 0 → Fin S12000x128.rank)
  reducesTo_S12000x128_S_d0_1 : S12000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x384000 : S_.BroadcastsInDim S2x384000 (![] : Fin 0 → Fin S2x384000.rank)
  reducesTo_S2x384000_S_d0_1 : S2x384000.ReducesTo [0, 1] S_

variable [Facts]

def fn_part1 {F : FTy → Type} [FloatOps F] (main_arg1 : IVec S2x384000 32) (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S2x384000 32 := broadcastInDim S2x384000 ![] bcast_S_S2x384000 main_c_8
  let main_v25 : IVec S2x384000 1 := cmpi .sge main_arg1 main_v24
  let main_c_9 : IVec S_ 32 := constantI S_ 32 12000#32
  let main_v26 : IVec S2x384000 32 := broadcastInDim S2x384000 ![] bcast_S_S2x384000 main_c_9
  let main_v27 : IVec S2x384000 1 := cmpi .slt main_arg1 main_v26
  let main_v28 : IVec S2x384000 1 := andi main_v25 main_v27
  let main_c_10 : IVec S_ 1 := constantI S_ 1 1#1
  let main_v29 : IVec S_ 1 := (fun x v => Host.reduce IntOp.andi x v reducesTo_S2x384000_S_d0_1 h_S_) main_v28 main_c_10
  let main_v30 : IVec S_ 1 := andi main_v23 main_v29
  main_v30

def fn {F : FTy → Type} [FloatOps F] (main_arg0 : FVec F S12000x128 .f32) (main_arg1 : IVec S2x384000 32) (main_arg2 : FVec F S128x64 .f32) (main_arg3 : FVec F S64 .f32) (main_arg4 : FVec F S64x64 .f32) (main_arg5 : FVec F S64 .f32) : IVec S_ 1 :=
  let main_v0 : FVec F S12000x128 .f32 := Host.absf main_arg0
  let main_cst : FVec F S_ .f32 := constant S_ .f32 0x7F800000#32
  let main_v1 : FVec F S12000x128 .f32 := broadcastInDim S12000x128 ![] bcast_S_S12000x128 main_cst
  let main_v2 : IVec S12000x128 1 := cmpf .olt main_v0 main_v1
  let main_c : IVec S_ 1 := constantI S_ 1 1#1
  let main_v3 : IVec S_ 1 := (fun x v => Host.reduce IntOp.andi x v reducesTo_S12000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_v13 main_v16
-- ==== Kernel.lean ====
abbrev S12000x128 : Shape := ⟨2, ![12000, 128]⟩
abbrev S2x384000 : Shape := ⟨2, ![2, 384000]⟩
abbrev S128x64 : Shape := ⟨2, ![128, 64]⟩
abbrev S64 : Shape := ⟨1, ![64]⟩
abbrev S64x64 : Shape := ⟨2, ![64, 64]⟩
abbrev S12000 : Shape := ⟨1, ![12000]⟩
abbrev S1x384000 : Shape := ⟨2, ![1, 384000]⟩
abbrev S384000 : Shape := ⟨1, ![384000]⟩
abbrev S396000 : Shape := ⟨1, ![396000]⟩
abbrev S12000x64 : Shape := ⟨2, ![12000, 64]⟩
abbrev S1000x128 : Shape := ⟨2, ![1000, 128]⟩
abbrev S1000x64 : Shape := ⟨2, ![1000, 64]⟩
abbrev S_ : Shape := ⟨0, ![]⟩
abbrev S396000x1 : Shape := ⟨2, ![396000, 1]⟩
abbrev S396000x64 : Shape := ⟨2, ![396000, 64]⟩
abbrev S1x64 : Shape := ⟨2, ![1, 64]⟩
abbrev S2000x64 : Shape := ⟨2, ![2000, 64]⟩
abbrev S2000 : Shape := ⟨1, ![2000]⟩
abbrev S2000x1 : Shape := ⟨2, ![2000, 1]⟩
abbrev S384000x1 : Shape := ⟨2, ![384000, 1]⟩
abbrev S1 : Shape := ⟨1, ![1]⟩
abbrev S383999 : Shape := ⟨1, ![383999]⟩
abbrev S384000x64 : Shape := ⟨2, ![384000, 64]⟩
abbrev S1x2 : Shape := ⟨2, ![1, 2]⟩
abbrev S12000x1 : Shape := ⟨2, ![12000, 1]⟩
abbrev S1x12000x1 : Shape := ⟨3, ![1, 12000, 1]⟩
abbrev S1x1x1 : Shape := ⟨3, ![1, 1, 1]⟩
abbrev S1x1 : Shape := ⟨2, ![1, 1]⟩

abbrev nBuf : Space → Nat
  | .hbm => 191
  | .vmem => 24
  | .smem => 0
  | _ => 0

abbrev hbmTy0_0 (i : Nat) : BufTy := match i % 128 with
  | 0 => ⟨S12000x128, .f32⟩
  | 1 => ⟨S2x384000, .i32⟩
  | 2 => ⟨S128x64, .f32⟩
  | 3 => ⟨S64, .f32⟩
  | 4 => ⟨S64x64, .f32⟩
  | 5 => ⟨S64, .f32⟩
  | 6 => ⟨S12000, .i32⟩
  | 7 => ⟨S1x384000, .i32⟩
  | 8 => ⟨S384000, .i32⟩
  | 9 => ⟨S396000, .i32⟩
  | 10 => ⟨S1x384000, .i32⟩
  | 11 => ⟨S384000, .i32⟩
  | 12 => ⟨S396000, .i32⟩
  | 13 => ⟨S12000x64, .f32⟩
  | 14 => ⟨S_, .f32⟩
  | 15 => ⟨S396000, .f32⟩
  | 16 => ⟨S_, .f32⟩
  | 17 => ⟨S12000, .f32⟩
  | 18 => ⟨S396000x1, .i32⟩
  | 19 => ⟨S12000, .f32⟩
  | 20 => ⟨S12000, .f32⟩
  | 21 => ⟨S_, .i32⟩
  | 22 => ⟨S396000, .i32⟩
  | 23 => ⟨S396000, .i1⟩
  | 24 => ⟨S_, .i32⟩
  | 25 => ⟨S396000, .i32⟩
  | 26 => ⟨S396000, .i32⟩
  | 27 => ⟨S396000, .i32⟩
  | 28 => ⟨S396000x1, .i32⟩
  | 29 => ⟨S396000, .f32⟩
  | 30 => ⟨S_, .i32⟩
  | 31 => ⟨S396000, .i32⟩
  | 32 => ⟨S396000, .i1⟩
  | 33 => ⟨S_, .i32⟩
  | 34 => ⟨S396000, .i32⟩
  | 35 => ⟨S396000, .i32⟩
  | 36 => ⟨S396000, .i32⟩
  | 37 => ⟨S396000x1, .i32⟩
  | 38 => ⟨S396000, .f32⟩
  | 39 => ⟨S396000, .f32⟩
  | 40 => ⟨S_, .i32⟩
  | 41 => ⟨S396000, .i32⟩
  | 42 => ⟨S396000, .i1⟩
  | 43 => ⟨S_, .i32⟩
  | 44 => ⟨S396000, .i32⟩
  | 45 => ⟨S396000, .i32⟩
  | 46 => ⟨S396000, .i32⟩
  | 47 => ⟨S396000x1, .i32⟩
  | 48 => ⟨S396000x64, .f32⟩
  | 49 => ⟨S396000x1, .f32⟩
  | 50 => ⟨S396000x64, .f32⟩
  | 51 => ⟨S396000x64, .f32⟩
  | 52 => ⟨S_, .f32⟩
  | 53 => ⟨S12000x64, .f32⟩
  | 54 => ⟨S396000x1, .i32⟩
  | 55 => ⟨S12000x64, .f32⟩
  | 56 => ⟨S1x64, .f32⟩
  | 57 => ⟨S12000x64, .f32⟩
  | 58 => ⟨S12000x64, .f32⟩
  | 59 => ⟨S_, .f32⟩
  | 60 => ⟨S12000x64, .f32⟩
  | 61 => ⟨S12000x64, .f32⟩
  | 62 => ⟨S12000x64, .f32⟩
  | 63 => ⟨S_, .f32⟩
  | 64 => ⟨S396000, .f32⟩
  | 65 => ⟨S_, .f32⟩
  | 66 => ⟨S12000, .f32⟩
  | 67 => ⟨S396000x1, .i32⟩
  | 68 => ⟨S12000, .f32⟩
  | 69 => ⟨S12000, .f32⟩
  | 70 => ⟨S_, .i32⟩
  | 71 => ⟨S396000, .i32⟩
  | 72 => ⟨S396000, .i1⟩
  | 73 => ⟨S_, .i32⟩
  | 74 => ⟨S396000, .i32⟩
  | 75 => ⟨S396000, .i32⟩
  | 76 => ⟨S396000, .i32⟩
  | 77 => ⟨S396000x1, .i32⟩
  | 78 => ⟨S396000, .f32⟩
  | 79 => ⟨S_, .i32⟩
  | 80 => ⟨S396000, .i32⟩
  | 81 => ⟨S396000, .i1⟩
  | 82 => ⟨S_, .i32⟩
  | 83 => ⟨S396000, .i32⟩
  | 84 => ⟨S396000, .i32⟩
  | 85 => ⟨S396000, .i32⟩
  | 86 => ⟨S396000x1, .i32⟩
  | 87 => ⟨S396000, .f32⟩
  | 88 => ⟨S396000, .f32⟩
  | 89 => ⟨S_, .i32⟩
  | 90 => ⟨S396000, .i32⟩
  | 91 => ⟨S396000, .i1⟩
  | 92 => ⟨S_, .i32⟩
  | 93 => ⟨S396000, .i32⟩
  | 94 => ⟨S396000, .i32⟩
  | 95 => ⟨S396000, .i32⟩
  | 96 => ⟨S396000x1, .i32⟩
  | 97 => ⟨S396000x64, .f32⟩
  | 98 => ⟨S396000x1, .f32⟩
  | 99 => ⟨S396000x64, .f32⟩
  | 100 => ⟨S396000x64, .f32⟩
  | 101 => ⟨S_, .f32⟩
  | 102 => ⟨S12000x64, .f32⟩
  | 103 => ⟨S396000x1, .i32⟩
  | 104 => ⟨S12000x64, .f32⟩
  | 105 => ⟨S1x64, .f32⟩
  | 106 => ⟨S12000x64, .f32⟩
  | 107 => ⟨S12000x64, .f32⟩
  | 108 => ⟨S12000x64, .f32⟩
  | 109 => ⟨S1x64, .f32⟩
  | 110 => ⟨S1x64, .f32⟩
  | 111 => ⟨S_, .f32⟩
  | 112 => ⟨S_, .f32⟩
  | 113 => ⟨S1x384000, .i32⟩
  | 114 => ⟨S384000, .i32⟩
  | 115 => ⟨S1x384000, .i32⟩
  | 116 => ⟨S384000, .i32⟩
  | 117 => ⟨S_, .i32⟩
  | 118 => ⟨S384000, .i32⟩
  | 119 => ⟨S384000, .i32⟩
  | 120 => ⟨S384000, .i32⟩
  | 121 => ⟨S384000, .i32⟩
  | 122 => ⟨S384000, .i32⟩
  | 123 => ⟨S384000, .i32⟩
  | 124 => ⟨S_, .i32⟩
  | 125 => ⟨S384000, .i32⟩
  | 126 => ⟨S384000, .i1⟩
  | 127 => ⟨S_, .i32⟩
  | _ => ⟨S12000x128, .f32⟩

abbrev hbmTy0_1 (i : Nat) : BufTy := match i % 128 with
  | 0 => ⟨S384000, .i32⟩
  | 1 => ⟨S384000, .i32⟩
  | 2 => ⟨S384000, .i32⟩
  | 3 => ⟨S384000x1, .i32⟩
  | 4 => ⟨S384000, .i32⟩
  | 5 => ⟨S_, .i32⟩
  | 6 => ⟨S384000, .i32⟩
  | 7 => ⟨S384000, .i1⟩
  | 8 => ⟨S_, .i32⟩
  | 9 => ⟨S384000, .i32⟩
  | 10 => ⟨S384000, .i32⟩
  | 11 => ⟨S384000, .i32⟩
  | 12 => ⟨S384000x1, .i32⟩
  | 13 => ⟨S384000, .i32⟩
  | 14 => ⟨S_, .i32⟩
  | 15 => ⟨S384000, .i32⟩
  | 16 => ⟨S384000, .i1⟩
  | 17 => ⟨S_, .i32⟩
  | 18 => ⟨S384000, .i32⟩
  | 19 => ⟨S384000, .i32⟩
  | 20 => ⟨S384000, .i32⟩
  | 21 => ⟨S384000x1, .i32⟩
  | 22 => ⟨S384000, .i32⟩
  | 23 => ⟨S_, .i1⟩
  | 24 => ⟨S1, .i1⟩
  | 25 => ⟨S383999, .i32⟩
  | 26 => ⟨S383999, .i32⟩
  | 27 => ⟨S383999, .i1⟩
  | 28 => ⟨S384000, .i1⟩
  | 29 => ⟨S384000, .f32⟩
  | 30 => ⟨S384000x1, .f32⟩
  | 31 => ⟨S_, .i32⟩
  | 32 => ⟨S384000, .i32⟩
  | 33 => ⟨S384000, .i1⟩
  | 34 => ⟨S_, .i32⟩
  | 35 => ⟨S384000, .i32⟩
  | 36 => ⟨S384000, .i32⟩
  | 37 => ⟨S384000, .i32⟩
  | 38 => ⟨S384000x1, .i32⟩
  | 39 => ⟨S384000x64, .f32⟩
  | 40 => ⟨S_, .i32⟩
  | 41 => ⟨S384000, .i32⟩
  | 42 => ⟨S384000, .i1⟩
  | 43 => ⟨S_, .i32⟩
  | 44 => ⟨S384000, .i32⟩
  | 45 => ⟨S384000, .i32⟩
  | 46 => ⟨S384000, .i32⟩
  | 47 => ⟨S384000x1, .i32⟩
  | 48 => ⟨S384000x64, .f32⟩
  | 49 => ⟨S1x2, .f32⟩
  | 50 => ⟨S1x1, .f32⟩
  | 51 => ⟨S_, .f32⟩
  | 52 => ⟨S1x1, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | _ => ⟨S12000x128, .f32⟩

abbrev hbmTy (i : Nat) : BufTy := match i / 128 with
  | 0 => hbmTy0_0 i
  | 1 => hbmTy0_1 i
  | _ => ⟨S12000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S128x64, .f32⟩
  | .local _ .vmem, ⟨3, _⟩ => ⟨S1000x64, .f32⟩
  | .local _ .vmem, ⟨4, _⟩ => ⟨S1000x64, .f32⟩
  | .local _ .vmem, ⟨5, _⟩ => ⟨S1000x64, .f32⟩
  | .local _ .vmem, ⟨6, _⟩ => ⟨S1000x64, .f32⟩
  | .local _ .vmem, ⟨7, _⟩ => ⟨S64x64, .f32⟩
  | .local _ .vmem, ⟨8, _⟩ => ⟨S1000x64, .f32⟩
  | .local _ .vmem, ⟨9, _⟩ => ⟨S1000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S1x64, .f32⟩
  | .local _ .vmem, ⟨15, _⟩ => ⟨S1x64, .f32⟩
  | .local _ .vmem, ⟨16, _⟩ => ⟨S12000x64, .f32⟩
  | .local _ .vmem, ⟨17, _⟩ => ⟨S12000x64, .f32⟩
  | .local _ .vmem, ⟨18, _⟩ => ⟨S12000x64, .f32⟩
  | .local _ .vmem, ⟨19, _⟩ => ⟨S12000x64, .f32⟩
  | .local _ .vmem, ⟨20, _⟩ => ⟨S12000x1, .f32⟩
  | .local _ .vmem, ⟨21, _⟩ => ⟨S12000x1, .f32⟩
  | .local _ .vmem, ⟨22, _⟩ => ⟨S1x2, .f32⟩
  | .local _ .vmem, ⟨23, _⟩ => ⟨S1x2, .f32⟩
  | _, _ => ⟨S12000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82_0 : Ref sig .tc := ⟨.hbm, 108, rfl⟩
abbrev main_v82_1 : Ref sig .tc := ⟨.hbm, 109, rfl⟩
abbrev main_v83 : Ref sig .tc := ⟨.hbm, 110, rfl⟩
abbrev main_cst_16 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_c_17 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_call1_v0 : Ref sig .tc := ⟨.hbm, 121, rfl⟩
abbrev main_call1_v1_0 : Ref sig .tc := ⟨.hbm, 122, rfl⟩
abbrev main_v92 : Ref sig .tc := ⟨.hbm, 123, rfl⟩
abbrev main_c_18 : Ref sig .tc := ⟨.hbm, 124, rfl⟩
abbrev main_v93 : Ref sig .tc := ⟨.hbm, 125, rfl⟩
abbrev main_v94 : Ref sig .tc := ⟨.hbm, 126, rfl⟩
abbrev main_c_19 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_20 : Ref sig .tc := ⟨.hbm, 133, rfl⟩
abbrev main_v100 : Ref sig .tc := ⟨.hbm, 134, rfl⟩
abbrev main_v101 : Ref sig .tc := ⟨.hbm, 135, rfl⟩
abbrev main_c_21 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_22 : Ref sig .tc := ⟨.hbm, 142, rfl⟩
abbrev main_v107 : Ref sig .tc := ⟨.hbm, 143, rfl⟩
abbrev main_v108 : Ref sig .tc := ⟨.hbm, 144, rfl⟩
abbrev main_c_23 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_c_24 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_c_25 : Ref sig .tc := ⟨.hbm, 159, rfl⟩
abbrev main_v121 : Ref sig .tc := ⟨.hbm, 160, rfl⟩
abbrev main_v122 : Ref sig .tc := ⟨.hbm, 161, rfl⟩
abbrev main_c_26 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_c_27 : Ref sig .tc := ⟨.hbm, 168, rfl⟩
abbrev main_v128 : Ref sig .tc := ⟨.hbm, 169, rfl⟩
abbrev main_v129 : Ref sig .tc := ⟨.hbm, 170, rfl⟩
abbrev main_c_28 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_cst_29 : Ref sig .tc := ⟨.hbm, 182, rfl⟩
abbrev main_cst_30 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_scratch0 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![6], ![false]⟩

def k2_cond2 (i : grid2.Coords) : BitVec 1 :=
  let arg0 : BitVec 32 := BitVec.ofNat 32 (i 0).val
  let c5_i32 : BitVec 32 := 5#32
  let v21 : BitVec 1 := Scalar.cmpi .eq arg0 c5_i32
  let v22 : BitVec 32 := Scalar.extui v21
  let c0_i32_10 : BitVec 32 := 0#32
  let v23 : BitVec 1 := Scalar.cmpi .ne v22 c0_i32_10
  v23

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![32], ![false]⟩

def k3_cond2 (i : grid3.Coords) : BitVec 1 :=
  let arg0 : BitVec 32 := BitVec.ofNat 32 (i 0).val
  let c31_i32 : BitVec 32 := 31#32
  let v29 : BitVec 1 := Scalar.cmpi .eq arg0 c31_i32
  let v30 : BitVec 32 := Scalar.extui v29
  let c0_i32_12 : BitVec 32 := 0#32
  let v31 : BitVec 1 := Scalar.cmpi .ne v30 c0_i32_12
  v31

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S12000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S12000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S12000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x384000_S1x384000_0_0 : S2x384000.Slices ![0, 0] S1x384000
  shapeCasts_S1x384000_S384000 : S1x384000.ShapeCasts S384000
  concatenates_S384000_S12000_S396000_d0 : Shape.Concatenates [S384000, S12000] S396000 0
  slices_S2x384000_S1x384000_1_0 : S2x384000.Slices ![1, 0] S1x384000
  inb_S1000x128_S1000x128_0_0 : ∀ a, (![0, 0] : Fin 2 → Nat) a + S1000x128.size a ≤ S1000x128.size a
  h_S1000x128 : 0 < S1000x128.numel
  inb_S128x64_S128x64_0_0 : ∀ a, (![0, 0] : Fin 2 → Nat) a + S128x64.size a ≤ S128x64.size a
  h_S128x64 : 0 < S128x64.numel
  inb_S1000x64_S1000x64_0_0 : ∀ a, (![0, 0] : Fin 2 → Nat) a + S1000x64.size a ≤ S1000x64.size a
  h_S1000x64 : 0 < S1000x64.numel
  bcast_S_S396000 : S_.BroadcastsInDim S396000 (![] : Fin 0 → Fin S396000.rank)
  bcast_S_S12000 : S_.BroadcastsInDim S12000 (![] : Fin 0 → Fin S12000.rank)
  bcast_S396000_S396000x1_0 : S396000.BroadcastsInDim S396000x1 (![0] : Fin 1 → Fin S396000x1.rank)
  bcast_S396000x1_S396000x64_0_1 : S396000x1.BroadcastsInDim S396000x64 (![0, 1] : Fin 2 → Fin S396000x64.rank)
  bcast_S_S12000x64 : S_.BroadcastsInDim S12000x64 (![] : Fin 0 → Fin S12000x64.rank)
  bcast_S64_S1x64_1 : S64.BroadcastsInDim S1x64 (![1] : Fin 1 → Fin S1x64.rank)
  bcast_S1x64_S12000x64_0_1 : S1x64.BroadcastsInDim S12000x64 (![0, 1] : Fin 2 → Fin S12000x64.rank)
  shapeCasts_S1000x64_S1000x64 : S1000x64.ShapeCasts S1000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  reduces_S2000x64_S2000 : S2000x64.Reduces [1] S2000
  shapeCasts_S2000_S2000x1 : S2000.ShapeCasts S2000x1
  broadcasts_S2000x1_S2000x64 : S2000x1.Broadcasts S2000x64
  reduces_S2000x64_S64 : S2000x64.Reduces [0] S64
  shapeCasts_S64_S1x64 : S64.ShapeCasts S1x64
  reducesTo_S1x64_S_d0_1 : S1x64.ReducesTo [0, 1] S_
  h_S_ : 0 < S_.numel
  bcast_S_S384000 : S_.BroadcastsInDim S384000 (![] : Fin 0 → Fin S384000.rank)
  bcast_S384000_S384000x1_0 : S384000.BroadcastsInDim S384000x1 (![0] : Fin 1 → Fin S384000x1.rank)
  bcast_S_S1 : S_.BroadcastsInDim S1 (![] : Fin 0 → Fin S1.rank)
  slices_S384000_S383999_1 : S384000.Slices ![1] S383999
  slices_S384000_S383999_0 : S384000.Slices ![0] S383999
  concatenates_S1_S383999_S384000_d0 : Shape.Concatenates [S1, S383999] S384000 0
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S12000x64_S12000x64_0_0 : ∀ a, (![0, 0] : Fin 2 → Nat) a + S12000x64.size a ≤ S12000x64.size a
  h_S12000x64 : 0 < S12000x64.numel
  shapeCasts_S12000x64_S12000x64 : S12000x64.ShapeCasts S12000x64
  reduces_S12000x64_S12000 : S12000x64.Reduces [1] S12000
  shapeCasts_S12000_S12000x1 : S12000.ShapeCasts S12000x1
  inb_S12000x1_S12000x1_0_0 : ∀ a, (![0, 0] : Fin 2 → Nat) a + S12000x1.size a ≤ S12000x1.size a
  h_S12000x1 : 0 < S12000x1.numel
  shapeCasts_S12000x1_S12000x1 : S12000x1.ShapeCasts S12000x1
  shapeCasts_S12000x1_S1x12000x1 : S12000x1.ShapeCasts S1x12000x1
  reduces_S1x12000x1_S1 : S1x12000x1.Reduces [1, 2] S1
  shapeCasts_S1_S1x1x1 : S1.ShapeCasts S1x1x1
  inpos_S1x1x1_p0_0_0 : ∀ a, (![0, 0, 0] : Fin 3 → Nat) a < S1x1x1.size a
  concatenates_S1x1_S1x1_S1x2_d1 : Shape.Concatenates [S1x1, S1x1] S1x2 1
  slices_S1x2_S1x1_0_0 : S1x2.Slices ![0, 0] S1x1
  shapeCasts_S1x1_S_ : S1x1.ShapeCasts S_
  slices_S1x2_S1x1_0_1 : S1x2.Slices ![0, 1] S1x1
  dot_S1000x128_S128x64_S1000x64_1_0_0_1_n_n_wf : DotDims.WF S1000x128 S128x64 S1000x64 [1] [0] [0] [1] [] []
  scatter_S12000_S396000x1_S396000_n_0_0_1_wf : ScatterDims.WF S12000 S396000x1 S396000 [] [0] [0] 1
  gather_S12000_S396000x1_S396000_n_0_n_n_0_1_1_wf : GatherDims.WF S12000 S396000x1 S396000 [] [0] [] [0] [] 1 ![1]
  gather_S12000x64_S396000x1_S396000x64_1_0_n_n_0_1_164_wf : GatherDims.WF S12000x64 S396000x1 S396000x64 [1] [0] [] [0] [] 1 ![1, 64]
  scatter_S12000x64_S396000x1_S396000x64_1_0_0_1_wf : ScatterDims.WF S12000x64 S396000x1 S396000x64 [1] [0] [0] 1
  dot_S1000x64_S64x64_S1000x64_1_0_0_1_n_n_wf : DotDims.WF S1000x64 S64x64 S1000x64 [1] [0] [0] [1] [] []
  gather_S384000_S384000x1_S384000_n_0_n_n_0_1_1_wf : GatherDims.WF S384000 S384000x1 S384000 [] [0] [] [0] [] 1 ![1]
  gather_S12000x64_S384000x1_S384000x64_1_0_n_n_0_1_164_wf : GatherDims.WF S12000x64 S384000x1 S384000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S12000x128.size a
  hwx0_0 : ∀ i : grid0.Coords, EltTy.bits .f32 = 32 ∨ (Rect.block (s := S12000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x64.size a ≤ S12000x64.size a
  hwx0_2 : ∀ i : grid0.Coords, EltTy.bits .f32 = 32 ∨ (Rect.block (s := S12000x64) S1000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S12000x64.size a
  hwx1_0 : ∀ i : grid1.Coords, EltTy.bits .f32 = 32 ∨ (Rect.block (s := S12000x64) S1000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x64.size a ≤ S12000x64.size a
  hwx1_2 : ∀ i : grid1.Coords, EltTy.bits .f32 = 32 ∨ (Rect.block (s := S12000x64) S1000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S12000x64.size a
  hwx2_0 : ∀ i : grid2.Coords, EltTy.bits .f32 = 32 ∨ (Rect.block (s := S12000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S12000x64.size a
  hwx2_1 : ∀ i : grid2.Coords, EltTy.bits .f32 = 32 ∨ (Rect.block (s := S12000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S12000x64.size a ≤ S384000x64.size a
  hwx3_0 : ∀ i : grid3.Coords, EltTy.bits .f32 = 32 ∨ (Rect.block (s := S384000x64) S12000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S12000x64.size a ≤ S384000x64.size a
  hwx3_1 : ∀ i : grid3.Coords, EltTy.bits .f32 = 32 ∨ (Rect.block (s := S384000x64) S12000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S12000x1.size a ≤ S384000x1.size a
  hwx3_2 : ∀ i : grid3.Coords, EltTy.bits .f32 = 32 ∨ (Rect.block (s := S384000x1) S12000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)

variable [Facts₀]

def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def scatter_S12000_S396000x1_S396000_n_0_0_1 : ScatterDims S12000 S396000x1 S396000 where
  updateWindowDims := []
  insertedWindowDims := [0]
  scatterDimsToOperandDims := [0]
  indexVectorDim := 1
  wf := scatter_S12000_S396000x1_S396000_n_0_0_1_wf
def gather_S12000_S396000x1_S396000_n_0_n_n_0_1_1 : GatherDims S12000 S396000x1 S396000 where
  offsetDims := []
  collapsedSliceDims := [0]
  operandBatchingDims := []
  startIndicesBatchingDims := []
  startIndexMap := [0]
  indexVectorDim := 1
  sliceSizes := ![1]
  wf := gather_S12000_S396000x1_S396000_n_0_n_n_0_1_1_wf
def gather_S12000x64_S396000x1_S396000x64_1_0_n_n_0_1_164 : GatherDims S12000x64 S396000x1 S396000x64 where
  offsetDims := [1]
  collapsedSliceDims := [0]
  operandBatchingDims := []
  startIndicesBatchingDims := []
  startIndexMap := [0]
  indexVectorDim := 1
  sliceSizes := ![1, 64]
  wf := gather_S12000x64_S396000x1_S396000x64_1_0_n_n_0_1_164_wf
def scatter_S12000x64_S396000x1_S396000x64_1_0_0_1 : ScatterDims S12000x64 S396000x1 S396000x64 where
  updateWindowDims := [1]
  insertedWindowDims := [0]
  scatterDimsToOperandDims := [0]
  indexVectorDim := 1
  wf := scatter_S12000x64_S396000x1_S396000x64_1_0_0_1_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def comparator_i32_i32_d0 : BitVec 32 × BitVec 32 → BitVec 32 × BitVec 32 → BitVec 1 :=
  fun l r =>
    let v2 := IntOp.cmpi .slt l.1 r.1
    v2
def gather_S384000_S384000x1_S384000_n_0_n_n_0_1_1 : GatherDims S384000 S384000x1 S384000 where
  offsetDims := []
  collapsedSliceDims := [0]
  operandBatchingDims := []
  startIndicesBatchingDims := []
  startIndexMap := [0]
  indexVectorDim := 1
  sliceSizes := ![1]
  wf := gather_S384000_S384000x1_S384000_n_0_n_n_0_1_1_wf
def gather_S12000x64_S384000x1_S384000x64_1_0_n_n_0_1_164 : GatherDims S12000x64 S384000x1 S384000x64 where
  offsetDims := [1]
  collapsedSliceDims := [0]
  operandBatchingDims := []
  startIndicesBatchingDims := []
  startIndexMap := [0]
  indexVectorDim := 1
  sliceSizes := ![1, 64]
  wf := gather_S12000x64_S384000x1_S384000x64_1_0_n_n_0_1_164_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v81) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v82_0) S2000x64.size cc2_transform_1 reads2_1 true false 2 stage2_1 sem2_1
    hrank2 hreads2_1 hinb2_1 nbuf2_1 (Memref.isWhole_whole _) hwx2_1 hstage2_1

abbrev win2_2 : Pipeline.Window sig grid2 :=
  Pipeline.Window.ofSpec (Memref.whole main_v82_1) S1x64.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v127) S12000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v134) S12000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v120) S12000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v135) S1x2.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S12000x128 : Shape := ⟨2, ![12000, 128]⟩
abbrev S2x384000 : Shape := ⟨2, ![2, 384000]⟩
abbrev S128x64 : Shape := ⟨2, ![128, 64]⟩
abbrev S64 : Shape := ⟨1, ![64]⟩
abbrev S64x64 : Shape := ⟨2, ![64, 64]⟩
abbrev S12000 : Shape := ⟨1, ![12000]⟩
abbrev S1x384000 : Shape := ⟨2, ![1, 384000]⟩
abbrev S384000 : Shape := ⟨1, ![384000]⟩
abbrev S396000 : Shape := ⟨1, ![396000]⟩
abbrev S12000x64 : Shape := ⟨2, ![12000, 64]⟩
abbrev S_ : Shape := ⟨0, ![]⟩
abbrev S396000x1 : Shape := ⟨2, ![396000, 1]⟩
abbrev S396000x64 : Shape := ⟨2, ![396000, 64]⟩
abbrev S1x64 : Shape := ⟨2, ![1, 64]⟩
abbrev S12000x1 : Shape := ⟨2, ![12000, 1]⟩
abbrev S64x12000 : Shape := ⟨2, ![64, 12000]⟩
abbrev S12000x12000 : Shape := ⟨2, ![12000, 12000]⟩
abbrev S384000x1 : Shape := ⟨2, ![384000, 1]⟩
abbrev S384000x2 : Shape := ⟨2, ![384000, 2]⟩

abbrev nBuf : Space → Nat
  | .hbm => 162
  | .vmem => 0
  | .smem => 0
  | _ => 0

abbrev hbmTy0_0 (i : Nat) : BufTy := match i % 128 with
  | 0 => ⟨S12000x128, .f32⟩
  | 1 => ⟨S2x384000, .i32⟩
  | 2 => ⟨S128x64, .f32⟩
  | 3 => ⟨S64, .f32⟩
  | 4 => ⟨S64x64, .f32⟩
  | 5 => ⟨S64, .f32⟩
  | 6 => ⟨S12000, .i32⟩
  | 7 => ⟨S1x384000, .i32⟩
  | 8 => ⟨S384000, .i32⟩
  | 9 => ⟨S396000, .i32⟩
  | 10 => ⟨S1x384000, .i32⟩
  | 11 => ⟨S384000, .i32⟩
  | 12 => ⟨S396000, .i32⟩
  | 13 => ⟨S12000x64, .f32⟩
  | 14 => ⟨S_, .f32⟩
  | 15 => ⟨S396000, .f32⟩
  | 16 => ⟨S_, .f32⟩
  | 17 => ⟨S12000, .f32⟩
  | 18 => ⟨S396000x1, .i32⟩
  | 19 => ⟨S12000, .f32⟩
  | 20 => ⟨S12000, .f32⟩
  | 21 => ⟨S_, .i32⟩
  | 22 => ⟨S396000, .i32⟩
  | 23 => ⟨S396000, .i1⟩
  | 24 => ⟨S_, .i32⟩
  | 25 => ⟨S396000, .i32⟩
  | 26 => ⟨S396000, .i32⟩
  | 27 => ⟨S396000, .i32⟩
  | 28 => ⟨S396000x1, .i32⟩
  | 29 => ⟨S396000, .f32⟩
  | 30 => ⟨S_, .i32⟩
  | 31 => ⟨S396000, .i32⟩
  | 32 => ⟨S396000, .i1⟩
  | 33 => ⟨S_, .i32⟩
  | 34 => ⟨S396000, .i32⟩
  | 35 => ⟨S396000, .i32⟩
  | 36 => ⟨S396000, .i32⟩
  | 37 => ⟨S396000x1, .i32⟩
  | 38 => ⟨S396000, .f32⟩
  | 39 => ⟨S396000, .f32⟩
  | 40 => ⟨S_, .i32⟩
  | 41 => ⟨S396000, .i32⟩
  | 42 => ⟨S396000, .i1⟩
  | 43 => ⟨S_, .i32⟩
  | 44 => ⟨S396000, .i32⟩
  | 45 => ⟨S396000, .i32⟩
  | 46 => ⟨S396000, .i32⟩
  | 47 => ⟨S396000x1, .i32⟩
  | 48 => ⟨S396000x64, .f32⟩
  | 49 => ⟨S396000x1, .f32⟩
  | 50 => ⟨S396000x64, .f32⟩
  | 51 => ⟨S396000x64, .f32⟩
  | 52 => ⟨S_, .f32⟩
  | 53 => ⟨S12000x64, .f32⟩
  | 54 => ⟨S396000x1, .i32⟩
  | 55 => ⟨S12000x64, .f32⟩
  | 56 => ⟨S1x64, .f32⟩
  | 57 => ⟨S12000x64, .f32⟩
  | 58 => ⟨S12000x64, .f32⟩
  | 59 => ⟨S_, .f32⟩
  | 60 => ⟨S12000x64, .f32⟩
  | 61 => ⟨S12000x64, .f32⟩
  | 62 => ⟨S12000x64, .f32⟩
  | 63 => ⟨S_, .f32⟩
  | 64 => ⟨S396000, .f32⟩
  | 65 => ⟨S_, .f32⟩
  | 66 => ⟨S12000, .f32⟩
  | 67 => ⟨S396000x1, .i32⟩
  | 68 => ⟨S12000, .f32⟩
  | 69 => ⟨S12000, .f32⟩
  | 70 => ⟨S_, .i32⟩
  | 71 => ⟨S396000, .i32⟩
  | 72 => ⟨S396000, .i1⟩
  | 73 => ⟨S_, .i32⟩
  | 74 => ⟨S396000, .i32⟩
  | 75 => ⟨S396000, .i32⟩
  | 76 => ⟨S396000, .i32⟩
  | 77 => ⟨S396000x1, .i32⟩
  | 78 => ⟨S396000, .f32⟩
  | 79 => ⟨S_, .i32⟩
  | 80 => ⟨S396000, .i32⟩
  | 81 => ⟨S396000, .i1⟩
  | 82 => ⟨S_, .i32⟩
  | 83 => ⟨S396000, .i32⟩
  | 84 => ⟨S396000, .i32⟩
  | 85 => ⟨S396000, .i32⟩
  | 86 => ⟨S396000x1, .i32⟩
  | 87 => ⟨S396000, .f32⟩
  | 88 => ⟨S396000, .f32⟩
  | 89 => ⟨S_, .i32⟩
  | 90 => ⟨S396000, .i32⟩
  | 91 => ⟨S396000, .i1⟩
  | 92 => ⟨S_, .i32⟩
  | 93 => ⟨S396000, .i32⟩
  | 94 => ⟨S396000, .i32⟩
  | 95 => ⟨S396000, .i32⟩
  | 96 => ⟨S396000x1, .i32⟩
  | 97 => ⟨S396000x64, .f32⟩
  | 98 => ⟨S396000x1, .f32⟩
  | 99 => ⟨S396000x64, .f32⟩
  | 100 => ⟨S396000x64, .f32⟩
  | 101 => ⟨S_, .f32⟩
  | 102 => ⟨S12000x64, .f32⟩
  | 103 => ⟨S396000x1, .i32⟩
  | 104 => ⟨S12000x64, .f32⟩
  | 105 => ⟨S1x64, .f32⟩
  | 106 => ⟨S12000x64, .f32⟩
  | 107 => ⟨S12000x64, .f32⟩
  | 108 => ⟨S12000x64, .f32⟩
  | 109 => ⟨S_, .f32⟩
  | 110 => ⟨S12000, .f32⟩
  | 111 => ⟨S12000x1, .f32⟩
  | 112 => ⟨S12000x1, .f32⟩
  | 113 => ⟨S_, .f32⟩
  | 114 => ⟨S12000x1, .f32⟩
  | 115 => ⟨S12000x1, .f32⟩
  | 116 => ⟨S12000x64, .f32⟩
  | 117 => ⟨S12000x64, .f32⟩
  | 118 => ⟨S64x12000, .f32⟩
  | 119 => ⟨S12000x12000, .f32⟩
  | 120 => ⟨S_, .f32⟩
  | 121 => ⟨S12000x12000, .f32⟩
  | 122 => ⟨S1x384000, .i32⟩
  | 123 => ⟨S384000, .i32⟩
  | 124 => ⟨S1x384000, .i32⟩
  | 125 => ⟨S384000, .i32⟩
  | 126 => ⟨S_, .i32⟩
  | 127 => ⟨S384000, .i32⟩
  | _ => ⟨S12000x128, .f32⟩

abbrev hbmTy0_1 (i : Nat) : BufTy := match i % 128 with
  | 0 => ⟨S384000, .i1⟩
  | 1 => ⟨S_, .i32⟩
  | 2 => ⟨S384000, .i32⟩
  | 3 => ⟨S384000, .i32⟩
  | 4 => ⟨S384000, .i32⟩
  | 5 => ⟨S_, .i32⟩
  | 6 => ⟨S384000, .i32⟩
  | 7 => ⟨S384000, .i1⟩
  | 8 => ⟨S_, .i32⟩
  | 9 => ⟨S384000, .i32⟩
  | 10 => ⟨S384000, .i32⟩
  | 11 => ⟨S384000, .i32⟩
  | 12 => ⟨S384000x1, .i32⟩
  | 13 => ⟨S384000x1, .i32⟩
  | 14 => ⟨S384000x2, .i32⟩
  | 15 => ⟨S_, .f32⟩
  | 16 => ⟨S384000, .f32⟩
  | 17 => ⟨S12000x12000, .f32⟩
  | 18 => ⟨S_, .f32⟩
  | 19 => ⟨S_, .f32⟩
  | 20 => ⟨S12000x12000, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | _ => ⟨S12000x128, .f32⟩

abbrev hbmTy (i : Nat) : BufTy := match i / 128 with
  | 0 => hbmTy0_0 i
  | 1 => hbmTy0_1 i
  | _ => ⟨S12000x128, .f32⟩

abbrev bufTy : (tb : Table) → Fin (tcTables nBuf tb) → BufTy
  | .hbm, ⟨i, _⟩ => hbmTy i
  | _, _ => ⟨S12000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_call1_v0 : Ref sig .tc := ⟨.hbm, 108, rfl⟩
abbrev main_call1_cst : Ref sig .tc := ⟨.hbm, 109, rfl⟩
abbrev main_call1_v1 : Ref sig .tc := ⟨.hbm, 110, rfl⟩
abbrev main_call1_v2 : Ref sig .tc := ⟨.hbm, 111, rfl⟩
abbrev main_v82 : Ref sig .tc := ⟨.hbm, 112, rfl⟩
abbrev main_cst_16 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_17 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_18 : Ref sig .tc := ⟨.hbm, 126, rfl⟩
abbrev main_v94 : Ref sig .tc := ⟨.hbm, 127, rfl⟩
abbrev main_v95 : Ref sig .tc := ⟨.hbm, 128, rfl⟩
abbrev main_c_19 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_c_20 : Ref sig .tc := ⟨.hbm, 133, rfl⟩
abbrev main_v99 : Ref sig .tc := ⟨.hbm, 134, rfl⟩
abbrev main_v100 : Ref sig .tc := ⟨.hbm, 135, rfl⟩
abbrev main_c_21 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_22 : Ref sig .tc := ⟨.hbm, 143, rfl⟩
abbrev main_v107 : Ref sig .tc := ⟨.hbm, 144, rfl⟩
abbrev main_v108 : Ref sig .tc := ⟨.hbm, 145, rfl⟩
abbrev main_cst_23 : Ref sig .tc := ⟨.hbm, 146, rfl⟩
abbrev main_v109 : Ref sig .tc := ⟨.hbm, 147, rfl⟩
abbrev main_v110 : Ref sig .tc := ⟨.hbm, 148, rfl⟩
abbrev main_cst_24 : Ref sig .tc := ⟨.hbm, 149, rfl⟩
abbrev main_v111 : Ref sig .tc := ⟨.hbm, 150, rfl⟩
abbrev main_cst_25 : Ref sig .tc := ⟨.hbm, 151, rfl⟩
abbrev main_v112 : Ref sig .tc := ⟨.hbm, 152, rfl⟩
abbrev main_cst_26 : Ref sig .tc := ⟨.hbm, 153, rfl⟩
abbrev main_cst_27 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩

abbrev nD : Nat := 1
abbrev τ : Topo := Topo.v7x

variable {F : FTy → Type} [FloatOps F]

class Facts₀ : Prop where
  slices_S2x384000_S1x384000_0_0 : S2x384000.Slices ![0, 0] S1x384000
  shapeCasts_S1x384000_S384000 : S1x384000.ShapeCasts S384000
  concatenates_S384000_S12000_S396000_d0 : Shape.Concatenates [S384000, S12000] S396000 0
  slices_S2x384000_S1x384000_1_0 : S2x384000.Slices ![1, 0] S1x384000
  bcast_S_S396000 : S_.BroadcastsInDim S396000 (![] : Fin 0 → Fin S396000.rank)
  bcast_S_S12000 : S_.BroadcastsInDim S12000 (![] : Fin 0 → Fin S12000.rank)
  bcast_S396000_S396000x1_0 : S396000.BroadcastsInDim S396000x1 (![0] : Fin 1 → Fin S396000x1.rank)
  bcast_S396000x1_S396000x64_0_1 : S396000x1.BroadcastsInDim S396000x64 (![0, 1] : Fin 2 → Fin S396000x64.rank)
  bcast_S_S12000x64 : S_.BroadcastsInDim S12000x64 (![] : Fin 0 → Fin S12000x64.rank)
  bcast_S64_S1x64_1 : S64.BroadcastsInDim S1x64 (![1] : Fin 1 → Fin S1x64.rank)
  bcast_S1x64_S12000x64_0_1 : S1x64.BroadcastsInDim S12000x64 (![0, 1] : Fin 2 → Fin S12000x64.rank)
  reducesTo_S12000x64_S12000_d1 : S12000x64.ReducesTo [1] S12000
  h_S_ : 0 < S_.numel
  bcast_S12000_S12000x1_0 : S12000.BroadcastsInDim S12000x1 (![0] : Fin 1 → Fin S12000x1.rank)
  bcast_S_S12000x1 : S_.BroadcastsInDim S12000x1 (![] : Fin 0 → Fin S12000x1.rank)
  bcast_S12000x1_S12000x64_0_1 : S12000x1.BroadcastsInDim S12000x64 (![0, 1] : Fin 2 → Fin S12000x64.rank)
  transposes_S12000x64_S64x12000_1_0 : S12000x64.Transposes [1, 0] S64x12000
  bcast_S_S12000x12000 : S_.BroadcastsInDim S12000x12000 (![] : Fin 0 → Fin S12000x12000.rank)
  bcast_S_S384000 : S_.BroadcastsInDim S384000 (![] : Fin 0 → Fin S384000.rank)
  bcast_S384000_S384000x1_0 : S384000.BroadcastsInDim S384000x1 (![0] : Fin 1 → Fin S384000x1.rank)
  concatenates_S384000x1_S384000x1_S384000x2_d1 : Shape.Concatenates [S384000x1, S384000x1] S384000x2 1
  reducesTo_S12000x12000_S_d0_1 : S12000x12000.ReducesTo [0, 1] S_
  dot_S12000x128_S128x64_S12000x64_1_0_0_1_n_n_wf : DotDims.WF S12000x128 S128x64 S12000x64 [1] [0] [0] [1] [] []
  scatter_S12000_S396000x1_S396000_n_0_0_1_wf : ScatterDims.WF S12000 S396000x1 S396000 [] [0] [0] 1
  gather_S12000_S396000x1_S396000_n_0_n_n_0_1_1_wf : GatherDims.WF S12000 S396000x1 S396000 [] [0] [] [0] [] 1 ![1]
  gather_S12000x64_S396000x1_S396000x64_1_0_n_n_0_1_164_wf : GatherDims.WF S12000x64 S396000x1 S396000x64 [1] [0] [] [0] [] 1 ![1, 64]
  scatter_S12000x64_S396000x1_S396000x64_1_0_0_1_wf : ScatterDims.WF S12000x64 S396000x1 S396000x64 [1] [0] [0] 1
  dot_S12000x64_S64x64_S12000x64_1_0_0_1_n_n_wf : DotDims.WF S12000x64 S64x64 S12000x64 [1] [0] [0] [1] [] []
  dot_S12000x64_S64x12000_S12000x12000_1_0_0_1_n_n_wf : DotDims.WF S12000x64 S64x12000 S12000x12000 [1] [0] [0] [1] [] []
  scatter_S12000x12000_S384000x2_S384000_n_01_01_1_wf : ScatterDims.WF S12000x12000 S384000x2 S384000 [] [0, 1] [0, 1] 1

variable [Facts₀]

def dot_S12000x128_S128x64_S12000x64_1_0_0_1_n_n : DotDims S12000x128 S128x64 S12000x64 where
  lhsContracting := [1]
  rhsContracting := [0]
  lhsNonContracting := [0]
  rhsNonContracting := [1]
  lhsBatch := []
  rhsBatch := []
  wf := dot_S12000x128_S128x64_S12000x64_1_0_0_1_n_n_wf
def scatter_S12000_S396000x1_S396000_n_0_0_1 : ScatterDims S12000 S396000x1 S396000 where
  updateWindowDims := []
  insertedWindowDims := [0]
  scatterDimsToOperandDims := [0]
  indexVectorDim := 1
  wf := scatter_S12000_S396000x1_S396000_n_0_0_1_wf
def gather_S12000_S396000x1_S396000_n_0_n_n_0_1_1 : GatherDims S12000 S396000x1 S396000 where
  offsetDims := []
  collapsedSliceDims := [0]
  operandBatchingDims := []
  startIndicesBatchingDims := []
  startIndexMap := [0]
  indexVectorDim := 1
  sliceSizes := ![1]
  wf := gather_S12000_S396000x1_S396000_n_0_n_n_0_1_1_wf
def gather_S12000x64_S396000x1_S396000x64_1_0_n_n_0_1_164 : GatherDims S12000x64 S396000x1 S396000x64 where
  offsetDims := [1]
  collapsedSliceDims := [0]
  operandBatchingDims := []
  startIndicesBatchingDims := []
  startIndexMap := [0]
  indexVectorDim := 1
  sliceSizes := ![1, 64]
  wf := gather_S12000x64_S396000x1_S396000x64_1_0_n_n_0_1_164_wf
def scatter_S12000x64_S396000x1_S396000x64_1_0_0_1 : ScatterDims S12000x64 S396000x1 S396000x64 where
  updateWindowDims := [1]
  insertedWindowDims := [0]
  scatterDimsToOperandDims := [0]
  indexVectorDim := 1
  wf := scatter_S12000x64_S396000x1_S396000x64_1_0_0_1_wf
def dot_S12000x64_S64x64_S12000x64_1_0_0_1_n_n : DotDims S12000x64 S64x64 S12000x64 where
  lhsContracting := [1]
  rhsContracting := [0]
  lhsNonContracting := [0]
  rhsNonContracting := [1]
  lhsBatch := []
  rhsBatch := []
  wf := dot_S12000x64_S64x64_S12000x64_1_0_0_1_n_n_wf
def dot_S12000x64_S64x12000_S12000x12000_1_0_0_1_n_n : DotDims S12000x64 S64x12000 S12000x12000 where
  lhsContracting := [1]
  rhsContracting := [0]
  lhsNonContracting := [0]
  rhsNonContracting := [1]
  lhsBatch := []
  rhsBatch := []
  wf := dot_S12000x64_S64x12000_S12000x12000_1_0_0_1_n_n_wf
def scatter_S12000x12000_S384000x2_S384000_n_01_01_1 : ScatterDims S12000x12000 S384000x2 S384000 where
  updateWindowDims := []
  insertedWindowDims := [0, 1]
  scatterDimsToOperandDims := [0, 1]
  indexVectorDim := 1
  wf := scatter_S12000x12000_S384000x2_S384000_n_01_01_1_wf

class Facts : Prop extends Facts₀ where

variable [Facts]
-- ==== Proof.Bits.Region0.lean ====
import proofs.«408955_j56530359550020_1_alg».proof.Proof.Gen.Kernel.Launch
import proofs.«408955_j56530359550020_1_alg».proof.Proof.Gen.Kernel.Skeleton
import proofs.«408955_j56530359550020_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

/-! # Region 0: the first matrix product's pipeline, at the core's entry contents

The first kernel call multiplies a matrix of 128 columns, 1000 rows at a time over a grid of 12 points, by a
128 x 64 matrix held whole. Three windows: the left matrix's row block (fetched at every point), the
right matrix (fetched once, at the first point, and kept), the product's row block (written back at
every point). The body reads both inputs, reads the output buffer (a value it never uses) and overwrites
the whole output buffer with the product of what it read. Below: the pipeline's proof data at a parameter
`V` (the core's buffer contents when the region is entered) and the obligation of the body at every point. -/

set_option maxRecDepth 16384

noncomputable section

namespace Cert.Kernel.R0

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The pipeline's proof data -/

/-- The proof data of the pipeline on core `c`: the arrays as the region finds them; after the body at point
    `t` each input's buffer still at its block, the output's at the product of the two input blocks; the
    invariant is the scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay1 (iblk V c 0 t) (iblk V c 1 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = k0_pay1 (iblk V c 0 t) (iblk V c 1 t) := by dsimp only [dat]

/-- The invariant between points is the same at every point. -/
theorem Phi_eq (c : Dev nD) (t : Fin (cfg0.N + 1)) : (dat V c).Φ t = Pipeline.ΦA spec0 c := rfl

/-! ## The body obligation -/

/-- Each input's current staging buffer holds its block at every point, fetched there or not: an input the
    pipeline does not fetch at a point has not moved its block index since the point before, and the body
    left the block in place there. The left matrix's block is fetched at every point; the right matrix is
    fetched once and its index map is constant. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## The body's triple -/

set_option maxHeartbeats 1000000 in
/-- The kernel body on whole staging memrefs, the two inputs' at read contents `x0`, `x1` and the output's at
    anything, runs to the continuation holding the inputs' as they were and the output's at the product of
    `x0` and `x1`: two loads of whole buffers read their contents, the load of the output buffer reads a value
    nothing uses, and the one store covers the whole output buffer, so what it leaves is its payload. -/
theorem sound_kernel (c : Dev nD) (E : Set ℕ) (i : grid0.Coords)
    (arg1 : Memref sig .tc .vmem S1000x128 .f32) (harg1 : arg1.IsWhole)
    (arg2 : Memref sig .tc .vmem S128x64 .f32) (harg2 : arg2.IsWhole)
    (arg3 : Memref sig .tc .vmem S1000x64 .f32) (harg3 : arg3.IsWhole)
    (x0 : Vec F S1000x128 .f32) (x1 : Vec F S128x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have z2 : (![0, 0] : Fin 2 → Nat) = fun _ => 0 := by funext a; fin_cases a <;> rfl
  rw [View.read_writes_eq_canon _ _ _ (fun y => ⟨_, List.mem_singleton_self _, View.mem_set_unit_zero z2 inb_S1000x64_S1000x64_0_0 y⟩),
    View.canon_unit_zero z2, View.readAt_eq_ld, View.readAt_eq_ld, View.ld_unit_zero z2, View.ld_unit_zero z2]

/-! ## The body obligation, at a generic point -/

/-- What the body is called with at point `t` (the obligation's precondition, the windows one by one), -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so the body's triple applies; the invariant
    and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.R0

end
-- ==== Proof.Bits.Region1.lean ====
import proofs.«408955_j56530359550020_1_alg».proof.Proof.Gen.Kernel.Launch
import proofs.«408955_j56530359550020_1_alg».proof.Proof.Gen.Kernel.Skeleton
import proofs.«408955_j56530359550020_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

/-! # Region 1: the second matrix product's pipeline, at the core's entry contents

The second kernel call multiplies a matrix of 64 columns, 1000 rows at a time over a grid of 12 points, by a
64 x 64 matrix held whole. Three windows: the left matrix's row block (fetched at every point), the
right matrix (fetched once, at the first point, and kept), the product's row block (written back at
every point). The body reads both inputs, reads the output buffer (a value it never uses) and overwrites
the whole output buffer with the product of what it read. Below: the pipeline's proof data at a parameter
`V` (the core's buffer contents when the region is entered) and the obligation of the body at every point. -/

set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The pipeline's proof data -/

/-- The proof data of the pipeline on core `c`: the arrays as the region finds them; after the body at point
    `t` each input's buffer still at its block, the output's at the product of the two input blocks; the
    invariant is the scoped rest and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay1 (iblk V c 0 t) (iblk V c 1 t)
  Φ _ := Pipeline.ΦA spec1 c
  q _ := fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = k1_pay1 (iblk V c 0 t) (iblk V c 1 t) := by dsimp only [dat]

/-- The invariant between points is the same at every point. -/
theorem Phi_eq (c : Dev nD) (t : Fin (cfg1.N + 1)) : (dat V c).Φ t = Pipeline.ΦA spec1 c := rfl

/-! ## The body obligation -/

/-- Each input's current staging buffer holds its block at every point, fetched there or not: an input the
    pipeline does not fetch at a point has not moved its block index since the point before, and the body
    left the block in place there. The left matrix's block is fetched at every point; the right matrix is
    fetched once and its index map is constant. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## The body's triple -/

set_option maxHeartbeats 1000000 in
/-- The kernel body on whole staging memrefs, the two inputs' at read contents `x0`, `x1` and the output's at
    anything, runs to the continuation holding the inputs' as they were and the output's at the product of
    `x0` and `x1`: two loads of whole buffers read their contents, the load of the output buffer reads a value
    nothing uses, and the one store covers the whole output buffer, so what it leaves is its payload. -/
theorem sound_kernel (c : Dev nD) (E : Set ℕ) (i : grid1.Coords)
    (arg1 : Memref sig .tc .vmem S1000x64 .f32) (harg1 : arg1.IsWhole)
    (arg2 : Memref sig .tc .vmem S64x64 .f32) (harg2 : arg2.IsWhole)
    (arg3 : Memref sig .tc .vmem S1000x64 .f32) (harg3 : arg3.IsWhole)
    (x0 : Vec F S1000x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have z2 : (![0, 0] : Fin 2 → Nat) = fun _ => 0 := by funext a; fin_cases a <;> rfl
  rw [View.read_writes_eq_canon _ _ _ (fun y => ⟨_, List.mem_singleton_self _, View.mem_set_unit_zero z2 inb_S1000x64_S1000x64_0_0 y⟩),
    View.canon_unit_zero z2, View.readAt_eq_ld, View.readAt_eq_ld, View.ld_unit_zero z2, View.ld_unit_zero z2]

/-! ## The body obligation, at a generic point -/

/-- What the body is called with at point `t` (the obligation's precondition, the windows one by one), -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' memrefs hold their blocks, so the body's triple applies; the invariant
    and what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.R1

end
-- ==== Proof.Bits.Region2.lean ====
import proofs.«408955_j56530359550020_1_alg».proof.Proof.Gen.Kernel.Launch
import proofs.«408955_j56530359550020_1_alg».proof.Proof.Gen.Kernel.Skeleton
import proofs.«408955_j56530359550020_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The accumulator carried in the scratch -/

/-- What the scratch holds after the body at point `n`: the column sums of the normalised rows of the
    blocks 0 … n, accumulated from zero in the order of the points. -/
def acc (c : Dev nD) : (n : ℕ) → n < cfg2.N → Vec F S1x64 .f32
  | 0, h => k2_pay3 (iblk V c 0 ⟨0, h⟩) k2_pay1
  | n + 1, h => k2_pay3 (iblk V c 0 ⟨n + 1, h⟩) (acc c n (Nat.lt_of_succ_lt h))

/-- The region invariant before point `n`: before the first point the class's (every scoped buffer that is no
    staging buffer of this call at some contents, and the generator register); afterwards the same with this call's
    scratch at what the point before left in it, the other scoped buffers still at some contents each. -/
def PhiS (c : Dev nD) : (n : ℕ) → n ≤ cfg2.N → sProp 𝕄
  | 0, _ => Pipeline.ΦA spec2 c
  | n + 1, h => iprop(owns (c : Thread nD τ) (Memref.whole cc2_scratch0) fullShare (acc V c n h)
      ∗ Pipeline.scopedRestBut (Ix := Unit) (Name := ℕ) (U := UR sig nD τ) (Lvl := ℕ) (Val := Elt F) spec2 c [cc2_scratch0]
      ∗ ∃ r, prngReg c r)

/-! ## The pipeline's proof data -/

/-- The proof data of pipeline 2 on core `c`: the arrays as the region finds them; after the body at point `t`
    the input's buffer at its block, the normalised block in output 1's buffer, the accumulator in output 2's buffer
    (consulted at the last point only, where the body stores it); the invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => k2_pay2 (iblk V c 0 t)
    | ⟨2, _⟩ => acc V c t.val t.isLt
  Φ t := PhiS V c t.val (Nat.le_of_lt_succ t.isLt)
  q _ := fullShare
  owed _ := 0

/-- The proof data's arrays are the region-entry contents. -/
theorem A_eq (c : Dev nD) (w : Fin cfg2.W) : (dat V c).A w = V c (Pipeline.arrRef spec2 w) := by dsimp only [dat]

/-- What the body leaves, window by window. -/
theorem after_0 (c : Dev nD) (t : Fin cfg2.N) : (dat V c).after 0 t = iblk V c 0 t := by dsimp only [dat]
theorem after_1 (c : Dev nD) (t : Fin cfg2.N) : (dat V c).after 1 t = k2_pay2 (iblk V c 0 t) := by dsimp only [dat]
theorem after_2 (c : Dev nD) (t : Fin cfg2.N) : (dat V c).after 2 t = acc V c t.val t.isLt := by dsimp only [dat]

/-! ## The invariant, opened at this call's scratch -/

/-- The scoped rest of this call split at its own scratch; the other scoped buffers stay unopened. -/
theorem scopedRest_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The class's invariant with the scratch as a memref owned at some contents. -/
theorem PhiA_eq (c : Dev nD) :
    (Pipeline.ΦA spec2 c : sProp 𝕄)
      = iprop(((∃ d, owns (c : Thread nD τ) (Memref.whole cc2_scratch0) fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest_split]; simp only [owns_whole]; try rfl

/-! ## The two conditions of the body over the grid -/

/-- The condition of the body's first conditional: the point is the first. -/
abbrev cond1 (i : grid2.Coords) : Prop :=
  (Scalar.cmpi .ne (Scalar.extui (Scalar.cmpi .eq (BitVec.ofNat 32 (i 0).val) 0#32)) 0#32) = 1#1

theorem hcond1 : ∀ t : Fin cfg2.N, cond1 (grid2.coords t) ↔ t.val = 0 :=
  (by decide +kernel : ∀ t : Fin grid2.N, cond1 (grid2.coords t) ↔ t.val = 0)

/-- The condition of the body's second conditional: the point is the last. -/
abbrev cond2 (i : grid2.Coords) : Prop := k2_cond2 i = 1#1

theorem hcond2 : ∀ t : Fin cfg2.N, cond2 (grid2.coords t) ↔ t.val = 5 :=
  (by decide +kernel : ∀ t : Fin grid2.N, cond2 (grid2.coords t) ↔ t.val = 5)

/-! ## Where the windows are idle -/

theorem liveAt_0 : ∀ t : Fin cfg2.N, cfg2.idle 0 (grid2.coords t) = false := by decide +kernel
theorem liveAt_1 : ∀ t : Fin cfg2.N, cfg2.idle 1 (grid2.coords t) = false := by decide +kernel
theorem idleAt_2 : ∀ t : Fin cfg2.N, ¬cond2 (grid2.coords t) → cfg2.idle 2 (grid2.coords t) = true := by decide +kernel
theorem noFlush_2 : ∀ t : Fin cfg2.N, ¬cond2 (grid2.coords t) → (cfg2.win 2).flush t = false := by decide +kernel
theorem liveAt_2 : ∀ t : Fin cfg2.N, cond2 (grid2.coords t) → cfg2.idle 2 (grid2.coords t) = false := by decide +kernel

/-! ## The input's block in its staging buffer -/

theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## Loads and stores through a whole staging buffer -/

theorem zero2 : (![0, 0] : Fin 2 → ℕ) = fun _ => 0 := by funext a; fin_cases a <;> rfl

/-- A load through the whole-buffer rectangle reads the buffer's contents. -/
theorem readAt_whole {S : Shape} {e : EltTy} {κ : Kind} {sp : Space} (v : View sig κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- The last store through the whole-buffer rectangle leaves its payload, whatever was stored before. -/
theorem read_writes_cons_whole {S : Shape} {e : EltTy} {κ : Kind} {sp : Space} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The body's triples, by the case of its two conditionals

On whole staging memrefs: the input's at read contents `x0`, the outputs' at anything (the body loads each before
storing it and does not use the value), the scratch at anything at the first point (zeroed there) and at what the
point before left (`s`) afterwards. The body leaves the normalised block in output 1's buffer and its column sums
added to the scratch; at the last point it also copies the scratch into output 2's buffer. -/

set_option maxHeartbeats 1000000 in
/-- A point that is neither the first nor the last. -/
theorem sound_kernel_mid (c : Dev nD) (E : Set ℕ) (i : grid2.Coords) (hc1 : ¬cond1 i) (hc2 : ¬cond2 i)
    (arg1 : Memref sig .tc .vmem S2000x64 .f32) (harg1 : arg1.IsWhole) (arg2 : Memref sig .tc .vmem S2000x64 .f32) (harg2 : arg2.IsWhole)
    (arg3 : Memref sig .tc .vmem S1x64 .f32) (harg3 : arg3.IsWhole) (arg4 : Memref sig .tc .vmem S1x64 .f32) (harg4 : arg4.IsWhole)
    (x0 : Vec F S2000x64 .f32) (s : Vec F S1x64 .f32) (K : PUnit → sProp 𝕄) :
    iprop(owns (c : Thread nD τ) arg1 fullShare x0 ∗ (∃ d, owns (c : Thread nD τ) arg2 fullShare d)
        ∗ owns (c : Thread nD τ) arg4 fullShare s
        ∗ (iprop(owns (c : Thread nD τ) arg1 fullShare x0 ∗ owns (c : Thread nD τ) arg2 fullShare (k2_pay2 x0)
            ∗ owns (c : Thread nD τ) arg4 fullShare (k2_pay3 x0 s)) -∗ K ⟨⟩))
      ⊢ wp frame (wpE (defs₀ (F := F)) Variants.none c none) E (cc2__norm_kernel i arg1 harg1 arg2 harg2 arg3 harg3 arg4 harg4) K := by
  simp only [cc2__norm_kernel_eq_skeleton]; unfold cc2__norm_kernel_skel
  unfold owns
  iintro ⟨⟨%f0, %hf0, H0⟩, ⟨%d1, %f1, -, H1⟩, ⟨%f4, %hf4, H4⟩, Hk⟩
  subst hf0; subst hf4
  sl_exec (disch := first | exact hc1 | exact hc2)
  sl_step
  iapply Hk
  isplitl [H0]
  · iexists f0; isplitr; · ipureintro; rfl
    iexact H0
  isplitl [H1]
  · iexists _; isplitr
    swap; · iexact H1
    ipureintro
    exact (read_writes_cons_whole _ _ zero2 _ _ _).trans (congrArg k2_pay2 (readAt_whole _ _ zero2 _))
  iexists _; isplitr
  swap; · iexact H4
  ipureintro
  exact (read_writes_cons_whole _ _ zero2 _ _ _).trans
    (congrArg₂ k2_pay3 (readAt_whole _ _ zero2 _) (readAt_whole _ _ zero2 _))

set_option maxHeartbeats 1000000 in
/-- The first point: the scratch is zeroed before it is read. -/
theorem sound_kernel_first (c : Dev nD) (E : Set ℕ) (i : grid2.Coords) (hc1 : cond1 i) (hc2 : ¬cond2 i)
    (arg1 : Memref sig .tc .vmem S2000x64 .f32) (harg1 : arg1.IsWhole) (arg2 : Memref sig .tc .vmem S2000x64 .f32) (harg2 : arg2.IsWhole)
    (arg3 : Memref sig .tc .vmem S1x64 .f32) (harg3 : arg3.IsWhole) (arg4 : Memref sig .tc .vmem S1x64 .f32) (harg4 : arg4.IsWhole)
    (x0 : Vec F S2000x64 .f32) (K : PUnit → sProp 𝕄) :
    iprop(owns (c : Thread nD τ) arg1 fullShare x0 ∗ (∃ d, owns (c : Thread nD τ) arg2 fullShare d)
        ∗ (∃ d, owns (c : Thread nD τ) arg4 fullShare d)
        ∗ (iprop(owns (c : Thread nD τ) arg1 fullShare x0 ∗ owns (c : Thread nD τ) arg2 fullShare (k2_pay2 x0)
            ∗ owns (c : Thread nD τ) arg4 fullShare (k2_pay3 x0 k2_pay1)) -∗ K ⟨⟩))
      ⊢ wp frame (wpE (defs₀ (F := F)) Variants.none c none) E (cc2__norm_kernel i arg1 harg1 arg2 harg2 arg3 harg3 arg4 harg4) K := by
  simp only [cc2__norm_kernel_eq_skeleton]; unfold cc2__norm_kernel_skel
  unfold owns
  iintro ⟨⟨%f0, %hf0, H0⟩, ⟨%d1, %f1, -, H1⟩, ⟨%d4, %f4, -, H4⟩, Hk⟩
  subst hf0
  sl_exec (disch := first | exact hc1 | exact hc2)
  sl_step
  iapply Hk
  isplitl [H0]
  · iexists f0; isplitr; · ipureintro; rfl
    iexact H0
  isplitl [H1]
  · iexists _; isplitr
    swap; · iexact H1
    ipureintro
    exact (read_writes_cons_whole _ _ zero2 _ _ _).trans (congrArg k2_pay2 (readAt_whole _ _ zero2 _))
  iexists _; isplitr
  swap; · iexact H4
  ipureintro
  refine (read_writes_cons_whole _ _ zero2 _ _ _).trans (congrArg₂ k2_pay3 (readAt_whole _ _ zero2 _) ?_)
  sl_unfold_run_names
  exact View.readCov_cons_toLoadRect _ _ _ _

set_option maxHeartbeats 1000000 in
/-- The last point: the accumulated scratch is also stored into output 2's buffer. -/
theorem sound_kernel_last (c : Dev nD) (E : Set ℕ) (i : grid2.Coords) (hc1 : ¬cond1 i) (hc2 : cond2 i)
    (arg1 : Memref sig .tc .vmem S2000x64 .f32) (harg1 : arg1.IsWhole) (arg2 : Memref sig .tc .vmem S2000x64 .f32) (harg2 : arg2.IsWhole)
    (arg3 : Memref sig .tc .vmem S1x64 .f32) (harg3 : arg3.IsWhole) (arg4 : Memref sig .tc .vmem S1x64 .f32) (harg4 : arg4.IsWhole)
    (x0 : Vec F S2000x64 .f32) (s : Vec F S1x64 .f32) (K : PUnit → sProp 𝕄) :
    iprop(owns (c : Thread nD τ) arg1 fullShare x0 ∗ (∃ d, owns (c : Thread nD τ) arg2 fullShare d)
        ∗ (∃ d, owns (c : Thread nD τ) arg3 fullShare d) ∗ owns (c : Thread nD τ) arg4 fullShare s
        ∗ (iprop(owns (c : Thread nD τ) arg1 fullShare x0 ∗ owns (c : Thread nD τ) arg2 fullShare (k2_pay2 x0)
            ∗ owns (c : Thread nD τ) arg3 fullShare (k2_pay3 x0 s) ∗ owns (c : Thread nD τ) arg4 fullShare (k2_pay3 x0 s)) -∗ K ⟨⟩))
      ⊢ wp frame (wpE (defs₀ (F := F)) Variants.none c none) E (cc2__norm_kernel i arg1 harg1 arg2 harg2 arg3 harg3 arg4 harg4) K := by
  simp only [cc2__norm_kernel_eq_skeleton]; unfold cc2__norm_kernel_skel
  unfold owns
  iintro ⟨⟨%f0, %hf0, H0⟩, ⟨%d1, %f1, -, H1⟩, ⟨%d3, %f3, -, H3⟩, ⟨%f4, %hf4, H4⟩, Hk⟩
  subst hf0; subst hf4
  sl_exec (disch := first | exact hc1 | exact hc2)
  sl_step
  iapply Hk
  isplitl [H0]
  · iexists f0; isplitr; · ipureintro; rfl
    iexact H0
  isplitl [H1]
  · iexists _; isplitr
    swap; · iexact H1
    ipureintro
    exact (read_writes_cons_whole _ _ zero2 _ _ _).trans (congrArg k2_pay2 (readAt_whole _ _ zero2 _))
  isplitl [H3]
  · iexists _; isplitr
    swap; · iexact H3
    ipureintro
    refine (read_writes_cons_whole _ _ zero2 _ _ _).trans ?_
    sl_unfold_run_names
    exact (View.readCov_cons_toLoadRect _ _ _ _).trans
      (congrArg₂ k2_pay3 (readAt_whole _ _ zero2 _) (readAt_whole _ _ zero2 _))
  iexists _; isplitr
  swap; · iexact H4
  ipureintro
  sl_unfold_run_names
  exact (read_writes_cons_whole _ _ zero2 _ _ _).trans
    (congrArg₂ k2_pay3 (readAt_whole _ _ zero2 _) (readAt_whole _ _ zero2 _))

/-! ## The accumulator and the invariant, point by point -/

theorem acc_zero (c : Dev nD) (t : Fin cfg2.N) (hz : t.val = 0) :
    acc V c t.val t.isLt = k2_pay3 (iblk V c 0 t) k2_pay1 := by
  obtain ⟨n, hn⟩ := t
  cases n with
  | zero => rfl
  | succ n => exact absurd hz (Nat.succ_ne_zero _)

theorem acc_pos (c : Dev nD) (t : Fin cfg2.N) (hz : t.val ≠ 0) :
    acc V c t.val t.isLt = k2_pay3 (iblk V c 0 t) (acc V c (t.val - 1) (Nat.lt_of_le_of_lt (Nat.sub_le _ _) t.isLt)) := by
  obtain ⟨n, hn⟩ := t
  cases n with
  | zero => exact absurd rfl hz
  | succ n => rfl

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(owns (c : Thread nD τ) (Memref.whole cc2_scratch0) fullShare (acc V c n hn)
      ∗ Pipeline.scopedRestBut (Ix := Unit) (Name := ℕ) (U := UR sig nD τ) (Lvl := ℕ) (Val := Elt F) spec2 c [cc2_scratch0]
      ∗ ∃ r, prngReg c r) := rfl

theorem PhiS_pos (c : Dev nD) (n : ℕ) (h : n ≤ cfg2.N) (hz : n ≠ 0) :
    PhiS V c n h = iprop(owns (c : Thread nD τ) (Memref.whole cc2_scratch0) fullShare (acc V c (n - 1) (by omega))
      ∗ Pipeline.scopedRestBut (Ix := Unit) (Name := ℕ) (U := UR sig nD τ) (Lvl := ℕ) (Val := Elt F) spec2 c [cc2_scratch0]
      ∗ ∃ r, prngReg c r) := by
  cases n with
  | zero => exact absurd rfl hz
  | succ n => rfl

theorem Phi_castSucc (c : Dev nD) (t : Fin cfg2.N) :
    (dat V c).Φ t.castSucc = PhiS V c t.val (Nat.le_of_lt t.isLt) := by
  dsimp only [dat]; simp only [Fin.coe_castSucc]

/-- The input's current staging buffer holds its block at every point. -/
theorem before_0 (c : Dev nD) (t : Fin cfg2.N) (d) : (dat V c).before 0 t d = iblk V c 0 t :=
  before_0_of V (dat V c) (A_eq V c 0) (after_0 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 2000000 in
/-- The body at any point, by the case the two closed forms select: the input's memref holds its block; the invariant
    hands the body the scratch (at anything at the first point, at what the point before left afterwards) and takes it
    back at this point's accumulator; output 2's buffer is handed back as found at every point but the last, where it
    is taken at anything and left at the accumulator. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st2_0 t) fullShare ((dat V c).after 0 t) from by
    unfold Dat.leavesExact; rw [liveAt_0 t], after_0]
  rw [show (dat V c).leavesExact 1 t = owns (c : Thread nD τ) (st2_1 t) fullShare ((dat V c).after 1 t) from by
    unfold Dat.leavesExact; rw [liveAt_1 t], after_1]
  have hN : t.val < 6 := lt_of_lt_of_eq t.isLt (show cfg2.N = 6 from N_2)
  by_cases h1 : t.val = 0
  · have hc1 : cond1 (grid2.coords t) := (hcond1 t).mpr h1
    have hc2 : ¬cond2 (grid2.coords t) := fun h => by have := (hcond2 t).mp h; omega
    rw [Dat.leavesExact_idle (dat V c) 2 t (idleAt_2 t hc2) (noFlush_2 t hc2)]
    rw [Phi_castSucc V c t, PhiS_zero V c _ _ h1, PhiA_eq, acc_zero V c t h1]
    iintro ⟨⟨⟨HS, HR⟩, Hg⟩, Ho, ⟨%d0, H0⟩, ⟨%d1, H1⟩, H2⟩
    iapply (sound_kernel_first c Set.univ _ hc1 hc2 _ _ _ _ _ _ _ _ (iblk V c 0 t) _)
    isplitl [H0]; · iexact H0
    isplitl [H1]; · iexists _; iexact H1
    isplitl [HS]; · iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · have hc1 : ¬cond1 (grid2.coords t) := fun h => h1 ((hcond1 t).mp h)
    by_cases h2 : t.val = 5
    · have hc2 : cond2 (grid2.coords t) := (hcond2 t).mpr h2
      rw [show (dat V c).leavesExact 2 t = owns (c : Thread nD τ) (st2_2 t) fullShare ((dat V c).after 2 t) from by
        unfold Dat.leavesExact; rw [liveAt_2 t hc2], after_2]
      rw [Phi_castSucc V c t, PhiS_pos V c _ _ h1, acc_pos V c t h1]
      iintro ⟨⟨HS, HR, Hg⟩, Ho, ⟨%d0, H0⟩, ⟨%d1, H1⟩, ⟨%d2, H2⟩⟩
      iapply (sound_kernel_last c Set.univ _ hc1 hc2 _ _ _ _ _ _ _ _ (iblk V c 0 t) _ _)
      isplitl [H0]; · iexact H0
      isplitl [H1]; · iexists _; iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc2 : ¬cond2 (grid2.coords t) := fun h => h2 ((hcond2 t).mp h)
      rw [Dat.leavesExact_idle (dat V c) 2 t (idleAt_2 t hc2) (noFlush_2 t hc2)]
      rw [Phi_castSucc V c t, PhiS_pos V c _ _ h1, acc_pos V c t h1]
      iintro ⟨⟨HS, HR, Hg⟩, Ho, ⟨%d0, H0⟩, ⟨%d1, H1⟩, H2⟩
      iapply (sound_kernel_mid c Set.univ _ hc1 hc2 _ _ _ _ _ _ _ _ (iblk V c 0 t) _ _)
      isplitl [H0]; · iexact H0
      isplitl [H1]; · iexists _; iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2

/-! ## The interface: the invariant at the region's ends, and the obligation -/

/-- What the launch hands the region is the invariant before the first point. -/
theorem Phi_zero (c : Dev nD) : (dat V c).Φ 0 = Pipeline.ΦA spec2 c := rfl

/-- After the last point the invariant gives the class's back: the scratch's named contents are forgotten. -/
theorem Phi_last (c : Dev nD) : (dat V c).Φ (Fin.last _) ⊢ Pipeline.ΦA spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 6 := N_2; omega), PhiA_eq]
  iintro ⟨HS, HR, Hg⟩
  isplitl [HS HR]
  · isplitl [HS]; · iexists _; iexact HS
    iexact HR
  iexact Hg

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.R2

end
-- ==== Proof.Bits.Region3.lean ====
import proofs.«408955_j56530359550020_1_alg».proof.Proof.Gen.Kernel.Launch
import proofs.«408955_j56530359550020_1_alg».proof.Proof.Gen.Kernel.Skeleton
import proofs.«408955_j56530359550020_1_alg».proof.Proof.Gen.Kernel.Points
import Idealize.ShloMosaic.Lib.Pipeline.FrameBody
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.Kernel.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! # Region 3: the accumulating kernel over a grid of 32 points -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- THE ACCUMULATION: what the carried scratch holds after the body at position `n`: the point's contribution
    (computed from the three input blocks) added to what the point before left, starting from zeros. -/
def acc (c : Dev nD) : (n : ℕ) → n < cfg3.N → Vec F S1x2 .f32
  | 0, h => k3_pay2 (iblk V c 0 ⟨0, h⟩) (iblk V c 1 ⟨0, h⟩) (iblk V c 2 ⟨0, h⟩) k3_pay1
  | n + 1, h => k3_pay2 (iblk V c 0 ⟨n + 1, h⟩) (iblk V c 1 ⟨n + 1, h⟩) (iblk V c 2 ⟨n + 1, h⟩) (acc c n (Nat.lt_of_succ_lt h))

/-- The scratch operand the kernel carries between points, as a whole memref. -/
abbrev scM : Memref sig .tc .vmem S1x2 .f32 := Memref.whole cc3_scratch0

/-- The core's scoped buffers other than this region's staging buffers and its scratch, each at some contents:
    carried through every point unopened. -/
abbrev rest (c : Dev nD) : sProp 𝕄 :=
  Pipeline.scopedRestBut (Ix := Unit) (Name := ℕ) (U := UR sig nD τ) (Lvl := ℕ) (Val := Elt F) spec3 c [cc3_scratch0]

/-- The region invariant before position `n`: before the first point the class's (every scoped buffer at anything);
    afterwards the carried scratch at what the point before left, the other scoped buffers at anything, and the
    generator register at some state. -/
def PhiS (c : Dev nD) : (n : ℕ) → n ≤ cfg3.N → sProp 𝕄
  | 0, _ => Pipeline.ΦA spec3 c
  | n + 1, h => iprop(owns (c : Thread nD τ) (Memref.whole cc3_scratch0) fullShare (acc V c n h)
      ∗ Pipeline.scopedRestBut (Ix := Unit) (Name := ℕ) (U := UR sig nD τ) (Lvl := ℕ) (Val := Elt F) spec3 c [cc3_scratch0]
      ∗ ∃ r, prngReg c r)

/-- The proof data of the pipeline on core `c`. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => acc V c t.val t.isLt
  Φ t := PhiS V c t.val (Nat.le_of_lt_succ t.isLt)
  q _ := fullShare
  owed _ := 0

/-- The proof data's arrays are the region-entry contents. -/
theorem A_eq (c : Dev nD) (w : Fin cfg3.W) : (dat V c).A w = V c (Pipeline.arrRef spec3 w) := by
  dsimp only [dat]

/-- What the body leaves, window by window. -/
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = acc V c t.val t.isLt := by dsimp only [dat]

/-! ## The invariant's two forms -/

/-- The class's invariant with this region's scratch set apart as a memref owned at some contents: the scoped rest
    split at the scratch, the remainder unopened. -/
theorem PhiA_eq (c : Dev nD) :
    (Pipeline.ΦA spec3 c : sProp 𝕄)
      = iprop(((∃ d, owns (c : Thread nD τ) scM fullShare d) ∗ rest (F := F) c) ∗ (∃ r, prngReg c r)) := by
  unfold Pipeline.ΦA
  rw [Pipeline.scopedRest_split_of_list spec3 c [cc3_scratch0] (by decide) (by decide)]
  simp only [scM, owns_whole, bigSepL]
  rfl

/-! ## Whole-buffer accesses -/

/-- The offsets of every access of this kernel: zero on both axes. -/
theorem off00 : (![0, 0] : Fin 2 → ℕ) = fun _ => 0 := by
  funext a; fin_cases a <;> rfl

/-- A load through the whole-shape rectangle at zero offsets reads the view's contents. -/
theorem readAt_full {sp : Space} {S : Shape} {e : EltTy} (v : View sig .tc sp S e) {off : Fin S.rank → ℕ}
    (h : off = fun _ => 0) (inb : ∀ a, off a + S.size a ≤ S.size a) (f : v.ty.Contents (Elt F)) :
    View.readAt (Elt F) v (Rect.unit off S.size inb).toLoadRect f = View.read (Elt F) v f :=
  View.ld_unit_zero h inb (View.read (Elt F) v f)

/-- One store through it, over any earlier stores, leaves its payload whatever the buffer held. -/
theorem read_store_full {sp : Space} {S : Shape} {e : EltTy} (v : View sig .tc sp S e) {off : Fin S.rank → ℕ}
    (h : off = fun _ => 0) (inb : ∀ a, off a + S.size a ≤ S.size a) (f : v.ty.Contents (Elt F)) (w : S.Idx → Elt F e)
    (L : List (View.Piece (Elt F) S e)) :
    View.read (Elt F) v (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

/-! ## The kernel's branch conditions -/

/-- The condition of the kernel's first conditional (the point is the grid's first), from the grid coordinates. -/
abbrev cond1 (i : grid3.Coords) : Prop :=
  (Scalar.cmpi .ne (Scalar.extui (Scalar.cmpi .eq (BitVec.ofNat 32 (i 0).val) 0#32)) 0#32) = 1#1
/-- The condition of its second (the point is the grid's last). -/
abbrev cond2 (i : grid3.Coords) : Prop := k3_cond2 i = 1#1

set_option maxHeartbeats 1000000 in
/-- The kernel at a point that is neither the first nor the last, on whole staging memrefs holding the blocks `x0`, `x1`,
    `x2` and the scratch holding `a`: the inputs are left as they were and the scratch ends at the point's contribution
    added to `a`; the output's buffer is not touched (it stays with the caller). -/
theorem sound_kernel_mid (c : Dev nD) (E : Set ℕ) (i : grid3.Coords)
    (arg1 : Memref sig .tc .vmem S12000x64 .f32) (harg1 : arg1.IsWhole) (arg2 : Memref sig .tc .vmem S12000x64 .f32) (harg2 : arg2.IsWhole)
    (arg3 : Memref sig .tc .vmem S12000x1 .f32) (harg3 : arg3.IsWhole) (arg4 : Memref sig .tc .vmem S1x2 .f32) (harg4 : arg4.IsWhole)
    (hc1 : ¬cond1 i) (hc2 : ¬cond2 i)
    (x0 x1 : Vec F S12000x64 .f32) (x2 : Vec F S12000x1 .f32) (a : Vec F S1x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) scM fullShare a
        ∗ (iprop(owns (c : Thread nD τ) arg1 fullShare x0 ∗ owns (c : Thread nD τ) arg2 fullShare x1 ∗ owns (c : Thread nD τ) arg3 fullShare x2
            ∗ owns (c : Thread nD τ) scM fullShare (k3_pay2 x0 x1 x2 a)) -∗ K ⟨⟩))
      ⊢ wp frame (wpE (defs₀ (F := F)) Variants.none c none) E
          (cc3__pos_kernel i arg1 harg1 arg2 harg2 arg3 harg3 arg4 harg4 scM (Memref.isWhole_whole _)) K := by
  simp only [cc3__pos_kernel_eq_skeleton]; unfold cc3__pos_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  simp only [read_store_full (S := S1x2) _ off00, View.readCov_unit_zero (S := S1x2) _ off00, readAt_full (S := S1x2) _ off00,
    readAt_full (S := S12000x64) _ off00, readAt_full (S := S12000x1) _ off00]

set_option maxHeartbeats 1000000 in
/-- The kernel at the first point: the scratch, at any contents, is first zeroed, so it ends at the point's contribution
    added to zeros; the output's buffer is not touched. -/
theorem sound_kernel_first (c : Dev nD) (E : Set ℕ) (i : grid3.Coords)
    (arg1 : Memref sig .tc .vmem S12000x64 .f32) (harg1 : arg1.IsWhole) (arg2 : Memref sig .tc .vmem S12000x64 .f32) (harg2 : arg2.IsWhole)
    (arg3 : Memref sig .tc .vmem S12000x1 .f32) (harg3 : arg3.IsWhole) (arg4 : Memref sig .tc .vmem S1x2 .f32) (harg4 : arg4.IsWhole)
    (hc1 : cond1 i) (hc2 : ¬cond2 i)
    (x0 x1 : Vec F S12000x64 .f32) (x2 : Vec F S12000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) scM fullShare d)
        ∗ (iprop(owns (c : Thread nD τ) arg1 fullShare x0 ∗ owns (c : Thread nD τ) arg2 fullShare x1 ∗ owns (c : Thread nD τ) arg3 fullShare x2
            ∗ owns (c : Thread nD τ) scM fullShare (k3_pay2 x0 x1 x2 k3_pay1)) -∗ K ⟨⟩))
      ⊢ wp frame (wpE (defs₀ (F := F)) Variants.none c none) E
          (cc3__pos_kernel i arg1 harg1 arg2 harg2 arg3 harg3 arg4 harg4 scM (Memref.isWhole_whole _)) K := by
  simp only [cc3__pos_kernel_eq_skeleton]; unfold cc3__pos_kernel_skel
  unfold owns
  iintro ⟨⟨%f0, %hf0, H0⟩, ⟨%f1, %hf1, H1⟩, ⟨%f2, %hf2, H2⟩, ⟨%a0, %fs, -, HS⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  simp only [read_store_full (S := S1x2) _ off00, View.readCov_unit_zero (S := S1x2) _ off00, readAt_full (S := S1x2) _ off00,
    readAt_full (S := S12000x64) _ off00, readAt_full (S := S12000x1) _ off00]

set_option maxHeartbeats 1000000 in
/-- The kernel at the last point: as at a middle point, and then the scratch's final contents are copied into the
    output's buffer, which is taken at any contents. -/
theorem sound_kernel_last (c : Dev nD) (E : Set ℕ) (i : grid3.Coords)
    (arg1 : Memref sig .tc .vmem S12000x64 .f32) (harg1 : arg1.IsWhole) (arg2 : Memref sig .tc .vmem S12000x64 .f32) (harg2 : arg2.IsWhole)
    (arg3 : Memref sig .tc .vmem S12000x1 .f32) (harg3 : arg3.IsWhole) (arg4 : Memref sig .tc .vmem S1x2 .f32) (harg4 : arg4.IsWhole)
    (hc1 : ¬cond1 i) (hc2 : cond2 i)
    (x0 x1 : Vec F S12000x64 .f32) (x2 : Vec F S12000x1 .f32) (a : Vec F S1x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) scM fullShare a ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) scM fullShare (k3_pay2 x0 x1 x2 a) ∗ owns (c : Thread nD τ) arg4 fullShare (k3_pay2 x0 x1 x2 a)) -∗ K ⟨⟩))
      ⊢ wp frame (wpE (defs₀ (F := F)) Variants.none c none) E
          (cc3__pos_kernel i arg1 harg1 arg2 harg2 arg3 harg3 arg4 harg4 scM (Memref.isWhole_whole _)) K := by
  simp only [cc3__pos_kernel_eq_skeleton]; unfold cc3__pos_kernel_skel
  unfold owns
  iintro ⟨⟨%f0, %hf0, H0⟩, ⟨%f1, %hf1, H1⟩, ⟨%f2, %hf2, H2⟩, ⟨%fs, %hfs, HS⟩, ⟨%d4, %f4, -, H4⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS]
  · iexists _; isplitr
    swap; · iexact HS
    ipureintro
    sl_unfold_run_names
    simp only [read_store_full (S := S1x2) _ off00, View.readCov_unit_zero (S := S1x2) _ off00, readAt_full (S := S1x2) _ off00,
    readAt_full (S := S12000x64) _ off00, readAt_full (S := S12000x1) _ off00]
  iexists _; isplitr
  swap; · iexact H4
  ipureintro
  sl_unfold_run_names
  simp only [read_store_full (S := S1x2) _ off00, View.readCov_unit_zero (S := S1x2) _ off00, readAt_full (S := S1x2) _ off00,
    readAt_full (S := S12000x64) _ off00, readAt_full (S := S12000x1) _ off00]

/-! ## The conditions in closed form, and where the output window is idle -/

/-- The first conditional holds at the grid's first point only — decided over the grid. -/
theorem hcond1 : ∀ t : Fin cfg3.N, cond1 (grid3.coords t) ↔ t.val = 0 :=
  (by decide +kernel : ∀ t : Fin grid3.N, cond1 (grid3.coords t) ↔ t.val = 0)
/-- The second holds at its last point only. -/
theorem hcond2 : ∀ t : Fin cfg3.N, cond2 (grid3.coords t) ↔ t.val = 31 :=
  (by decide +kernel : ∀ t : Fin grid3.N, cond2 (grid3.coords t) ↔ t.val = 31)

/-- The input windows are never idle. -/
theorem liveAt_0 : ∀ t : Fin cfg3.N, cfg3.idle 0 (grid3.coords t) = false := fun _ => rfl
theorem liveAt_1 : ∀ t : Fin cfg3.N, cfg3.idle 1 (grid3.coords t) = false := fun _ => rfl
theorem liveAt_2 : ∀ t : Fin cfg3.N, cfg3.idle 2 (grid3.coords t) = false := fun _ => rfl
/-- Away from the last point the output window is idle (nothing is stored into it) and is not written back. -/
theorem idleAt_3 : ∀ t : Fin cfg3.N, ¬cond2 (grid3.coords t) → cfg3.idle 3 (grid3.coords t) = true := by decide +kernel
theorem noFlush_3 : ∀ t : Fin cfg3.N, ¬cond2 (grid3.coords t) → (cfg3.win 3).flush t = false := by decide +kernel
/-- At the last point it is live. -/
theorem liveAt_3 : ∀ t : Fin cfg3.N, cond2 (grid3.coords t) → cfg3.idle 3 (grid3.coords t) = false := by decide +kernel

/-! ## The staging memrefs at a point -/

abbrev ms_0 (t : Fin cfg3.N) : Memref sig .tc .vmem S12000x64 .f32 := win3_0.stage (cfg3.slots t 0)
abbrev hs_0 (t : Fin cfg3.N) : (ms_0 t).IsWhole := hstage3_0 ((cfg3.slots t 0).cast nbuf3_0)
abbrev ms_1 (t : Fin cfg3.N) : Memref sig .tc .vmem S12000x64 .f32 := win3_1.stage (cfg3.slots t 1)
abbrev hs_1 (t : Fin cfg3.N) : (ms_1 t).IsWhole := hstage3_1 ((cfg3.slots t 1).cast nbuf3_1)
abbrev ms_2 (t : Fin cfg3.N) : Memref sig .tc .vmem S12000x1 .f32 := win3_2.stage (cfg3.slots t 2)
abbrev hs_2 (t : Fin cfg3.N) : (ms_2 t).IsWhole := hstage3_2 ((cfg3.slots t 2).cast nbuf3_2)
abbrev ms_3 (t : Fin cfg3.N) : Memref sig .tc .vmem S1x2 .f32 := win3_3.stage (cfg3.slots t 3)
abbrev hs_3 (t : Fin cfg3.N) : (ms_3 t).IsWhole := hstage3_3 ((cfg3.slots t 3).cast nbuf3_3)

/-! ## What the input windows hold when the body is called -/

/-- An input window's current staging buffer holds its block at every point (the window is uncut, never idle, and the
    body leaves the block in place). -/
theorem before_0 (c : Dev nD) (t : Fin cfg3.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-! ## The accumulation and the invariant, point by point -/

/-- The accumulation at the first point: the point's contribution over zeros. -/
theorem acc_first (c : Dev nD) (t : Fin cfg3.N) (h0 : t.val = 0) :
    acc V c t.val t.isLt = k3_pay2 (iblk V c 0 t) (iblk V c 1 t) (iblk V c 2 t) k3_pay1 := by
  obtain ⟨n, hn⟩ := t
  cases n with
  | zero => rfl
  | succ n => exact absurd h0 (Nat.succ_ne_zero n)

/-- At a later point: the point's contribution over what the point before left. -/
theorem acc_later (c : Dev nD) (t : Fin cfg3.N) (h0 : t.val ≠ 0) :
    acc V c t.val t.isLt = k3_pay2 (iblk V c 0 t) (iblk V c 1 t) (iblk V c 2 t)
      (acc V c (t.val - 1) (Nat.lt_of_le_of_lt (Nat.sub_le _ _) t.isLt)) := by
  obtain ⟨n, hn⟩ := t
  cases n with
  | zero => exact absurd rfl h0
  | succ n => rfl

/-- Before the first point the invariant is the class's. -/
theorem PhiS_zero (c : Dev nD) (n : ℕ) (h : n ≤ cfg3.N) (hz : n = 0) : PhiS V c n h = Pipeline.ΦA spec3 c := by
  subst hz; rfl

/-- After point `n` (before point `n + 1`): the carried scratch at that point's contents. -/
theorem PhiS_succ (c : Dev nD) (n : ℕ) (hn : n < cfg3.N) :
    PhiS V c (n + 1) hn = iprop(owns (c : Thread nD τ) scM fullShare (acc V c n hn) ∗ rest (F := F) c ∗ ∃ r, prngReg c r) := rfl

/-- Before a point that is not the first: the carried scratch at what the point before left. -/
theorem PhiS_pos (c : Dev nD) (n : ℕ) (h : n ≤ cfg3.N) (hz : n ≠ 0) :
    PhiS V c n h = iprop(owns (c : Thread nD τ) scM fullShare (acc V c (n - 1) (by omega)) ∗ rest (F := F) c ∗ ∃ r, prngReg c r) := by
  cases n with
  | zero => exact absurd rfl hz
  | succ n => rfl

/-- The invariant at a point's start, restated at the point's position. -/
theorem Phi_castSucc (c : Dev nD) (t : Fin cfg3.N) :
    (dat V c).Φ t.castSucc = PhiS V c t.val (Nat.le_of_lt t.isLt) := by
  dsimp only [dat]; simp only [Fin.coe_castSucc]

/-! ## The body obligation, at a generic point -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg3.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 2000000 in
/-- The body at any point, by cases on the point (first, last, between — the conditions' closed forms say which): the
    inputs' memrefs hold their blocks; the invariant hands the body the carried scratch at what the point before left
    (at anything at the first point) and takes it back at this point's contents, the other scoped buffers and the
    generator register passing through untouched; the output's buffer is handed back as found except at the last
    point, where it receives the accumulated total; the core owes nothing throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  have hN : t.val < 32 := lt_of_lt_of_eq t.isLt (show cfg3.N = 32 from N_3)
  by_cases h0 : t.val = 0
  · have hc1 : cond1 (grid3.coords t) := (hcond1 t).mpr h0
    have hc2 : ¬cond2 (grid3.coords t) := fun h => by have := (hcond2 t).mp h; omega
    rw [Dat.leavesExact_idle (dat V c) 3 t (idleAt_3 t hc2) (noFlush_3 t hc2)]
    rw [acc_first V c t h0, Phi_castSucc, PhiS_zero V c _ _ h0, PhiA_eq]
    iintro ⟨⟨⟨HS, HR⟩, Hg⟩, Ho, ⟨%d0, H0⟩, ⟨%d1, H1⟩, ⟨%d2, H2⟩, H3⟩
    iapply (sound_kernel_first c Set.univ (grid3.coords t) _ _ _ _ _ _ _ _ hc1 hc2 (iblk V c 0 t) (iblk V c 1 t) (iblk V c 2 t) _)
    isplitl [H0]; · iexact H0
    isplitl [H1]; · iexact H1
    isplitl [H2]; · iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3
  · have hc1 : ¬cond1 (grid3.coords t) := fun h => h0 ((hcond1 t).mp h)
    rw [acc_later V c t h0, Phi_castSucc, PhiS_pos V c _ _ h0]
    by_cases h31 : t.val = 31
    · have hc2 : cond2 (grid3.coords t) := (hcond2 t).mpr h31
      rw [show (dat V c).leavesExact 3 t = owns (c : Thread nD τ) (ms_3 t) fullShare ((dat V c).after 3 t) from by
        unfold Dat.leavesExact; rw [liveAt_3 t hc2], after_3, acc_later V c t h0]
      iintro ⟨⟨HS, HR, Hg⟩, Ho, ⟨%d0, H0⟩, ⟨%d1, H1⟩, ⟨%d2, H2⟩, ⟨%d3, H3⟩⟩
      iapply (sound_kernel_last c Set.univ (grid3.coords t) _ _ _ _ _ _ _ _ hc1 hc2 (iblk V c 0 t) (iblk V c 1 t) (iblk V c 2 t) _ _)
      isplitl [H0]; · iexact H0
      isplitl [H1]; · iexact H1
      isplitl [H2]; · iexact H2
      isplitl [HS]; · iexact HS
      isplitl [H3]; · iexists _; iexact H3
      iintro ⟨H0, H1, H2, HS, H3⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · have hc2 : ¬cond2 (grid3.coords t) := fun h => h31 ((hcond2 t).mp h)
      rw [Dat.leavesExact_idle (dat V c) 3 t (idleAt_3 t hc2) (noFlush_3 t hc2)]
      iintro ⟨⟨HS, HR, Hg⟩, Ho, ⟨%d0, H0⟩, ⟨%d1, H1⟩, ⟨%d2, H2⟩, H3⟩
      iapply (sound_kernel_mid c Set.univ (grid3.coords t) _ _ _ _ _ _ _ _ hc1 hc2 (iblk V c 0 t) (iblk V c 1 t) (iblk V c 2 t) _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3

/-! ## The interface -/

/-- The invariant before the first point is the class's. -/
theorem Phi_zero (c : Dev nD) : (dat V c).Φ 0 = Pipeline.ΦA spec3 c := rfl

/-- After the last point the invariant gives the class's back: the carried scratch's named contents are forgotten. -/
theorem Phi_last (c : Dev nD) : (dat V c).Φ (Fin.last _) ⊢ Pipeline.ΦA spec3 c := by
  rw [show (dat V c).Φ (Fin.last _) = PhiS V c (Fin.last cfg3.N).val (Nat.le_of_lt_succ (Fin.last cfg3.N).isLt) from rfl,
    PhiS_pos V c _ _ (by rw [Fin.val_last]; have : cfg3.N = 32 := N_3; omega), PhiA_eq]
  iintro ⟨HS, HR, Hg⟩
  isplitl [HS HR]
  · isplitl [HS]
    · iexists _; iexact HS
    iexact HR
  iexact Hg

/-- The library's body obligation, at every point. -/
theorem body_obligation (c : Dev nD) : BodyObligation (dat (F := F) V c) (defs₀ (F := F)) Variants.none () Set.univ := fun t => by
  rw [bigSep_W3, bigSep_W3]
  exact sound_body V c t

end Cert.Kernel.R3

end
-- ==== Proof.Bits.Segs.lean ====
/- The kernel program's run as @main's items in order: host stretches and the four pipelined regions.
   Between two items every unscoped buffer of a core is held at named contents: the launch memory, then
   each host stretch's operations applied, then, after a region, its output arrays at what the pipeline's
   write-backs leave (the proof data's arrays after the last grid point) and every other buffer as it was.
   Each region is entered with its arrays split out of those buffers and left with them put back; the
   generator register and the core's (empty) debts ride along. -/
import proofs.«408955_j56530359550020_1_alg».proof.Proof.Gen.Kernel.Regions
import proofs.«408955_j56530359550020_1_alg».proof.Proof.Bits.Region0
import proofs.«408955_j56530359550020_1_alg».proof.Proof.Bits.Region1
import proofs.«408955_j56530359550020_1_alg».proof.Proof.Bits.Region2
import proofs.«408955_j56530359550020_1_alg».proof.Proof.Bits.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Segs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What the regions leave, region by region -/

/-- Region 0's output array (the first matrix product) after its last grid point, entered from the
    contents after the first host stretch. -/
def o2 (c : Dev nD) : Buf (Elt F) ((c : Thread nD τ).loc main_v7) :=
  (R0.dat (fun c b => V1 m c b) c).arrAt 2 cfg0.N

/-- The regions' outputs known so far: region 0's. -/
def outsA : Outs (F := F) := fun n r c =>
  if h : n = 2 ∧ r = main_v7 then h.2 ▸ o2 m c else V0 m c r

theorem outsA_2 (c : Dev nD) : outsA m 2 main_v7 c = o2 m c := by
  unfold outsA; rw [dif_pos ⟨rfl, rfl⟩]

/-- Region 1's output array (the second matrix product). -/
def o5 (c : Dev nD) : Buf (Elt F) ((c : Thread nD τ).loc main_v45) :=
  (R1.dat (fun c b => V4 m (outsA m) c b) c).arrAt 2 cfg1.N

def outsB : Outs (F := F) := fun n r c =>
  if h : n = 5 ∧ r = main_v45 then h.2 ▸ o5 m c else outsA m n r c

theorem outsB_2 (c : Dev nD) : outsB m 2 main_v7 c = o2 m c := by
  unfold outsB; rw [dif_neg (by decide)]; exact outsA_2 m c
theorem outsB_5 (c : Dev nD) : outsB m 5 main_v45 c = o5 m c := by
  unfold outsB; rw [dif_pos ⟨rfl, rfl⟩]

/-- Region 2's two output arrays: the normalised rows and their column sums. -/
def o7a (c : Dev nD) : Buf (Elt F) ((c : Thread nD τ).loc main_v82_0) :=
  (R2.dat (fun c b => V6 m (outsB m) c b) c).arrAt 1 cfg2.N
def o7b (c : Dev nD) : Buf (Elt F) ((c : Thread nD τ).loc main_v82_1) :=
  (R2.dat (fun c b => V6 m (outsB m) c b) c).arrAt 2 cfg2.N

def outsC : Outs (F := F) := fun n r c =>
  if h : n = 7 ∧ r = main_v82_0 then h.2 ▸ o7a m c
  else if h : n = 7 ∧ r = main_v82_1 then h.2 ▸ o7b m c else outsB m n r c

theorem outsC_2 (c : Dev nD) : outsC m 2 main_v7 c = o2 m c := by
  unfold outsC; rw [dif_neg (by decide), dif_neg (by decide)]; exact outsB_2 m c
theorem outsC_5 (c : Dev nD) : outsC m 5 main_v45 c = o5 m c := by
  unfold outsC; rw [dif_neg (by decide), dif_neg (by decide)]; exact outsB_5 m c
theorem outsC_7a (c : Dev nD) : outsC m 7 main_v82_0 c = o7a m c := by
  unfold outsC; rw [dif_pos ⟨rfl, rfl⟩]
theorem outsC_7b (c : Dev nD) : outsC m 7 main_v82_1 c = o7b m c := by
  unfold outsC; rw [dif_neg (by decide), dif_pos ⟨rfl, rfl⟩]

/-- Region 3's output array: the two accumulated sums. -/
def o11 (c : Dev nD) : Buf (Elt F) ((c : Thread nD τ).loc main_v135) :=
  (R3.dat (fun c b => V10 m (outsC m) c b) c).arrAt 3 cfg3.N

/-- What all four regions leave. -/
def outs : Outs (F := F) := fun n r c =>
  if h : n = 11 ∧ r = main_v135 then h.2 ▸ o11 m c else outsC m n r c

theorem outs_2 (c : Dev nD) : outs m 2 main_v7 c = o2 m c := by
  unfold outs; rw [dif_neg (by decide)]; exact outsC_2 m c
theorem outs_5 (c : Dev nD) : outs m 5 main_v45 c = o5 m c := by
  unfold outs; rw [dif_neg (by decide)]; exact outsC_5 m c
theorem outs_7a (c : Dev nD) : outs m 7 main_v82_0 c = o7a m c := by
  unfold outs; rw [dif_neg (by decide)]; exact outsC_7a m c
theorem outs_7b (c : Dev nD) : outs m 7 main_v82_1 c = o7b m c := by
  unfold outs; rw [dif_neg (by decide)]; exact outsC_7b m c
theorem outs_11 (c : Dev nD) : outs m 11 main_v135 c = o11 m c := by
  unfold outs; rw [dif_pos ⟨rfl, rfl⟩]

/-! ## The contents between items depend on the regions' outputs only where they are read -/

theorem V4_congr (o o' : Outs (F := F)) (c : Dev nD) (h2 : o 2 main_v7 c = o' 2 main_v7 c) : V4 m o c = V4 m o' c := by
  show StableHlo.after hostOps1_1 (StableHlo.after hostOps1 (Function.update (V1 m c) main_v7 (o 2 main_v7 c))) = StableHlo.after hostOps1_1 (StableHlo.after hostOps1 (Function.update (V1 m c) main_v7 (o' 2 main_v7 c)))
  rw [h2]
theorem V6_congr (o o' : Outs (F := F)) (c : Dev nD) (h2 : o 2 main_v7 c = o' 2 main_v7 c) (h5 : o 5 main_v45 c = o' 5 main_v45 c) :
    V6 m o c = V6 m o' c := by
  show StableHlo.after hostOps2 (Function.update (V4 m o c) main_v45 (o 5 main_v45 c)) = StableHlo.after hostOps2 (Function.update (V4 m o' c) main_v45 (o' 5 main_v45 c))
  rw [V4_congr m o o' c h2, h5]
theorem V10_congr (o o' : Outs (F := F)) (c : Dev nD) (h2 : o 2 main_v7 c = o' 2 main_v7 c) (h5 : o 5 main_v45 c = o' 5 main_v45 c)
    (h7a : o 7 main_v82_0 c = o' 7 main_v82_0 c) (h7b : o 7 main_v82_1 c = o' 7 main_v82_1 c) : V10 m o c = V10 m o' c := by
  show StableHlo.after hostOps3_2 (StableHlo.after hostOps3_1 (StableHlo.after hostOps3 (Function.update (Function.update (V6 m o c) main_v82_0 (o 7 main_v82_0 c)) main_v82_1 (o 7 main_v82_1 c))))
    = StableHlo.after hostOps3_2 (StableHlo.after hostOps3_1 (StableHlo.after hostOps3 (Function.update (Function.update (V6 m o' c) main_v82_0 (o' 7 main_v82_0 c)) main_v82_1 (o' 7 main_v82_1 c))))
  rw [V6_congr m o o' c h2 h5, h7a, h7b]

theorem V4_outs (c : Dev nD) : V4 m (outs m) c = V4 m (outsA m) c :=
  V4_congr m _ _ c ((outs_2 m c).trans (outsA_2 m c).symm)
theorem V6_outs (c : Dev nD) : V6 m (outs m) c = V6 m (outsB m) c :=
  V6_congr m _ _ c ((outs_2 m c).trans (outsB_2 m c).symm) ((outs_5 m c).trans (outsB_5 m c).symm)
theorem V10_outs (c : Dev nD) : V10 m (outs m) c = V10 m (outsC m) c :=
  V10_congr m _ _ c ((outs_2 m c).trans (outsC_2 m c).symm) ((outs_5 m c).trans (outsC_5 m c).symm)
    ((outs_7a m c).trans (outsC_7a m c).symm) ((outs_7b m c).trans (outsC_7b m c).symm)

/-! ## The proof data family and what rides beside the buffers -/

/-- No pipeline has a prefetched table. -/
abbrev adm : (p : Fin 4) → (pcfgs (F := F) p).Adm := fun p => (cfgs p).toPCfg_adm

/-- Every pipeline's proof data, each at its region's entry contents. -/
def pdats : (p : Fin 4) → (c : Dev nD) → Dat τ (Elt F) Unit ℕ (UR sig nD τ) ℕ (cfgs p) c
  | ⟨0, _⟩ => fun c => R0.dat (fun c b => V1 m c b) c
  | ⟨1, _⟩ => fun c => R1.dat (fun c b => V4 m (outsA m) c b) c
  | ⟨2, _⟩ => fun c => R2.dat (fun c b => V6 m (outsB m) c b) c
  | ⟨3, _⟩ => fun c => R3.dat (fun c b => V10 m (outsC m) c b) c

abbrev 𝒱₀ : Variants := Variants.none
abbrev L : GSem nD τ sig → Finset Unit := fun _ => ∅
abbrev lv : GSem nD τ sig → Unit → ℕ := fun _ _ => 0

/-- Beside the buffers through every item: the generator register at some state and the core owing nothing. -/
abbrev R (c : Dev nD) : sProp 𝕄 := iprop((∃ r, prngReg c r) ∗ ∃ W, owes (c : Thread nD τ) (0 : CellTallies nD τ sig Unit) W)

/-! ## Region 0 -/

theorem hA0 (c : Dev nD) (w : Fin cfg0.W) : (pdats m 0 c).A w = V1 m c (Pipeline.arrRef spec0 w) :=
  R0.A_eq (fun c b => V1 m c b) c w

theorem hF0 (c : Dev nD) (w : Fin cfg0.W) : (pdats m 0 c).arrAt w cfg0.N = V2 m (outs m) c (Pipeline.arrRef spec0 w) := by
  match w with
  | ⟨0, _⟩ =>
    exact ((pdats m 0 c).arrAt_in 0 rfl cfg0.N).trans ((R0.A_eq (fun c b => V1 m c b) c 0).trans (V2_of m (outs m) c main_arg0 (by decide)).symm)
  | ⟨1, _⟩ =>
    exact ((pdats m 0 c).arrAt_in 1 rfl cfg0.N).trans ((R0.A_eq (fun c b => V1 m c b) c 1).trans (V2_of m (outs m) c main_arg2 (by decide)).symm)
  | ⟨2, _⟩ =>
    show o2 m c = Function.update (V1 m c) main_v7 (outs m 2 main_v7 c) main_v7
    rw [Function.update_self, outs_2]

theorem hrest0 (c : Dev nD) : ∀ b : Ref sig .tc, b ∉ Finset.univ.image (Pipeline.arrRef spec0) → V2 m (outs m) c b = V1 m c b := by
  intro b hb
  refine V2_of m (outs m) c b ?_
  intro h
  rw [List.mem_singleton] at h
  exact hb (Finset.mem_image.mpr ⟨2, Finset.mem_univ _, h.symm⟩)

/-! ## Region 1 -/

theorem hA1 (c : Dev nD) (w : Fin cfg1.W) : (pdats m 1 c).A w = V4 m (outs m) c (Pipeline.arrRef spec1 w) :=
  (R1.A_eq (fun c b => V4 m (outsA m) c b) c w).trans (by rw [V4_outs])

theorem hF1 (c : Dev nD) (w : Fin cfg1.W) : (pdats m 1 c).arrAt w cfg1.N = V5 m (outs m) c (Pipeline.arrRef spec1 w) := by
  match w with
  | ⟨0, _⟩ =>
    exact ((pdats m 1 c).arrAt_in 0 rfl cfg1.N).trans ((hA1 m c 0).trans (V5_of m (outs m) c main_v44 (by decide)).symm)
  | ⟨1, _⟩ =>
    exact ((pdats m 1 c).arrAt_in 1 rfl cfg1.N).trans ((hA1 m c 1).trans (V5_of m (outs m) c main_arg4 (by decide)).symm)
  | ⟨2, _⟩ =>
    show o5 m c = Function.update (V4 m (outs m) c) main_v45 (outs m 5 main_v45 c) main_v45
    rw [Function.update_self, outs_5]

theorem hrest1 (c : Dev nD) : ∀ b : Ref sig .tc, b ∉ Finset.univ.image (Pipeline.arrRef spec1) → V5 m (outs m) c b = V4 m (outs m) c b := by
  intro b hb
  refine V5_of m (outs m) c b ?_
  intro h
  rw [List.mem_singleton] at h
  exact hb (Finset.mem_image.mpr ⟨2, Finset.mem_univ _, h.symm⟩)

/-! ## Region 2 -/

theorem hA2 (c : Dev nD) (w : Fin cfg2.W) : (pdats m 2 c).A w = V6 m (outs m) c (Pipeline.arrRef spec2 w) :=
  (R2.A_eq (fun c b => V6 m (outsB m) c b) c w).trans (by rw [V6_outs])

theorem hF2 (c : Dev nD) (w : Fin cfg2.W) : (pdats m 2 c).arrAt w cfg2.N = V7 m (outs m) c (Pipeline.arrRef spec2 w) := by
  match w with
  | ⟨0, _⟩ =>
    exact ((pdats m 2 c).arrAt_in 0 rfl cfg2.N).trans ((hA2 m c 0).trans (V7_of m (outs m) c main_v81 (by decide)).symm)
  | ⟨1, _⟩ =>
    show o7a m c = Function.update (Function.update (V6 m (outs m) c) main_v82_0 (outs m 7 main_v82_0 c)) main_v82_1 (outs m 7 main_v82_1 c) main_v82_0
    rw [Function.update_of_ne (by decide), Function.update_self, outs_7a]
  | ⟨2, _⟩ =>
    show o7b m c = Function.update (Function.update (V6 m (outs m) c) main_v82_0 (outs m 7 main_v82_0 c)) main_v82_1 (outs m 7 main_v82_1 c) main_v82_1
    rw [Function.update_self, outs_7b]

theorem hrest2 (c : Dev nD) : ∀ b : Ref sig .tc, b ∉ Finset.univ.image (Pipeline.arrRef spec2) → V7 m (outs m) c b = V6 m (outs m) c b := by
  intro b hb
  refine V7_of m (outs m) c b ?_
  intro h
  rw [List.mem_cons, List.mem_singleton] at h
  rcases h with h | h
  · exact hb (Finset.mem_image.mpr ⟨1, Finset.mem_univ _, h.symm⟩)
  · exact hb (Finset.mem_image.mpr ⟨2, Finset.mem_univ _, h.symm⟩)

/-! ## Region 3 -/

theorem hA3 (c : Dev nD) (w : Fin cfg3.W) : (pdats m 3 c).A w = V10 m (outs m) c (Pipeline.arrRef spec3 w) :=
  (R3.A_eq (fun c b => V10 m (outsC m) c b) c w).trans (by rw [V10_outs])

theorem hF3 (c : Dev nD) (w : Fin cfg3.W) : (pdats m 3 c).arrAt w cfg3.N = V11 m (outs m) c (Pipeline.arrRef spec3 w) := by
  match w with
  | ⟨0, _⟩ =>
    exact ((pdats m 3 c).arrAt_in 0 rfl cfg3.N).trans ((hA3 m c 0).trans (V11_of m (outs m) c main_v127 (by decide)).symm)
  | ⟨1, _⟩ =>
    exact ((pdats m 3 c).arrAt_in 1 rfl cfg3.N).trans ((hA3 m c 1).trans (V11_of m (outs m) c main_v134 (by decide)).symm)
  | ⟨2, _⟩ =>
    exact ((pdats m 3 c).arrAt_in 2 rfl cfg3.N).trans ((hA3 m c 2).trans (V11_of m (outs m) c main_v120 (by decide)).symm)
  | ⟨3, _⟩ =>
    show o11 m c = Function.update (V10 m (outs m) c) main_v135 (outs m 11 main_v135 c) main_v135
    rw [Function.update_self, outs_11]

theorem hrest3 (c : Dev nD) : ∀ b : Ref sig .tc, b ∉ Finset.univ.image (Pipeline.arrRef spec3) → V11 m (outs m) c b = V10 m (outs m) c b := by
  intro b hb
  refine V11_of m (outs m) c b ?_
  intro h
  rw [List.mem_singleton] at h
  exact hb (Finset.mem_image.mpr ⟨3, Finset.mem_univ _, h.symm⟩)

/-! ## Each region's entry and exit contents, and its invariant at the two ends, under one set of names -/

abbrev ent0 (c : Dev nD) : Valuation τ sig (Elt F) := V1 m c
abbrev ex0 (c : Dev nD) : Valuation τ sig (Elt F) := V2 m (outs m) c
abbrev datV0 : (c : Dev nD) → (b : Ref sig .tc) → Buf (Elt F) ((c : Thread nD τ).loc b) := fun c b => V1 m c b
theorem phi0_0 (c : Dev nD) : (pdats m 0 c).Φ 0 = Pipeline.ΦA spec0 c := rfl
theorem phiL_0 (c : Dev nD) : (pdats m 0 c).Φ (Fin.last _) ⊢ Pipeline.ΦA spec0 c := .rfl

abbrev ent1 (c : Dev nD) : Valuation τ sig (Elt F) := V4 m (outs m) c
abbrev ex1 (c : Dev nD) : Valuation τ sig (Elt F) := V5 m (outs m) c
abbrev datV1 : (c : Dev nD) → (b : Ref sig .tc) → Buf (Elt F) ((c : Thread nD τ).loc b) := fun c b => V4 m (outsA m) c b
theorem phi0_1 (c : Dev nD) : (pdats m 1 c).Φ 0 = Pipeline.ΦA spec1 c := rfl
theorem phiL_1 (c : Dev nD) : (pdats m 1 c).Φ (Fin.last _) ⊢ Pipeline.ΦA spec1 c := .rfl

abbrev ent2 (c : Dev nD) : Valuation τ sig (Elt F) := V6 m (outs m) c
abbrev ex2 (c : Dev nD) : Valuation τ sig (Elt F) := V7 m (outs m) c
abbrev datV2 : (c : Dev nD) → (b : Ref sig .tc) → Buf (Elt F) ((c : Thread nD τ).loc b) := fun c b => V6 m (outsB m) c b
theorem phi0_2 (c : Dev nD) : (pdats m 2 c).Φ 0 = Pipeline.ΦA spec2 c := R2.Phi_zero (fun c b => V6 m (outsB m) c b) c
theorem phiL_2 (c : Dev nD) : (pdats m 2 c).Φ (Fin.last _) ⊢ Pipeline.ΦA spec2 c := R2.Phi_last (fun c b => V6 m (outsB m) c b) c

abbrev ent3 (c : Dev nD) : Valuation τ sig (Elt F) := V10 m (outs m) c
abbrev ex3 (c : Dev nD) : Valuation τ sig (Elt F) := V11 m (outs m) c
abbrev datV3 : (c : Dev nD) → (b : Ref sig .tc) → Buf (Elt F) ((c : Thread nD τ).loc b) := fun c b => V10 m (outsC m) c b
theorem phi0_3 (c : Dev nD) : (pdats m 3 c).Φ 0 = Pipeline.ΦA spec3 c := R3.Phi_zero (fun c b => V10 m (outsC m) c b) c
theorem phiL_3 (c : Dev nD) : (pdats m 3 c).Φ (Fin.last _) ⊢ Pipeline.ΦA spec3 c := R3.Phi_last (fun c b => V10 m (outsC m) c b) c

end Cert.Kernel.Segs

end
-- ==== Proof.Bits.SegR0.lean ====
/- Region 0 of the kernel program as an item of @main's run: entered with every unscoped buffer of the
   core held at the contents the item before left, its windows' arrays split out and handed to the pipeline,
   and left with those arrays put back at what the pipeline's write-backs made of them; the generator
   register goes into the pipeline's invariant and comes back, and the core owes nothing throughout. -/
import proofs.«408955_j56530359550020_1_alg».proof.Proof.Bits.Segs

set_option maxRecDepth 16384

noncomputable section

namespace Cert.Kernel.Segs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (datV0 m) c).loose
  hwaits := Pipeline.hwaits_of_owed_zero _ _ _ _ L lv 0 fun _ _ => rfl
  pre c := iprop(StableHlo.held (c : Thread nD τ) (Pipeline.ucRefs τ sig) (ent0 m c) ∗ R c)
  post c := iprop(StableHlo.held (c : Thread nD τ) (Pipeline.ucRefs τ sig) (ex0 m c) ∗ R c)
  X c := iprop(∃ r, prngReg c r)
  Y c := iprop(∃ r, prngReg c r)
  Z c := Pipeline.unscopedRest (Ix := Unit) (Name := ℕ) (U := UR sig nD τ) (Lvl := ℕ) spec0 c (fun b => ent0 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => ent0 m c b) (hA0 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [phi0_0 m c]; unfold Pipeline.ΦA
    iintro ⟨Hp, -, Hr⟩
    isplitl [Hr]; · iexact Hr
    iexact Hp
  hout c := by
    refine (phiL_0 m c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => ent0 m c b) (fun b => ex0 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Segs

end
-- ==== Proof.Bits.SegR1.lean ====
/- Region 1 of the kernel program as an item of @main's run: entered with every unscoped buffer of the
   core held at the contents the item before left, its windows' arrays split out and handed to the pipeline,
   and left with those arrays put back at what the pipeline's write-backs made of them; the generator
   register goes into the pipeline's invariant and comes back, and the core owes nothing throughout. -/
import proofs.«408955_j56530359550020_1_alg».proof.Proof.Bits.Segs

set_option maxRecDepth 16384

noncomputable section

namespace Cert.Kernel.Segs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (datV1 m) c).loose
  hwaits := Pipeline.hwaits_of_owed_zero _ _ _ _ L lv 1 fun _ _ => rfl
  pre c := iprop(StableHlo.held (c : Thread nD τ) (Pipeline.ucRefs τ sig) (ent1 m c) ∗ R c)
  post c := iprop(StableHlo.held (c : Thread nD τ) (Pipeline.ucRefs τ sig) (ex1 m c) ∗ R c)
  X c := iprop(∃ r, prngReg c r)
  Y c := iprop(∃ r, prngReg c r)
  Z c := Pipeline.unscopedRest (Ix := Unit) (Name := ℕ) (U := UR sig nD τ) (Lvl := ℕ) spec1 c (fun b => ent1 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => ent1 m c b) (hA1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [phi0_1 m c]; unfold Pipeline.ΦA
    iintro ⟨Hp, -, Hr⟩
    isplitl [Hr]; · iexact Hr
    iexact Hp
  hout c := by
    refine (phiL_1 m c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => ent1 m c b) (fun b => ex1 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Segs

end
-- ==== Proof.Bits.SegR2.lean ====
/- Region 2 of the kernel program as an item of @main's run: entered with every unscoped buffer of the
   core held at the contents the item before left, its windows' arrays split out and handed to the pipeline,
   and left with those arrays put back at what the pipeline's write-backs made of them; the generator
   register goes into the pipeline's invariant and comes back, and the core owes nothing throughout. -/
import proofs.«408955_j56530359550020_1_alg».proof.Proof.Bits.Segs

set_option maxRecDepth 16384

noncomputable section

namespace Cert.Kernel.Segs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (datV2 m) c).loose
  hwaits := Pipeline.hwaits_of_owed_zero _ _ _ _ L lv 2 fun _ _ => rfl
  pre c := iprop(StableHlo.held (c : Thread nD τ) (Pipeline.ucRefs τ sig) (ent2 m c) ∗ R c)
  post c := iprop(StableHlo.held (c : Thread nD τ) (Pipeline.ucRefs τ sig) (ex2 m c) ∗ R c)
  X c := iprop(∃ r, prngReg c r)
  Y c := iprop(∃ r, prngReg c r)
  Z c := Pipeline.unscopedRest (Ix := Unit) (Name := ℕ) (U := UR sig nD τ) (Lvl := ℕ) spec2 c (fun b => ent2 m c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => ent2 m c b) (hA2 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [phi0_2 m c]; unfold Pipeline.ΦA
    iintro ⟨Hp, -, Hr⟩
    isplitl [Hr]; · iexact Hr
    iexact Hp
  hout c := by
    refine (phiL_2 m c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => ent2 m c b) (fun b => ex2 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Segs

end
-- ==== Proof.Bits.SegR3.lean ====
/- Region 3 of the kernel program as an item of @main's run: entered with every unscoped buffer of the
   core held at the contents the item before left, its windows' arrays split out and handed to the pipeline,
   and left with those arrays put back at what the pipeline's write-backs made of them; the generator
   register goes into the pipeline's invariant and comes back, and the core owes nothing throughout. -/
import proofs.«408955_j56530359550020_1_alg».proof.Proof.Bits.Segs

set_option maxRecDepth 16384

noncomputable section

namespace Cert.Kernel.Segs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (R3.body_obligation (datV3 m) c).loose
  hwaits := Pipeline.hwaits_of_owed_zero _ _ _ _ L lv 3 fun _ _ => rfl
  pre c := iprop(StableHlo.held (c : Thread nD τ) (Pipeline.ucRefs τ sig) (ent3 m c) ∗ R c)
  post c := iprop(StableHlo.held (c : Thread nD τ) (Pipeline.ucRefs τ sig) (ex3 m c) ∗ R c)
  X c := iprop(∃ r, prngReg c r)
  Y c := iprop(∃ r, prngReg c r)
  Z c := Pipeline.unscopedRest (Ix := Unit) (Name := ℕ) (U := UR sig nD τ) (Lvl := ℕ) spec3 c (fun b => ent3 m c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => ent3 m c b) (hA3 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [phi0_3 m c]; unfold Pipeline.ΦA
    iintro ⟨Hp, -, Hr⟩
    isplitl [Hr]; · iexact Hr
    iexact Hp
  hout c := by
    refine (phiL_3 m c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => ent3 m c b) (fun b => ex3 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Segs

end
-- ==== Proof.Bits.Frame.lean ====
/- The kernel program's frame: from any memory with zero counters every weakly fair execution of @main
   terminates without a fault and leaves the six argument arrays as launched. The host stretches and the
   chaining of @main's items are the generated conditional frame's; supplied here are the four regions'
   records, the launch's ghost state (nothing owed, no level assigned) and what rides beside the buffers. -/
import proofs.«408955_j56530359550020_1_alg».proof.Proof.Bits.SegR0
import proofs.«408955_j56530359550020_1_alg».proof.Proof.Bits.SegR1
import proofs.«408955_j56530359550020_1_alg».proof.Proof.Bits.SegR2
import proofs.«408955_j56530359550020_1_alg».proof.Proof.Bits.SegR3

set_option maxRecDepth 16384

noncomputable section

namespace Cert.Kernel.Segs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost state is the cells' and the duty tokens', nothing else. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- On one core: the launch's semaphores and credit are dropped, the register and the empty debt kept. -/
theorem launch_rest_core (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄)
      ⊢ (R (F := F) c : sProp 𝕄) := by
  iintro ⟨-, HO, -, Hp, -⟩
  isplitl [Hp]; · iexists _; iexact Hp
  iexists ∅; iexact HO

/-- What the launch deals a core beside its buffers gives the register at some state and nothing owed. -/
theorem launch_rest :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  have hm : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => R (F := F) c) : sProp 𝕄) :=
    bigSep_mono fun c _ => launch_rest_core ρ c
  iintro ⟨H, -⟩
  imodintro
  iapply hm
  iexact H

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m (EP := emb₁) (ι := ()) (𝒱₀ := 𝒱₀) (L := L) (lv := lv) (hL := fun _ _ => rfl) (ρ := ρ) (outs := outs m) (pdats := pdats m)
    (O₀ := 0) (G := fun _ => (BI.emp : sProp 𝕄))
    (u₀ := initOf (Pipeline.cells cfgs cellOf_inj) (Pipeline.launchToks cfgs cellOf_inj))
    (hu₀ := launch_ghost)
    (E := fun _ c => R c)
    (hE0 := launch_rest ρ)
    (hE4 := fun c => by iintro ⟨-, HO⟩; iexact HO)
    (R0 := reg0 m) (hpre0 := fun c => .rfl) (hpost0 := fun c => .rfl)
    (R1 := reg1 m) (hpre1 := fun c => .rfl) (hpost1 := fun c => .rfl)
    (R2 := reg2 m) (hpre2 := fun c => .rfl) (hpost2 := fun c => .rfl)
    (R3 := reg3 m) (hpre3 := fun c => .rfl) (hpost3 := fun c => .rfl)

end Cert.Kernel.Segs

end
-- ==== Proof.Region0.lean ====
import proofs.«408955_j56530359550020_1_alg».proof.Proof.Gen.KernelIdeal.Launch
import proofs.«408955_j56530359550020_1_alg».proof.Proof.Gen.KernelIdeal.Skeleton
import proofs.«408955_j56530359550020_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

/-! # Region 0: the first matrix product's pipeline, at the core's entry contents

The first kernel call multiplies a matrix of 128 columns, 1000 rows at a time over a grid of 12 points, by a
128 x 64 matrix held whole. Three windows: the left matrix's row block (fetched at every point), the
right matrix (fetched once, at the first point, and kept), the product's row block (written back at
every point). The body reads both inputs, reads the output buffer (a value it never uses) and overwrites
the whole output buffer with the product of what it read. Below: the pipeline's proof data at a parameter
`V` (the core's buffer contents when the region is entered) and the obligation of the body at every point. -/

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The pipeline's proof data -/

/-- The proof data of the pipeline on core `c`: the arrays as the region finds them; after the body at point
    `t` each input's buffer still at its block, the output's at the product of the two input blocks; the
    invariant is the scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => k0_pay1 (iblk V c 0 t) (iblk V c 1 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = k0_pay1 (iblk V c 0 t) (iblk V c 1 t) := by dsimp only [dat]

/-- The invariant between points is the same at every point. -/
theorem Phi_eq (c : Dev nD) (t : Fin (cfg0.N + 1)) : (dat V c).Φ t = Pipeline.ΦA spec0 c := rfl

/-! ## The body obligation -/

/-- Each input's current staging buffer holds its block at every point, fetched there or not: an input the
    pipeline does not fetch at a point has not moved its block index since the point before, and the body
    left the block in place there. The left matrix's block is fetched at every point; the right matrix is
    fetched once and its index map is constant. -/
theorem before_0 (c : Dev nD) (t : Fin cfg0.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

theorem before_1 (c : Dev nD) (t : Fin cfg0.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## The body's triple -/

set_option maxHeartbeats 1000000 in
/-- The kernel body on whole staging memrefs, the two inputs' at read contents `x0`, `x1` and the output's at
    anything, runs to the continuation holding the inputs' as they were and the output's at the product of
    `x0` and `x1`: two loads of whole buffers read their contents, the load of the output buffer reads a value
    nothing uses, and the one store covers the whole output buffer, so what it leaves is its payload. -/
theorem sound_kernel (c : Dev nD) (E : Set ℕ) (i : grid0.Coords)
    (arg1 : Memref sig .tc .vmem S1000x128 .f32) (harg1 : arg1.IsWhole)
    (arg2 : Memref sig .tc .vmem S128x64 .f32) (harg2 : arg2.IsWhole)
    (arg3 : Memref sig .tc .vmem S1000x64 .f32) (harg3 : arg3.IsWhole)
    (x0 : Vec F S1000x128 .f32) (x1 : Vec F S128x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have z2 : (![0, 0] : Fin 2 → Nat) = fun _ => 0 := by funext a; fin_cases a <;> rfl
  rw [View.read_writes_eq_canon _ _ _ (fun y => ⟨_, List.mem_singleton_self _, View.mem_set_unit_zero z2 inb_S1000x64_S1000x64_0_0 y⟩),
    View.canon_unit_zero z2, View.readAt_eq_ld, View.readAt_eq_ld, View.ld_unit_zero z2, View.ld_unit_zero z2]

/-! ## The body obligation, at a generic point -/

/-- What the body is called with at point `t` (the obligation's precondition, the windows one by one), -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so the body's triple applies; the invariant
    and what the core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.R0

end
-- ==== Proof.Region1.lean ====
import proofs.«408955_j56530359550020_1_alg».proof.Proof.Gen.KernelIdeal.Launch
import proofs.«408955_j56530359550020_1_alg».proof.Proof.Gen.KernelIdeal.Skeleton
import proofs.«408955_j56530359550020_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

/-! # Region 1: the second matrix product's pipeline, at the core's entry contents

The second kernel call multiplies a matrix of 64 columns, 1000 rows at a time over a grid of 12 points, by a
64 x 64 matrix held whole. Three windows: the left matrix's row block (fetched at every point), the
right matrix (fetched once, at the first point, and kept), the product's row block (written back at
every point). The body reads both inputs, reads the output buffer (a value it never uses) and overwrites
the whole output buffer with the product of what it read. Below: the pipeline's proof data at a parameter
`V` (the core's buffer contents when the region is entered) and the obligation of the body at every point. -/

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The pipeline's proof data -/

/-- The proof data of the pipeline on core `c`: the arrays as the region finds them; after the body at point
    `t` each input's buffer still at its block, the output's at the product of the two input blocks; the
    invariant is the scoped rest and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay1 (iblk V c 0 t) (iblk V c 1 t)
  Φ _ := Pipeline.ΦA spec1 c
  q _ := fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = k1_pay1 (iblk V c 0 t) (iblk V c 1 t) := by dsimp only [dat]

/-- The invariant between points is the same at every point. -/
theorem Phi_eq (c : Dev nD) (t : Fin (cfg1.N + 1)) : (dat V c).Φ t = Pipeline.ΦA spec1 c := rfl

/-! ## The body obligation -/

/-- Each input's current staging buffer holds its block at every point, fetched there or not: an input the
    pipeline does not fetch at a point has not moved its block index since the point before, and the body
    left the block in place there. The left matrix's block is fetched at every point; the right matrix is
    fetched once and its index map is constant. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## The body's triple -/

set_option maxHeartbeats 1000000 in
/-- The kernel body on whole staging memrefs, the two inputs' at read contents `x0`, `x1` and the output's at
    anything, runs to the continuation holding the inputs' as they were and the output's at the product of
    `x0` and `x1`: two loads of whole buffers read their contents, the load of the output buffer reads a value
    nothing uses, and the one store covers the whole output buffer, so what it leaves is its payload. -/
theorem sound_kernel (c : Dev nD) (E : Set ℕ) (i : grid1.Coords)
    (arg1 : Memref sig .tc .vmem S1000x64 .f32) (harg1 : arg1.IsWhole)
    (arg2 : Memref sig .tc .vmem S64x64 .f32) (harg2 : arg2.IsWhole)
    (arg3 : Memref sig .tc .vmem S1000x64 .f32) (harg3 : arg3.IsWhole)
    (x0 : Vec F S1000x64 .f32) (x1 : Vec F S64x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have z2 : (![0, 0] : Fin 2 → Nat) = fun _ => 0 := by funext a; fin_cases a <;> rfl
  rw [View.read_writes_eq_canon _ _ _ (fun y => ⟨_, List.mem_singleton_self _, View.mem_set_unit_zero z2 inb_S1000x64_S1000x64_0_0 y⟩),
    View.canon_unit_zero z2, View.readAt_eq_ld, View.readAt_eq_ld, View.ld_unit_zero z2, View.ld_unit_zero z2]

/-! ## The body obligation, at a generic point -/

/-- What the body is called with at point `t` (the obligation's precondition, the windows one by one), -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' memrefs hold their blocks, so the body's triple applies; the invariant
    and what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.R1

end
-- ==== Proof.Region2.lean ====
import proofs.«408955_j56530359550020_1_alg».proof.Proof.Gen.KernelIdeal.Launch
import proofs.«408955_j56530359550020_1_alg».proof.Proof.Gen.KernelIdeal.Skeleton
import proofs.«408955_j56530359550020_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The accumulator carried in the scratch -/

/-- What the scratch holds after the body at point `n`: the column sums of the normalised rows of the
    blocks 0 … n, accumulated from zero in the order of the points. -/
def acc (c : Dev nD) : (n : ℕ) → n < cfg2.N → Vec F S1x64 .f32
  | 0, h => k2_pay3 (iblk V c 0 ⟨0, h⟩) k2_pay1
  | n + 1, h => k2_pay3 (iblk V c 0 ⟨n + 1, h⟩) (acc c n (Nat.lt_of_succ_lt h))

/-- The region invariant before point `n`: before the first point the class's (every scoped buffer that is no
    staging buffer of this call at some contents, and the generator register); afterwards the same with this call's
    scratch at what the point before left in it, the other scoped buffers still at some contents each. -/
def PhiS (c : Dev nD) : (n : ℕ) → n ≤ cfg2.N → sProp 𝕄
  | 0, _ => Pipeline.ΦA spec2 c
  | n + 1, h => iprop(owns (c : Thread nD τ) (Memref.whole cc2_scratch0) fullShare (acc V c n h)
      ∗ Pipeline.scopedRestBut (Ix := Unit) (Name := ℕ) (U := UR sig nD τ) (Lvl := ℕ) (Val := Elt F) spec2 c [cc2_scratch0]
      ∗ ∃ r, prngReg c r)

/-! ## The pipeline's proof data -/

/-- The proof data of pipeline 2 on core `c`: the arrays as the region finds them; after the body at point `t`
    the input's buffer at its block, the normalised block in output 1's buffer, the accumulator in output 2's buffer
    (consulted at the last point only, where the body stores it); the invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => k2_pay2 (iblk V c 0 t)
    | ⟨2, _⟩ => acc V c t.val t.isLt
  Φ t := PhiS V c t.val (Nat.le_of_lt_succ t.isLt)
  q _ := fullShare
  owed _ := 0

/-- The proof data's arrays are the region-entry contents. -/
theorem A_eq (c : Dev nD) (w : Fin cfg2.W) : (dat V c).A w = V c (Pipeline.arrRef spec2 w) := by dsimp only [dat]

/-- What the body leaves, window by window. -/
theorem after_0 (c : Dev nD) (t : Fin cfg2.N) : (dat V c).after 0 t = iblk V c 0 t := by dsimp only [dat]
theorem after_1 (c : Dev nD) (t : Fin cfg2.N) : (dat V c).after 1 t = k2_pay2 (iblk V c 0 t) := by dsimp only [dat]
theorem after_2 (c : Dev nD) (t : Fin cfg2.N) : (dat V c).after 2 t = acc V c t.val t.isLt := by dsimp only [dat]

/-! ## The invariant, opened at this call's scratch -/

/-- The scoped rest of this call split at its own scratch; the other scoped buffers stay unopened. -/
theorem scopedRest_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The class's invariant with the scratch as a memref owned at some contents. -/
theorem PhiA_eq (c : Dev nD) :
    (Pipeline.ΦA spec2 c : sProp 𝕄)
      = iprop(((∃ d, owns (c : Thread nD τ) (Memref.whole cc2_scratch0) fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest_split]; simp only [owns_whole]; try rfl

/-! ## The two conditions of the body over the grid -/

/-- The condition of the body's first conditional: the point is the first. -/
abbrev cond1 (i : grid2.Coords) : Prop :=
  (Scalar.cmpi .ne (Scalar.extui (Scalar.cmpi .eq (BitVec.ofNat 32 (i 0).val) 0#32)) 0#32) = 1#1

theorem hcond1 : ∀ t : Fin cfg2.N, cond1 (grid2.coords t) ↔ t.val = 0 :=
  (by decide +kernel : ∀ t : Fin grid2.N, cond1 (grid2.coords t) ↔ t.val = 0)

/-- The condition of the body's second conditional: the point is the last. -/
abbrev cond2 (i : grid2.Coords) : Prop := k2_cond2 i = 1#1

theorem hcond2 : ∀ t : Fin cfg2.N, cond2 (grid2.coords t) ↔ t.val = 5 :=
  (by decide +kernel : ∀ t : Fin grid2.N, cond2 (grid2.coords t) ↔ t.val = 5)

/-! ## Where the windows are idle -/

theorem liveAt_0 : ∀ t : Fin cfg2.N, cfg2.idle 0 (grid2.coords t) = false := by decide +kernel
theorem liveAt_1 : ∀ t : Fin cfg2.N, cfg2.idle 1 (grid2.coords t) = false := by decide +kernel
theorem idleAt_2 : ∀ t : Fin cfg2.N, ¬cond2 (grid2.coords t) → cfg2.idle 2 (grid2.coords t) = true := by decide +kernel
theorem noFlush_2 : ∀ t : Fin cfg2.N, ¬cond2 (grid2.coords t) → (cfg2.win 2).flush t = false := by decide +kernel
theorem liveAt_2 : ∀ t : Fin cfg2.N, cond2 (grid2.coords t) → cfg2.idle 2 (grid2.coords t) = false := by decide +kernel

/-! ## The input's block in its staging buffer -/

theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## Loads and stores through a whole staging buffer -/

theorem zero2 : (![0, 0] : Fin 2 → ℕ) = fun _ => 0 := by funext a; fin_cases a <;> rfl

/-- A load through the whole-buffer rectangle reads the buffer's contents. -/
theorem readAt_whole {S : Shape} {e : EltTy} {κ : Kind} {sp : Space} (v : View sig κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- The last store through the whole-buffer rectangle leaves its payload, whatever was stored before. -/
theorem read_writes_cons_whole {S : Shape} {e : EltTy} {κ : Kind} {sp : Space} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The body's triples, by the case of its two conditionals

On whole staging memrefs: the input's at read contents `x0`, the outputs' at anything (the body loads each before
storing it and does not use the value), the scratch at anything at the first point (zeroed there) and at what the
point before left (`s`) afterwards. The body leaves the normalised block in output 1's buffer and its column sums
added to the scratch; at the last point it also copies the scratch into output 2's buffer. -/

set_option maxHeartbeats 1000000 in
/-- A point that is neither the first nor the last. -/
theorem sound_kernel_mid (c : Dev nD) (E : Set ℕ) (i : grid2.Coords) (hc1 : ¬cond1 i) (hc2 : ¬cond2 i)
    (arg1 : Memref sig .tc .vmem S2000x64 .f32) (harg1 : arg1.IsWhole) (arg2 : Memref sig .tc .vmem S2000x64 .f32) (harg2 : arg2.IsWhole)
    (arg3 : Memref sig .tc .vmem S1x64 .f32) (harg3 : arg3.IsWhole) (arg4 : Memref sig .tc .vmem S1x64 .f32) (harg4 : arg4.IsWhole)
    (x0 : Vec F S2000x64 .f32) (s : Vec F S1x64 .f32) (K : PUnit → sProp 𝕄) :
    iprop(owns (c : Thread nD τ) arg1 fullShare x0 ∗ (∃ d, owns (c : Thread nD τ) arg2 fullShare d)
        ∗ owns (c : Thread nD τ) arg4 fullShare s
        ∗ (iprop(owns (c : Thread nD τ) arg1 fullShare x0 ∗ owns (c : Thread nD τ) arg2 fullShare (k2_pay2 x0)
            ∗ owns (c : Thread nD τ) arg4 fullShare (k2_pay3 x0 s)) -∗ K ⟨⟩))
      ⊢ wp frame (wpE (defs₀ (F := F)) Variants.none c none) E (cc2__norm_kernel i arg1 harg1 arg2 harg2 arg3 harg3 arg4 harg4) K := by
  simp only [cc2__norm_kernel_eq_skeleton]; unfold cc2__norm_kernel_skel
  unfold owns
  iintro ⟨⟨%f0, %hf0, H0⟩, ⟨%d1, %f1, -, H1⟩, ⟨%f4, %hf4, H4⟩, Hk⟩
  subst hf0; subst hf4
  sl_exec (disch := first | exact hc1 | exact hc2)
  sl_step
  iapply Hk
  isplitl [H0]
  · iexists f0; isplitr; · ipureintro; rfl
    iexact H0
  isplitl [H1]
  · iexists _; isplitr
    swap; · iexact H1
    ipureintro
    exact (read_writes_cons_whole _ _ zero2 _ _ _).trans (congrArg k2_pay2 (readAt_whole _ _ zero2 _))
  iexists _; isplitr
  swap; · iexact H4
  ipureintro
  exact (read_writes_cons_whole _ _ zero2 _ _ _).trans
    (congrArg₂ k2_pay3 (readAt_whole _ _ zero2 _) (readAt_whole _ _ zero2 _))

set_option maxHeartbeats 1000000 in
/-- The first point: the scratch is zeroed before it is read. -/
theorem sound_kernel_first (c : Dev nD) (E : Set ℕ) (i : grid2.Coords) (hc1 : cond1 i) (hc2 : ¬cond2 i)
    (arg1 : Memref sig .tc .vmem S2000x64 .f32) (harg1 : arg1.IsWhole) (arg2 : Memref sig .tc .vmem S2000x64 .f32) (harg2 : arg2.IsWhole)
    (arg3 : Memref sig .tc .vmem S1x64 .f32) (harg3 : arg3.IsWhole) (arg4 : Memref sig .tc .vmem S1x64 .f32) (harg4 : arg4.IsWhole)
    (x0 : Vec F S2000x64 .f32) (K : PUnit → sProp 𝕄) :
    iprop(owns (c : Thread nD τ) arg1 fullShare x0 ∗ (∃ d, owns (c : Thread nD τ) arg2 fullShare d)
        ∗ (∃ d, owns (c : Thread nD τ) arg4 fullShare d)
        ∗ (iprop(owns (c : Thread nD τ) arg1 fullShare x0 ∗ owns (c : Thread nD τ) arg2 fullShare (k2_pay2 x0)
            ∗ owns (c : Thread nD τ) arg4 fullShare (k2_pay3 x0 k2_pay1)) -∗ K ⟨⟩))
      ⊢ wp frame (wpE (defs₀ (F := F)) Variants.none c none) E (cc2__norm_kernel i arg1 harg1 arg2 harg2 arg3 harg3 arg4 harg4) K := by
  simp only [cc2__norm_kernel_eq_skeleton]; unfold cc2__norm_kernel_skel
  unfold owns
  iintro ⟨⟨%f0, %hf0, H0⟩, ⟨%d1, %f1, -, H1⟩, ⟨%d4, %f4, -, H4⟩, Hk⟩
  subst hf0
  sl_exec (disch := first | exact hc1 | exact hc2)
  sl_step
  iapply Hk
  isplitl [H0]
  · iexists f0; isplitr; · ipureintro; rfl
    iexact H0
  isplitl [H1]
  · iexists _; isplitr
    swap; · iexact H1
    ipureintro
    exact (read_writes_cons_whole _ _ zero2 _ _ _).trans (congrArg k2_pay2 (readAt_whole _ _ zero2 _))
  iexists _; isplitr
  swap; · iexact H4
  ipureintro
  refine (read_writes_cons_whole _ _ zero2 _ _ _).trans (congrArg₂ k2_pay3 (readAt_whole _ _ zero2 _) ?_)
  sl_unfold_run_names
  exact View.readCov_cons_toLoadRect _ _ _ _

set_option maxHeartbeats 1000000 in
/-- The last point: the accumulated scratch is also stored into output 2's buffer. -/
theorem sound_kernel_last (c : Dev nD) (E : Set ℕ) (i : grid2.Coords) (hc1 : ¬cond1 i) (hc2 : cond2 i)
    (arg1 : Memref sig .tc .vmem S2000x64 .f32) (harg1 : arg1.IsWhole) (arg2 : Memref sig .tc .vmem S2000x64 .f32) (harg2 : arg2.IsWhole)
    (arg3 : Memref sig .tc .vmem S1x64 .f32) (harg3 : arg3.IsWhole) (arg4 : Memref sig .tc .vmem S1x64 .f32) (harg4 : arg4.IsWhole)
    (x0 : Vec F S2000x64 .f32) (s : Vec F S1x64 .f32) (K : PUnit → sProp 𝕄) :
    iprop(owns (c : Thread nD τ) arg1 fullShare x0 ∗ (∃ d, owns (c : Thread nD τ) arg2 fullShare d)
        ∗ (∃ d, owns (c : Thread nD τ) arg3 fullShare d) ∗ owns (c : Thread nD τ) arg4 fullShare s
        ∗ (iprop(owns (c : Thread nD τ) arg1 fullShare x0 ∗ owns (c : Thread nD τ) arg2 fullShare (k2_pay2 x0)
            ∗ owns (c : Thread nD τ) arg3 fullShare (k2_pay3 x0 s) ∗ owns (c : Thread nD τ) arg4 fullShare (k2_pay3 x0 s)) -∗ K ⟨⟩))
      ⊢ wp frame (wpE (defs₀ (F := F)) Variants.none c none) E (cc2__norm_kernel i arg1 harg1 arg2 harg2 arg3 harg3 arg4 harg4) K := by
  simp only [cc2__norm_kernel_eq_skeleton]; unfold cc2__norm_kernel_skel
  unfold owns
  iintro ⟨⟨%f0, %hf0, H0⟩, ⟨%d1, %f1, -, H1⟩, ⟨%d3, %f3, -, H3⟩, ⟨%f4, %hf4, H4⟩, Hk⟩
  subst hf0; subst hf4
  sl_exec (disch := first | exact hc1 | exact hc2)
  sl_step
  iapply Hk
  isplitl [H0]
  · iexists f0; isplitr; · ipureintro; rfl
    iexact H0
  isplitl [H1]
  · iexists _; isplitr
    swap; · iexact H1
    ipureintro
    exact (read_writes_cons_whole _ _ zero2 _ _ _).trans (congrArg k2_pay2 (readAt_whole _ _ zero2 _))
  isplitl [H3]
  · iexists _; isplitr
    swap; · iexact H3
    ipureintro
    refine (read_writes_cons_whole _ _ zero2 _ _ _).trans ?_
    sl_unfold_run_names
    exact (View.readCov_cons_toLoadRect _ _ _ _).trans
      (congrArg₂ k2_pay3 (readAt_whole _ _ zero2 _) (readAt_whole _ _ zero2 _))
  iexists _; isplitr
  swap; · iexact H4
  ipureintro
  sl_unfold_run_names
  exact (read_writes_cons_whole _ _ zero2 _ _ _).trans
    (congrArg₂ k2_pay3 (readAt_whole _ _ zero2 _) (readAt_whole _ _ zero2 _))

/-! ## The accumulator and the invariant, point by point -/

theorem acc_zero (c : Dev nD) (t : Fin cfg2.N) (hz : t.val = 0) :
    acc V c t.val t.isLt = k2_pay3 (iblk V c 0 t) k2_pay1 := by
  obtain ⟨n, hn⟩ := t
  cases n with
  | zero => rfl
  | succ n => exact absurd hz (Nat.succ_ne_zero _)

theorem acc_pos (c : Dev nD) (t : Fin cfg2.N) (hz : t.val ≠ 0) :
    acc V c t.val t.isLt = k2_pay3 (iblk V c 0 t) (acc V c (t.val - 1) (Nat.lt_of_le_of_lt (Nat.sub_le _ _) t.isLt)) := by
  obtain ⟨n, hn⟩ := t
  cases n with
  | zero => exact absurd rfl hz
  | succ n => rfl

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(owns (c : Thread nD τ) (Memref.whole cc2_scratch0) fullShare (acc V c n hn)
      ∗ Pipeline.scopedRestBut (Ix := Unit) (Name := ℕ) (U := UR sig nD τ) (Lvl := ℕ) (Val := Elt F) spec2 c [cc2_scratch0]
      ∗ ∃ r, prngReg c r) := rfl

theorem PhiS_pos (c : Dev nD) (n : ℕ) (h : n ≤ cfg2.N) (hz : n ≠ 0) :
    PhiS V c n h = iprop(owns (c : Thread nD τ) (Memref.whole cc2_scratch0) fullShare (acc V c (n - 1) (by omega))
      ∗ Pipeline.scopedRestBut (Ix := Unit) (Name := ℕ) (U := UR sig nD τ) (Lvl := ℕ) (Val := Elt F) spec2 c [cc2_scratch0]
      ∗ ∃ r, prngReg c r) := by
  cases n with
  | zero => exact absurd rfl hz
  | succ n => rfl

theorem Phi_castSucc (c : Dev nD) (t : Fin cfg2.N) :
    (dat V c).Φ t.castSucc = PhiS V c t.val (Nat.le_of_lt t.isLt) := by
  dsimp only [dat]; simp only [Fin.coe_castSucc]

/-- The input's current staging buffer holds its block at every point. -/
theorem before_0 (c : Dev nD) (t : Fin cfg2.N) (d) : (dat V c).before 0 t d = iblk V c 0 t :=
  before_0_of V (dat V c) (A_eq V c 0) (after_0 V c) t d

/-! ## The body obligation, at a generic point -/

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 2000000 in
/-- The body at any point, by the case the two closed forms select: the input's memref holds its block; the invariant
    hands the body the scratch (at anything at the first point, at what the point before left afterwards) and takes it
    back at this point's accumulator; output 2's buffer is handed back as found at every point but the last, where it
    is taken at anything and left at the accumulator. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (st2_0 t) fullShare ((dat V c).after 0 t) from by
    unfold Dat.leavesExact; rw [liveAt_0 t], after_0]
  rw [show (dat V c).leavesExact 1 t = owns (c : Thread nD τ) (st2_1 t) fullShare ((dat V c).after 1 t) from by
    unfold Dat.leavesExact; rw [liveAt_1 t], after_1]
  have hN : t.val < 6 := lt_of_lt_of_eq t.isLt (show cfg2.N = 6 from N_2)
  by_cases h1 : t.val = 0
  · have hc1 : cond1 (grid2.coords t) := (hcond1 t).mpr h1
    have hc2 : ¬cond2 (grid2.coords t) := fun h => by have := (hcond2 t).mp h; omega
    rw [Dat.leavesExact_idle (dat V c) 2 t (idleAt_2 t hc2) (noFlush_2 t hc2)]
    rw [Phi_castSucc V c t, PhiS_zero V c _ _ h1, PhiA_eq, acc_zero V c t h1]
    iintro ⟨⟨⟨HS, HR⟩, Hg⟩, Ho, ⟨%d0, H0⟩, ⟨%d1, H1⟩, H2⟩
    iapply (sound_kernel_first c Set.univ _ hc1 hc2 _ _ _ _ _ _ _ _ (iblk V c 0 t) _)
    isplitl [H0]; · iexact H0
    isplitl [H1]; · iexists _; iexact H1
    isplitl [HS]; · iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · have hc1 : ¬cond1 (grid2.coords t) := fun h => h1 ((hcond1 t).mp h)
    by_cases h2 : t.val = 5
    · have hc2 : cond2 (grid2.coords t) := (hcond2 t).mpr h2
      rw [show (dat V c).leavesExact 2 t = owns (c : Thread nD τ) (st2_2 t) fullShare ((dat V c).after 2 t) from by
        unfold Dat.leavesExact; rw [liveAt_2 t hc2], after_2]
      rw [Phi_castSucc V c t, PhiS_pos V c _ _ h1, acc_pos V c t h1]
      iintro ⟨⟨HS, HR, Hg⟩, Ho, ⟨%d0, H0⟩, ⟨%d1, H1⟩, ⟨%d2, H2⟩⟩
      iapply (sound_kernel_last c Set.univ _ hc1 hc2 _ _ _ _ _ _ _ _ (iblk V c 0 t) _ _)
      isplitl [H0]; · iexact H0
      isplitl [H1]; · iexists _; iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc2 : ¬cond2 (grid2.coords t) := fun h => h2 ((hcond2 t).mp h)
      rw [Dat.leavesExact_idle (dat V c) 2 t (idleAt_2 t hc2) (noFlush_2 t hc2)]
      rw [Phi_castSucc V c t, PhiS_pos V c _ _ h1, acc_pos V c t h1]
      iintro ⟨⟨HS, HR, Hg⟩, Ho, ⟨%d0, H0⟩, ⟨%d1, H1⟩, H2⟩
      iapply (sound_kernel_mid c Set.univ _ hc1 hc2 _ _ _ _ _ _ _ _ (iblk V c 0 t) _ _)
      isplitl [H0]; · iexact H0
      isplitl [H1]; · iexists _; iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2

/-! ## The interface: the invariant at the region's ends, and the obligation -/

/-- What the launch hands the region is the invariant before the first point. -/
theorem Phi_zero (c : Dev nD) : (dat V c).Φ 0 = Pipeline.ΦA spec2 c := rfl

/-- After the last point the invariant gives the class's back: the scratch's named contents are forgotten. -/
theorem Phi_last (c : Dev nD) : (dat V c).Φ (Fin.last _) ⊢ Pipeline.ΦA spec2 c := by
  rw [show (dat V c).Φ (Fin.last cfg2.N) = PhiS V c (Fin.last cfg2.N).val (Nat.le_of_lt_succ (Fin.last cfg2.N).isLt) from rfl,
    PhiS_pos V c _ _ (by rw [Fin.val_last]; have : cfg2.N = 6 := N_2; omega), PhiA_eq]
  iintro ⟨HS, HR, Hg⟩
  isplitl [HS HR]
  · isplitl [HS]; · iexists _; iexact HS
    iexact HR
  iexact Hg

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.R2

end
-- ==== Proof.Region3.lean ====
import proofs.«408955_j56530359550020_1_alg».proof.Proof.Gen.KernelIdeal.Launch
import proofs.«408955_j56530359550020_1_alg».proof.Proof.Gen.KernelIdeal.Skeleton
import proofs.«408955_j56530359550020_1_alg».proof.Proof.Gen.KernelIdeal.Points
import Idealize.ShloMosaic.Lib.Pipeline.FrameBody
import Idealize.ShloMosaic.Lib.Pipeline.Kit
import Idealize.ShloMosaic.Lib.Pipeline.Value
import Idealize.ShloMosaic.Lib.Ring
import Idealize.ShloMosaic.Lib.Tactic

set_option maxRecDepth 16384

noncomputable section

namespace Cert.KernelIdeal.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! # Region 3: the accumulating kernel over a grid of 32 points -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- THE ACCUMULATION: what the carried scratch holds after the body at position `n`: the point's contribution
    (computed from the three input blocks) added to what the point before left, starting from zeros. -/
def acc (c : Dev nD) : (n : ℕ) → n < cfg3.N → Vec F S1x2 .f32
  | 0, h => k3_pay2 (iblk V c 0 ⟨0, h⟩) (iblk V c 1 ⟨0, h⟩) (iblk V c 2 ⟨0, h⟩) k3_pay1
  | n + 1, h => k3_pay2 (iblk V c 0 ⟨n + 1, h⟩) (iblk V c 1 ⟨n + 1, h⟩) (iblk V c 2 ⟨n + 1, h⟩) (acc c n (Nat.lt_of_succ_lt h))

/-- The scratch operand the kernel carries between points, as a whole memref. -/
abbrev scM : Memref sig .tc .vmem S1x2 .f32 := Memref.whole cc3_scratch0

/-- The core's scoped buffers other than this region's staging buffers and its scratch, each at some contents:
    carried through every point unopened. -/
abbrev rest (c : Dev nD) : sProp 𝕄 :=
  Pipeline.scopedRestBut (Ix := Unit) (Name := ℕ) (U := UR sig nD τ) (Lvl := ℕ) (Val := Elt F) spec3 c [cc3_scratch0]

/-- The region invariant before position `n`: before the first point the class's (every scoped buffer at anything);
    afterwards the carried scratch at what the point before left, the other scoped buffers at anything, and the
    generator register at some state. -/
def PhiS (c : Dev nD) : (n : ℕ) → n ≤ cfg3.N → sProp 𝕄
  | 0, _ => Pipeline.ΦA spec3 c
  | n + 1, h => iprop(owns (c : Thread nD τ) (Memref.whole cc3_scratch0) fullShare (acc V c n h)
      ∗ Pipeline.scopedRestBut (Ix := Unit) (Name := ℕ) (U := UR sig nD τ) (Lvl := ℕ) (Val := Elt F) spec3 c [cc3_scratch0]
      ∗ ∃ r, prngReg c r)

/-- The proof data of the pipeline on core `c`. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => acc V c t.val t.isLt
  Φ t := PhiS V c t.val (Nat.le_of_lt_succ t.isLt)
  q _ := fullShare
  owed _ := 0

/-- The proof data's arrays are the region-entry contents. -/
theorem A_eq (c : Dev nD) (w : Fin cfg3.W) : (dat V c).A w = V c (Pipeline.arrRef spec3 w) := by
  dsimp only [dat]

/-- What the body leaves, window by window. -/
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = acc V c t.val t.isLt := by dsimp only [dat]

/-! ## The invariant's two forms -/

/-- The class's invariant with this region's scratch set apart as a memref owned at some contents: the scoped rest
    split at the scratch, the remainder unopened. -/
theorem PhiA_eq (c : Dev nD) :
    (Pipeline.ΦA spec3 c : sProp 𝕄)
      = iprop(((∃ d, owns (c : Thread nD τ) scM fullShare d) ∗ rest (F := F) c) ∗ (∃ r, prngReg c r)) := by
  unfold Pipeline.ΦA
  rw [Pipeline.scopedRest_split_of_list spec3 c [cc3_scratch0] (by decide) (by decide)]
  simp only [scM, owns_whole, bigSepL]
  rfl

/-! ## Whole-buffer accesses -/

/-- The offsets of every access of this kernel: zero on both axes. -/
theorem off00 : (![0, 0] : Fin 2 → ℕ) = fun _ => 0 := by
  funext a; fin_cases a <;> rfl

/-- A load through the whole-shape rectangle at zero offsets reads the view's contents. -/
theorem readAt_full {sp : Space} {S : Shape} {e : EltTy} (v : View sig .tc sp S e) {off : Fin S.rank → ℕ}
    (h : off = fun _ => 0) (inb : ∀ a, off a + S.size a ≤ S.size a) (f : v.ty.Contents (Elt F)) :
    View.readAt (Elt F) v (Rect.unit off S.size inb).toLoadRect f = View.read (Elt F) v f :=
  View.ld_unit_zero h inb (View.read (Elt F) v f)

/-- One store through it, over any earlier stores, leaves its payload whatever the buffer held. -/
theorem read_store_full {sp : Space} {S : Shape} {e : EltTy} (v : View sig .tc sp S e) {off : Fin S.rank → ℕ}
    (h : off = fun _ => 0) (inb : ∀ a, off a + S.size a ≤ S.size a) (f : v.ty.Contents (Elt F)) (w : S.Idx → Elt F e)
    (L : List (View.Piece (Elt F) S e)) :
    View.read (Elt F) v (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

/-! ## The kernel's branch conditions -/

/-- The condition of the kernel's first conditional (the point is the grid's first), from the grid coordinates. -/
abbrev cond1 (i : grid3.Coords) : Prop :=
  (Scalar.cmpi .ne (Scalar.extui (Scalar.cmpi .eq (BitVec.ofNat 32 (i 0).val) 0#32)) 0#32) = 1#1
/-- The condition of its second (the point is the grid's last). -/
abbrev cond2 (i : grid3.Coords) : Prop := k3_cond2 i = 1#1

set_option maxHeartbeats 1000000 in
/-- The kernel at a point that is neither the first nor the last, on whole staging memrefs holding the blocks `x0`, `x1`,
    `x2` and the scratch holding `a`: the inputs are left as they were and the scratch ends at the point's contribution
    added to `a`; the output's buffer is not touched (it stays with the caller). -/
theorem sound_kernel_mid (c : Dev nD) (E : Set ℕ) (i : grid3.Coords)
    (arg1 : Memref sig .tc .vmem S12000x64 .f32) (harg1 : arg1.IsWhole) (arg2 : Memref sig .tc .vmem S12000x64 .f32) (harg2 : arg2.IsWhole)
    (arg3 : Memref sig .tc .vmem S12000x1 .f32) (harg3 : arg3.IsWhole) (arg4 : Memref sig .tc .vmem S1x2 .f32) (harg4 : arg4.IsWhole)
    (hc1 : ¬cond1 i) (hc2 : ¬cond2 i)
    (x0 x1 : Vec F S12000x64 .f32) (x2 : Vec F S12000x1 .f32) (a : Vec F S1x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) scM fullShare a
        ∗ (iprop(owns (c : Thread nD τ) arg1 fullShare x0 ∗ owns (c : Thread nD τ) arg2 fullShare x1 ∗ owns (c : Thread nD τ) arg3 fullShare x2
            ∗ owns (c : Thread nD τ) scM fullShare (k3_pay2 x0 x1 x2 a)) -∗ K ⟨⟩))
      ⊢ wp frame (wpE (defs₀ (F := F)) Variants.none c none) E
          (cc3__pos_kernel i arg1 harg1 arg2 harg2 arg3 harg3 arg4 harg4 scM (Memref.isWhole_whole _)) K := by
  simp only [cc3__pos_kernel_eq_skeleton]; unfold cc3__pos_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  simp only [read_store_full (S := S1x2) _ off00, View.readCov_unit_zero (S := S1x2) _ off00, readAt_full (S := S1x2) _ off00,
    readAt_full (S := S12000x64) _ off00, readAt_full (S := S12000x1) _ off00]

set_option maxHeartbeats 1000000 in
/-- The kernel at the first point: the scratch, at any contents, is first zeroed, so it ends at the point's contribution
    added to zeros; the output's buffer is not touched. -/
theorem sound_kernel_first (c : Dev nD) (E : Set ℕ) (i : grid3.Coords)
    (arg1 : Memref sig .tc .vmem S12000x64 .f32) (harg1 : arg1.IsWhole) (arg2 : Memref sig .tc .vmem S12000x64 .f32) (harg2 : arg2.IsWhole)
    (arg3 : Memref sig .tc .vmem S12000x1 .f32) (harg3 : arg3.IsWhole) (arg4 : Memref sig .tc .vmem S1x2 .f32) (harg4 : arg4.IsWhole)
    (hc1 : cond1 i) (hc2 : ¬cond2 i)
    (x0 x1 : Vec F S12000x64 .f32) (x2 : Vec F S12000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) scM fullShare d)
        ∗ (iprop(owns (c : Thread nD τ) arg1 fullShare x0 ∗ owns (c : Thread nD τ) arg2 fullShare x1 ∗ owns (c : Thread nD τ) arg3 fullShare x2
            ∗ owns (c : Thread nD τ) scM fullShare (k3_pay2 x0 x1 x2 k3_pay1)) -∗ K ⟨⟩))
      ⊢ wp frame (wpE (defs₀ (F := F)) Variants.none c none) E
          (cc3__pos_kernel i arg1 harg1 arg2 harg2 arg3 harg3 arg4 harg4 scM (Memref.isWhole_whole _)) K := by
  simp only [cc3__pos_kernel_eq_skeleton]; unfold cc3__pos_kernel_skel
  unfold owns
  iintro ⟨⟨%f0, %hf0, H0⟩, ⟨%f1, %hf1, H1⟩, ⟨%f2, %hf2, H2⟩, ⟨%a0, %fs, -, HS⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  simp only [read_store_full (S := S1x2) _ off00, View.readCov_unit_zero (S := S1x2) _ off00, readAt_full (S := S1x2) _ off00,
    readAt_full (S := S12000x64) _ off00, readAt_full (S := S12000x1) _ off00]

set_option maxHeartbeats 1000000 in
/-- The kernel at the last point: as at a middle point, and then the scratch's final contents are copied into the
    output's buffer, which is taken at any contents. -/
theorem sound_kernel_last (c : Dev nD) (E : Set ℕ) (i : grid3.Coords)
    (arg1 : Memref sig .tc .vmem S12000x64 .f32) (harg1 : arg1.IsWhole) (arg2 : Memref sig .tc .vmem S12000x64 .f32) (harg2 : arg2.IsWhole)
    (arg3 : Memref sig .tc .vmem S12000x1 .f32) (harg3 : arg3.IsWhole) (arg4 : Memref sig .tc .vmem S1x2 .f32) (harg4 : arg4.IsWhole)
    (hc1 : ¬cond1 i) (hc2 : cond2 i)
    (x0 x1 : Vec F S12000x64 .f32) (x2 : Vec F S12000x1 .f32) (a : Vec F S1x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) scM fullShare a ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) scM fullShare (k3_pay2 x0 x1 x2 a) ∗ owns (c : Thread nD τ) arg4 fullShare (k3_pay2 x0 x1 x2 a)) -∗ K ⟨⟩))
      ⊢ wp frame (wpE (defs₀ (F := F)) Variants.none c none) E
          (cc3__pos_kernel i arg1 harg1 arg2 harg2 arg3 harg3 arg4 harg4 scM (Memref.isWhole_whole _)) K := by
  simp only [cc3__pos_kernel_eq_skeleton]; unfold cc3__pos_kernel_skel
  unfold owns
  iintro ⟨⟨%f0, %hf0, H0⟩, ⟨%f1, %hf1, H1⟩, ⟨%f2, %hf2, H2⟩, ⟨%fs, %hfs, HS⟩, ⟨%d4, %f4, -, H4⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HS]
  · iexists _; isplitr
    swap; · iexact HS
    ipureintro
    sl_unfold_run_names
    simp only [read_store_full (S := S1x2) _ off00, View.readCov_unit_zero (S := S1x2) _ off00, readAt_full (S := S1x2) _ off00,
    readAt_full (S := S12000x64) _ off00, readAt_full (S := S12000x1) _ off00]
  iexists _; isplitr
  swap; · iexact H4
  ipureintro
  sl_unfold_run_names
  simp only [read_store_full (S := S1x2) _ off00, View.readCov_unit_zero (S := S1x2) _ off00, readAt_full (S := S1x2) _ off00,
    readAt_full (S := S12000x64) _ off00, readAt_full (S := S12000x1) _ off00]

/-! ## The conditions in closed form, and where the output window is idle -/

/-- The first conditional holds at the grid's first point only — decided over the grid. -/
theorem hcond1 : ∀ t : Fin cfg3.N, cond1 (grid3.coords t) ↔ t.val = 0 :=
  (by decide +kernel : ∀ t : Fin grid3.N, cond1 (grid3.coords t) ↔ t.val = 0)
/-- The second holds at its last point only. -/
theorem hcond2 : ∀ t : Fin cfg3.N, cond2 (grid3.coords t) ↔ t.val = 31 :=
  (by decide +kernel : ∀ t : Fin grid3.N, cond2 (grid3.coords t) ↔ t.val = 31)

/-- The input windows are never idle. -/
theorem liveAt_0 : ∀ t : Fin cfg3.N, cfg3.idle 0 (grid3.coords t) = false := fun _ => rfl
theorem liveAt_1 : ∀ t : Fin cfg3.N, cfg3.idle 1 (grid3.coords t) = false := fun _ => rfl
theorem liveAt_2 : ∀ t : Fin cfg3.N, cfg3.idle 2 (grid3.coords t) = false := fun _ => rfl
/-- Away from the last point the output window is idle (nothing is stored into it) and is not written back. -/
theorem idleAt_3 : ∀ t : Fin cfg3.N, ¬cond2 (grid3.coords t) → cfg3.idle 3 (grid3.coords t) = true := by decide +kernel
theorem noFlush_3 : ∀ t : Fin cfg3.N, ¬cond2 (grid3.coords t) → (cfg3.win 3).flush t = false := by decide +kernel
/-- At the last point it is live. -/
theorem liveAt_3 : ∀ t : Fin cfg3.N, cond2 (grid3.coords t) → cfg3.idle 3 (grid3.coords t) = false := by decide +kernel

/-! ## The staging memrefs at a point -/

abbrev ms_0 (t : Fin cfg3.N) : Memref sig .tc .vmem S12000x64 .f32 := win3_0.stage (cfg3.slots t 0)
abbrev hs_0 (t : Fin cfg3.N) : (ms_0 t).IsWhole := hstage3_0 ((cfg3.slots t 0).cast nbuf3_0)
abbrev ms_1 (t : Fin cfg3.N) : Memref sig .tc .vmem S12000x64 .f32 := win3_1.stage (cfg3.slots t 1)
abbrev hs_1 (t : Fin cfg3.N) : (ms_1 t).IsWhole := hstage3_1 ((cfg3.slots t 1).cast nbuf3_1)
abbrev ms_2 (t : Fin cfg3.N) : Memref sig .tc .vmem S12000x1 .f32 := win3_2.stage (cfg3.slots t 2)
abbrev hs_2 (t : Fin cfg3.N) : (ms_2 t).IsWhole := hstage3_2 ((cfg3.slots t 2).cast nbuf3_2)
abbrev ms_3 (t : Fin cfg3.N) : Memref sig .tc .vmem S1x2 .f32 := win3_3.stage (cfg3.slots t 3)
abbrev hs_3 (t : Fin cfg3.N) : (ms_3 t).IsWhole := hstage3_3 ((cfg3.slots t 3).cast nbuf3_3)

/-! ## What the input windows hold when the body is called -/

/-- An input window's current staging buffer holds its block at every point (the window is uncut, never idle, and the
    body leaves the block in place). -/
theorem before_0 (c : Dev nD) (t : Fin cfg3.N) (d) : (dat V c).before 0 t d = iblk V c 0 t :=
  ((dat V c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg3.N) (d) : (dat V c).before 1 t d = iblk V c 1 t :=
  ((dat V c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg3.N) (d) : (dat V c).before 2 t d = iblk V c 2 t :=
  ((dat V c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-! ## The accumulation and the invariant, point by point -/

/-- The accumulation at the first point: the point's contribution over zeros. -/
theorem acc_first (c : Dev nD) (t : Fin cfg3.N) (h0 : t.val = 0) :
    acc V c t.val t.isLt = k3_pay2 (iblk V c 0 t) (iblk V c 1 t) (iblk V c 2 t) k3_pay1 := by
  obtain ⟨n, hn⟩ := t
  cases n with
  | zero => rfl
  | succ n => exact absurd h0 (Nat.succ_ne_zero n)

/-- At a later point: the point's contribution over what the point before left. -/
theorem acc_later (c : Dev nD) (t : Fin cfg3.N) (h0 : t.val ≠ 0) :
    acc V c t.val t.isLt = k3_pay2 (iblk V c 0 t) (iblk V c 1 t) (iblk V c 2 t)
      (acc V c (t.val - 1) (Nat.lt_of_le_of_lt (Nat.sub_le _ _) t.isLt)) := by
  obtain ⟨n, hn⟩ := t
  cases n with
  | zero => exact absurd rfl h0
  | succ n => rfl

/-- Before the first point the invariant is the class's. -/
theorem PhiS_zero (c : Dev nD) (n : ℕ) (h : n ≤ cfg3.N) (hz : n = 0) : PhiS V c n h = Pipeline.ΦA spec3 c := by
  subst hz; rfl

/-- After point `n` (before point `n + 1`): the carried scratch at that point's contents. -/
theorem PhiS_succ (c : Dev nD) (n : ℕ) (hn : n < cfg3.N) :
    PhiS V c (n + 1) hn = iprop(owns (c : Thread nD τ) scM fullShare (acc V c n hn) ∗ rest (F := F) c ∗ ∃ r, prngReg c r) := rfl

/-- Before a point that is not the first: the carried scratch at what the point before left. -/
theorem PhiS_pos (c : Dev nD) (n : ℕ) (h : n ≤ cfg3.N) (hz : n ≠ 0) :
    PhiS V c n h = iprop(owns (c : Thread nD τ) scM fullShare (acc V c (n - 1) (by omega)) ∗ rest (F := F) c ∗ ∃ r, prngReg c r) := by
  cases n with
  | zero => exact absurd rfl hz
  | succ n => rfl

/-- The invariant at a point's start, restated at the point's position. -/
theorem Phi_castSucc (c : Dev nD) (t : Fin cfg3.N) :
    (dat V c).Φ t.castSucc = PhiS V c t.val (Nat.le_of_lt t.isLt) := by
  dsimp only [dat]; simp only [Fin.coe_castSucc]

/-! ## The body obligation, at a generic point -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg3.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 2000000 in
/-- The body at any point, by cases on the point (first, last, between — the conditions' closed forms say which): the
    inputs' memrefs hold their blocks; the invariant hands the body the carried scratch at what the point before left
    (at anything at the first point) and takes it back at this point's contents, the other scoped buffers and the
    generator register passing through untouched; the output's buffer is handed back as found except at the last
    point, where it receives the accumulated total; the core owes nothing throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  have hN : t.val < 32 := lt_of_lt_of_eq t.isLt (show cfg3.N = 32 from N_3)
  by_cases h0 : t.val = 0
  · have hc1 : cond1 (grid3.coords t) := (hcond1 t).mpr h0
    have hc2 : ¬cond2 (grid3.coords t) := fun h => by have := (hcond2 t).mp h; omega
    rw [Dat.leavesExact_idle (dat V c) 3 t (idleAt_3 t hc2) (noFlush_3 t hc2)]
    rw [acc_first V c t h0, Phi_castSucc, PhiS_zero V c _ _ h0, PhiA_eq]
    iintro ⟨⟨⟨HS, HR⟩, Hg⟩, Ho, ⟨%d0, H0⟩, ⟨%d1, H1⟩, ⟨%d2, H2⟩, H3⟩
    iapply (sound_kernel_first c Set.univ (grid3.coords t) _ _ _ _ _ _ _ _ hc1 hc2 (iblk V c 0 t) (iblk V c 1 t) (iblk V c 2 t) _)
    isplitl [H0]; · iexact H0
    isplitl [H1]; · iexact H1
    isplitl [H2]; · iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexact H3
  · have hc1 : ¬cond1 (grid3.coords t) := fun h => h0 ((hcond1 t).mp h)
    rw [acc_later V c t h0, Phi_castSucc, PhiS_pos V c _ _ h0]
    by_cases h31 : t.val = 31
    · have hc2 : cond2 (grid3.coords t) := (hcond2 t).mpr h31
      rw [show (dat V c).leavesExact 3 t = owns (c : Thread nD τ) (ms_3 t) fullShare ((dat V c).after 3 t) from by
        unfold Dat.leavesExact; rw [liveAt_3 t hc2], after_3, acc_later V c t h0]
      iintro ⟨⟨HS, HR, Hg⟩, Ho, ⟨%d0, H0⟩, ⟨%d1, H1⟩, ⟨%d2, H2⟩, ⟨%d3, H3⟩⟩
      iapply (sound_kernel_last c Set.univ (grid3.coords t) _ _ _ _ _ _ _ _ hc1 hc2 (iblk V c 0 t) (iblk V c 1 t) (iblk V c 2 t) _ _)
      isplitl [H0]; · iexact H0
      isplitl [H1]; · iexact H1
      isplitl [H2]; · iexact H2
      isplitl [HS]; · iexact HS
      isplitl [H3]; · iexists _; iexact H3
      iintro ⟨H0, H1, H2, HS, H3⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · have hc2 : ¬cond2 (grid3.coords t) := fun h => h31 ((hcond2 t).mp h)
      rw [Dat.leavesExact_idle (dat V c) 3 t (idleAt_3 t hc2) (noFlush_3 t hc2)]
      iintro ⟨⟨HS, HR, Hg⟩, Ho, ⟨%d0, H0⟩, ⟨%d1, H1⟩, ⟨%d2, H2⟩, H3⟩
      iapply (sound_kernel_mid c Set.univ (grid3.coords t) _ _ _ _ _ _ _ _ hc1 hc2 (iblk V c 0 t) (iblk V c 1 t) (iblk V c 2 t) _ _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3

/-! ## The interface -/

/-- The invariant before the first point is the class's. -/
theorem Phi_zero (c : Dev nD) : (dat V c).Φ 0 = Pipeline.ΦA spec3 c := rfl

/-- After the last point the invariant gives the class's back: the carried scratch's named contents are forgotten. -/
theorem Phi_last (c : Dev nD) : (dat V c).Φ (Fin.last _) ⊢ Pipeline.ΦA spec3 c := by
  rw [show (dat V c).Φ (Fin.last _) = PhiS V c (Fin.last cfg3.N).val (Nat.le_of_lt_succ (Fin.last cfg3.N).isLt) from rfl,
    PhiS_pos V c _ _ (by rw [Fin.val_last]; have : cfg3.N = 32 := N_3; omega), PhiA_eq]
  iintro ⟨HS, HR, Hg⟩
  isplitl [HS HR]
  · isplitl [HS]
    · iexists _; iexact HS
    iexact HR
  iexact Hg

/-- The library's body obligation, at every point. -/
theorem body_obligation (c : Dev nD) : BodyObligation (dat (F := F) V c) (defs₀ (F := F)) Variants.none () Set.univ := fun t => by
  rw [bigSep_W3, bigSep_W3]
  exact sound_body V c t

end Cert.KernelIdeal.R3

end
-- ==== Proof.Segs.lean ====
/- The kernel program's run as @main's items in order: host stretches and the four pipelined regions.
   Between two items every unscoped buffer of a core is held at named contents: the launch memory, then
   each host stretch's operations applied, then, after a region, its output arrays at what the pipeline's
   write-backs leave (the proof data's arrays after the last grid point) and every other buffer as it was.
   Each region is entered with its arrays split out of those buffers and left with them put back; the
   generator register and the core's (empty) debts ride along. -/
import proofs.«408955_j56530359550020_1_alg».proof.Proof.Gen.KernelIdeal.Regions
import proofs.«408955_j56530359550020_1_alg».proof.Proof.Region0
import proofs.«408955_j56530359550020_1_alg».proof.Proof.Region1
import proofs.«408955_j56530359550020_1_alg».proof.Proof.Region2
import proofs.«408955_j56530359550020_1_alg».proof.Proof.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Segs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the regions leave, region by region -/

/-- Region 0's output array (the first matrix product) after its last grid point, entered from the
    contents after the first host stretch. -/
def o2 (c : Dev nD) : Buf (Elt F) ((c : Thread nD τ).loc main_v7) :=
  (R0.dat (fun c b => V1 m c b) c).arrAt 2 cfg0.N

/-- The regions' outputs known so far: region 0's. -/
def outsA : Outs (F := F) := fun n r c =>
  if h : n = 2 ∧ r = main_v7 then h.2 ▸ o2 m c else V0 m c r

theorem outsA_2 (c : Dev nD) : outsA m 2 main_v7 c = o2 m c := by
  unfold outsA; rw [dif_pos ⟨rfl, rfl⟩]

/-- Region 1's output array (the second matrix product). -/
def o5 (c : Dev nD) : Buf (Elt F) ((c : Thread nD τ).loc main_v45) :=
  (R1.dat (fun c b => V4 m (outsA m) c b) c).arrAt 2 cfg1.N

def outsB : Outs (F := F) := fun n r c =>
  if h : n = 5 ∧ r = main_v45 then h.2 ▸ o5 m c else outsA m n r c

theorem outsB_2 (c : Dev nD) : outsB m 2 main_v7 c = o2 m c := by
  unfold outsB; rw [dif_neg (by decide)]; exact outsA_2 m c
theorem outsB_5 (c : Dev nD) : outsB m 5 main_v45 c = o5 m c := by
  unfold outsB; rw [dif_pos ⟨rfl, rfl⟩]

/-- Region 2's two output arrays: the normalised rows and their column sums. -/
def o7a (c : Dev nD) : Buf (Elt F) ((c : Thread nD τ).loc main_v82_0) :=
  (R2.dat (fun c b => V6 m (outsB m) c b) c).arrAt 1 cfg2.N
def o7b (c : Dev nD) : Buf (Elt F) ((c : Thread nD τ).loc main_v82_1) :=
  (R2.dat (fun c b => V6 m (outsB m) c b) c).arrAt 2 cfg2.N

def outsC : Outs (F := F) := fun n r c =>
  if h : n = 7 ∧ r = main_v82_0 then h.2 ▸ o7a m c
  else if h : n = 7 ∧ r = main_v82_1 then h.2 ▸ o7b m c else outsB m n r c

theorem outsC_2 (c : Dev nD) : outsC m 2 main_v7 c = o2 m c := by
  unfold outsC; rw [dif_neg (by decide), dif_neg (by decide)]; exact outsB_2 m c
theorem outsC_5 (c : Dev nD) : outsC m 5 main_v45 c = o5 m c := by
  unfold outsC; rw [dif_neg (by decide), dif_neg (by decide)]; exact outsB_5 m c
theorem outsC_7a (c : Dev nD) : outsC m 7 main_v82_0 c = o7a m c := by
  unfold outsC; rw [dif_pos ⟨rfl, rfl⟩]
theorem outsC_7b (c : Dev nD) : outsC m 7 main_v82_1 c = o7b m c := by
  unfold outsC; rw [dif_neg (by decide), dif_pos ⟨rfl, rfl⟩]

/-- Region 3's output array: the two accumulated sums. -/
def o11 (c : Dev nD) : Buf (Elt F) ((c : Thread nD τ).loc main_v135) :=
  (R3.dat (fun c b => V10 m (outsC m) c b) c).arrAt 3 cfg3.N

/-- What all four regions leave. -/
def outs : Outs (F := F) := fun n r c =>
  if h : n = 11 ∧ r = main_v135 then h.2 ▸ o11 m c else outsC m n r c

theorem outs_2 (c : Dev nD) : outs m 2 main_v7 c = o2 m c := by
  unfold outs; rw [dif_neg (by decide)]; exact outsC_2 m c
theorem outs_5 (c : Dev nD) : outs m 5 main_v45 c = o5 m c := by
  unfold outs; rw [dif_neg (by decide)]; exact outsC_5 m c
theorem outs_7a (c : Dev nD) : outs m 7 main_v82_0 c = o7a m c := by
  unfold outs; rw [dif_neg (by decide)]; exact outsC_7a m c
theorem outs_7b (c : Dev nD) : outs m 7 main_v82_1 c = o7b m c := by
  unfold outs; rw [dif_neg (by decide)]; exact outsC_7b m c
theorem outs_11 (c : Dev nD) : outs m 11 main_v135 c = o11 m c := by
  unfold outs; rw [dif_pos ⟨rfl, rfl⟩]

/-! ## The contents between items depend on the regions' outputs only where they are read -/

theorem V4_congr (o o' : Outs (F := F)) (c : Dev nD) (h2 : o 2 main_v7 c = o' 2 main_v7 c) : V4 m o c = V4 m o' c := by
  show StableHlo.after hostOps1_1 (StableHlo.after hostOps1 (Function.update (V1 m c) main_v7 (o 2 main_v7 c))) = StableHlo.after hostOps1_1 (StableHlo.after hostOps1 (Function.update (V1 m c) main_v7 (o' 2 main_v7 c)))
  rw [h2]
theorem V6_congr (o o' : Outs (F := F)) (c : Dev nD) (h2 : o 2 main_v7 c = o' 2 main_v7 c) (h5 : o 5 main_v45 c = o' 5 main_v45 c) :
    V6 m o c = V6 m o' c := by
  show StableHlo.after hostOps2 (Function.update (V4 m o c) main_v45 (o 5 main_v45 c)) = StableHlo.after hostOps2 (Function.update (V4 m o' c) main_v45 (o' 5 main_v45 c))
  rw [V4_congr m o o' c h2, h5]
theorem V10_congr (o o' : Outs (F := F)) (c : Dev nD) (h2 : o 2 main_v7 c = o' 2 main_v7 c) (h5 : o 5 main_v45 c = o' 5 main_v45 c)
    (h7a : o 7 main_v82_0 c = o' 7 main_v82_0 c) (h7b : o 7 main_v82_1 c = o' 7 main_v82_1 c) : V10 m o c = V10 m o' c := by
  show StableHlo.after hostOps3_2 (StableHlo.after hostOps3_1 (StableHlo.after hostOps3 (Function.update (Function.update (V6 m o c) main_v82_0 (o 7 main_v82_0 c)) main_v82_1 (o 7 main_v82_1 c))))
    = StableHlo.after hostOps3_2 (StableHlo.after hostOps3_1 (StableHlo.after hostOps3 (Function.update (Function.update (V6 m o' c) main_v82_0 (o' 7 main_v82_0 c)) main_v82_1 (o' 7 main_v82_1 c))))
  rw [V6_congr m o o' c h2 h5, h7a, h7b]

theorem V4_outs (c : Dev nD) : V4 m (outs m) c = V4 m (outsA m) c :=
  V4_congr m _ _ c ((outs_2 m c).trans (outsA_2 m c).symm)
theorem V6_outs (c : Dev nD) : V6 m (outs m) c = V6 m (outsB m) c :=
  V6_congr m _ _ c ((outs_2 m c).trans (outsB_2 m c).symm) ((outs_5 m c).trans (outsB_5 m c).symm)
theorem V10_outs (c : Dev nD) : V10 m (outs m) c = V10 m (outsC m) c :=
  V10_congr m _ _ c ((outs_2 m c).trans (outsC_2 m c).symm) ((outs_5 m c).trans (outsC_5 m c).symm)
    ((outs_7a m c).trans (outsC_7a m c).symm) ((outs_7b m c).trans (outsC_7b m c).symm)

/-! ## The proof data family and what rides beside the buffers -/

/-- No pipeline has a prefetched table. -/
abbrev adm : (p : Fin 4) → (pcfgs (F := F) p).Adm := fun p => (cfgs p).toPCfg_adm

/-- Every pipeline's proof data, each at its region's entry contents. -/
def pdats : (p : Fin 4) → (c : Dev nD) → Dat τ (Elt F) Unit ℕ (UR sig nD τ) ℕ (cfgs p) c
  | ⟨0, _⟩ => fun c => R0.dat (fun c b => V1 m c b) c
  | ⟨1, _⟩ => fun c => R1.dat (fun c b => V4 m (outsA m) c b) c
  | ⟨2, _⟩ => fun c => R2.dat (fun c b => V6 m (outsB m) c b) c
  | ⟨3, _⟩ => fun c => R3.dat (fun c b => V10 m (outsC m) c b) c

abbrev 𝒱₀ : Variants := Variants.none
abbrev L : GSem nD τ sig → Finset Unit := fun _ => ∅
abbrev lv : GSem nD τ sig → Unit → ℕ := fun _ _ => 0

/-- Beside the buffers through every item: the generator register at some state and the core owing nothing. -/
abbrev R (c : Dev nD) : sProp 𝕄 := iprop((∃ r, prngReg c r) ∗ ∃ W, owes (c : Thread nD τ) (0 : CellTallies nD τ sig Unit) W)

/-! ## Region 0 -/

theorem hA0 (c : Dev nD) (w : Fin cfg0.W) : (pdats m 0 c).A w = V1 m c (Pipeline.arrRef spec0 w) :=
  R0.A_eq (fun c b => V1 m c b) c w

theorem hF0 (c : Dev nD) (w : Fin cfg0.W) : (pdats m 0 c).arrAt w cfg0.N = V2 m (outs m) c (Pipeline.arrRef spec0 w) := by
  match w with
  | ⟨0, _⟩ =>
    exact ((pdats m 0 c).arrAt_in 0 rfl cfg0.N).trans ((R0.A_eq (fun c b => V1 m c b) c 0).trans (V2_of m (outs m) c main_arg0 (by decide)).symm)
  | ⟨1, _⟩ =>
    exact ((pdats m 0 c).arrAt_in 1 rfl cfg0.N).trans ((R0.A_eq (fun c b => V1 m c b) c 1).trans (V2_of m (outs m) c main_arg2 (by decide)).symm)
  | ⟨2, _⟩ =>
    show o2 m c = Function.update (V1 m c) main_v7 (outs m 2 main_v7 c) main_v7
    rw [Function.update_self, outs_2]

theorem hrest0 (c : Dev nD) : ∀ b : Ref sig .tc, b ∉ Finset.univ.image (Pipeline.arrRef spec0) → V2 m (outs m) c b = V1 m c b := by
  intro b hb
  refine V2_of m (outs m) c b ?_
  intro h
  rw [List.mem_singleton] at h
  exact hb (Finset.mem_image.mpr ⟨2, Finset.mem_univ _, h.symm⟩)

/-! ## Region 1 -/

theorem hA1 (c : Dev nD) (w : Fin cfg1.W) : (pdats m 1 c).A w = V4 m (outs m) c (Pipeline.arrRef spec1 w) :=
  (R1.A_eq (fun c b => V4 m (outsA m) c b) c w).trans (by rw [V4_outs])

theorem hF1 (c : Dev nD) (w : Fin cfg1.W) : (pdats m 1 c).arrAt w cfg1.N = V5 m (outs m) c (Pipeline.arrRef spec1 w) := by
  match w with
  | ⟨0, _⟩ =>
    exact ((pdats m 1 c).arrAt_in 0 rfl cfg1.N).trans ((hA1 m c 0).trans (V5_of m (outs m) c main_v44 (by decide)).symm)
  | ⟨1, _⟩ =>
    exact ((pdats m 1 c).arrAt_in 1 rfl cfg1.N).trans ((hA1 m c 1).trans (V5_of m (outs m) c main_arg4 (by decide)).symm)
  | ⟨2, _⟩ =>
    show o5 m c = Function.update (V4 m (outs m) c) main_v45 (outs m 5 main_v45 c) main_v45
    rw [Function.update_self, outs_5]

theorem hrest1 (c : Dev nD) : ∀ b : Ref sig .tc, b ∉ Finset.univ.image (Pipeline.arrRef spec1) → V5 m (outs m) c b = V4 m (outs m) c b := by
  intro b hb
  refine V5_of m (outs m) c b ?_
  intro h
  rw [List.mem_singleton] at h
  exact hb (Finset.mem_image.mpr ⟨2, Finset.mem_univ _, h.symm⟩)

/-! ## Region 2 -/

theorem hA2 (c : Dev nD) (w : Fin cfg2.W) : (pdats m 2 c).A w = V6 m (outs m) c (Pipeline.arrRef spec2 w) :=
  (R2.A_eq (fun c b => V6 m (outsB m) c b) c w).trans (by rw [V6_outs])

theorem hF2 (c : Dev nD) (w : Fin cfg2.W) : (pdats m 2 c).arrAt w cfg2.N = V7 m (outs m) c (Pipeline.arrRef spec2 w) := by
  match w with
  | ⟨0, _⟩ =>
    exact ((pdats m 2 c).arrAt_in 0 rfl cfg2.N).trans ((hA2 m c 0).trans (V7_of m (outs m) c main_v81 (by decide)).symm)
  | ⟨1, _⟩ =>
    show o7a m c = Function.update (Function.update (V6 m (outs m) c) main_v82_0 (outs m 7 main_v82_0 c)) main_v82_1 (outs m 7 main_v82_1 c) main_v82_0
    rw [Function.update_of_ne (by decide), Function.update_self, outs_7a]
  | ⟨2, _⟩ =>
    show o7b m c = Function.update (Function.update (V6 m (outs m) c) main_v82_0 (outs m 7 main_v82_0 c)) main_v82_1 (outs m 7 main_v82_1 c) main_v82_1
    rw [Function.update_self, outs_7b]

theorem hrest2 (c : Dev nD) : ∀ b : Ref sig .tc, b ∉ Finset.univ.image (Pipeline.arrRef spec2) → V7 m (outs m) c b = V6 m (outs m) c b := by
  intro b hb
  refine V7_of m (outs m) c b ?_
  intro h
  rw [List.mem_cons, List.mem_singleton] at h
  rcases h with h | h
  · exact hb (Finset.mem_image.mpr ⟨1, Finset.mem_univ _, h.symm⟩)
  · exact hb (Finset.mem_image.mpr ⟨2, Finset.mem_univ _, h.symm⟩)

/-! ## Region 3 -/

theorem hA3 (c : Dev nD) (w : Fin cfg3.W) : (pdats m 3 c).A w = V10 m (outs m) c (Pipeline.arrRef spec3 w) :=
  (R3.A_eq (fun c b => V10 m (outsC m) c b) c w).trans (by rw [V10_outs])

theorem hF3 (c : Dev nD) (w : Fin cfg3.W) : (pdats m 3 c).arrAt w cfg3.N = V11 m (outs m) c (Pipeline.arrRef spec3 w) := by
  match w with
  | ⟨0, _⟩ =>
    exact ((pdats m 3 c).arrAt_in 0 rfl cfg3.N).trans ((hA3 m c 0).trans (V11_of m (outs m) c main_v127 (by decide)).symm)
  | ⟨1, _⟩ =>
    exact ((pdats m 3 c).arrAt_in 1 rfl cfg3.N).trans ((hA3 m c 1).trans (V11_of m (outs m) c main_v134 (by decide)).symm)
  | ⟨2, _⟩ =>
    exact ((pdats m 3 c).arrAt_in 2 rfl cfg3.N).trans ((hA3 m c 2).trans (V11_of m (outs m) c main_v120 (by decide)).symm)
  | ⟨3, _⟩ =>
    show o11 m c = Function.update (V10 m (outs m) c) main_v135 (outs m 11 main_v135 c) main_v135
    rw [Function.update_self, outs_11]

theorem hrest3 (c : Dev nD) : ∀ b : Ref sig .tc, b ∉ Finset.univ.image (Pipeline.arrRef spec3) → V11 m (outs m) c b = V10 m (outs m) c b := by
  intro b hb
  refine V11_of m (outs m) c b ?_
  intro h
  rw [List.mem_singleton] at h
  exact hb (Finset.mem_image.mpr ⟨3, Finset.mem_univ _, h.symm⟩)

/-! ## Each region's entry and exit contents, and its invariant at the two ends, under one set of names -/

abbrev ent0 (c : Dev nD) : Valuation τ sig (Elt F) := V1 m c
abbrev ex0 (c : Dev nD) : Valuation τ sig (Elt F) := V2 m (outs m) c
abbrev datV0 : (c : Dev nD) → (b : Ref sig .tc) → Buf (Elt F) ((c : Thread nD τ).loc b) := fun c b => V1 m c b
theorem phi0_0 (c : Dev nD) : (pdats m 0 c).Φ 0 = Pipeline.ΦA spec0 c := rfl
theorem phiL_0 (c : Dev nD) : (pdats m 0 c).Φ (Fin.last _) ⊢ Pipeline.ΦA spec0 c := .rfl

abbrev ent1 (c : Dev nD) : Valuation τ sig (Elt F) := V4 m (outs m) c
abbrev ex1 (c : Dev nD) : Valuation τ sig (Elt F) := V5 m (outs m) c
abbrev datV1 : (c : Dev nD) → (b : Ref sig .tc) → Buf (Elt F) ((c : Thread nD τ).loc b) := fun c b => V4 m (outsA m) c b
theorem phi0_1 (c : Dev nD) : (pdats m 1 c).Φ 0 = Pipeline.ΦA spec1 c := rfl
theorem phiL_1 (c : Dev nD) : (pdats m 1 c).Φ (Fin.last _) ⊢ Pipeline.ΦA spec1 c := .rfl

abbrev ent2 (c : Dev nD) : Valuation τ sig (Elt F) := V6 m (outs m) c
abbrev ex2 (c : Dev nD) : Valuation τ sig (Elt F) := V7 m (outs m) c
abbrev datV2 : (c : Dev nD) → (b : Ref sig .tc) → Buf (Elt F) ((c : Thread nD τ).loc b) := fun c b => V6 m (outsB m) c b
theorem phi0_2 (c : Dev nD) : (pdats m 2 c).Φ 0 = Pipeline.ΦA spec2 c := R2.Phi_zero (fun c b => V6 m (outsB m) c b) c
theorem phiL_2 (c : Dev nD) : (pdats m 2 c).Φ (Fin.last _) ⊢ Pipeline.ΦA spec2 c := R2.Phi_last (fun c b => V6 m (outsB m) c b) c

abbrev ent3 (c : Dev nD) : Valuation τ sig (Elt F) := V10 m (outs m) c
abbrev ex3 (c : Dev nD) : Valuation τ sig (Elt F) := V11 m (outs m) c
abbrev datV3 : (c : Dev nD) → (b : Ref sig .tc) → Buf (Elt F) ((c : Thread nD τ).loc b) := fun c b => V10 m (outsC m) c b
theorem phi0_3 (c : Dev nD) : (pdats m 3 c).Φ 0 = Pipeline.ΦA spec3 c := R3.Phi_zero (fun c b => V10 m (outsC m) c b) c
theorem phiL_3 (c : Dev nD) : (pdats m 3 c).Φ (Fin.last _) ⊢ Pipeline.ΦA spec3 c := R3.Phi_last (fun c b => V10 m (outsC m) c b) c

end Cert.KernelIdeal.Segs

end
-- ==== Proof.SegR0.lean ====
/- Region 0 of the kernel program as an item of @main's run: entered with every unscoped buffer of the
   core held at the contents the item before left, its windows' arrays split out and handed to the pipeline,
   and left with those arrays put back at what the pipeline's write-backs made of them; the generator
   register goes into the pipeline's invariant and comes back, and the core owes nothing throughout. -/
import proofs.«408955_j56530359550020_1_alg».proof.Proof.Segs

set_option maxRecDepth 16384

noncomputable section

namespace Cert.KernelIdeal.Segs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (datV0 m) c).loose
  hwaits := Pipeline.hwaits_of_owed_zero _ _ _ _ L lv 0 fun _ _ => rfl
  pre c := iprop(StableHlo.held (c : Thread nD τ) (Pipeline.ucRefs τ sig) (ent0 m c) ∗ R c)
  post c := iprop(StableHlo.held (c : Thread nD τ) (Pipeline.ucRefs τ sig) (ex0 m c) ∗ R c)
  X c := iprop(∃ r, prngReg c r)
  Y c := iprop(∃ r, prngReg c r)
  Z c := Pipeline.unscopedRest (Ix := Unit) (Name := ℕ) (U := UR sig nD τ) (Lvl := ℕ) spec0 c (fun b => ent0 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => ent0 m c b) (hA0 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [phi0_0 m c]; unfold Pipeline.ΦA
    iintro ⟨Hp, -, Hr⟩
    isplitl [Hr]; · iexact Hr
    iexact Hp
  hout c := by
    refine (phiL_0 m c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => ent0 m c b) (fun b => ex0 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Segs

end
-- ==== Proof.SegR1.lean ====
/- Region 1 of the kernel program as an item of @main's run: entered with every unscoped buffer of the
   core held at the contents the item before left, its windows' arrays split out and handed to the pipeline,
   and left with those arrays put back at what the pipeline's write-backs made of them; the generator
   register goes into the pipeline's invariant and comes back, and the core owes nothing throughout. -/
import proofs.«408955_j56530359550020_1_alg».proof.Proof.Segs

set_option maxRecDepth 16384

noncomputable section

namespace Cert.KernelIdeal.Segs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (datV1 m) c).loose
  hwaits := Pipeline.hwaits_of_owed_zero _ _ _ _ L lv 1 fun _ _ => rfl
  pre c := iprop(StableHlo.held (c : Thread nD τ) (Pipeline.ucRefs τ sig) (ent1 m c) ∗ R c)
  post c := iprop(StableHlo.held (c : Thread nD τ) (Pipeline.ucRefs τ sig) (ex1 m c) ∗ R c)
  X c := iprop(∃ r, prngReg c r)
  Y c := iprop(∃ r, prngReg c r)
  Z c := Pipeline.unscopedRest (Ix := Unit) (Name := ℕ) (U := UR sig nD τ) (Lvl := ℕ) spec1 c (fun b => ent1 m c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => ent1 m c b) (hA1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [phi0_1 m c]; unfold Pipeline.ΦA
    iintro ⟨Hp, -, Hr⟩
    isplitl [Hr]; · iexact Hr
    iexact Hp
  hout c := by
    refine (phiL_1 m c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => ent1 m c b) (fun b => ex1 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Segs

end
-- ==== Proof.SegR2.lean ====
/- Region 2 of the kernel program as an item of @main's run: entered with every unscoped buffer of the
   core held at the contents the item before left, its windows' arrays split out and handed to the pipeline,
   and left with those arrays put back at what the pipeline's write-backs made of them; the generator
   register goes into the pipeline's invariant and comes back, and the core owes nothing throughout. -/
import proofs.«408955_j56530359550020_1_alg».proof.Proof.Segs

set_option maxRecDepth 16384

noncomputable section

namespace Cert.KernelIdeal.Segs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (datV2 m) c).loose
  hwaits := Pipeline.hwaits_of_owed_zero _ _ _ _ L lv 2 fun _ _ => rfl
  pre c := iprop(StableHlo.held (c : Thread nD τ) (Pipeline.ucRefs τ sig) (ent2 m c) ∗ R c)
  post c := iprop(StableHlo.held (c : Thread nD τ) (Pipeline.ucRefs τ sig) (ex2 m c) ∗ R c)
  X c := iprop(∃ r, prngReg c r)
  Y c := iprop(∃ r, prngReg c r)
  Z c := Pipeline.unscopedRest (Ix := Unit) (Name := ℕ) (U := UR sig nD τ) (Lvl := ℕ) spec2 c (fun b => ent2 m c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => ent2 m c b) (hA2 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [phi0_2 m c]; unfold Pipeline.ΦA
    iintro ⟨Hp, -, Hr⟩
    isplitl [Hr]; · iexact Hr
    iexact Hp
  hout c := by
    refine (phiL_2 m c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => ent2 m c b) (fun b => ex2 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Segs

end
-- ==== Proof.SegR3.lean ====
/- Region 3 of the kernel program as an item of @main's run: entered with every unscoped buffer of the
   core held at the contents the item before left, its windows' arrays split out and handed to the pipeline,
   and left with those arrays put back at what the pipeline's write-backs made of them; the generator
   register goes into the pipeline's invariant and comes back, and the core owes nothing throughout. -/
import proofs.«408955_j56530359550020_1_alg».proof.Proof.Segs

set_option maxRecDepth 16384

noncomputable section

namespace Cert.KernelIdeal.Segs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (R3.body_obligation (datV3 m) c).loose
  hwaits := Pipeline.hwaits_of_owed_zero _ _ _ _ L lv 3 fun _ _ => rfl
  pre c := iprop(StableHlo.held (c : Thread nD τ) (Pipeline.ucRefs τ sig) (ent3 m c) ∗ R c)
  post c := iprop(StableHlo.held (c : Thread nD τ) (Pipeline.ucRefs τ sig) (ex3 m c) ∗ R c)
  X c := iprop(∃ r, prngReg c r)
  Y c := iprop(∃ r, prngReg c r)
  Z c := Pipeline.unscopedRest (Ix := Unit) (Name := ℕ) (U := UR sig nD τ) (Lvl := ℕ) spec3 c (fun b => ent3 m c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => ent3 m c b) (hA3 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [phi0_3 m c]; unfold Pipeline.ΦA
    iintro ⟨Hp, -, Hr⟩
    isplitl [Hr]; · iexact Hr
    iexact Hp
  hout c := by
    refine (phiL_3 m c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => ent3 m c b) (fun b => ex3 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Segs

end
-- ==== Proof.Frame.lean ====
/- The kernel program's frame: from any memory with zero counters every weakly fair execution of @main
   terminates without a fault and leaves the six argument arrays as launched. The host stretches and the
   chaining of @main's items are the generated conditional frame's; supplied here are the four regions'
   records, the launch's ghost state (nothing owed, no level assigned) and what rides beside the buffers. -/
import proofs.«408955_j56530359550020_1_alg».proof.Proof.SegR0
import proofs.«408955_j56530359550020_1_alg».proof.Proof.SegR1
import proofs.«408955_j56530359550020_1_alg».proof.Proof.SegR2
import proofs.«408955_j56530359550020_1_alg».proof.Proof.SegR3

set_option maxRecDepth 16384

noncomputable section

namespace Cert.KernelIdeal.Segs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost state is the cells' and the duty tokens', nothing else. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- On one core: the launch's semaphores and credit are dropped, the register and the empty debt kept. -/
theorem launch_rest_core (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄)
      ⊢ (R (F := F) c : sProp 𝕄) := by
  iintro ⟨-, HO, -, Hp, -⟩
  isplitl [Hp]; · iexists _; iexact Hp
  iexists ∅; iexact HO

/-- What the launch deals a core beside its buffers gives the register at some state and nothing owed. -/
theorem launch_rest :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  have hm : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => R (F := F) c) : sProp 𝕄) :=
    bigSep_mono fun c _ => launch_rest_core ρ c
  iintro ⟨H, -⟩
  imodintro
  iapply hm
  iexact H

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m (EP := emb₁) (ι := ()) (𝒱₀ := 𝒱₀) (L := L) (lv := lv) (hL := fun _ _ => rfl) (ρ := ρ) (outs := outs m) (pdats := pdats m)
    (O₀ := 0) (G := fun _ => (BI.emp : sProp 𝕄))
    (u₀ := initOf (Pipeline.cells cfgs cellOf_inj) (Pipeline.launchToks cfgs cellOf_inj))
    (hu₀ := launch_ghost)
    (E := fun _ c => R c)
    (hE0 := launch_rest ρ)
    (hE4 := fun c => by iintro ⟨-, HO⟩; iexact HO)
    (R0 := reg0 m) (hpre0 := fun c => .rfl) (hpost0 := fun c => .rfl)
    (R1 := reg1 m) (hpre1 := fun c => .rfl) (hpost1 := fun c => .rfl)
    (R2 := reg2 m) (hpre2 := fun c => .rfl) (hpost2 := fun c => .rfl)
    (R3 := reg3 m) (hpre3 := fun c => .rfl) (hpost3 := fun c => .rfl)

end Cert.KernelIdeal.Segs

end
-- ==== Proof.KernelRun.lean ====
/- The idealized kernel program's run with its result read: the conditional run (its post naming the result
   buffer) at the same records, ghost state and riding resources as the frame. -/
import proofs.«408955_j56530359550020_1_alg».proof.Proof.Frame
import proofs.«408955_j56530359550020_1_alg».proof.Proof.RunValue

set_option maxRecDepth 16384

noncomputable section

namespace Cert.KernelIdeal.Segs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The same run, also reading the result: the program's result buffer ends at the last host stretch's
    value over what the four regions left. -/
theorem run_value : θ_run defs (onTc (τ := τ) (main (F := F))) ⟨m, fun _ => 0, ρ⟩ (fun r => ∀ c : Dev nD,
      r.2.mem ((c.tc : Thread nD τ).loc main_v146) = V12 m (outs m) c main_v146
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Cert.KernelIdeal.RunV.run_cond m (EP := emb₁) (ι := ()) (𝒱₀ := 𝒱₀) (L := L) (lv := lv) (hL := fun _ _ => rfl) (ρ := ρ) (outs := outs m) (pdats := pdats m)
    (O₀ := 0) (G := fun _ => (BI.emp : sProp 𝕄))
    (u₀ := initOf (Pipeline.cells cfgs cellOf_inj) (Pipeline.launchToks cfgs cellOf_inj))
    (hu₀ := launch_ghost)
    (E := fun _ c => R c)
    (hE0 := launch_rest ρ)
    (hE4 := fun c => by iintro ⟨-, HO⟩; iexact HO)
    (R0 := reg0 m) (hpre0 := fun c => .rfl) (hpost0 := fun c => .rfl)
    (R1 := reg1 m) (hpre1 := fun c => .rfl) (hpost1 := fun c => .rfl)
    (R2 := reg2 m) (hpre2 := fun c => .rfl) (hpost2 := fun c => .rfl)
    (R3 := reg3 m) (hpre3 := fun c => .rfl) (hpost3 := fun c => .rfl)

end Cert.KernelIdeal.Segs

end
-- ==== Proof.SpecTotal.lean ====
import Idealize.ShloMosaic.PureOps.Ideal
import Mathlib.Data.EReal.Inv
import Mathlib.Data.EReal.Operations
import Mathlib.Algebra.BigOperators.Group.Finset.Basic
import Mathlib.Algebra.BigOperators.Ring.Finset
import Mathlib.Algebra.Order.BigOperators.Group.Finset
import Mathlib.Analysis.SpecialFunctions.Pow.Real

noncomputable section

namespace Cert.Spec.Total

open Idealize.ShloMosaic
open scoped BigOperators

/-! ### Finite sums of real extended reals

On the extended reals multiplication does not distribute over addition at the infinities
(`⊤ * (1 + (-1)) = 0` while `⊤ * 1 + ⊤ * (-1) = ⊥`). Every identity below is therefore proved
for entries that are (coercions of) real numbers, by pulling the coercion `ℝ → EReal` out of
the sums and products and computing in the field `ℝ`. -/

/-- The coercion `ℝ → EReal` commutes with finite sums (it is an additive monoid map). -/
theorem coe_sum {α : Type} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The sum of all entries of `z zᵀ` is the sum over the columns of the squared column sums:
    `∑ i j k, z i k * z j k = ∑ k, (∑ i, z i k) * (∑ j, z j k)`, for a matrix of real entries. -/
theorem sum_outer_eq {ι κ : Type} [Fintype ι] [Fintype κ] (z : ι → κ → EReal)
    (hz : ∀ i k, ∃ r : ℝ, z i k = (r : EReal)) :
    (∑ i, ∑ j, ∑ k, z i k * z j k) = ∑ k, (∑ i, z i k) * (∑ i, z i k) := by
  choose r hr using hz
  have hzr : z = fun i k => ((r i k : ℝ) : EReal) := by
    funext i k; exact hr i k
  subst hzr
  simp only [← EReal.coe_mul, ← coe_sum]
  congr 1
  -- in `ℝ`: move the sum over `k` outside, then factor the two inner sums.
  calc (∑ i, ∑ j, ∑ k, r i k * r j k)
      = ∑ i, ∑ k, ∑ j, r i k * r j k := by
        refine Finset.sum_congr rfl fun i _ => Finset.sum_comm
    _ = ∑ k, ∑ i, ∑ j, r i k * r j k := Finset.sum_comm
    _ = ∑ k, (∑ i, r i k) * (∑ i, r i k) := by
        refine Finset.sum_congr rfl fun k _ => ?_
        rw [Finset.sum_mul_sum]

/-- An entry of `z zᵀ` (the inner product of two rows of real entries) is a real number. -/
theorem inner_is_real {ι κ : Type} [Fintype κ] (z : ι → κ → EReal)
    (hz : ∀ i k, ∃ r : ℝ, z i k = (r : EReal)) (i j : ι) :
    ∃ r : ℝ, (∑ k, z i k * z j k) = (r : EReal) := by
  choose r hr using hz
  refine ⟨∑ k, r i k * r j k, ?_⟩
  rw [coe_sum]
  refine Finset.sum_congr rfl fun k _ => ?_
  rw [hr i k, hr j k, EReal.coe_mul]

/-! ### The normalised row is always finite -/

/-- A square is nonnegative on the extended reals too: `⊥ * ⊥ = ⊤ * ⊤ = ⊤`. -/
theorem mul_self_nonneg' (x : EReal) : 0 ≤ x * x := by
  induction x using EReal.rec with
  | bot => simp
  | coe r => rw [← EReal.coe_mul]; exact EReal.coe_nonneg.2 (mul_self_nonneg r)
  | top => simp

/-- An extended real is real, or one of the two infinities. -/
theorem real_or_inf (x : EReal) : (∃ r : ℝ, x = (r : EReal)) ∨ x * x = ⊤ := by
  induction x using EReal.rec with
  | bot => right; simp
  | coe r => left; exact ⟨r, rfl⟩
  | top => right; simp

/-- A sum of squares one of which is `⊤` is `⊤`: every summand is `≥ 0`, so no `⊥` enters. -/
theorem sum_sq_eq_top {κ : Type} [Fintype κ] (e : κ → EReal) (k₀ : κ) (h : e k₀ * e k₀ = ⊤) :
    (∑ k, e k * e k) = ⊤ := by
  have hle : e k₀ * e k₀ ≤ ∑ k, e k * e k :=
    Finset.single_le_sum (f := fun k => e k * e k) (fun k _ => mul_self_nonneg' (e k))
      (Finset.mem_univ k₀)
  rw [h] at hle
  exact top_le_iff.1 hle

/-- The coercion `ℝ → EReal` is monotone, so it commutes with `max`. -/
theorem coe_max (a b : ℝ) : ((max a b : ℝ) : EReal) = max (a : EReal) (b : EReal) :=
  EReal.coe_strictMono.monotone.map_max

/-- Dividing by `⊤` gives `0`, whatever the numerator (the inverse of `⊤` is `0`, and
    `x * 0 = 0` for every extended real). -/
theorem div_top (x : EReal) : Ideal.div x ⊤ = 0 := by
  rw [Ideal.div, if_neg (by simp), EReal.inv_top, mul_zero]

/-- The f32 word `0x2B8CBCCC` (the nearest f32 to `1e-12`) denotes the positive real
    `9223372 · 2⁻⁶³`. -/
theorem eps_real : ∃ r : ℝ, 0 < r ∧ Ideal.ofBits .f32 0x2B8CBCCC#32 = (r : EReal) := by
  refine ⟨9223372 * (2 : ℝ) ^ (-63 : ℤ), by positivity, ?_⟩
  simp [Ideal.ofBits, Ideal.ieee, -EReal.coe_mul]

/-- Each entry of a row divided by `max (√(sum of squares)) c`, `c` a positive real, is a real
    number, whatever the row holds. If every entry is real the denominator is a real `≥ c > 0`;
    if some entry is infinite the sum of squares, its root and the maximum are `⊤`, and
    `x / ⊤ = 0`. -/
theorem normalized_real {κ : Type} [Fintype κ] (e : κ → EReal) (c : EReal)
    (hc : ∃ r : ℝ, 0 < r ∧ c = (r : EReal)) (k : κ) :
    ∃ r : ℝ, Ideal.div (e k) (max (Ideal.sqrt (∑ k', e k' * e k')) c) = (r : EReal) := by
  obtain ⟨cr, hcr, rfl⟩ := hc
  by_cases hall : ∀ k', ∃ r : ℝ, e k' = (r : EReal)
  · choose r hr using hall
    have hsum : (∑ k', e k' * e k') = ((∑ k', r k' * r k' : ℝ) : EReal) := by
      rw [coe_sum]
      refine Finset.sum_congr rfl fun k' _ => ?_
      rw [hr k', EReal.coe_mul]
    have hnn : ¬ (∑ k', r k' * r k') < 0 :=
      not_lt.2 (Finset.sum_nonneg fun k' _ => mul_self_nonneg (r k'))
    rw [hsum, Ideal.sqrt_coe, if_neg hnn, ← coe_max]
    have hpos : 0 < max (Real.sqrt (∑ k', r k' * r k')) cr := lt_max_of_lt_right hcr
    rw [Ideal.div_coe hpos.ne', hr k, ← EReal.coe_mul]
    exact ⟨_, rfl⟩
  · obtain ⟨k₀, hk₀⟩ := not_forall.1 hall
    have htop : e k₀ * e k₀ = ⊤ := by
      rcases real_or_inf (e k₀) with hr | h
      · exact absurd hr hk₀
      · exact h
    rw [sum_sq_eq_top e k₀ htop, Ideal.sqrt_top, max_eq_left le_top, div_top]
    exact ⟨0, rfl⟩

/-! ### The instance's names for these operations

At the extended-real instance the kernel's division, the host's division and the scalar unit's
division are one function, `Ideal.div`; both square roots are `Ideal.sqrt`; the maximum is the
order's `max` and the product is EReal's. -/

theorem divf_eq {φ : FTy} (x y : Ideal φ) : FloatOps.divf x y = Ideal.div x y := rfl
theorem hostDivf_eq {φ : FTy} (x y : Ideal φ) : FloatOps.hostDivf x y = Ideal.div x y := rfl
theorem sqrt_eq {φ : FTy} (x : Ideal φ) : FloatOps.sqrt x = Ideal.sqrt x := rfl
theorem hostSqrt_eq {φ : FTy} (x : Ideal φ) : FloatOps.hostUnary .sqrt x = Ideal.sqrt x := rfl
theorem maximumf_eq {φ : FTy} (x y : Ideal φ) : FloatOps.maximumf x y = max x y := rfl
theorem mulf_eq {φ : FTy} (x y : Ideal φ) : FloatOps.mulf x y = x * y := rfl

/-- `normalized_real` spelled with the kernel's operations. -/
theorem normalized_real_kernel {κ : Type} [Fintype κ] {φ : FTy} (e : κ → Ideal φ) (c : Ideal φ)
    (hc : ∃ r : ℝ, 0 < r ∧ c = (r : EReal)) (k : κ) :
    ∃ r : ℝ, FloatOps.divf (e k)
      (FloatOps.maximumf (FloatOps.sqrt (∑ k', FloatOps.mulf (e k') (e k'))) c) = (r : EReal) :=
  normalized_real e c hc k

/-- `normalized_real` spelled with the host's operations. -/
theorem normalized_real_host {κ : Type} [Fintype κ] {φ : FTy} (e : κ → Ideal φ) (c : Ideal φ)
    (hc : ∃ r : ℝ, 0 < r ∧ c = (r : EReal)) (k : κ) :
    ∃ r : ℝ, FloatOps.hostDivf (e k)
      (FloatOps.maximumf (FloatOps.hostUnary .sqrt (∑ k', FloatOps.mulf (e k') (e k'))) c) = (r : EReal) :=
  normalized_real e c hc k

/-- The row normalised against the f32 constant `1e-12` is real. -/
theorem normalized_real_eps {κ : Type} [Fintype κ] (e : κ → EReal) (k : κ) :
    ∃ r : ℝ, Ideal.div (e k)
      (max (Ideal.sqrt (∑ k', e k' * e k')) (Ideal.ofBits .f32 0x2B8CBCCC#32)) = (r : EReal) :=
  normalized_real e _ eps_real k

end Cert.Spec.Total

end
-- ==== Proof.RefStages.lean ====
import proofs.«408955_j56530359550020_1_alg».proof.Proof.Gen.ReferenceIdeal.Read
import proofs.«408955_j56530359550020_1_alg».proof.Proof.SpecTotal
import Idealize.ShloMosaic.Lib.ValueIdx
import Idealize.ShloMosaic.PureOps.Ideal.Laws

noncomputable section

namespace Cert.Bridge.Ref

open Cert.ReferenceIdeal Cert.ReferenceIdeal.Read
open Idealize.ShloMosaic Idealize.ShloMosaic.ValueIdx
open scoped BigOperators

/-! ### The reference, stage by stage, at the extended reals

`E` is the embedding matrix (`12000 × 64`, any extended reals); `Z` its row-normalised form
`Z i k = E i k / max (√(∑ₖ E i k²)) ε`; `S = Z Zᵀ` the similarity matrix; `M` a mask (left
unread); and the result is a scalar function `tailF` of `∑ S·M`, `∑ M` and `∑ S`. -/

variable (x0 : (⟨S12000x128, .f32⟩ : BufTy).Contents (Elt Ideal))
  (x1 : (⟨S2x384000, .i32⟩ : BufTy).Contents (Elt Ideal))
  (x2 : (⟨S128x64, .f32⟩ : BufTy).Contents (Elt Ideal))
  (x3 : (⟨S64, .f32⟩ : BufTy).Contents (Elt Ideal))
  (x4 : (⟨S64x64, .f32⟩ : BufTy).Contents (Elt Ideal))
  (x5 : (⟨S64, .f32⟩ : BufTy).Contents (Elt Ideal))

/-- The normalised matrix at `(i, k)`: the entry of `E` divided by the larger of the row's
    Euclidean norm and `ε`. -/
theorem z_apply (i : Fin 12000) (k : Fin 64) :
    val_main_v86 (F := Ideal) x0 x1 x2 x3 x4 x5 (ix2 i k) =
      Ideal.div (val_main_v81 (F := Ideal) x0 x1 x2 x3 x4 x5 (ix2 i k))
        (max (Ideal.sqrt (∑ k' : Fin 64, val_main_v81 (F := Ideal) x0 x1 x2 x3 x4 x5 (ix2 i k') * val_main_v81 (F := Ideal) x0 x1 x2 x3 x4 x5 (ix2 i k')))
          (Ideal.ofBits .f32 0x2B8CBCCC#32)) := by
  have hrow : ∀ k' : Fin 64,
      idx_main_call1_v1 (idx_main_call1_v2 (idx_main_v85 (ix2 i k))) k' = ix2 i k' := fun k' =>
    funext fun a => Fin.ext (by match a with | ⟨0, _⟩ => rfl | ⟨1, _⟩ => rfl)
  rw [val_main_v86_apply, val_main_v85_apply, val_main_v84_apply, val_main_v82_apply,
    val_main_v83_apply, val_main_cst_16_apply, val_main_call1_v2_apply, val_main_call1_v1_apply,
    val_main_call1_cst_apply]
  simp only [val_main_call1_v0_apply, hrow, Ideal.hostDivf_def, Ideal.maximumf_def,
    Ideal.hostUnary_sqrt_def, Ideal.ofBits_def, Ideal.mulf_def, Ideal.ofBits_zero_f32, zero_add]

/-- Every entry of the normalised matrix is a real number, whatever `E` holds. -/
theorem z_real (i : Fin 12000) (k : Fin 64) :
    ∃ r : ℝ, val_main_v86 (F := Ideal) x0 x1 x2 x3 x4 x5 (ix2 i k) = (r : EReal) := by
  rw [z_apply]
  exact Cert.Spec.Total.normalized_real_eps (fun k' => val_main_v81 (F := Ideal) x0 x1 x2 x3 x4 x5 (ix2 i k')) k

/-- The similarity matrix at `(i, j)` is the inner product of rows `i` and `j` of `Z`. -/
theorem sim_apply (i j : Fin 12000) :
    val_main_v88 (F := Ideal) x0 x1 x2 x3 x4 x5 (ix2 i j) =
      ∑ k : Fin 64, val_main_v86 (F := Ideal) x0 x1 x2 x3 x4 x5 (ix2 i k) * val_main_v86 (F := Ideal) x0 x1 x2 x3 x4 x5 (ix2 j k) := by
  rw [val_main_v88_apply]
  refine Finset.sum_congr rfl fun k _ => ?_
  have hl : lidx_main_v88 (ix2 i j) k = ix2 i k :=
    funext fun a => Fin.ext (by match a with | ⟨0, _⟩ => rfl | ⟨1, _⟩ => rfl)
  have hr : idx_main_v87 (ridx_main_v88 (ix2 i j) k) = ix2 j k :=
    funext fun a => Fin.ext (by match a with | ⟨0, _⟩ => rfl | ⟨1, _⟩ => rfl)
  rw [val_main_v87_apply, hl, hr]

/-- The sum of all entries of the similarity matrix, as a triple sum. -/
theorem total_apply :
    val_main_v112 (F := Ideal) x0 x1 x2 x3 x4 x5 ix0 =
      ∑ i : Fin 12000, ∑ j : Fin 12000, ∑ k : Fin 64,
        val_main_v86 (F := Ideal) x0 x1 x2 x3 x4 x5 (ix2 i k) * val_main_v86 (F := Ideal) x0 x1 x2 x3 x4 x5 (ix2 j k) := by
  rw [val_main_v112_apply, val_main_cst_25_apply, Ideal.ofBits_def, Ideal.ofBits_zero_f32, zero_add,
    sum_idx2]
  exact Finset.sum_congr rfl fun i _ => Finset.sum_congr rfl fun j _ =>
    sim_apply x0 x1 x2 x3 x4 x5 i j

/-- The sum of all entries of `Z Zᵀ` is the sum over the columns of the squared column sums
    (the entries of `Z` are real, so the sums may be exchanged and factored). -/
theorem total_eq :
    val_main_v112 (F := Ideal) x0 x1 x2 x3 x4 x5 ix0 =
      ∑ k : Fin 64, (∑ i : Fin 12000, val_main_v86 (F := Ideal) x0 x1 x2 x3 x4 x5 (ix2 i k)) *
        (∑ i : Fin 12000, val_main_v86 (F := Ideal) x0 x1 x2 x3 x4 x5 (ix2 i k)) := by
  rw [total_apply]
  exact Cert.Spec.Total.sum_outer_eq (fun (i : Fin 12000) (k : Fin 64) => val_main_v86 (F := Ideal) x0 x1 x2 x3 x4 x5 (ix2 i k))
    (fun i k => z_real x0 x1 x2 x3 x4 x5 i k)

/-- The number of masked positions: the sum of all entries of the mask. -/
theorem pos_cnt_apply :
    val_main_v109 (F := Ideal) x1 ix0 = ∑ j : S12000x12000.Idx, val_main_v108 (F := Ideal) x1 j := by
  rw [val_main_v109_apply, val_main_cst_23_apply, Ideal.ofBits_def, Ideal.ofBits_zero_f32, zero_add]

/-- The masked sum of the similarity matrix. -/
theorem pos_sum_apply :
    val_main_v111 (F := Ideal) x0 x1 x2 x3 x4 x5 ix0 =
      ∑ j : S12000x12000.Idx, val_main_v88 (F := Ideal) x0 x1 x2 x3 x4 x5 j * val_main_v108 (F := Ideal) x1 j := by
  rw [val_main_v111_apply, val_main_cst_24_apply, Ideal.ofBits_def, Ideal.ofBits_zero_f32, zero_add]
  rfl

/-- The scalar tail: from the masked sum `ps`, the mask count `pc` and the total `tot`,
    `-(ps / pc) + (tot - ps) / (n · n - pc)` with `n` the f32 constant `12000` (kept as its word),
    each operation the extended reals' own. -/
def tailF (ps pc tot : EReal) : EReal :=
  -(Ideal.div ps pc) +
    Ideal.div (tot - ps)
      (Ideal.ofBits .f32 0x463B8000#32 * Ideal.ofBits .f32 0x463B8000#32 - pc)

/-- `tailF` spelled with the instance's operation names (host negation and division; the kernel's
    `negf` and `divf` are the same functions here). -/
theorem tailF_ops (ps pc tot : EReal) :
    tailF ps pc tot =
      FloatOps.addf (F := Ideal) (φ := .f32)
        (FloatOps.hostNegf (F := Ideal) (φ := .f32) (FloatOps.hostDivf (F := Ideal) (φ := .f32) ps pc))
        (FloatOps.hostDivf (F := Ideal) (φ := .f32) (FloatOps.subf (F := Ideal) (φ := .f32) tot ps)
          (FloatOps.subf (F := Ideal) (φ := .f32)
            (FloatOps.mulf (F := Ideal) (φ := .f32) (FloatOps.ofBits (F := Ideal) .f32 0x463B8000#32)
              (FloatOps.ofBits (F := Ideal) .f32 0x463B8000#32)) pc)) := rfl

/-- The reference's result is the scalar tail of its three sums. -/
theorem result_eq :
    val_main_v119 (F := Ideal) x0 x1 x2 x3 x4 x5 ix0 =
      tailF (val_main_v111 (F := Ideal) x0 x1 x2 x3 x4 x5 ix0) (val_main_v109 (F := Ideal) x1 ix0)
        (val_main_v112 (F := Ideal) x0 x1 x2 x3 x4 x5 ix0) := by
  rw [val_main_v119_apply, val_main_v118_apply, val_main_v117_apply, val_main_v116_apply,
    val_main_v115_apply, val_main_v114_apply, val_main_v113_apply, val_main_cst_26_apply,
    val_main_cst_27_apply]
  rfl

end Cert.Bridge.Ref

end
-- ==== Proof.KernelTail.lean ====
import proofs.«408955_j56530359550020_1_alg».proof.Proof.Gen.KernelIdeal.Regions
import proofs.«408955_j56530359550020_1_alg».proof.Proof.RefStages
import Idealize.ShloMosaic.Lib.StableHlo.Run
import Idealize.ShloMosaic.Lib.Pipeline.Value
import Idealize.ShloMosaic.Lib.ValueIdx

set_option maxRecDepth 16384

noncomputable section

namespace Cert.Bridge.Tail

open Idealize.ShloMosaic Idealize.ShloMosaic.TcCoe Idealize.ShloMosaic.StableHlo
open Idealize.ShloMosaic.ValueIdx Idealize.SL.Sem
open Cert.KernelIdeal Cert.KernelIdeal.Gen

/-! ### The program's last scalar stretch

After the last region the program holds a `1 × 2` array `p` (the masked sum and the mask count) and
the scalar total `t`; its result is `-(p₀ / p₁) + (t - p₀) / (n · n - p₁)`, the same scalar function
`tailF` the reference applies to its three sums. -/

/-- The entry `(0, 0)` of a `1 × 2` array, cut out as a `1 × 1` slice and recast to a scalar. -/
theorem scalar_of_slice0 {α : Type} (x : S1x2.Idx → α) :
    shapeCast S_ (extractStridedSlice S1x1 ![0, 0] x slices_S1x2_S1x1_0_0) shapeCasts_S1x1_S_ ix0
      = x (ix2 0 0) := by
  rw [shapeCast_apply _ shapeCasts_S1x1_S_ ix0 (ix2 0 0) (by decide)]
  exact extractStridedSlice_apply ![0, 0] x slices_S1x2_S1x1_0_0 (ix2 0 0) (ix2 0 0)
    (fun a => match a with | ⟨0, _⟩ => rfl | ⟨1, _⟩ => rfl)

/-- The entry `(0, 1)` of a `1 × 2` array, cut out as a `1 × 1` slice and recast to a scalar. -/
theorem scalar_of_slice1 {α : Type} (x : S1x2.Idx → α) :
    shapeCast S_ (extractStridedSlice S1x1 ![0, 1] x slices_S1x2_S1x1_0_1) shapeCasts_S1x1_S_ ix0
      = x (ix2 0 1) := by
  rw [shapeCast_apply _ shapeCasts_S1x1_S_ ix0 (ix2 0 0) (by decide)]
  exact extractStridedSlice_apply ![0, 1] x slices_S1x2_S1x1_0_1 (ix2 0 0) (ix2 0 1)
    (fun a => match a with | ⟨0, _⟩ => rfl | ⟨1, _⟩ => rfl)

variable (m : (ℓ : Loc nD τ sig) → Buf (Elt Ideal) ℓ) (outs : Outs (F := Ideal))

/-- The last stretch's result over any contents `W` of the buffers before it. -/
theorem tail_fold (W : Valuation τ sig (Elt Ideal)) :
    (StableHlo.after hostOps4 W (Proc.devRef .tc main_v146) : S_.Idx → EReal) ix0 =
      Cert.Bridge.Ref.tailF ((W (Proc.devRef .tc main_v135) : S1x2.Idx → EReal) (ix2 0 0))
        ((W (Proc.devRef .tc main_v135) : S1x2.Idx → EReal) (ix2 0 1))
        ((W (Proc.devRef .tc main_v84) : S_.Idx → EReal) ix0) := by
  after_results
  rw [Cert.Bridge.Ref.tailF_ops,
    ← scalar_of_slice0 (W (Proc.devRef .tc main_v135) : S1x2.Idx → EReal),
    ← scalar_of_slice1 (W (Proc.devRef .tc main_v135) : S1x2.Idx → EReal)]
  rfl

/-- The program's result is the scalar tail of the last region's two outputs and the total. -/
theorem result_apply (c : Dev nD) :
    (V12 m outs c main_v146 : S_.Idx → EReal) ix0 =
      Cert.Bridge.Ref.tailF ((outs 11 main_v135 c : S1x2.Idx → EReal) (ix2 0 0))
        ((outs 11 main_v135 c : S1x2.Idx → EReal) (ix2 0 1))
        ((V10 m outs c main_v84 : S_.Idx → EReal) ix0) := by
  have h135 : V11 m outs c main_v135 = outs 11 main_v135 c := Function.update_self ..
  have h84 : V11 m outs c main_v84 = V10 m outs c main_v84 := V11_of m outs c main_v84 (by decide)
  have h := tail_fold (V11 m outs c)
  rw [h135, h84] at h
  exact h

end Cert.Bridge.Tail

end
-- ==== Proof.HostChain.lean ====
import proofs.«408955_j56530359550020_1_alg».proof.Proof.Gen.KernelIdeal.Regions
import proofs.«408955_j56530359550020_1_alg».proof.Proof.Gen.ReferenceIdeal.Read
import Idealize.ShloMosaic.Lib.StableHlo.Run
import Idealize.ShloMosaic.PureOps.Ideal

noncomputable section

namespace Cert.Bridge.Chain

open Idealize.ShloMosaic Idealize.ShloMosaic.TcCoe Idealize.ShloMosaic.StableHlo
open Cert.KernelIdeal Cert.KernelIdeal.Gen
open Cert.ReferenceIdeal.Read

variable {F : FTy → Type} [FloatOps F]

/-! ## The host stretches over an arbitrary incoming valuation

Each stretch of host operations is read as a fold over a valuation `W` of the buffers it finds. The buffer a stretch
ends on is a nested term of pure operations whose leaves are `W` at the buffers the stretch reads and does not write;
the reference's stage functions unfold to the same nested term over the same leaves, so once the leaves are
identified the two sides are one term, up to the two programs' names for the same literal shapes and dimension
records. No operation's meaning is opened. -/

section Stretch

variable (W : Valuation τ sig (Elt F))

/-- The edge list's source column: the first row of the edge array, flattened, with the self loops `0 … 11999`
    appended. -/
theorem stretch0_src : StableHlo.after hostOps0 W main_v3 = val_main_v3 (F := F) (W main_arg1) := by
  dsimp only [hostOps0]
  after_results
  rfl

/-- The edge list's destination column: the second row of the edge array, flattened, with the self loops appended. -/
theorem stretch0_dst : StableHlo.after hostOps0 W main_v6 = val_main_v6 (F := F) (W main_arg1) := by
  dsimp only [hostOps0]
  after_results
  rfl

set_option maxHeartbeats 400000 in
/-- The first layer's aggregation: degrees by a scatter-add of ones over the destinations, their reciprocal square
    roots gathered at both ends of every edge and multiplied, the projected features gathered at the sources, scaled,
    scatter-added over the destinations, and the bias added. Its leaves are the two edge columns, the projected
    features and the bias. -/
theorem stretch1
    (x0 : (⟨Cert.ReferenceIdeal.S12000x128, .f32⟩ : BufTy).Contents (Elt F))
    (x1 : (⟨Cert.ReferenceIdeal.S2x384000, .i32⟩ : BufTy).Contents (Elt F))
    (x2 : (⟨Cert.ReferenceIdeal.S128x64, .f32⟩ : BufTy).Contents (Elt F))
    (x3 : (⟨Cert.ReferenceIdeal.S64, .f32⟩ : BufTy).Contents (Elt F))
    (h3 : W main_v3 = val_main_v3 (F := F) x1) (h6 : W main_v6 = val_main_v6 (F := F) x1)
    (h7 : W main_v7 = val_main_v7 (F := F) x0 x2) (ha3 : W main_arg3 = x3) :
    StableHlo.after hostOps1 W main_v43 = val_main_v43 (F := F) x0 x1 x2 x3 := by
  dsimp only [hostOps1]
  after_results_simp
  rw [h3, h6, h7, ha3]
  simp only [val_main_v43, val_main_v42, val_main_v41, val_main_v40, val_main_v39, val_main_v38, val_main_cst_6, val_main_v37, val_main_v36, val_main_v35, val_main_v34, val_main_v33, val_main_v32, val_main_v31, val_main_v30, val_main_c_5, val_main_v29, val_main_v28, val_main_c_4, val_main_v27, val_main_v26, val_main_v25, val_main_v24, val_main_v23, val_main_v22, val_main_c_3, val_main_v21, val_main_v20, val_main_c_2, val_main_v19, val_main_v18, val_main_v17, val_main_v16, val_main_v15, val_main_c_1, val_main_v14, val_main_v13, val_main_c, val_main_v12, val_main_v11, val_main_v10, val_main_v9, val_main_cst_0, val_main_v8, val_main_cst]
  rfl

/-- The rectifier between the layers: the maximum with a broadcast zero. -/
theorem stretch1_1
    (x0 : (⟨Cert.ReferenceIdeal.S12000x128, .f32⟩ : BufTy).Contents (Elt F))
    (x1 : (⟨Cert.ReferenceIdeal.S2x384000, .i32⟩ : BufTy).Contents (Elt F))
    (x2 : (⟨Cert.ReferenceIdeal.S128x64, .f32⟩ : BufTy).Contents (Elt F))
    (x3 : (⟨Cert.ReferenceIdeal.S64, .f32⟩ : BufTy).Contents (Elt F))
    (h43 : W main_v43 = val_main_v43 (F := F) x0 x1 x2 x3) :
    StableHlo.after hostOps1_1 W main_v44 = val_main_v44 (F := F) x0 x1 x2 x3 := by
  dsimp only [hostOps1_1]
  after_results
  rw [h43]
  simp only [val_main_v44, val_main_call0_v0, val_main_call0_cst]
  rfl

set_option maxHeartbeats 400000 in
/-- The second layer's aggregation: the same chain as the first layer's over the second projection and the second
    bias. -/
theorem stretch2
    (x0 : (⟨Cert.ReferenceIdeal.S12000x128, .f32⟩ : BufTy).Contents (Elt F))
    (x1 : (⟨Cert.ReferenceIdeal.S2x384000, .i32⟩ : BufTy).Contents (Elt F))
    (x2 : (⟨Cert.ReferenceIdeal.S128x64, .f32⟩ : BufTy).Contents (Elt F))
    (x3 : (⟨Cert.ReferenceIdeal.S64, .f32⟩ : BufTy).Contents (Elt F))
    (x4 : (⟨Cert.ReferenceIdeal.S64x64, .f32⟩ : BufTy).Contents (Elt F))
    (x5 : (⟨Cert.ReferenceIdeal.S64, .f32⟩ : BufTy).Contents (Elt F))
    (h3 : W main_v3 = val_main_v3 (F := F) x1) (h6 : W main_v6 = val_main_v6 (F := F) x1)
    (h45 : W main_v45 = val_main_v45 (F := F) x0 x1 x2 x3 x4) (ha5 : W main_arg5 = x5) :
    StableHlo.after hostOps2 W main_v81 = val_main_v81 (F := F) x0 x1 x2 x3 x4 x5 := by
  dsimp only [hostOps2]
  after_results_simp
  rw [h3, h6, h45, ha5]
  simp only [val_main_v81, val_main_v80, val_main_v79, val_main_v78, val_main_v77, val_main_v76, val_main_cst_15, val_main_v75, val_main_v74, val_main_v73, val_main_v72, val_main_v71, val_main_v70, val_main_v69, val_main_v68, val_main_c_14, val_main_v67, val_main_v66, val_main_c_13, val_main_v65, val_main_v64, val_main_v63, val_main_v62, val_main_v61, val_main_v60, val_main_c_12, val_main_v59, val_main_v58, val_main_c_11, val_main_v57, val_main_v56, val_main_v55, val_main_v54, val_main_v53, val_main_c_10, val_main_v52, val_main_v51, val_main_c_9, val_main_v50, val_main_v49, val_main_v48, val_main_v47, val_main_cst_8, val_main_v46, val_main_cst_7]
  rfl

end Stretch

/-! ## The kernel program's buffers -/

section Kernel

variable (m : (ℓ : Loc nD τ sig) → Buf (Elt F) ℓ) (c : Dev nD) (outs : Outs (F := F))

/-- Region 0's left operand is the first argument as launched. -/
theorem V1_arg0 : V1 m c main_arg0 = m ((c.tc : Thread nD τ).loc main_arg0) := V1_of m c main_arg0 (by decide)
/-- Region 0's right operand is the third argument as launched. -/
theorem V1_arg2 : V1 m c main_arg2 = m ((c.tc : Thread nD τ).loc main_arg2) := V1_of m c main_arg2 (by decide)

/-- The source column the first host stretch leaves. -/
theorem src_eqF : V1 m c main_v3 = val_main_v3 (F := F) (m ((c.tc : Thread nD τ).loc main_arg1)) :=
  stretch0_src (V0 m c)
/-- The destination column the first host stretch leaves. -/
theorem dst_eqF : V1 m c main_v6 = val_main_v6 (F := F) (m ((c.tc : Thread nD τ).loc main_arg1)) :=
  stretch0_dst (V0 m c)

/-- The first layer's output, given that region 0 leaves the first projection. -/
theorem layer1F
    (h7 : outs 2 main_v7 c = val_main_v7 (F := F) (m ((c.tc : Thread nD τ).loc main_arg0)) (m ((c.tc : Thread nD τ).loc main_arg2))) :
    V4 m outs c main_v44 = val_main_v44 (F := F) (m ((c.tc : Thread nD τ).loc main_arg0)) (m ((c.tc : Thread nD τ).loc main_arg1))
      (m ((c.tc : Thread nD τ).loc main_arg2)) (m ((c.tc : Thread nD τ).loc main_arg3)) := by
  refine stretch1_1 (V3 m outs c) _ _ _ _ ?_
  refine stretch1 (V2 m outs c) _ _ _ _ ?_ ?_ ?_ ?_
  · exact (V2_of m outs c main_v3 (by decide)).trans (src_eqF m c)
  · exact (V2_of m outs c main_v6 (by decide)).trans (dst_eqF m c)
  · exact (Function.update_self _ _ _).trans h7
  · exact (V2_of m outs c main_arg3 (by decide)).trans (V1_of m c main_arg3 (by decide))

/-- Region 1's right operand is the fifth argument as launched. -/
theorem V4_arg4 : V4 m outs c main_arg4 = m ((c.tc : Thread nD τ).loc main_arg4) :=
  (V4_of m outs c main_arg4 (by decide)).trans <| (V3_of m outs c main_arg4 (by decide)).trans <|
    (V2_of m outs c main_arg4 (by decide)).trans (V1_of m c main_arg4 (by decide))

/-- The second layer's output, which region 2 reads, given that regions 0 and 1 leave the two projections. -/
theorem layer2F
    (h7 : outs 2 main_v7 c = val_main_v7 (F := F) (m ((c.tc : Thread nD τ).loc main_arg0)) (m ((c.tc : Thread nD τ).loc main_arg2)))
    (h45 : outs 5 main_v45 c = val_main_v45 (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))) :
    V6 m outs c main_v81 = val_main_v81 (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  refine stretch2 (V5 m outs c) _ _ _ _ _ _ ?_ ?_ ?_ ?_
  · exact (V5_of m outs c main_v3 (by decide)).trans <| (V4_of m outs c main_v3 (by decide)).trans <|
      (V3_of m outs c main_v3 (by decide)).trans <| (V2_of m outs c main_v3 (by decide)).trans (src_eqF m c)
  · exact (V5_of m outs c main_v6 (by decide)).trans <| (V4_of m outs c main_v6 (by decide)).trans <|
      (V3_of m outs c main_v6 (by decide)).trans <| (V2_of m outs c main_v6 (by decide)).trans (dst_eqF m c)
  · exact (Function.update_self _ _ _).trans h45
  · exact (V5_of m outs c main_arg5 (by decide)).trans <| (V4_of m outs c main_arg5 (by decide)).trans <|
      (V3_of m outs c main_arg5 (by decide)).trans <| (V2_of m outs c main_arg5 (by decide)).trans (V1_of m c main_arg5 (by decide))

end Kernel

/-! ## The same facts at the ideal floats -/

section AtIdeal

variable (m : (ℓ : Loc nD τ sig) → Buf (Elt Ideal) ℓ) (c : Dev nD) (outs : Outs (F := Ideal))

/-- The source column the first host stretch leaves is the reference's. -/
theorem src_eq : V1 m c main_v3 = val_main_v3 (F := Ideal) (m ((c.tc : Thread nD τ).loc main_arg1)) := src_eqF m c
/-- The destination column the first host stretch leaves is the reference's. -/
theorem dst_eq : V1 m c main_v6 = val_main_v6 (F := Ideal) (m ((c.tc : Thread nD τ).loc main_arg1)) := dst_eqF m c

/-- Region 0 finds its left operand, the node features, as launched. -/
theorem arg0_eq : V1 m c main_arg0 = (m ((c.tc : Thread nD τ).loc main_arg0)) := V1_arg0 m c
/-- Region 0 finds its right operand, the first weight matrix, as launched. -/
theorem arg2_eq : V1 m c main_arg2 = (m ((c.tc : Thread nD τ).loc main_arg2)) := V1_arg2 m c

/-- The first layer's rectified output, region 1's left operand, is the reference's, given that region 0 leaves
    the first projection. -/
theorem layer1
    (h7 : outs 2 main_v7 c = val_main_v7 (F := Ideal) (m ((c.tc : Thread nD τ).loc main_arg0)) (m ((c.tc : Thread nD τ).loc main_arg2))) :
    V4 m outs c main_v44 = val_main_v44 (F := Ideal) (m ((c.tc : Thread nD τ).loc main_arg0)) (m ((c.tc : Thread nD τ).loc main_arg1)) (m ((c.tc : Thread nD τ).loc main_arg2)) (m ((c.tc : Thread nD τ).loc main_arg3)) :=
  layer1F m c outs h7

/-- Region 1 finds its right operand, the second weight matrix, as launched. -/
theorem arg4_eq : V4 m outs c main_arg4 = (m ((c.tc : Thread nD τ).loc main_arg4)) := V4_arg4 m c outs

/-- The second layer's output, the array region 2 reads, is the reference's, given that regions 0 and 1 leave the
    two projections. -/
theorem layer2
    (h7 : outs 2 main_v7 c = val_main_v7 (F := Ideal) (m ((c.tc : Thread nD τ).loc main_arg0)) (m ((c.tc : Thread nD τ).loc main_arg2)))
    (h45 : outs 5 main_v45 c = val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :
    V6 m outs c main_v81 = val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  layer2F m c outs h7 h45

end AtIdeal

end Cert.Bridge.Chain

end
-- ==== Proof.Region0Value.lean ====
import proofs.«408955_j56530359550020_1_alg».proof.Proof.Region0
import Idealize.ShloMosaic.Lib.Pipeline.Value
import Idealize.ShloMosaic.Lib.ValueIdx
import Idealize.ShloMosaic.PureOps.Ideal
import Idealize.ShloMosaic.PureOps.Ideal.Laws
import Mathlib.Algebra.BigOperators.Group.Finset.Basic
import Mathlib.Logic.Equiv.Defs

/-! # Region 0's value: the product's array after the region, at the extended reals

The region multiplies a 12000 x 128 matrix `X` by a 128 x 64 matrix `W`, 1000 rows at a time over 12 grid points.
At the extended reals the block the body stores at point `t` holds, at row `p` and column `q`, the sum over
`k < 128` of `X (1000 t + p, k) * W (k, q)`; that is rows `1000 t … 1000 t + 999` of the whole product
`∑ k, X (r, k) * W (k, q)`. Row `r` of the product's array lies in the block of point `r / 1000`, so the twelve blocks
tile the array and after the region the array is the whole product of the two arrays as the region found them. -/

noncomputable section

namespace Cert.KernelIdeal.R0V

open Cert.KernelIdeal Cert.KernelIdeal.Gen Cert.KernelIdeal.R0
open Idealize.ShloMosaic Idealize.ShloMosaic.TcCoe Idealize.SL.Sem
open Idealize.ShloMosaic.ValueIdx
open Idealize.ShloMosaic.Pipeline (Dat)

-- the core's buffer contents when the region is entered
variable (V : (c : Dev nD) → (b : Ref sig .tc) → Buf (Elt Ideal) ((c : Thread nD τ).loc b))

/-! ## The whole-array product -/

/-- The dimension record of the whole-array product: rows x contraction times contraction x columns. -/
def dotFull : DotDims S12000x128 S128x64 S12000x64 :=
  { lhsContracting := [1], rhsContracting := [0], lhsNonContracting := [0], rhsNonContracting := [1],
    lhsBatch := [], rhsBatch := [], wf := by decide }

/-- The product of a 12000 x 128 matrix and a 128 x 64 matrix, index by index. -/
def matProd (X : FVec Ideal S12000x128 .f32) (W : FVec Ideal S128x64 .f32) : FVec Ideal S12000x64 .f32 :=
  fun i => ∑ k : Fin 128, X (ix2 (i 0) k) * W (ix2 k (i 1))

/-! ## The whole-array record's operand indices, axis by axis -/

theorem lhs_full_0 (i : S12000x64.Idx) (q : dotFull.contr.Idx) : (dotFull.lhsIdx i q 0).val = (i 0).val := by
  unfold DotDims.lhsIdx
  rw [dif_neg (show ¬(0 : Fin S12000x128.rank) ∈ dotFull.lhsBatch by decide), dif_pos (show (0 : Fin S12000x128.rank) ∈ dotFull.lhsNonContracting by decide)]
  rfl
theorem lhs_full_1 (i : S12000x64.Idx) (q : dotFull.contr.Idx) : (dotFull.lhsIdx i q 1).val = (q ⟨0, by decide⟩).val :=
  dotFull.lhsIdx_val_of_single rfl i q
theorem rhs_full_0 (i : S12000x64.Idx) (q : dotFull.contr.Idx) : (dotFull.rhsIdx i q 0).val = (q ⟨0, by decide⟩).val :=
  dotFull.rhsIdx_val_of_single rfl i q
theorem rhs_full_1 (i : S12000x64.Idx) (q : dotFull.contr.Idx) : (dotFull.rhsIdx i q 1).val = (i 1).val := by
  unfold DotDims.rhsIdx
  rw [dif_neg (show ¬(1 : Fin S128x64.rank) ∈ dotFull.rhsBatch by decide), dif_pos (show (1 : Fin S128x64.rank) ∈ dotFull.rhsNonContracting by decide)]
  rfl

/-- The host's product of the two whole arrays, read at an index, is the sum over the contracted axis. -/
theorem dotFull_apply (X : FVec Ideal S12000x128 .f32) (W : FVec Ideal S128x64 .f32) (i : S12000x64.Idx) :
    Host.dotGeneral (F := Ideal) dotFull none X W i = matProd X W i := by
  unfold matProd
  simp only [Host.dotGeneral]
  rw [Ideal.dotGeneral_apply, ← Equiv.sum_comp (ValueIdx.contrEquiv1 dotFull 128 rfl rfl).symm]
  refine Finset.sum_congr rfl fun k _ => ?_
  have hk := ValueIdx.contrEquiv1_symm_val dotFull 128 rfl rfl k
  have el : dotFull.lhsIdx i ((ValueIdx.contrEquiv1 dotFull 128 rfl rfl).symm k) = ix2 (i 0) k := funext fun a => Fin.ext (by
    match a with
    | ⟨0, _⟩ => exact lhs_full_0 _ _
    | ⟨1, _⟩ => exact (lhs_full_1 _ _).trans hk)
  have er : dotFull.rhsIdx i ((ValueIdx.contrEquiv1 dotFull 128 rfl rfl).symm k) = ix2 k (i 1) := funext fun a => Fin.ext (by
    match a with
    | ⟨0, _⟩ => exact (rhs_full_0 _ _).trans hk
    | ⟨1, _⟩ => exact rhs_full_1 _ _)
  rw [el, er]
  rfl

/-! ## The block record's operand indices, axis by axis -/

theorem lhs_blk_0 (j : S1000x64.Idx) (q : dot_S1000x128_S128x64_S1000x64_1_0_0_1_n_n.contr.Idx) :
    (dot_S1000x128_S128x64_S1000x64_1_0_0_1_n_n.lhsIdx j q 0).val = (j 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
theorem lhs_blk_1 (j : S1000x64.Idx) (q : dot_S1000x128_S128x64_S1000x64_1_0_0_1_n_n.contr.Idx) :
    (dot_S1000x128_S128x64_S1000x64_1_0_0_1_n_n.lhsIdx j q 1).val = (q ⟨0, by decide⟩).val :=
  dot_S1000x128_S128x64_S1000x64_1_0_0_1_n_n.lhsIdx_val_of_single rfl j q
theorem rhs_blk_0 (j : S1000x64.Idx) (q : dot_S1000x128_S128x64_S1000x64_1_0_0_1_n_n.contr.Idx) :
    (dot_S1000x128_S128x64_S1000x64_1_0_0_1_n_n.rhsIdx j q 0).val = (q ⟨0, by decide⟩).val :=
  dot_S1000x128_S128x64_S1000x64_1_0_0_1_n_n.rhsIdx_val_of_single rfl j q
theorem rhs_blk_1 (j : S1000x64.Idx) (q : dot_S1000x128_S128x64_S1000x64_1_0_0_1_n_n.contr.Idx) :
    (dot_S1000x128_S128x64_S1000x64_1_0_0_1_n_n.rhsIdx j q 1).val = (j 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl

/-- The body's payload at an index of the block: the sum over the contracted axis of the products of the left
    block's row and the right matrix's column. -/
theorem pay_apply (x : FVec Ideal S1000x128 .f32) (w : FVec Ideal S128x64 .f32) (j : S1000x64.Idx) :
    k0_pay1 (F := Ideal) x w j = ∑ k : Fin 128, x (ix2 (j 0) k) * w (ix2 k (j 1)) := by
  unfold k0_pay1
  show FloatOps.matmul (F := Ideal) dot_S1000x128_S128x64_S1000x64_1_0_0_1_n_n none x w (constant (F := Ideal) S1000x64 .f32 0x00000000#32) j = _
  rw [Ideal.matmul_constant_zero_apply, ← Equiv.sum_comp (ValueIdx.contrEquiv1 dot_S1000x128_S128x64_S1000x64_1_0_0_1_n_n 128 rfl rfl).symm]
  refine Finset.sum_congr rfl fun k _ => ?_
  have hk := ValueIdx.contrEquiv1_symm_val dot_S1000x128_S128x64_S1000x64_1_0_0_1_n_n 128 rfl rfl k
  have el : dot_S1000x128_S128x64_S1000x64_1_0_0_1_n_n.lhsIdx j ((ValueIdx.contrEquiv1 dot_S1000x128_S128x64_S1000x64_1_0_0_1_n_n 128 rfl rfl).symm k) = ix2 (j 0) k := funext fun a => Fin.ext (by
    match a with
    | ⟨0, _⟩ => exact lhs_blk_0 _ _
    | ⟨1, _⟩ => exact (lhs_blk_1 _ _).trans hk)
  have er : dot_S1000x128_S128x64_S1000x64_1_0_0_1_n_n.rhsIdx j ((ValueIdx.contrEquiv1 dot_S1000x128_S128x64_S1000x64_1_0_0_1_n_n 128 rfl rfl).symm k) = ix2 k (j 1) := funext fun a => Fin.ext (by
    match a with
    | ⟨0, _⟩ => exact (rhs_blk_0 _ _).trans hk
    | ⟨1, _⟩ => exact rhs_blk_1 _ _)
  rw [el, er]
  rfl

/-! ## From blocks to the array -/

/-- The product of a row block of the left matrix, taken from row `n * 1000` on, by the whole right matrix is the same
    rows of the whole product. -/
theorem pay_eq_matProd (X : FVec Ideal S12000x128 .f32) (W : FVec Ideal S128x64 .f32)
    (x : FVec Ideal S1000x128 .f32) (w : FVec Ideal S128x64 .f32) (n : Nat) (j : S1000x64.Idx) (i : S12000x64.Idx)
    (hx : ∀ (p : S1000x128.Idx) (r : S12000x128.Idx), (r 0).val = n * 1000 + (p 0).val → (r 1).val = (p 1).val → x p = X r)
    (hw : ∀ p : S128x64.Idx, w p = W p)
    (hi0 : (i 0).val = n * 1000 + (j 0).val) (hi1 : (i 1).val = (j 1).val) :
    k0_pay1 (F := Ideal) x w j = matProd X W i := by
  rw [pay_apply]
  unfold matProd
  refine Finset.sum_congr rfl fun k _ => ?_
  rw [hx (ix2 (j 0) k) (ix2 (i 0) k) hi0 rfl, hw]
  have e : (ix2 k (j 1) : S128x64.Idx) = ix2 k (i 1) := funext fun a => Fin.ext (by
    match a with
    | ⟨0, _⟩ => rfl
    | ⟨1, _⟩ => exact hi1.symm)
  rw [e]
  rfl

/-- The printed index maps over the grid: at point `t` the left matrix's block and the product's block are row block
    `t`, column block 0; the right matrix's block is always block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the two arrays as the region finds them. -/
theorem flushed_eq (c : Dev nD) (t : Fin cfg0.N) :
    (dat (F := Ideal) V c).flushed 2 t = ((cfg0.win 2).blk t).view.read (Elt Ideal) (matProd (V c main_arg0) (V c main_arg2)) := by
  show (cfg0.win 2).cut (grid0.coords t) ((dat (F := Ideal) V c).after 2 t) = _
  rw [after_2]
  obtain ⟨e0, e1, e2, e3, e4, e5⟩ := idx_facts t
  funext j
  rw [View.read_apply]
  refine pay_eq_matProd (V c main_arg0) (V c main_arg2) (iblk V c 0 t) (iblk V c 1 t) t.val _ _ ?_ ?_ ?_ ?_
  · intro p r h0 h1
    show V c main_arg0 (((cfg0.win 0).blk t).view.emb p) = V c main_arg0 r
    refine congrArg _ (funext fun a => Fin.ext ?_)
    match a with
    | ⟨0, _⟩ => show win0_0.index t (0 : Fin 2) * 1000 + 1 * (p 0).val = (r 0).val; omega
    | ⟨1, _⟩ => show win0_0.index t (1 : Fin 2) * 128 + 1 * (p 1).val = (r 1).val; omega
  · intro p
    show V c main_arg2 (((cfg0.win 1).blk t).view.emb p) = V c main_arg2 p
    refine congrArg _ (funext fun a => Fin.ext ?_)
    match a with
    | ⟨0, _⟩ => show win0_1.index t (0 : Fin 2) * 128 + 1 * (p 0).val = (p 0).val; omega
    | ⟨1, _⟩ => show win0_1.index t (1 : Fin 2) * 64 + 1 * (p 1).val = (p 1).val; omega
  · show win0_2.index t (0 : Fin 2) * 1000 + 1 * (j 0).val = t.val * 1000 + (j 0).val; omega
  · show win0_2.index t (1 : Fin 2) * 64 + 1 * (j 1).val = (j 1).val; omega

/-- An index of the product's array is in point `t`'s block iff each coordinate is in the block's range on its axis. -/
theorem mem_blk (t : Fin cfg0.N) (i : S12000x64.Idx) :
    i ∈ ((cfg0.win 2).blk t).view.set ↔ ∀ a : Fin 2, win0_2.index t a * S1000x64.size a ≤ (i a).val ∧ (i a).val < win0_2.index t a * S1000x64.size a + S1000x64.size a := by
  show i ∈ ((View.whole main_v7).slice (win0_2.rect t)).set ↔ _
  rw [View.set_slice_whole, Rect.mem_set_unit]
  exact Iff.rfl

/-- Row `r` of the product's array lies in the block of point `r / 1000`: the twelve blocks tile the array. -/
theorem cover (i : S12000x64.Idx) : ∃ t : Fin cfg0.N, (cfg0.win 2).flush t = true ∧ i ∈ ((cfg0.win 2).blk t).view.set := by
  have hi0 : (i 0).val < 12000 := (i 0).isLt
  have hi1 : (i 1).val < 64 := (i 1).isLt
  have hN : grid0.N = 12 := N_0
  obtain ⟨t, ht⟩ : ∃ t : Fin cfg0.N, t.val = (i 0).val / 1000 :=
    ⟨⟨(i 0).val / 1000, by show (i 0).val / 1000 < grid0.N; rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 64 ≤ (i 1).val ∧ (i 1).val < win0_2.index t (1 : Fin 2) * 64 + 64; omega

/-- After the region the product's array holds the whole product of the two arrays as the region found them, index by index. -/
theorem arr_eq_matProd (c : Dev nD) :
    (dat (F := Ideal) V c).arrAt 2 cfg0.N = matProd (V c main_arg0) (V c main_arg2) :=
  (dat (F := Ideal) V c).arrAt_eq_of_cover 2 (matProd (V c main_arg0) (V c main_arg2)) (fun t _ => flushed_eq V c t) cover

/-- After the region the product's array is the host's product of the two arrays as the region found them. -/
theorem out_eq (c : Dev nD) :
    ((dat (F := Ideal) V c).arrAt 2 cfg0.N : S12000x64.Idx → EReal)
      = Host.dotGeneral (F := Ideal) (φ₁ := .f32) (φ₂ := .f32) dotFull none (V c main_arg0) (V c main_arg2) :=
  (arr_eq_matProd V c).trans (funext fun i => (dotFull_apply _ _ i).symm)

end Cert.KernelIdeal.R0V

end
-- ==== Proof.Region1Value.lean ====
import proofs.«408955_j56530359550020_1_alg».proof.Proof.Region1
import Idealize.ShloMosaic.Lib.Pipeline.Value
import Idealize.ShloMosaic.Lib.ValueIdx
import Idealize.ShloMosaic.PureOps.Ideal
import Idealize.ShloMosaic.PureOps.Ideal.Laws
import Mathlib.Algebra.BigOperators.Group.Finset.Basic
import Mathlib.Logic.Equiv.Defs

/-! # Region 1's value: the product's array after the region, at the extended reals

The region multiplies a 12000 x 64 matrix `X` by a 64 x 64 matrix `W`, 1000 rows at a time over 12 grid points (the body
first casts the left block to its own shape, which changes nothing).
At the extended reals the block the body stores at point `t` holds, at row `p` and column `q`, the sum over
`k < 64` of `X (1000 t + p, k) * W (k, q)`; that is rows `1000 t … 1000 t + 999` of the whole product
`∑ k, X (r, k) * W (k, q)`. Row `r` of the product's array lies in the block of point `r / 1000`, so the twelve blocks
tile the array and after the region the array is the whole product of the two arrays as the region found them. -/

noncomputable section

namespace Cert.KernelIdeal.R1V

open Cert.KernelIdeal Cert.KernelIdeal.Gen Cert.KernelIdeal.R1
open Idealize.ShloMosaic Idealize.ShloMosaic.TcCoe Idealize.SL.Sem
open Idealize.ShloMosaic.ValueIdx
open Idealize.ShloMosaic.Pipeline (Dat)

-- the core's buffer contents when the region is entered
variable (V : (c : Dev nD) → (b : Ref sig .tc) → Buf (Elt Ideal) ((c : Thread nD τ).loc b))

/-! ## The whole-array product -/

/-- The dimension record of the whole-array product: rows x contraction times contraction x columns. -/
def dotFull : DotDims S12000x64 S64x64 S12000x64 :=
  { lhsContracting := [1], rhsContracting := [0], lhsNonContracting := [0], rhsNonContracting := [1],
    lhsBatch := [], rhsBatch := [], wf := by decide }

/-- The product of a 12000 x 64 matrix and a 64 x 64 matrix, index by index. -/
def matProd (X : FVec Ideal S12000x64 .f32) (W : FVec Ideal S64x64 .f32) : FVec Ideal S12000x64 .f32 :=
  fun i => ∑ k : Fin 64, X (ix2 (i 0) k) * W (ix2 k (i 1))

/-! ## The whole-array record's operand indices, axis by axis -/

theorem lhs_full_0 (i : S12000x64.Idx) (q : dotFull.contr.Idx) : (dotFull.lhsIdx i q 0).val = (i 0).val := by
  unfold DotDims.lhsIdx
  rw [dif_neg (show ¬(0 : Fin S12000x64.rank) ∈ dotFull.lhsBatch by decide), dif_pos (show (0 : Fin S12000x64.rank) ∈ dotFull.lhsNonContracting by decide)]
  rfl
theorem lhs_full_1 (i : S12000x64.Idx) (q : dotFull.contr.Idx) : (dotFull.lhsIdx i q 1).val = (q ⟨0, by decide⟩).val :=
  dotFull.lhsIdx_val_of_single rfl i q
theorem rhs_full_0 (i : S12000x64.Idx) (q : dotFull.contr.Idx) : (dotFull.rhsIdx i q 0).val = (q ⟨0, by decide⟩).val :=
  dotFull.rhsIdx_val_of_single rfl i q
theorem rhs_full_1 (i : S12000x64.Idx) (q : dotFull.contr.Idx) : (dotFull.rhsIdx i q 1).val = (i 1).val := by
  unfold DotDims.rhsIdx
  rw [dif_neg (show ¬(1 : Fin S64x64.rank) ∈ dotFull.rhsBatch by decide), dif_pos (show (1 : Fin S64x64.rank) ∈ dotFull.rhsNonContracting by decide)]
  rfl

/-- The host's product of the two whole arrays, read at an index, is the sum over the contracted axis. -/
theorem dotFull_apply (X : FVec Ideal S12000x64 .f32) (W : FVec Ideal S64x64 .f32) (i : S12000x64.Idx) :
    Host.dotGeneral (F := Ideal) dotFull none X W i = matProd X W i := by
  unfold matProd
  simp only [Host.dotGeneral]
  rw [Ideal.dotGeneral_apply, ← Equiv.sum_comp (ValueIdx.contrEquiv1 dotFull 64 rfl rfl).symm]
  refine Finset.sum_congr rfl fun k _ => ?_
  have hk := ValueIdx.contrEquiv1_symm_val dotFull 64 rfl rfl k
  have el : dotFull.lhsIdx i ((ValueIdx.contrEquiv1 dotFull 64 rfl rfl).symm k) = ix2 (i 0) k := funext fun a => Fin.ext (by
    match a with
    | ⟨0, _⟩ => exact lhs_full_0 _ _
    | ⟨1, _⟩ => exact (lhs_full_1 _ _).trans hk)
  have er : dotFull.rhsIdx i ((ValueIdx.contrEquiv1 dotFull 64 rfl rfl).symm k) = ix2 k (i 1) := funext fun a => Fin.ext (by
    match a with
    | ⟨0, _⟩ => exact (rhs_full_0 _ _).trans hk
    | ⟨1, _⟩ => exact rhs_full_1 _ _)
  rw [el, er]
  rfl

/-! ## The block record's operand indices, axis by axis -/

theorem lhs_blk_0 (j : S1000x64.Idx) (q : dot_S1000x64_S64x64_S1000x64_1_0_0_1_n_n.contr.Idx) :
    (dot_S1000x64_S64x64_S1000x64_1_0_0_1_n_n.lhsIdx j q 0).val = (j 0).val := by
  unfold DotDims.lhsIdx
  rw [dif_neg (show ¬(0 : Fin S1000x64.rank) ∈ dot_S1000x64_S64x64_S1000x64_1_0_0_1_n_n.lhsBatch by decide), dif_pos (show (0 : Fin S1000x64.rank) ∈ dot_S1000x64_S64x64_S1000x64_1_0_0_1_n_n.lhsNonContracting by decide)]
  rfl
theorem lhs_blk_1 (j : S1000x64.Idx) (q : dot_S1000x64_S64x64_S1000x64_1_0_0_1_n_n.contr.Idx) :
    (dot_S1000x64_S64x64_S1000x64_1_0_0_1_n_n.lhsIdx j q 1).val = (q ⟨0, by decide⟩).val :=
  dot_S1000x64_S64x64_S1000x64_1_0_0_1_n_n.lhsIdx_val_of_single rfl j q
theorem rhs_blk_0 (j : S1000x64.Idx) (q : dot_S1000x64_S64x64_S1000x64_1_0_0_1_n_n.contr.Idx) :
    (dot_S1000x64_S64x64_S1000x64_1_0_0_1_n_n.rhsIdx j q 0).val = (q ⟨0, by decide⟩).val :=
  dot_S1000x64_S64x64_S1000x64_1_0_0_1_n_n.rhsIdx_val_of_single rfl j q
theorem rhs_blk_1 (j : S1000x64.Idx) (q : dot_S1000x64_S64x64_S1000x64_1_0_0_1_n_n.contr.Idx) :
    (dot_S1000x64_S64x64_S1000x64_1_0_0_1_n_n.rhsIdx j q 1).val = (j 1).val := by
  unfold DotDims.rhsIdx
  rw [dif_neg (show ¬(1 : Fin S64x64.rank) ∈ dot_S1000x64_S64x64_S1000x64_1_0_0_1_n_n.rhsBatch by decide), dif_pos (show (1 : Fin S64x64.rank) ∈ dot_S1000x64_S64x64_S1000x64_1_0_0_1_n_n.rhsNonContracting by decide)]
  rfl

/-- The body's payload at an index of the block: the sum over the contracted axis of the products of the left
    block's row and the right matrix's column. -/
theorem pay_apply (x : FVec Ideal S1000x64 .f32) (w : FVec Ideal S64x64 .f32) (j : S1000x64.Idx) :
    k1_pay1 (F := Ideal) x w j = ∑ k : Fin 64, x (ix2 (j 0) k) * w (ix2 k (j 1)) := by
  unfold k1_pay1
  show FloatOps.matmul (F := Ideal) dot_S1000x64_S64x64_S1000x64_1_0_0_1_n_n none (shapeCast S1000x64 x shapeCasts_S1000x64_S1000x64) w (constant (F := Ideal) S1000x64 .f32 0x00000000#32) j = _
  rw [shapeCast_self]
  rw [Ideal.matmul_constant_zero_apply, ← Equiv.sum_comp (ValueIdx.contrEquiv1 dot_S1000x64_S64x64_S1000x64_1_0_0_1_n_n 64 rfl rfl).symm]
  refine Finset.sum_congr rfl fun k _ => ?_
  have hk := ValueIdx.contrEquiv1_symm_val dot_S1000x64_S64x64_S1000x64_1_0_0_1_n_n 64 rfl rfl k
  have el : dot_S1000x64_S64x64_S1000x64_1_0_0_1_n_n.lhsIdx j ((ValueIdx.contrEquiv1 dot_S1000x64_S64x64_S1000x64_1_0_0_1_n_n 64 rfl rfl).symm k) = ix2 (j 0) k := funext fun a => Fin.ext (by
    match a with
    | ⟨0, _⟩ => exact lhs_blk_0 _ _
    | ⟨1, _⟩ => exact (lhs_blk_1 _ _).trans hk)
  have er : dot_S1000x64_S64x64_S1000x64_1_0_0_1_n_n.rhsIdx j ((ValueIdx.contrEquiv1 dot_S1000x64_S64x64_S1000x64_1_0_0_1_n_n 64 rfl rfl).symm k) = ix2 k (j 1) := funext fun a => Fin.ext (by
    match a with
    | ⟨0, _⟩ => exact (rhs_blk_0 _ _).trans hk
    | ⟨1, _⟩ => exact rhs_blk_1 _ _)
  rw [el, er]
  rfl

/-! ## From blocks to the array -/

/-- The product of a row block of the left matrix, taken from row `n * 1000` on, by the whole right matrix is the same
    rows of the whole product. -/
theorem pay_eq_matProd (X : FVec Ideal S12000x64 .f32) (W : FVec Ideal S64x64 .f32)
    (x : FVec Ideal S1000x64 .f32) (w : FVec Ideal S64x64 .f32) (n : Nat) (j : S1000x64.Idx) (i : S12000x64.Idx)
    (hx : ∀ (p : S1000x64.Idx) (r : S12000x64.Idx), (r 0).val = n * 1000 + (p 0).val → (r 1).val = (p 1).val → x p = X r)
    (hw : ∀ p : S64x64.Idx, w p = W p)
    (hi0 : (i 0).val = n * 1000 + (j 0).val) (hi1 : (i 1).val = (j 1).val) :
    k1_pay1 (F := Ideal) x w j = matProd X W i := by
  rw [pay_apply]
  unfold matProd
  refine Finset.sum_congr rfl fun k _ => ?_
  rw [hx (ix2 (j 0) k) (ix2 (i 0) k) hi0 rfl, hw]
  have e : (ix2 k (j 1) : S64x64.Idx) = ix2 k (i 1) := funext fun a => Fin.ext (by
    match a with
    | ⟨0, _⟩ => rfl
    | ⟨1, _⟩ => exact hi1.symm)
  rw [e]
  rfl

/-- The printed index maps over the grid: at point `t` the left matrix's block and the product's block are row block
    `t`, column block 0; the right matrix's block is always block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the two arrays as the region finds them. -/
theorem flushed_eq (c : Dev nD) (t : Fin cfg1.N) :
    (dat (F := Ideal) V c).flushed 2 t = ((cfg1.win 2).blk t).view.read (Elt Ideal) (matProd (V c main_v44) (V c main_arg4)) := by
  show (cfg1.win 2).cut (grid1.coords t) ((dat (F := Ideal) V c).after 2 t) = _
  rw [after_2]
  obtain ⟨e0, e1, e2, e3, e4, e5⟩ := idx_facts t
  funext j
  rw [View.read_apply]
  refine pay_eq_matProd (V c main_v44) (V c main_arg4) (iblk V c 0 t) (iblk V c 1 t) t.val _ _ ?_ ?_ ?_ ?_
  · intro p r h0 h1
    show V c main_v44 (((cfg1.win 0).blk t).view.emb p) = V c main_v44 r
    refine congrArg _ (funext fun a => Fin.ext ?_)
    match a with
    | ⟨0, _⟩ => show win1_0.index t (0 : Fin 2) * 1000 + 1 * (p 0).val = (r 0).val; omega
    | ⟨1, _⟩ => show win1_0.index t (1 : Fin 2) * 64 + 1 * (p 1).val = (r 1).val; omega
  · intro p
    show V c main_arg4 (((cfg1.win 1).blk t).view.emb p) = V c main_arg4 p
    refine congrArg _ (funext fun a => Fin.ext ?_)
    match a with
    | ⟨0, _⟩ => show win1_1.index t (0 : Fin 2) * 64 + 1 * (p 0).val = (p 0).val; omega
    | ⟨1, _⟩ => show win1_1.index t (1 : Fin 2) * 64 + 1 * (p 1).val = (p 1).val; omega
  · show win1_2.index t (0 : Fin 2) * 1000 + 1 * (j 0).val = t.val * 1000 + (j 0).val; omega
  · show win1_2.index t (1 : Fin 2) * 64 + 1 * (j 1).val = (j 1).val; omega

/-- An index of the product's array is in point `t`'s block iff each coordinate is in the block's range on its axis. -/
theorem mem_blk (t : Fin cfg1.N) (i : S12000x64.Idx) :
    i ∈ ((cfg1.win 2).blk t).view.set ↔ ∀ a : Fin 2, win1_2.index t a * S1000x64.size a ≤ (i a).val ∧ (i a).val < win1_2.index t a * S1000x64.size a + S1000x64.size a := by
  show i ∈ ((View.whole main_v45).slice (win1_2.rect t)).set ↔ _
  rw [View.set_slice_whole, Rect.mem_set_unit]
  exact Iff.rfl

/-- Row `r` of the product's array lies in the block of point `r / 1000`: the twelve blocks tile the array. -/
theorem cover (i : S12000x64.Idx) : ∃ t : Fin cfg1.N, (cfg1.win 2).flush t = true ∧ i ∈ ((cfg1.win 2).blk t).view.set := by
  have hi0 : (i 0).val < 12000 := (i 0).isLt
  have hi1 : (i 1).val < 64 := (i 1).isLt
  have hN : grid1.N = 12 := N_1
  obtain ⟨t, ht⟩ : ∃ t : Fin cfg1.N, t.val = (i 0).val / 1000 :=
    ⟨⟨(i 0).val / 1000, by show (i 0).val / 1000 < grid1.N; rw [hN]; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 1000 ≤ (i 0).val ∧ (i 0).val < win1_2.index t (0 : Fin 2) * 1000 + 1000; omega
  | ⟨1, _⟩ => show win1_2.index t (1 : Fin 2) * 64 ≤ (i 1).val ∧ (i 1).val < win1_2.index t (1 : Fin 2) * 64 + 64; omega

/-- After the region the product's array holds the whole product of the two arrays as the region found them, index by index. -/
theorem arr_eq_matProd (c : Dev nD) :
    (dat (F := Ideal) V c).arrAt 2 cfg1.N = matProd (V c main_v44) (V c main_arg4) :=
  (dat (F := Ideal) V c).arrAt_eq_of_cover 2 (matProd (V c main_v44) (V c main_arg4)) (fun t _ => flushed_eq V c t) cover

/-- After the region the product's array is the host's product of the two arrays as the region found them. -/
theorem out_eq (c : Dev nD) :
    ((dat (F := Ideal) V c).arrAt 2 cfg1.N : S12000x64.Idx → EReal)
      = Host.dotGeneral (F := Ideal) (φ₁ := .f32) (φ₂ := .f32) dotFull none (V c main_v44) (V c main_arg4) :=
  (arr_eq_matProd V c).trans (funext fun i => (dotFull_apply _ _ i).symm)

end Cert.KernelIdeal.R1V

end
-- ==== Proof.Region2Value.lean ====
/-
  THE VALUE OF THE NORMALISING REGION, at the ideal values (extended reals).

  The region walks the 12000 × 64 array `E` in six blocks of 2000 rows. At each block it
    • divides every entry by the larger of its ROW's Euclidean norm, sqrt (∑ₖ E(r,k)²), and a floor `ε`, and writes the
      block of quotients to the first output;
    • adds the block's COLUMN sums of those quotients to a running 1 × 64 row, which starts at zero at the first block
      and is written to the second output after the last block only.

  Because a row's norm is taken inside the row and every block holds whole rows, the first output is ONE function of the
  input array, index by index:

      zOf E (r, q) = E (r, q) / max (sqrt (∑ₖ E (r, k) · E (r, k))) ε            (`z_eq`),

  and, addition of extended reals being commutative and associative, the running row after the last block is the column
  sum over all 12000 rows, the six partial sums over 2000 rows regrouped:

      S (0, k) = ∑ᵣ zOf E (r, k)                                                  (`S_eq`).

  The steps: each payload read at an index written by its coordinates (the lane sum and the sublane sum as finite sums,
  the column cast and the column broadcast as the entry they copy); the input's block at a point is rows
  2000 t … 2000 t + 1999; what a point writes back is its block of `zOf E`; row r lies in block r / 2000, so the blocks
  cover the array; the running row by induction on the point; the regrouping of ∑ over 6 × 2000 into ∑ over 12000.
-/
import proofs.«408955_j56530359550020_1_alg».proof.Proof.Region2
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin
import Mathlib.Logic.Equiv.Fin.Basic
import Mathlib.Data.Fintype.BigOperators

noncomputable section

namespace Cert.KernelIdeal.R2V

open Idealize.ShloMosaic Idealize.ShloMosaic.ValueIdx Idealize.ShloMosaic.TcCoe Idealize.SL.Sem
open Cert.KernelIdeal Cert.KernelIdeal.Gen Cert.KernelIdeal.R2
open Idealize.ShloMosaic.Pipeline (Dat)
open scoped BigOperators

/-! ## The layout steps of the payloads, read at coordinates -/

/-- A row index of a 2000 × 64 block with column `k` put back on the reduced axis is `(p, k)`. -/
theorem lift_row (h : S2000x64.Reduces [1] S2000) (p : Fin 2000) (k : Fin (S2000x64.size 1)) :
    h.lift (ix1 p) k = ix2 p (⟨k.val, k.isLt⟩ : Fin 64) := by
  funext c; apply Fin.ext
  fin_cases c <;> rfl

/-- A column index of a 2000 × 64 block with row `r` put back on the reduced axis is `(r, q)`. -/
theorem lift_col (h : S2000x64.Reduces [0] S64) (q : Fin 64) (r : Fin (S2000x64.size 0)) :
    h.lift (ix1 q) r = ix2 (⟨r.val, r.isLt⟩ : Fin 2000) q := by
  funext c; apply Fin.ext
  fin_cases c <;> rfl

/-- The sum of a 2000 × 64 block along its rows' entries, read at row `p`. -/
theorem rowSum_apply (x : FVec Ideal S2000x64 .f32) (hacc : (0x00000000#32 : BitVec 32) = 0x00000000#32) (p : Fin 2000) :
    multiReduction (F := Ideal) .add [1] S2000 x 0x00000000#32 reduces_S2000x64_S2000 (.inl rfl) hacc (ix1 p)
      = ∑ k : Fin 64, x (ix2 p k) := by
  refine (Ideal.multiReduction_add_single x 0x00000000#32 reduces_S2000x64_S2000 (.inl rfl) hacc (ix1 p)).trans ?_
  exact Finset.sum_congr rfl fun k _ => congrArg x (lift_row _ p k)

/-- The sum of a 2000 × 64 block along its columns' entries, read at column `q`. -/
theorem colSum_apply (x : FVec Ideal S2000x64 .f32) (hacc : (0x00000000#32 : BitVec 32) = 0x00000000#32) (q : Fin 64) :
    multiReduction (F := Ideal) .add [0] S64 x 0x00000000#32 reduces_S2000x64_S64 (.inl rfl) hacc (ix1 q)
      = ∑ r : Fin 2000, x (ix2 r q) := by
  refine (Ideal.multiReduction_add_single x 0x00000000#32 reduces_S2000x64_S64 (.inl rfl) hacc (ix1 q)).trans ?_
  exact Finset.sum_congr rfl fun r _ => congrArg x (lift_col _ q r)

/-- A vector of 2000 entries cast to one column reads, at `(p, u)`, entry `p`. -/
theorem cast_col_apply {α : Type} (x : S2000.Idx → α) (p : Fin 2000) (u : Fin 1) :
    shapeCast S2000x1 x shapeCasts_S2000_S2000x1 (ix2 p u) = x (ix1 p) :=
  shapeCast_apply x _ _ _ (by
    have hu : u.val = 0 := by omega
    rw [Shape.rowMajor_val_two, Shape.rowMajor_val_one]
    show p.val = p.val * 1 + u.val
    omega)

/-- One column broadcast over 64 columns reads, at `(p, q)`, the column's entry `p`. -/
theorem bcast_col_apply {α : Type} (v : S2000x1.Idx → α) (p : Fin 2000) (q : Fin 64) :
    broadcastTo S2000x64 v broadcasts_S2000x1_S2000x64 (ix2 p q) = v (ix2 p (0 : Fin 1)) := by
  refine broadcastTo_apply v _ (ix2 p q) (ix2 p (0 : Fin 1)) fun ax => ?_
  match ax with
  | ⟨0, _⟩ => rfl
  | ⟨1, _⟩ => rfl

/-! ## The payloads at an index -/

/-- The normalised block at `(p, q)`: the entry over the larger of its row's Euclidean norm and the floor. -/
theorem pay2_apply (x : Vec Ideal S2000x64 .f32) (p : Fin 2000) (q : Fin 64) :
    k2_pay2 (F := Ideal) x (ix2 p q)
      = Ideal.div (x (ix2 p q)) (max (Ideal.sqrt (∑ k : Fin 64, x (ix2 p k) * x (ix2 p k))) (Ideal.ofBits .f32 0x2B8CBCCC#32)) := by
  unfold k2_pay2
  simp only [shapeCast_self]
  rw [divf_apply, bcast_col_apply, maximumf_apply]
  show Ideal.div _ (max (Ideal.sqrt (shapeCast S2000x1 _ shapeCasts_S2000_S2000x1 (ix2 p 0))) _) = _
  rw [cast_col_apply, rowSum_apply]
  rfl

/-- The accumulator's next value at column `q`: its present value plus the column's sum over the normalised block. -/
theorem pay3_apply (x : Vec Ideal S2000x64 .f32) (s : Vec Ideal S1x64 .f32) (q : Fin 64) :
    k2_pay3 (F := Ideal) x s (ix2 (0 : Fin 1) q) = s (ix2 (0 : Fin 1) q) + ∑ r : Fin 2000, k2_pay2 (F := Ideal) x (ix2 r q) := by
  unfold k2_pay3
  simp only [shapeCast_self]
  rw [addf_apply, shapeCast_a_1a_apply, colSum_apply]

/-- The accumulator's first value is zero. -/
theorem pay1_apply (q : Fin 64) : (k2_pay1 (F := Ideal)) (ix2 (0 : Fin 1) q) = 0 := by
  unfold k2_pay1
  simp only [shapeCast_self]
  show Ideal.ofBits .f32 0x00000000#32 = 0
  exact Ideal.ofBits_zero_f32

/-! ## The normalised array -/

variable (V : (c : Dev nD) → (b : Ref sig .tc) → Buf (Elt Ideal) ((c : Thread nD τ).loc b))

/-- Every entry of the array over the larger of its row's Euclidean norm and the floor `ε`. -/
def zOf (E : S12000x64.Idx → EReal) : S12000x64.Idx → EReal := fun i =>
  Ideal.div (E i) (max (Ideal.sqrt (∑ k : Fin 64, E (ix2 (n0 := 12000) (i 0) k) * E (ix2 (n0 := 12000) (i 0) k)))
    (Ideal.ofBits .f32 0x2B8CBCCC#32))

/-- The same at an index written by its coordinates. -/
theorem zOf_apply (E : S12000x64.Idx → EReal) (r : Fin 12000) (q : Fin 64) :
    zOf E (ix2 r q) = Ideal.div (E (ix2 r q)) (max (Ideal.sqrt (∑ k : Fin 64, E (ix2 r k) * E (ix2 r k)))
      (Ideal.ofBits .f32 0x2B8CBCCC#32)) := rfl

/-- Row `p` of the `b`-th block of 2000 rows. -/
def rowOf (b : Fin 6) (p : Fin 2000) : Fin 12000 := ⟨b.val * 2000 + p.val, by omega⟩

theorem rowOf_val (b : Fin 6) (p : Fin 2000) : (rowOf b p).val = b.val * 2000 + p.val := rfl

/-- A block that holds rows `2000 b … 2000 b + 1999` of `E` normalises to the same rows of `zOf E`: a row's norm
    is taken inside the row, and a block holds whole rows. -/
theorem norm_block (E : S12000x64.Idx → EReal) (x : Vec Ideal S2000x64 .f32) (b : Fin 6)
    (hx : ∀ (p : Fin 2000) (q : Fin 64), x (ix2 p q) = E (ix2 (rowOf b p) q)) (p : Fin 2000) (q : Fin 64) :
    k2_pay2 (F := Ideal) x (ix2 p q) = zOf E (ix2 (rowOf b p) q) := by
  rw [pay2_apply, zOf_apply]
  simp only [hx]

/-- The printed index maps, decided over the six points: the input's and the normalised output's blocks are the
    point's own block of rows, all 64 columns; the accumulator's block never moves. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

/-- The point as a block number. -/
abbrev blockNo (t : Fin cfg2.N) : Fin 6 := t.cast N_2

/-- The input's block at point `t` holds rows `2000 t … 2000 t + 1999` of the array the region finds. -/
theorem iblk0_apply (c : Dev nD) (t : Fin cfg2.N) (p : Fin 2000) (q : Fin 64) :
    (iblk V c 0 t : Vec Ideal S2000x64 .f32) (ix2 p q)
      = (V c main_v81 : S12000x64.Idx → EReal) (ix2 (rowOf (blockNo t) p) q) := by
  obtain ⟨e0, e1, -⟩ := idx_facts t
  show V c main_v81 (((cfg2.win 0).blk t).view.emb (ix2 p q)) = V c main_v81 _
  congr 1
  funext a; apply Fin.ext
  match a with
  | ⟨0, _⟩ => show win2_0.index t (0 : Fin 2) * 2000 + 1 * p.val = t.val * 2000 + p.val; rw [e0]; omega
  | ⟨1, _⟩ => show win2_0.index t (1 : Fin 2) * 64 + 1 * q.val = q.val; rw [e1]; omega

/-- WHAT POINT `t` WRITES BACK to the normalised output is block `t` of `zOf` of the input array. -/
theorem flushed1_eq (c : Dev nD) (t : Fin cfg2.N) :
    (dat (F := Ideal) V c).flushed 1 t
      = ((cfg2.win 1).blk t).view.read (Elt Ideal) (zOf (V c main_v81 : S12000x64.Idx → EReal)) := by
  show (cfg2.win 1).cut (grid2.coords t) ((dat V c).after 1 t) = _
  rw [after_1]
  obtain ⟨-, -, e2, e3, -⟩ := idx_facts t
  funext j
  obtain ⟨p, q, rfl⟩ : ∃ (p : Fin 2000) (q : Fin 64), j = ix2 p q := ⟨j 0, j 1, eq_ix2 j⟩
  show k2_pay2 (F := Ideal) (iblk V c 0 t) (ix2 p q)
    = zOf (V c main_v81 : S12000x64.Idx → EReal) (((cfg2.win 1).blk t).view.emb (ix2 p q))
  rw [norm_block (V c main_v81 : S12000x64.Idx → EReal) (iblk V c 0 t) (blockNo t) (iblk0_apply V c t) p q]
  congr 1
  funext a; apply Fin.ext
  match a with
  | ⟨0, _⟩ => show t.val * 2000 + p.val = win2_1.index t (0 : Fin 2) * 2000 + 1 * p.val; rw [e2]; omega
  | ⟨1, _⟩ => show q.val = win2_1.index t (1 : Fin 2) * 64 + 1 * q.val; rw [e3]; omega

/-- An index of the array is in point `t`'s block of the normalised output iff each coordinate is in the block's
    range on its axis. -/
theorem mem_blk1 (t : Fin cfg2.N) (i : S12000x64.Idx) :
    i ∈ ((cfg2.win 1).blk t).view.set
      ↔ ∀ a : Fin 2, win2_1.index t a * S2000x64.size a ≤ (i a).val
          ∧ (i a).val < win2_1.index t a * S2000x64.size a + S2000x64.size a := by
  show i ∈ ((View.whole main_v82_0).slice (win2_1.rect t)).set ↔ _
  rw [View.set_slice_whole, Rect.mem_set_unit]
  exact Iff.rfl

/-- Every row lies in a block: row `r` in block `r / 2000`. -/
theorem cover1 (i : S12000x64.Idx) :
    ∃ t : Fin cfg2.N, (cfg2.win 1).flush t = true ∧ i ∈ ((cfg2.win 1).blk t).view.set := by
  have hi0 : (i 0).val < 12000 := idx2_lt0 i
  have hi1 : (i 1).val < 64 := idx2_lt1 i
  have hN : cfg2.N = 6 := N_2
  obtain ⟨t, ht⟩ : ∃ t : Fin cfg2.N, t.val = (i 0).val / 2000 := ⟨⟨(i 0).val / 2000, by rw [hN]; omega⟩, rfl⟩
  obtain ⟨-, -, e2, e3, -⟩ := idx_facts t
  refine ⟨t, flush2_1 t, ?_⟩
  rw [mem_blk1]
  intro a
  match a with
  | ⟨0, _⟩ =>
    show win2_1.index t (0 : Fin 2) * 2000 ≤ (i 0).val ∧ (i 0).val < win2_1.index t (0 : Fin 2) * 2000 + 2000
    rw [e2, ht]; omega
  | ⟨1, _⟩ =>
    show win2_1.index t (1 : Fin 2) * 64 ≤ (i 1).val ∧ (i 1).val < win2_1.index t (1 : Fin 2) * 64 + 64
    rw [e3]; omega

/-- THE NORMALISED OUTPUT after the region: `zOf` of the input array as the region finds it. -/
theorem z_eq (c : Dev nD) :
    ((dat (F := Ideal) V c).arrAt 1 cfg2.N : S12000x64.Idx → EReal) = zOf (V c main_v81 : S12000x64.Idx → EReal) :=
  (dat (F := Ideal) V c).arrAt_eq_of_cover 1 (zOf (V c main_v81 : S12000x64.Idx → EReal))
    (fun t _ => flushed1_eq V c t) cover1

/-! ## The column sums -/

/-- The sum of column `k` of `zOf E` over the rows of block `b` (zero past the last block). -/
def blockSum (E : S12000x64.Idx → EReal) (k : Fin 64) (b : ℕ) : EReal :=
  if hb : b < 6 then ∑ r : Fin 2000, zOf E (ix2 (rowOf ⟨b, hb⟩ r) k) else 0

/-- The accumulator after point `n`, at column `k`: the column's sums over the blocks `0 … n`, by induction on the
    point (the first point adds its block to zero, every later one to what the point before left). -/
theorem acc_apply (c : Dev nD) (k : Fin 64) : ∀ (n : ℕ) (h : n < cfg2.N),
    (acc (F := Ideal) V c n h) (ix2 (0 : Fin 1) k)
      = ∑ b ∈ Finset.range (n + 1), blockSum (V c main_v81 : S12000x64.Idx → EReal) k b
  | 0, h => by
    have hN : cfg2.N = 6 := N_2
    show k2_pay3 (F := Ideal) (iblk V c 0 ⟨0, h⟩) (k2_pay1 (F := Ideal)) (ix2 (0 : Fin 1) k) = _
    rw [pay3_apply, pay1_apply, zero_add, Finset.sum_range_one]
    unfold blockSum
    rw [dif_pos (by omega)]
    exact Finset.sum_congr rfl fun r _ =>
      norm_block (V c main_v81 : S12000x64.Idx → EReal) (iblk V c 0 ⟨0, h⟩) (blockNo ⟨0, h⟩) (iblk0_apply V c ⟨0, h⟩) r k
  | n + 1, h => by
    have hN : cfg2.N = 6 := N_2
    show k2_pay3 (F := Ideal) (iblk V c 0 ⟨n + 1, h⟩) (acc V c n (Nat.lt_of_succ_lt h)) (ix2 (0 : Fin 1) k) = _
    rw [pay3_apply, acc_apply c k n, Finset.sum_range_succ _ (n + 1)]
    congr 1
    unfold blockSum
    rw [dif_pos (by omega)]
    exact Finset.sum_congr rfl fun r _ =>
      norm_block (V c main_v81 : S12000x64.Idx → EReal) (iblk V c 0 ⟨n + 1, h⟩) (blockNo ⟨n + 1, h⟩) (iblk0_apply V c ⟨n + 1, h⟩) r k

/-- Six blocks of 2000 rows are the 12000 rows: a sum over the rows regrouped by block. -/
theorem sum_blocks (f : Fin 12000 → EReal) : ∑ b : Fin 6, ∑ r : Fin 2000, f (rowOf b r) = ∑ i : Fin 12000, f i := by
  rw [← Equiv.sum_comp (finProdFinEquiv (m := 6) (n := 2000)) f, Fintype.sum_prod_type]
  refine Finset.sum_congr rfl fun b _ => Finset.sum_congr rfl fun r _ => congrArg f (Fin.ext ?_)
  show b.val * 2000 + r.val = r.val + 2000 * b.val
  omega

/-- After the last point the accumulator holds, at column `k`, the column's sum over all rows. -/
theorem acc_last (c : Dev nD) (k : Fin 64) (n : ℕ) (h : n < cfg2.N) (hn : n = 5) :
    (acc (F := Ideal) V c n h) (ix2 (0 : Fin 1) k)
      = ∑ r : Fin 12000, zOf (V c main_v81 : S12000x64.Idx → EReal) (ix2 r k) := by
  subst hn
  rw [acc_apply V c k 5 h]
  refine Eq.trans ?_ (sum_blocks fun r => zOf (V c main_v81 : S12000x64.Idx → EReal) (ix2 r k))
  rw [Finset.sum_range (fun b => blockSum (V c main_v81 : S12000x64.Idx → EReal) k b)]
  exact Finset.sum_congr rfl fun b _ => dif_pos b.isLt

/-- The column sums of `zOf E`, as one row. -/
def colSums (E : S12000x64.Idx → EReal) : S1x64.Idx → EReal :=
  fun i => ∑ r : Fin 12000, zOf E (ix2 (n1 := 64) r (i 1))

/-- WHAT THE LAST POINT WRITES BACK to the sums' array (no other point writes back): the column sums. -/
theorem flushed2_eq (c : Dev nD) (t : Fin cfg2.N) (hf : (cfg2.win 2).flush t = true) :
    (dat (F := Ideal) V c).flushed 2 t
      = ((cfg2.win 2).blk t).view.read (Elt Ideal) (colSums (V c main_v81 : S12000x64.Idx → EReal)) := by
  have hN : cfg2.N = 6 := N_2
  have h5 : t.val = 5 := by have := (flush2_2 t).mp hf; have := t.isLt; omega
  show (cfg2.win 2).cut (grid2.coords t) ((dat V c).after 2 t) = _
  rw [after_2]
  obtain ⟨-, -, -, -, e4, e5⟩ := idx_facts t
  funext j
  obtain ⟨u, q, rfl⟩ : ∃ (u : Fin 1) (q : Fin 64), j = ix2 u q := ⟨j 0, j 1, eq_ix2 j⟩
  obtain rfl : u = 0 := Subsingleton.elim _ _
  show (acc (F := Ideal) V c t.val t.isLt) (ix2 (0 : Fin 1) q)
    = colSums (V c main_v81 : S12000x64.Idx → EReal) (((cfg2.win 2).blk t).view.emb (ix2 (0 : Fin 1) q))
  rw [acc_last V c q t.val t.isLt h5]
  have hq : ((((cfg2.win 2).blk t).view.emb (ix2 (0 : Fin 1) q)) 1 : Fin 64) = q :=
    Fin.ext (by show win2_2.index t (1 : Fin 2) * 64 + 1 * q.val = q.val; rw [e5]; omega)
  show _ = ∑ r : Fin 12000, zOf (V c main_v81 : S12000x64.Idx → EReal)
    (ix2 (n1 := 64) r ((((cfg2.win 2).blk t).view.emb (ix2 (0 : Fin 1) q)) 1))
  rw [hq]

/-- The last point's block is the whole one-row array. -/
theorem cover2 (i : S1x64.Idx) :
    ∃ t : Fin cfg2.N, (cfg2.win 2).flush t = true ∧ i ∈ ((cfg2.win 2).blk t).view.set := by
  have hi0 : (i 0).val < 1 := idx2_lt0 i
  have hi1 : (i 1).val < 64 := idx2_lt1 i
  obtain ⟨-, -, -, -, e4, e5⟩ := idx_facts t2_5
  refine ⟨t2_5, (flush2_2 t2_5).mpr rfl, ?_⟩
  show i ∈ ((View.whole main_v82_1).slice (win2_2.rect t2_5)).set
  rw [View.set_slice_whole, Rect.mem_set_unit]
  intro a
  match a with
  | ⟨0, _⟩ =>
    show win2_2.index t2_5 (0 : Fin 2) * 1 ≤ (i 0).val ∧ (i 0).val < win2_2.index t2_5 (0 : Fin 2) * 1 + 1
    rw [e4]; omega
  | ⟨1, _⟩ =>
    show win2_2.index t2_5 (1 : Fin 2) * 64 ≤ (i 1).val ∧ (i 1).val < win2_2.index t2_5 (1 : Fin 2) * 64 + 64
    rw [e5]; omega

/-- THE SUMS' ARRAY after the region, at column `k`: the sum of column `k` of the normalised array over all rows. -/
theorem S_eq (c : Dev nD) (k : Fin 64) :
    ((dat (F := Ideal) V c).arrAt 2 cfg2.N : S1x64.Idx → EReal) (ix2 (0 : Fin 1) k)
      = ∑ r : Fin 12000, zOf (V c main_v81 : S12000x64.Idx → EReal) (ix2 r k) :=
  congrFun ((dat (F := Ideal) V c).arrAt_eq_of_cover 2 (colSums (V c main_v81 : S12000x64.Idx → EReal))
    (flushed2_eq V c) cover2) (ix2 (0 : Fin 1) k)

end Cert.KernelIdeal.R2V

end
-- ==== Proof.KernelEmb.lean ====
/- The kernel program's embedding stage against the reference's: what the first three pipelined regions leave — the two
   matrix products, the row-normalised embedding and its column sums — equals the reference's stage functions of the
   six arguments. Each region's own module says what its output array holds as a function of the arrays it finds; the
   shared chain of host operations carries the reference's stages across from one region to the next. -/
import proofs.«408955_j56530359550020_1_alg».proof.Proof.Segs
import proofs.«408955_j56530359550020_1_alg».proof.Proof.HostChain
import proofs.«408955_j56530359550020_1_alg».proof.Proof.RefStages
import proofs.«408955_j56530359550020_1_alg».proof.Proof.Region0Value
import proofs.«408955_j56530359550020_1_alg».proof.Proof.Region1Value
import proofs.«408955_j56530359550020_1_alg».proof.Proof.Region2Value
import Idealize.ShloMosaic.Lib.ValueIdx
import Idealize.ShloMosaic.PureOps.Ideal
import Idealize.ShloMosaic.PureOps.Ideal.Laws

noncomputable section

namespace Cert.Bridge.Emb

open Idealize.ShloMosaic Idealize.ShloMosaic.TcCoe Idealize.ShloMosaic.ValueIdx
open Cert.KernelIdeal Cert.KernelIdeal.Gen
open Cert.ReferenceIdeal.Read
open scoped BigOperators

variable (m : (ℓ : Loc nD τ sig) → Buf (Elt Ideal) ℓ) (c : Dev nD)

/-- Region 0 leaves the first projection: the product of the node features and the first weight matrix. The
    region's whole-array dimension record and the reference's have the same fields. -/
theorem o2_eq : Segs.o2 m c = val_main_v7 (F := Ideal) (m ((c.tc : Thread nD τ).loc main_arg0)) (m ((c.tc : Thread nD τ).loc main_arg2)) := by
  refine (R0V.out_eq (fun c b => V1 m c b) c).trans ?_
  rw [Chain.arg0_eq, Chain.arg2_eq]
  rfl

/-- Region 1 leaves the second projection: the product of the first layer's rectified output and the second weight
    matrix. -/
theorem o5_eq : Segs.o5 m c = val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (R1V.out_eq (fun c b => V4 m (Segs.outsA m) c b) c).trans ?_
  rw [Chain.layer1 m c (Segs.outsA m) ((Segs.outsA_2 m c).trans (o2_eq m c)), Chain.arg4_eq]
  rfl

/-- The embedding matrix region 2 reads is the reference's second layer output. -/
theorem emb_eq : V6 m (Segs.outsB m) c main_v81 = val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  Chain.layer2 m c (Segs.outsB m) ((Segs.outsB_2 m c).trans (o2_eq m c)) ((Segs.outsB_5 m c).trans (o5_eq m c))

/-- The reference's normalised entry is the row normalisation of its embedding matrix: the entry over the larger of
    the row's Euclidean norm and the floor. -/
theorem zOf_ref
    (x0 : (⟨Cert.ReferenceIdeal.S12000x128, .f32⟩ : BufTy).Contents (Elt Ideal))
    (x1 : (⟨Cert.ReferenceIdeal.S2x384000, .i32⟩ : BufTy).Contents (Elt Ideal))
    (x2 : (⟨Cert.ReferenceIdeal.S128x64, .f32⟩ : BufTy).Contents (Elt Ideal))
    (x3 : (⟨Cert.ReferenceIdeal.S64, .f32⟩ : BufTy).Contents (Elt Ideal))
    (x4 : (⟨Cert.ReferenceIdeal.S64x64, .f32⟩ : BufTy).Contents (Elt Ideal))
    (x5 : (⟨Cert.ReferenceIdeal.S64, .f32⟩ : BufTy).Contents (Elt Ideal)) (i : Fin 12000) (k : Fin 64) :
    R2V.zOf (val_main_v81 (F := Ideal) x0 x1 x2 x3 x4 x5) (ix2 i k) = val_main_v86 (F := Ideal) x0 x1 x2 x3 x4 x5 (ix2 i k) :=
  (Cert.Bridge.Ref.z_apply x0 x1 x2 x3 x4 x5 i k).symm

/-- Region 2's first output is the reference's normalised embedding, entry by entry. -/
theorem z_eq (i : Fin 12000) (k : Fin 64) :
    (Segs.o7a m c : S12000x64.Idx → EReal) (ix2 i k) = val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 i k) := by
  have h : (Segs.o7a m c : S12000x64.Idx → EReal) = R2V.zOf (V6 m (Segs.outsB m) c main_v81 : S12000x64.Idx → EReal) :=
    R2V.z_eq (fun c b => V6 m (Segs.outsB m) c b) c
  rw [h, emb_eq m c]
  exact zOf_ref _ _ _ _ _ _ i k

/-- Region 2's second output is the column sums of the reference's normalised embedding. -/
theorem S_eq (k : Fin 64) :
    (Segs.o7b m c : S1x64.Idx → EReal) (ix2 (0 : Fin 1) k)
      = (∑ r : Fin 12000, val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (ix2 r k) : EReal) := by
  refine (R2V.S_eq (fun c b => V6 m (Segs.outsB m) c b) c k).trans ?_
  rw [emb_eq m c]
  simp only [zOf_ref]

end Cert.Bridge.Emb

end
-- ==== Proof.SpecDedup.lean ====
import Idealize.ShloMosaic.PureOps
import Idealize.ShloMosaic.Lib.SortFacts
import Mathlib.Algebra.BigOperators.Group.Finset.Basic
import Mathlib.Algebra.BigOperators.Ring.Finset
import Mathlib.Data.Finset.Card
import Mathlib.Data.Finset.Max
import Mathlib.Data.Fintype.Basic
import Mathlib.Order.Fin.Basic

/-!
# Removing duplicates by sorting

`n` keys are sorted by a permutation `π` of the positions (`key ∘ π` is monotone). A sorted position is
FIRST when the key at the position just before it is different (position `0` is always first). Summing a
quantity that depends on the key alone over the first positions is summing it over the SET of distinct keys:
`a ↦ key (π a)` restricted to the first positions is a bijection onto the image of `key`.

* injective: two first positions `a < a'` holding one key force, by monotonicity, the same key at `a' - 1`
  (it lies between them), which contradicts `a'` being first;
* onto: the least sorted position holding a given key is first.
-/

noncomputable section

open Idealize.ShloMosaic

namespace Cert.Spec.Dedup

section first
variable {α : Type} [LinearOrder α] {n : ℕ}

/-- The sorted position just before `a` (position `0` is its own predecessor; never used there). -/
def prev (a : Fin n) : Fin n := ⟨a.val - 1, lt_of_le_of_lt (Nat.sub_le _ _) a.isLt⟩

@[simp] theorem prev_val (a : Fin n) : (prev a).val = a.val - 1 := rfl

/-- Sorted position `a` is FIRST: no position directly before it holds the same key. -/
def First (key : Fin n → α) (π : Fin n → Fin n) (a : Fin n) : Prop :=
  ∀ b : Fin n, b.val + 1 = a.val → key (π b) ≠ key (π a)

instance (key : Fin n → α) (π : Fin n → Fin n) : DecidablePred (First key π) := fun a => by
  unfold First; infer_instance

/-- `First` spelled with the predecessor position. -/
theorem first_iff (key : Fin n → α) (π : Fin n → Fin n) (a : Fin n) :
    First key π a ↔ (a.val = 0 ∨ (0 < a.val ∧ key (π (prev a)) ≠ key (π a))) := by
  constructor
  · intro h
    rcases Nat.eq_zero_or_pos a.val with h0 | h0
    · exact Or.inl h0
    · exact Or.inr ⟨h0, h (prev a) (by simp only [prev_val]; omega)⟩
  · rintro (h0 | ⟨_, h⟩) b hb
    · omega
    · have : b = prev a := Fin.ext (by simp only [prev_val]; omega)
      rw [this]; exact h

/-- The same, with the predecessor written out as a literal `Fin` (any proof of the bound will do). -/
theorem first_iff' (key : Fin n → α) (π : Fin n → Fin n) (a : Fin n) (hlt : a.val - 1 < n) :
    First key π a ↔ (a.val = 0 ∨ (0 < a.val ∧ key (π ⟨a.val - 1, hlt⟩) ≠ key (π a))) :=
  first_iff key π a

/-- The form with a dependent bound: `a = 0`, or for every proof that `a` is positive the key just before differs. -/
theorem first_iff_forall (key : Fin n → α) (π : Fin n → Fin n) (a : Fin n) :
    First key π a ↔ (a.val = 0 ∨ ∀ h : 0 < a.val, key (π a) ≠ key (π ⟨a.val - 1, by omega⟩)) := by
  rw [first_iff]
  constructor
  · rintro (h0 | ⟨_, h⟩)
    · exact Or.inl h0
    · exact Or.inr fun _ => fun e => h e.symm
  · rintro (h0 | h)
    · exact Or.inl h0
    · rcases Nat.eq_zero_or_pos a.val with h0 | h0
      · exact Or.inl h0
      · exact Or.inr ⟨h0, fun e => h h0 e.symm⟩

variable (key : Fin n → α) (π : Fin n → Fin n)

/-- Between two sorted positions holding one key, every position holds that key. -/
theorem key_eq_of_between (hsorted : ∀ a b : Fin n, a ≤ b → key (π a) ≤ key (π b))
    {a b c : Fin n} (hab : a ≤ b) (hbc : b ≤ c) (h : key (π a) = key (π c)) : key (π b) = key (π c) :=
  le_antisymm (hsorted b c hbc) (h ▸ hsorted a b hab)

/-- On the first positions the key determines the position. -/
theorem first_injOn (hsorted : ∀ a b : Fin n, a ≤ b → key (π a) ≤ key (π b)) :
    ∀ a ∈ (Finset.univ.filter (First key π)), ∀ a' ∈ (Finset.univ.filter (First key π)),
      key (π a) = key (π a') → a = a' := by
  -- the asymmetric half: a first position cannot sit strictly after a position with the same key
  have half : ∀ a a' : Fin n, First key π a' → key (π a) = key (π a') → ¬ a < a' := by
    intro a a' hf he hlt
    have hv : a.val < a'.val := hlt
    have h1 : a ≤ prev a' := by
      show a.val ≤ (prev a').val
      simp only [prev_val]; omega
    have h2 : prev a' ≤ a' := by
      show (prev a').val ≤ a'.val
      simp only [prev_val]; omega
    exact hf (prev a') (by simp only [prev_val]; omega) (key_eq_of_between key π hsorted h1 h2 he)
  intro a ha a' ha' he
  rw [Finset.mem_filter] at ha ha'
  rcases lt_trichotomy a a' with h | h | h
  · exact absurd h (half a a' ha'.2 he)
  · exact h
  · exact absurd h (half a' a ha.2 he.symm)

/-- The keys at the first positions are all the keys. -/
theorem image_first_eq_image (hπ : Function.Bijective π)
    (hsorted : ∀ a b : Fin n, a ≤ b → key (π a) ≤ key (π b)) :
    (Finset.univ.filter (First key π)).image (fun a => key (π a)) = Finset.univ.image key := by
  ext k
  simp only [Finset.mem_image, Finset.mem_filter, Finset.mem_univ, true_and]
  constructor
  · rintro ⟨a, _, rfl⟩
    exact ⟨π a, rfl⟩
  · rintro ⟨e, rfl⟩
    obtain ⟨a₀, rfl⟩ := hπ.2 e
    -- the least sorted position holding this key
    have hne : (Finset.univ.filter fun a => key (π a) = key (π a₀)).Nonempty :=
      ⟨a₀, by simp⟩
    let m := (Finset.univ.filter fun a => key (π a) = key (π a₀)).min' hne
    have hm : key (π m) = key (π a₀) := by
      have := Finset.min'_mem _ hne
      rw [Finset.mem_filter] at this
      exact this.2
    refine ⟨m, ?_, hm⟩
    intro b hb hbe
    have hbmem : b ∈ Finset.univ.filter fun a => key (π a) = key (π a₀) := by
      rw [Finset.mem_filter]; exact ⟨Finset.mem_univ _, hbe.trans hm⟩
    have hle : m ≤ b := Finset.min'_le _ b hbmem
    have : m.val ≤ b.val := hle
    omega

end first

section sums
variable {α M : Type} [LinearOrder α] [AddCommMonoid M] {n : ℕ}

/-- Summing a function of the key over the first sorted positions is summing it over the distinct keys. -/
theorem sum_first_eq_sum_image (key : Fin n → α) (π : Fin n → Fin n) (hπ : Function.Bijective π)
    (hsorted : ∀ a b : Fin n, a ≤ b → key (π a) ≤ key (π b)) (G : α → M) :
    (∑ a : Fin n, if First key π a then G (key (π a)) else 0) = ∑ k ∈ Finset.univ.image key, G k := by
  rw [← Finset.sum_filter, ← image_first_eq_image key π hπ hsorted,
    Finset.sum_image (first_injOn key π hsorted)]

/-- The same with "first" spelled out: position `0`, or a positive position whose predecessor's key differs. -/
theorem sum_first_eq_sum_image' (key : Fin n → α) (π : Fin n → Fin n) (hπ : Function.Bijective π)
    (hsorted : ∀ a b : Fin n, a ≤ b → key (π a) ≤ key (π b)) (G : α → M) :
    (∑ a : Fin n, if (a.val = 0 ∨ ∀ h : 0 < a.val, key (π a) ≠ key (π ⟨a.val - 1, by omega⟩))
        then G (key (π a)) else 0)
      = ∑ k ∈ Finset.univ.image key, G k := by
  rw [← sum_first_eq_sum_image key π hπ hsorted G]
  refine Finset.sum_congr rfl fun a _ => ?_
  by_cases h : First key π a
  · rw [if_pos h, if_pos ((first_iff_forall key π a).mp h)]
  · rw [if_neg h, if_neg (fun h' => h ((first_iff_forall key π a).mpr h'))]

/-- The number of first positions is the number of distinct keys. -/
theorem card_first_eq_card_image (key : Fin n → α) (π : Fin n → Fin n) (hπ : Function.Bijective π)
    (hsorted : ∀ a b : Fin n, a ≤ b → key (π a) ≤ key (π b)) :
    (Finset.univ.filter (First key π)).card = (Finset.univ.image key).card := by
  rw [← image_first_eq_image key π hπ hsorted]
  exact (Finset.card_image_of_injOn (fun a ha a' ha' h =>
    first_injOn key π hsorted a (by simpa using ha) a' (by simpa using ha') h)).symm

/-- Counting by a sum of ones. -/
theorem sum_first_one_eq_card_image (key : Fin n → α) (π : Fin n → Fin n) (hπ : Function.Bijective π)
    (hsorted : ∀ a b : Fin n, a ≤ b → key (π a) ≤ key (π b)) :
    (∑ a : Fin n, if First key π a then 1 else 0) = (Finset.univ.image key).card := by
  rw [← card_first_eq_card_image key π hπ hsorted, Finset.card_filter]

/-- Counting by a sum of ones in any additive monoid with a one (a semiring, say). -/
theorem sum_first_one_eq_card_image_cast {R : Type} [AddCommMonoidWithOne R] (key : Fin n → α)
    (π : Fin n → Fin n) (hπ : Function.Bijective π)
    (hsorted : ∀ a b : Fin n, a ≤ b → key (π a) ≤ key (π b)) :
    (∑ a : Fin n, if First key π a then (1 : R) else 0) = ((Finset.univ.image key).card : R) := by
  rw [← card_first_eq_card_image key π hπ hsorted, Finset.sum_boole]

end sums

section sort
variable {α : Type} [LinearOrder α] {n : ℕ}

/-- A stable sort whose "before" relation is the strict order on the keys leaves the keys monotone. -/
theorem sortedFrom_sorted_of (key : Fin n → α) (before : Fin n → Fin n → Bool)
    (hbefore : ∀ k k', before k k' = true ↔ key k < key k') (a b : Fin n) (h : a ≤ b) :
    key (sortedFrom before a) ≤ key (sortedFrom before b) := by
  rcases eq_or_lt_of_le h with rfl | hlt
  · exact le_refl _
  · have hfalse : ∀ k k', before k k' = false ↔ key k' ≤ key k := by
      intro k k'
      rw [← not_lt, ← hbefore, Bool.not_eq_true]
    have hno := sortedFrom_noInversion before before
      (fun x y hxy => (hfalse y x).mpr (le_of_lt ((hbefore x y).mp hxy)))
      (fun _ _ hxy => hxy)
      (fun x y z hxy hyz => (hfalse x z).mpr (le_trans ((hfalse y z).mp hyz) ((hfalse x y).mp hxy)))
      a b hlt
    exact (hfalse _ _).mp hno

/-- The integer-key instance: ties keep their order, keys come out weakly increasing. -/
theorem sortedFrom_sorted (key : Fin n → ℤ) (a b : Fin n) (h : a ≤ b) :
    key (sortedFrom (fun k k' => decide (key k < key k')) a)
      ≤ key (sortedFrom (fun k k' => decide (key k < key k')) b) :=
  sortedFrom_sorted_of key _ (fun _ _ => decide_eq_true_iff) a b h

/-- The sort's position map is a bijection. -/
theorem sortedFrom_bijective (before : Fin n → Fin n → Bool) : Function.Bijective (sortedFrom before) :=
  ⟨sortedFrom_injective before, sortedFrom_surjective before⟩

/-- Deduplication by a stable sort on integer keys: the sum over first sorted positions is the sum over
    the distinct keys. -/
theorem sum_first_sortedFrom_eq_sum_image {M : Type} [AddCommMonoid M] (key : Fin n → ℤ) (G : ℤ → M) :
    (∑ a : Fin n, if First key (sortedFrom (fun k k' => decide (key k < key k'))) a
        then G (key (sortedFrom (fun k k' => decide (key k < key k')) a)) else 0)
      = ∑ k ∈ Finset.univ.image key, G k :=
  sum_first_eq_sum_image key _ (sortedFrom_bijective _) (sortedFrom_sorted key) G

end sort

section pairing
variable {M : Type} [AddCommMonoid M]

/-- Summing over the image of an injectively encoded pair is summing over the image of the pair. -/
theorem sum_image_enc_eq_sum_image {ι κ P : Type} [Fintype ι] [DecidableEq κ] [DecidableEq P]
    (pair : ι → P) (enc : P → κ) (henc : Function.Injective enc) (G' : κ → M) (G'' : P → M)
    (hG : ∀ p, G' (enc p) = G'' p) :
    ∑ k ∈ Finset.univ.image (fun e => enc (pair e)), G' k = ∑ p ∈ Finset.univ.image pair, G'' p := by
  have : Finset.univ.image (fun e => enc (pair e)) = (Finset.univ.image pair).image enc := by
    rw [Finset.image_image]; rfl
  rw [this, Finset.sum_image (fun x _ y _ h => henc h)]
  exact Finset.sum_congr rfl fun p _ => hG p

/-- Row-major numbering of a pair of indices below `N` is injective (natural-number form). -/
theorem pairNat_injective (N : ℕ) :
    Function.Injective (fun p : Fin N × Fin N => p.1.val * N + p.2.val) := by
  rintro ⟨i, j⟩ ⟨i', j'⟩ h
  simp only at h
  have hN : 0 < N := lt_of_le_of_lt (Nat.zero_le _) j.isLt
  have hi : i.val = i'.val := by
    have h1 : (i.val * N + j.val) / N = i.val := by
      rw [Nat.mul_comm, Nat.mul_add_div hN, Nat.div_eq_of_lt j.isLt, Nat.add_zero]
    have h2 : (i'.val * N + j'.val) / N = i'.val := by
      rw [Nat.mul_comm, Nat.mul_add_div hN, Nat.div_eq_of_lt j'.isLt, Nat.add_zero]
    rw [← h1, ← h2, h]
  have hj : j.val = j'.val := by
    rw [hi] at h; omega
  exact Prod.ext (Fin.ext hi) (Fin.ext hj)

/-- The integer form of the same numbering. -/
theorem pairInt_injective (N : ℕ) :
    Function.Injective (fun p : Fin N × Fin N => ((p.1.val : ℤ) * (N : ℤ) + (p.2.val : ℤ))) := by
  intro p q h
  apply pairNat_injective N
  simp only at h ⊢
  exact_mod_cast h

/-- Sum over distinct edge keys `src * N + dst` (natural numbers) = sum over distinct `(src, dst)` pairs. -/
theorem sum_image_key_eq_sum_image_pair {n N : ℕ} (src dst : Fin n → Fin N) (G' : ℕ → M)
    (G'' : Fin N × Fin N → M) (hG : ∀ p : Fin N × Fin N, G' (p.1.val * N + p.2.val) = G'' p) :
    ∑ k ∈ Finset.univ.image (fun e => (src e).val * N + (dst e).val), G' k
      = ∑ p ∈ Finset.univ.image (fun e => (src e, dst e)), G'' p :=
  sum_image_enc_eq_sum_image (fun e => (src e, dst e)) (fun p : Fin N × Fin N => p.1.val * N + p.2.val)
    (pairNat_injective N) G' G'' hG

/-- The same with integer keys. -/
theorem sum_image_keyInt_eq_sum_image_pair {n N : ℕ} (src dst : Fin n → Fin N) (G' : ℤ → M)
    (G'' : Fin N × Fin N → M)
    (hG : ∀ p : Fin N × Fin N, G' ((p.1.val : ℤ) * (N : ℤ) + (p.2.val : ℤ)) = G'' p) :
    ∑ k ∈ Finset.univ.image (fun e => (((src e).val : ℤ) * (N : ℤ) + ((dst e).val : ℤ))), G' k
      = ∑ p ∈ Finset.univ.image (fun e => (src e, dst e)), G'' p :=
  sum_image_enc_eq_sum_image (fun e => (src e, dst e))
    (fun p : Fin N × Fin N => ((p.1.val : ℤ) * (N : ℤ) + (p.2.val : ℤ)))
    (pairInt_injective N) G' G'' hG

end pairing

end Cert.Spec.Dedup

end
-- ==== Proof.Region3Value.lean ====
import proofs.«408955_j56530359550020_1_alg».proof.Proof.Region3
import Idealize.ShloMosaic.PureOps.Ideal
import Idealize.ShloMosaic.PureOps.Ideal.Laws
import Idealize.ShloMosaic.Lib.ValueIdx
import Idealize.ShloMosaic.Lib.Pipeline.Value
import Mathlib.Algebra.BigOperators.Fin

noncomputable section

namespace Cert.KernelIdeal.R3V

open Idealize.ShloMosaic Idealize.ShloMosaic.TcCoe Idealize.ShloMosaic.ValueIdx
open Idealize.ShloMosaic.Pipeline (Dat)
open Cert.KernelIdeal Cert.KernelIdeal.Gen Cert.KernelIdeal.R3

/-! # Region 3's value: the two accumulated totals

Each grid point adds, to a carried pair, the block's total of (row sum of the products of two 64-wide rows) times a
weight, and the block's total of the weights. After the 32 points the pair holds the two totals over all 384000 rows. -/

/-- A sum over the indices of a [1, n, 1] vector is the sum over its middle coordinate. -/
theorem sum_idx_1n1 {n : Nat} (f : (⟨3, ![1, n, 1]⟩ : Shape).Idx → EReal) :
    ∑ i, f i = ∑ r : Fin n, f (ix3 0 r 0) := by
  have hmid : ∀ i : (⟨3, ![1, n, 1]⟩ : Shape).Idx, ix3 0 (i 1) 0 = i := fun i => by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  let e : (⟨3, ![1, n, 1]⟩ : Shape).Idx ≃ Fin n := ⟨fun i => i 1, fun r => ix3 0 r 0, hmid, fun r => rfl⟩
  exact Fintype.sum_equiv e _ _ fun i => congrArg f (hmid i).symm

/-- The column cast [n] → [n, 1] read at row r. -/
theorem cast_col_apply {n : Nat} (v : (⟨1, ![n]⟩ : Shape).Idx → EReal)
    (h : (⟨1, ![n]⟩ : Shape).ShapeCasts ⟨2, ![n, 1]⟩) (r : Fin n) :
    shapeCast ⟨2, ![n, 1]⟩ v h (ix2 r 0) = v (ix1 r) := by
  apply shapeCast_apply
  rw [Shape.rowMajor_val_one, Shape.rowMajor_val_two]
  show r.val = r.val * 1 + 0
  omega

/-- The cast [n, 1] → [1, n, 1] read at (0, r, 0). -/
theorem cast_1n1_apply {n : Nat} (v : (⟨2, ![n, 1]⟩ : Shape).Idx → EReal)
    (h : (⟨2, ![n, 1]⟩ : Shape).ShapeCasts ⟨3, ![1, n, 1]⟩) (r : Fin n) :
    shapeCast ⟨3, ![1, n, 1]⟩ v h (ix3 0 r 0) = v (ix2 r 0) := by
  apply shapeCast_apply
  rw [Shape.rowMajor_val_two, Shape.rowMajor_val_three]
  show r.val * 1 + 0 = (0 * n + r.val) * 1 + 0
  omega

/-- The total of a [1, 12000, 1] vector, as the kernel takes it (a reduction over the two inner axes into one
    element, read back as a scalar): the sum over the middle coordinate. -/
theorem total_apply (v : FVec Ideal S1x12000x1 .f32) (h : S1x12000x1.Reduces [1, 2] S1) (hφ : FKind.Formats .f32)
    (hacc : (0x00000000#32 : BitVec 32) = FKind.add.neutral .f32 hφ) (hc : S1.ShapeCasts S1x1x1)
    (hp : ∀ a, (![0, 0, 0] : Fin 3 → Nat) a < S1x1x1.size a) :
    extractAt ![0, 0, 0] (shapeCast S1x1x1 (multiReduction .add [1, 2] S1 v 0x00000000#32 h hφ hacc) hc) hp
      = ∑ r : Fin 12000, v (ix3 0 r 0) := by
  unfold extractAt shapeCast
  exact (Ideal.multiReduction_add_total v _ h (by decide) hφ hacc _).trans (sum_idx_1n1 v)

/-- The row sums of a [12000, 64] vector, read at row r. -/
theorem rowsum_apply (v : FVec Ideal S12000x64 .f32) (h : S12000x64.Reduces [1] S12000) (hφ : FKind.Formats .f32)
    (hacc : (0x00000000#32 : BitVec 32) = FKind.add.neutral .f32 hφ) (r : Fin 12000) :
    multiReduction .add [1] S12000 v 0x00000000#32 h hφ hacc (ix1 r) = ∑ k : Fin 64, v (ix2 r k) :=
  (Ideal.multiReduction_add_single v 0x00000000#32 h hφ hacc (ix1 r)).trans
    (Finset.sum_congr rfl fun k _ => congrArg v (Shape.idx_ext₂ rfl rfl))

/-- ONE STEP, the first column: the carried value plus the block's total of (row sum of x3·x5) · x10. -/
theorem step_psum (x3 x5 : Vec Ideal S12000x64 .f32) (x10 : Vec Ideal S12000x1 .f32) (x24 : Vec Ideal S1x2 .f32) :
    k3_pay2 (F := Ideal) x3 x5 x10 x24 (ix2 0 0)
      = x24 (ix2 0 0) + ∑ r : Fin 12000, (∑ h : Fin 64, x3 (ix2 r h) * x5 (ix2 r h)) * x10 (ix2 r 0) := by
  unfold k3_pay2
  refine (congrFun (shapeCast_self _ _) _).trans ?_
  refine (addf_apply _ _ _).trans (congrArg (x24 (ix2 0 0) + ·) ?_)
  refine (concatenate_pair_apply_left (t := S1x2) (s₁ := S1x1) (s₂ := S1x1) (1 : Fin 2) _ _ concatenates_S1x1_S1x1_S1x2_d1
    (ix2 (n0 := 1) (n1 := 2) 0 0) rfl (ix2 (n0 := 1) (n1 := 1) 0 0)
    (fun (b : Fin 2) => by match b with | ⟨0, _⟩ => rfl | ⟨1, _⟩ => rfl)).trans ?_
  refine (broadcast_apply _ _).trans ?_
  refine (total_apply _ _ _ _ _ _).trans ?_
  refine Finset.sum_congr rfl fun r _ => ?_
  refine (cast_1n1_apply _ _ r).trans ?_
  refine (mulf_apply _ _ _).trans ?_
  refine congrArg₂ (· * ·) ?_ (congrFun (shapeCast_self x10 _) (ix2 r 0))
  refine (cast_col_apply _ _ r).trans ?_
  refine (rowsum_apply _ _ _ _ r).trans ?_
  refine Finset.sum_congr rfl fun k _ => ?_
  exact (mulf_apply _ _ _).trans
    (congrArg₂ (· * ·) (congrFun (shapeCast_self x3 _) (ix2 r k)) (congrFun (shapeCast_self x5 _) (ix2 r k)))

/-- ONE STEP, the second column: the carried value plus the block's total of x10. -/
theorem step_pcnt (x3 x5 : Vec Ideal S12000x64 .f32) (x10 : Vec Ideal S12000x1 .f32) (x24 : Vec Ideal S1x2 .f32) :
    k3_pay2 (F := Ideal) x3 x5 x10 x24 (ix2 0 1) = x24 (ix2 0 1) + ∑ r : Fin 12000, x10 (ix2 r 0) := by
  unfold k3_pay2
  refine (congrFun (shapeCast_self _ _) _).trans ?_
  refine (addf_apply _ _ _).trans (congrArg (x24 (ix2 0 1) + ·) ?_)
  refine (concatenate_pair_apply_right (t := S1x2) (s₁ := S1x1) (s₂ := S1x1) (1 : Fin 2) _ _ concatenates_S1x1_S1x1_S1x2_d1
    (ix2 (n0 := 1) (n1 := 2) 0 1) rfl rfl (ix2 (n0 := 1) (n1 := 1) 0 0)
    (fun (b : Fin 2) hb => by match b with | ⟨0, _⟩ => rfl | ⟨1, _⟩ => exact absurd rfl hb) rfl).trans ?_
  refine (broadcast_apply _ _).trans ?_
  refine (total_apply _ _ _ _ _ _).trans ?_
  refine Finset.sum_congr rfl fun r _ => ?_
  exact (cast_1n1_apply _ _ r).trans (congrFun (shapeCast_self x10 _) (ix2 r 0))

/-! ## The carried pair after point n -/

/-- The reset value the first point starts from is zero at both columns. -/
theorem pay1_zero (j : S1x2.Idx) : (k3_pay1 (F := Ideal)) j = 0 := by
  unfold k3_pay1
  refine (congrFun (shapeCast_self _ _) _).trans ?_
  exact Ideal.ofBits_zero_f32

variable (V : (c : Dev nD) → (b : Ref sig .tc) → Buf (Elt Ideal) ((c : Thread nD τ).loc b))

/-- If one step adds g t to column j of the carried pair at every point t, then after point n column j holds the sum
    of g over the points up to n: by induction on n. -/
theorem acc_col (c : Dev nD) (j : S1x2.Idx) (g : ℕ → EReal)
    (hstep : ∀ (t : Fin cfg3.N) (x24 : Vec Ideal S1x2 .f32),
      k3_pay2 (F := Ideal) (iblk V c 0 t) (iblk V c 1 t) (iblk V c 2 t) x24 j = x24 j + g t.val) :
    ∀ (n : ℕ) (h : n < cfg3.N), acc V c n h j = ∑ b ∈ Finset.range (n + 1), g b
  | 0, h => by
    refine (hstep ⟨0, h⟩ _).trans ?_
    rw [pay1_zero, zero_add, Finset.sum_range_one]
  | n + 1, h => by
    refine (hstep ⟨n + 1, h⟩ _).trans ?_
    rw [acc_col c j g hstep n (Nat.lt_of_succ_lt h), Finset.sum_range_succ _ (n + 1)]

/-! ## The blocks, read off the arrays -/

/-- The index maps, decided once over the grid: block t of each input starts at row 12000·t, column 0. -/
theorem idx_facts : ∀ t : Fin cfg3.N,
    win3_0.index t 0 = t.val ∧ win3_0.index t 1 = 0 ∧ win3_1.index t 0 = t.val ∧ win3_1.index t 1 = 0
      ∧ win3_2.index t 0 = t.val ∧ win3_2.index t 1 = 0 :=
  (by decide +kernel : ∀ t : Fin grid3.N, _)

theorem lt_grid (t : Fin cfg3.N) : t.val < 32 := lt_of_lt_of_eq t.isLt N_3

/-- Row r of block b is row 12000·b + r of the array. -/
abbrev rowOf (b : ℕ) (hb : b < 32) (r : Fin 12000) : Fin 384000 := ⟨b * 12000 + r.val, by have := r.isLt; omega⟩

theorem iblk0_apply (c : Dev nD) (t : Fin cfg3.N) (r : Fin 12000) (h : Fin 64) :
    (iblk V c 0 t : Vec Ideal S12000x64 .f32) (ix2 r h)
      = (V c main_v127 : S384000x64.Idx → EReal) (ix2 (rowOf t.val (lt_grid t) r) h) := by
  unfold iblk
  rw [View.read_apply]
  show V c main_v127 _ = V c main_v127 _
  congr 1
  funext a
  apply Fin.ext
  match a with
  | ⟨0, _⟩ => show win3_0.index t 0 * 12000 + 1 * r.val = t.val * 12000 + r.val; rw [(idx_facts t).1]; omega
  | ⟨1, _⟩ => show win3_0.index t 1 * 64 + 1 * h.val = h.val; rw [(idx_facts t).2.1]; omega

theorem iblk1_apply (c : Dev nD) (t : Fin cfg3.N) (r : Fin 12000) (h : Fin 64) :
    (iblk V c 1 t : Vec Ideal S12000x64 .f32) (ix2 r h)
      = (V c main_v134 : S384000x64.Idx → EReal) (ix2 (rowOf t.val (lt_grid t) r) h) := by
  unfold iblk
  rw [View.read_apply]
  show V c main_v134 _ = V c main_v134 _
  congr 1
  funext a
  apply Fin.ext
  match a with
  | ⟨0, _⟩ => show win3_1.index t 0 * 12000 + 1 * r.val = t.val * 12000 + r.val; rw [(idx_facts t).2.2.1]; omega
  | ⟨1, _⟩ => show win3_1.index t 1 * 64 + 1 * h.val = h.val; rw [(idx_facts t).2.2.2.1]; omega

theorem iblk2_apply (c : Dev nD) (t : Fin cfg3.N) (r : Fin 12000) :
    (iblk V c 2 t : Vec Ideal S12000x1 .f32) (ix2 r 0)
      = (V c main_v120 : S384000x1.Idx → EReal) (ix2 (rowOf t.val (lt_grid t) r) 0) := by
  unfold iblk
  rw [View.read_apply]
  show V c main_v120 _ = V c main_v120 _
  congr 1
  funext a
  apply Fin.ext
  match a with
  | ⟨0, _⟩ => show win3_2.index t 0 * 12000 + 1 * r.val = t.val * 12000 + r.val; rw [(idx_facts t).2.2.2.2.1]; omega
  | ⟨1, _⟩ => show win3_2.index t 1 * 1 + 1 * 0 = 0; rw [(idx_facts t).2.2.2.2.2]

/-! ## The output array after the region -/

theorem h31 : 31 < cfg3.N := lt_of_lt_of_eq (by decide : 31 < 32) N_3.symm

/-- The last point of the grid, the only one that writes the output back. -/
abbrev tLast : Fin cfg3.N := ⟨31, h31⟩

/-- The carried pair after the last point, as contents of the output array (its one block is the whole array). -/
abbrev result (c : Dev nD) : Buf (Elt Ideal) ((c : Thread nD τ).loc main_v135) := acc V c 31 h31

/-- The one write-back, at the last point, writes the carried pair: block (0, 0) of the [1, 2] array is the array. -/
theorem flushed_eq (c : Dev nD) (t : Fin cfg3.N) (hf : (cfg3.win 3).flush t = true) :
    (dat V c).flushed 3 t = ((cfg3.win 3).blk t).view.read (Elt Ideal) (result V c) := by
  have h3 : t.val = 31 := by have := (flush3_3 t).mp hf; have := lt_grid t; omega
  obtain rfl : t = tLast := Fin.ext h3
  show (cfg3.win 3).cut (grid3.coords tLast) ((dat V c).after 3 tLast) = _
  rw [after_3]
  have hz' : (fun a => win3_3.index tLast a * main_v135.ty.shape.size a) = fun _ => 0 :=
    funext fun a => by fin_cases a <;> decide +kernel
  exact (Memref.read_access_unit_zero (Elt Ideal) main_v135 hz' (fun a => by rw [congrFun hz' a]; simp) (result V c)).symm

/-- So the output array ends holding the carried pair after the last point. -/
theorem final (c : Dev nD) : (dat V c).arrAt 3 cfg3.N = result V c :=
  (dat V c).arrAt_eq_of_cover 3 (result V c) (flushed_eq V c) fun i =>
    ⟨tLast, (flush3_3 tLast).mpr rfl, by
      show i ∈ ((View.whole main_v135).slice (win3_3.rect tLast)).set
      rw [View.set_slice_whole, Rect.mem_set_unit]
      intro a
      have h0 : (i 0 : Nat) < 1 := (i 0).isLt
      have h1 : (i 1 : Nat) < 2 := (i 1).isLt
      match a with
      | ⟨0, _⟩ =>
        show win3_3.index tLast 0 * win3_3.size 0 ≤ (i 0 : Nat)
          ∧ (i 0 : Nat) < win3_3.index tLast 0 * win3_3.size 0 + win3_3.xsize (grid3.coords tLast) 0
        rw [show win3_3.index tLast 0 * win3_3.size 0 = 0 from by decide +kernel,
          show win3_3.xsize (grid3.coords tLast) 0 = 1 from by decide +kernel]
        omega
      | ⟨1, _⟩ =>
        show win3_3.index tLast 1 * win3_3.size 1 ≤ (i 1 : Nat)
          ∧ (i 1 : Nat) < win3_3.index tLast 1 * win3_3.size 1 + win3_3.xsize (grid3.coords tLast) 1
        rw [show win3_3.index tLast 1 * win3_3.size 1 = 0 from by decide +kernel,
          show win3_3.xsize (grid3.coords tLast) 1 = 2 from by decide +kernel]
        omega⟩

/-! ## Regrouping the blocks' totals into one sum over the rows -/

/-- Block b's total of a per-row quantity, as a function of the block number (zero past the grid). -/
def blockSum (f : Fin 384000 → EReal) (b : ℕ) : EReal :=
  if hb : b < 32 then ∑ r : Fin 12000, f (rowOf b hb r) else 0

/-- The 32 blocks of 12000 rows are the 384000 rows: the blocks' totals add up to the total. -/
theorem sum_blockSum (f : Fin 384000 → EReal) : ∑ b ∈ Finset.range 32, blockSum f b = ∑ e, f e := by
  rw [Finset.sum_range]
  have e : ∑ e, f e = ∑ p : Fin 32 × Fin 12000, f (finProdFinEquiv p) :=
    (Equiv.sum_comp (finProdFinEquiv (m := 32) (n := 12000)) f).symm
  rw [e, Fintype.sum_prod_type]
  refine Finset.sum_congr rfl fun b _ => ?_
  unfold blockSum
  rw [dif_pos b.isLt]
  refine Finset.sum_congr rfl fun r _ => congrArg f (Fin.ext ?_)
  show b.val * 12000 + r.val = r.val + 12000 * b.val
  omega

/-! ## The two totals -/

/-- The region's three input arrays on core c, as functions of their indices, and its output array after the region. -/
abbrev arrA (c : Dev nD) : S384000x64.Idx → EReal := V c main_v127
abbrev arrB (c : Dev nD) : S384000x64.Idx → EReal := V c main_v134
abbrev arrK (c : Dev nD) : S384000x1.Idx → EReal := V c main_v120
abbrev outArr (c : Dev nD) : S1x2.Idx → EReal := (R3.dat (F := Ideal) V c).arrAt 3 cfg3.N

/-- The first column: the total over all rows e of (∑ₕ A e h · B e h) · K e. -/
theorem psum_eq (c : Dev nD) :
    outArr V c (ix2 0 0)
      = ∑ e : Fin 384000, (∑ h : Fin 64, arrA V c (ix2 e h) * arrB V c (ix2 e h)) * arrK V c (ix2 e 0) := by
  refine (congrFun (final V c) (ix2 0 0)).trans ?_
  show acc V c 31 h31 (ix2 0 0) = _
  rw [← sum_blockSum]
  refine acc_col V c (ix2 0 0) _ (fun t x24 => ?_) 31 h31
  refine (step_psum _ _ _ x24).trans (congrArg (x24 (ix2 0 0) + ·) ?_)
  unfold blockSum
  rw [dif_pos (lt_grid t)]
  refine Finset.sum_congr rfl fun r _ => ?_
  refine congrArg₂ (· * ·) (Finset.sum_congr rfl fun h _ => ?_) (iblk2_apply V c t r)
  exact congrArg₂ (· * ·) (iblk0_apply V c t r h) (iblk1_apply V c t r h)

/-- The second column: the total over all rows e of K e. -/
theorem pcnt_eq (c : Dev nD) : outArr V c (ix2 0 1) = ∑ e : Fin 384000, arrK V c (ix2 e 0) := by
  refine (congrFun (final V c) (ix2 0 1)).trans ?_
  show acc V c 31 h31 (ix2 0 1) = _
  rw [← sum_blockSum]
  refine acc_col V c (ix2 0 1) _ (fun t x24 => ?_) 31 h31
  refine (step_pcnt _ _ _ x24).trans (congrArg (x24 (ix2 0 1) + ·) ?_)
  unfold blockSum
  rw [dif_pos (lt_grid t)]
  exact Finset.sum_congr rfl fun r _ => iblk2_apply V c t r

end Cert.KernelIdeal.R3V

end
-- ==== Proof.SpecMask.lean ====
import Mathlib.Data.EReal.Basic
import Mathlib.Algebra.BigOperators.Group.Finset.Basic
import Mathlib.Data.Fintype.BigOperators
import Idealize.ShloMosaic.PureOps.Ideal
import Idealize.ShloMosaic.PureOps.ShapeOps
import Idealize.ShloMosaic.Lib.ValueIdx

noncomputable section

open scoped BigOperators

namespace Cert.Spec.Mask

open Idealize.ShloMosaic
open Idealize.ShloMosaic.ValueIdx

/-! ## A scatter that SETS one constant: the indicator of the hit indices -/

/-- The fold behind the scatter, over ANY list of update positions and from any accumulator, when the combiner
    returns the update and every update is the constant `v`: read at `i'` it is `v` when some position of the list
    lands at `i'`, and the accumulator's element otherwise. Later writes overwrite earlier ones with the same
    constant, so the order of the list plays no part. -/
theorem foldl_set_const {s si u : Shape} {w : ℕ} {α : Type} (d : ScatterDims s si u) (idx : IVec si w) (v : α)
    (f : α → α → α) (upd : u.Idx → α) (hf : ∀ a j, f a (upd j) = v) (i' : s.Idx)
    (l : List (Fin u.numel)) (x : s.Idx → α) :
    (l.foldl (fun r n =>
      match d.resultIdx? (u.rowMajor.symm n) idx with
      | some i => fun i' => if i' = i then f (r i) (upd (u.rowMajor.symm n)) else r i'
      | none => r) x) i'
      = if (∃ n ∈ l, d.resultIdx? (u.rowMajor.symm n) idx = some i') then v else x i' := by
  classical
  induction l generalizing x with
  | nil => simp
  | cons n l ih =>
    rw [List.foldl_cons, ih]
    by_cases hl : ∃ m ∈ l, d.resultIdx? (u.rowMajor.symm m) idx = some i'
    · have hnl : ∃ m ∈ n :: l, d.resultIdx? (u.rowMajor.symm m) idx = some i' := by
        obtain ⟨m, hm, hP⟩ := hl
        exact ⟨m, List.mem_cons_of_mem _ hm, hP⟩
      rw [if_pos hl, if_pos hnl]
    · rw [if_neg hl]
      cases hr : d.resultIdx? (u.rowMajor.symm n) idx with
      | none =>
        have hnl : ¬ ∃ m ∈ n :: l, d.resultIdx? (u.rowMajor.symm m) idx = some i' := by
          rintro ⟨m, hm, hP⟩
          rcases List.mem_cons.1 hm with rfl | hm
          · rw [hr] at hP; cases hP
          · exact hl ⟨m, hm, hP⟩
        rw [if_neg hnl]
      | some i =>
        by_cases hi : i' = i
        · have hnl : ∃ m ∈ n :: l, d.resultIdx? (u.rowMajor.symm m) idx = some i' :=
            ⟨n, List.mem_cons_self, by rw [hr, hi]⟩
          rw [if_pos hnl]
          simp only [hi, if_true, hf]
        · have hnl : ¬ ∃ m ∈ n :: l, d.resultIdx? (u.rowMajor.symm m) idx = some i' := by
            rintro ⟨m, hm, hP⟩
            rcases List.mem_cons.1 hm with rfl | hm
            · rw [hr] at hP; exact hi (Option.some.inj hP).symm
            · exact hl ⟨m, hm, hP⟩
          rw [if_neg hnl]
          simp only [hi, if_false]

/-- THE SCATTER OF ONE CONSTANT WITH THE "SET" COMBINER, read at `i'`: the constant where some update index lands
    at `i'`, the operand's element elsewhere — whatever the order of the updates. -/
theorem scatter_set_const {s si u : Shape} {w : ℕ} {α : Type} (d : ScatterDims s si u) (x : s.Idx → α)
    (idx : IVec si w) (v : α) (i' : s.Idx) [Decidable (∃ j : u.Idx, d.resultIdx? j idx = some i')] :
    Host.scatter d (fun _ b => b) x idx (fun _ => v) i'
      = if (∃ j : u.Idx, d.resultIdx? j idx = some i') then v else x i' := by
  classical
  unfold Host.scatter
  refine (foldl_set_const d idx v (fun _ b => b) (fun _ => v) (fun _ _ => rfl) i' (List.finRange u.numel) x).trans ?_
  have hiff : (∃ n ∈ List.finRange u.numel, d.resultIdx? (u.rowMajor.symm n) idx = some i')
      ↔ ∃ j : u.Idx, d.resultIdx? j idx = some i' := by
    constructor
    · rintro ⟨n, _, hP⟩; exact ⟨_, hP⟩
    · rintro ⟨j, hP⟩
      exact ⟨u.rowMajor j, List.mem_finRange _, by rw [Equiv.symm_apply_apply]; exact hP⟩
  by_cases h : ∃ j : u.Idx, d.resultIdx? j idx = some i'
  · rw [if_pos (hiff.2 h), if_pos h]
  · rw [if_neg (fun h' => h (hiff.1 h')), if_neg h]

/-! ## The program's scatter: pairs `(src e, dst e)` set in a 12000 × 12000 array -/

/-- The operand's shape. -/
abbrev SOp : Shape := ⟨2, ![12000, 12000]⟩
/-- The scatter indices' shape: one pair per update. -/
abbrev SIx : Shape := ⟨2, ![384000, 2]⟩
/-- The updates' shape: one scalar per pair. -/
abbrev SUp : Shape := ⟨1, ![384000]⟩

/-- Where component `c` of update `e`'s index pair sits in the scatter indices: row `e`, column `c`. -/
abbrev pairIdx (e : SUp.Idx) (c : Fin 2) : SIx.Idx := ix2 (n0 := 384000) (n1 := 2) (e 0) c

/-- A 32-bit word whose signed reading is not negative reads the same unsigned. -/
theorem toInt_eq_toNat_of_nonneg (b : BitVec 32) (h : 0 ≤ b.toInt) : b.toInt = (b.toNat : Int) := by
  have hlt := b.isLt
  rw [BitVec.toInt_eq_toNat_cond] at h ⊢
  split_ifs at h ⊢ with hc
  · rfl
  · omega

/-- An in-range entry's unsigned reading is below the operand's extent. -/
theorem toNat_lt_of_inRange (b : BitVec 32) (h : 0 ≤ b.toInt ∧ b.toInt < 12000) : b.toNat < 12000 := by
  have := toInt_eq_toNat_of_nonneg b h.1
  omega

/-- The operand index update `e` lands at when every entry of the index array is in range: row the first
    component of its pair, column the second, each read unsigned. -/
def hitIdx (idx : IVec SIx 32) (h : ∀ j, 0 ≤ (idx j).toInt ∧ (idx j).toInt < 12000) (e : SUp.Idx) : SOp.Idx :=
  ix2 (n0 := 12000) (n1 := 12000) ⟨(idx (pairIdx e 0)).toNat, toNat_lt_of_inRange _ (h _)⟩
    ⟨(idx (pairIdx e 1)).toNat, toNat_lt_of_inRange _ (h _)⟩

/-- The program's dimension numbers: no window axes, both operand axes inserted, the pair's components mapped
    to operand axes 0 and 1 in order, the pair along axis 1 of the scatter indices. -/
abbrev pairDims (wf : ScatterDims.WF SOp SIx SUp [] [0, 1] [0, 1] 1) : ScatterDims SOp SIx SUp where
  updateWindowDims := []
  insertedWindowDims := [0, 1]
  scatterDimsToOperandDims := [0, 1]
  indexVectorDim := 1
  wf := wf

/-- Component `c` of update `e`'s start index is read at row `e`, column `c` of the scatter indices. -/
theorem pairDims_siIdx (wf : ScatterDims.WF SOp SIx SUp [] [0, 1] [0, 1] 1) (e : SUp.Idx) (c : Fin 2)
    (hc : c.val < (pairDims wf).scatterDimsToOperandDims.length) :
    (pairDims wf).siIdx e ⟨c.val, hc⟩ = pairIdx e c := by
  funext b; refine Fin.ext ?_
  match b with
  | ⟨0, _⟩ => rfl
  | ⟨1, _⟩ => rfl

/-- The start on operand axis `a` is entry `(e, a)` of the scatter indices, read signed. -/
theorem pairDims_start (wf : ScatterDims.WF SOp SIx SUp [] [0, 1] [0, 1] 1) (idx : IVec SIx 32) (e : SUp.Idx)
    (a : Fin 2) : (pairDims wf).start e idx a = (idx (pairIdx e a)).toInt := by
  have h0 : (0 : Fin 2) ∈ (pairDims wf).scatterDimsToOperandDims := List.mem_cons_self
  have h1 : (1 : Fin 2) ∈ (pairDims wf).scatterDimsToOperandDims := List.mem_cons_of_mem _ List.mem_cons_self
  unfold ScatterDims.start
  match a with
  | ⟨0, _⟩ =>
    exact (dif_pos h0).trans (congrArg (fun j => (idx j).toInt) (pairDims_siIdx wf e 0 Nat.zero_lt_two))
  | ⟨1, _⟩ =>
    exact (dif_pos h1).trans (congrArg (fun j => (idx j).toInt) (pairDims_siIdx wf e 1 Nat.one_lt_two))

/-- Both operand axes are inserted: the window coordinate is zero on each. -/
theorem pairDims_window (wf : ScatterDims.WF SOp SIx SUp [] [0, 1] [0, 1] 1) (e : SUp.Idx) (a : Fin 2) :
    (pairDims wf).window e a = 0 := by
  have hk : (pairDims wf).sKept = [] := rfl
  have hn : a ∉ (pairDims wf).sKept := by rw [hk]; exact List.not_mem_nil
  unfold ScatterDims.window
  exact dif_neg hn

/-- Each operand axis has extent 12000. -/
theorem SOp_size (a : Fin 2) : SOp.size a = 12000 := by
  match a with
  | ⟨0, _⟩ => rfl
  | ⟨1, _⟩ => rfl

/-- The result index of update `e` at the program's dimension numbers, every entry in range. -/
theorem resultIdx?_pairDims (wf : ScatterDims.WF SOp SIx SUp [] [0, 1] [0, 1] 1) (idx : IVec SIx 32)
    (h : ∀ j, 0 ≤ (idx j).toInt ∧ (idx j).toInt < 12000) (e : SUp.Idx) :
    (pairDims wf).resultIdx? e idx = some (hitIdx idx h e) := by
  have hall : ∀ a : Fin 2, 0 ≤ (pairDims wf).start e idx a + (pairDims wf).window e a
      ∧ (pairDims wf).start e idx a + (pairDims wf).window e a < SOp.size a := by
    intro a
    rw [pairDims_start, pairDims_window, SOp_size]
    have := h (pairIdx e a)
    omega
  unfold ScatterDims.resultIdx?
  rw [dif_pos hall]
  congr 1
  funext a
  refine Fin.ext ?_
  have h0 := toInt_eq_toNat_of_nonneg _ (h (pairIdx e 0)).1
  have h1 := toInt_eq_toNat_of_nonneg _ (h (pairIdx e 1)).1
  match a with
  | ⟨0, _⟩ =>
    show ((pairDims wf).start e idx 0 + ((pairDims wf).window e 0 : ℕ)).toNat = (idx (pairIdx e 0)).toNat
    rw [pairDims_start, pairDims_window]
    omega
  | ⟨1, _⟩ =>
    show ((pairDims wf).start e idx 1 + ((pairDims wf).window e 1 : ℕ)).toNat = (idx (pairIdx e 1)).toNat
    rw [pairDims_start, pairDims_window]
    omega

/-- THE PROGRAM'S SCATTER LANDS UPDATE `e` AT `hitIdx idx h e`: with no window axes, both operand axes inserted,
    the pair's components mapped to operand axes 0 and 1 in order and the pair along axis 1 of the indices, the
    result index is the pair itself; it is inside the operand because every entry is in range, so no update is
    dropped. -/
theorem resultIdx?_eq (d : ScatterDims SOp SIx SUp) (hu : d.updateWindowDims = [])
    (hi : d.insertedWindowDims = [0, 1]) (hs : d.scatterDimsToOperandDims = [0, 1]) (hv : d.indexVectorDim = 1)
    (idx : IVec SIx 32) (h : ∀ j, 0 ≤ (idx j).toInt ∧ (idx j).toInt < 12000) (e : SUp.Idx) :
    d.resultIdx? e idx = some (hitIdx idx h e) := by
  obtain ⟨uw, iw, sd, iv, wf⟩ := d
  simp only at hu hi hs hv
  subst hu hi hs hv
  exact resultIdx?_pairDims wf idx h e

/-- The landing index's row is the pair's first component, read unsigned. -/
theorem hitIdx_val_0 (idx : IVec SIx 32) (h : ∀ j, 0 ≤ (idx j).toInt ∧ (idx j).toInt < 12000) (e : SUp.Idx) :
    (hitIdx idx h e 0).val = (idx (pairIdx e 0)).toNat := rfl
/-- The landing index's column is the pair's second component, read unsigned. -/
theorem hitIdx_val_1 (idx : IVec SIx 32) (h : ∀ j, 0 ≤ (idx j).toInt ∧ (idx j).toInt < 12000) (e : SUp.Idx) :
    (hitIdx idx h e 1).val = (idx (pairIdx e 1)).toNat := rfl

/-- THE PROGRAM'S SCATTER OF ONE CONSTANT, read at `i'`: the constant where some pair is `i'`, the operand's
    element elsewhere. -/
theorem scatter_pairs_apply {α : Type} (d : ScatterDims SOp SIx SUp) (hu : d.updateWindowDims = [])
    (hi : d.insertedWindowDims = [0, 1]) (hs : d.scatterDimsToOperandDims = [0, 1]) (hv : d.indexVectorDim = 1)
    (idx : IVec SIx 32) (h : ∀ j, 0 ≤ (idx j).toInt ∧ (idx j).toInt < 12000) (x : SOp.Idx → α) (v : α)
    (i' : SOp.Idx) [Decidable (∃ e : SUp.Idx, hitIdx idx h e = i')] :
    Host.scatter d (fun _ b => b) x idx (fun _ => v) i'
      = if (∃ e : SUp.Idx, hitIdx idx h e = i') then v else x i' := by
  classical
  rw [scatter_set_const]
  have hiff : (∃ j : SUp.Idx, d.resultIdx? j idx = some i') ↔ ∃ e : SUp.Idx, hitIdx idx h e = i' := by
    constructor
    · rintro ⟨j, hj⟩
      rw [resultIdx?_eq d hu hi hs hv idx h j] at hj
      exact ⟨j, Option.some.inj hj⟩
    · rintro ⟨e, he⟩
      exact ⟨e, by rw [resultIdx?_eq d hu hi hs hv idx h e, he]⟩
  by_cases hc : ∃ e : SUp.Idx, hitIdx idx h e = i'
  · rw [if_pos (hiff.2 hc), if_pos hc]
  · rw [if_neg (fun h' => hc (hiff.1 h')), if_neg hc]

/-! ## The two sums of a 0/1 indicator of an image -/

/-- The indicator of the image of `hit` sums to the number of points of the image. -/
theorem sum_indicator_image {I E : Type} [Fintype I] [Fintype E] [DecidableEq I] (hit : E → I)
    [∀ i, Decidable (∃ e, hit e = i)] :
    ∑ i : I, (if (∃ e, hit e = i) then (1 : EReal) else 0) = ((Finset.univ.image hit).card : EReal) := by
  have hmem : ∀ i : I, (∃ e, hit e = i) ↔ i ∈ Finset.univ.image hit := by
    intro i; simp [Finset.mem_image]
  have h1 : ∀ i : I, (if (∃ e, hit e = i) then (1 : EReal) else 0)
      = if i ∈ Finset.univ.image hit then (1 : EReal) else 0 := by
    intro i
    by_cases h : ∃ e, hit e = i
    · rw [if_pos h, if_pos ((hmem i).1 h)]
    · rw [if_neg h, if_neg (fun h' => h ((hmem i).2 h'))]
  rw [Finset.sum_congr rfl (fun i _ => h1 i), Finset.sum_ite_mem, Finset.univ_inter, Finset.sum_const, nsmul_one]

/-- A function times the indicator of the image of `hit` sums to the function's sum over the image: in the
    extended reals `x * 1 = x` and `x * 0 = 0` for every `x`, the infinities included. -/
theorem sum_mul_indicator_image {I E : Type} [Fintype I] [Fintype E] [DecidableEq I] (hit : E → I)
    [∀ i, Decidable (∃ e, hit e = i)] (f : I → EReal) :
    ∑ i : I, f i * (if (∃ e, hit e = i) then (1 : EReal) else 0) = ∑ p ∈ Finset.univ.image hit, f p := by
  have hmem : ∀ i : I, (∃ e, hit e = i) ↔ i ∈ Finset.univ.image hit := by
    intro i; simp [Finset.mem_image]
  have h1 : ∀ i : I, f i * (if (∃ e, hit e = i) then (1 : EReal) else 0)
      = if i ∈ Finset.univ.image hit then f i else 0 := by
    intro i
    by_cases h : ∃ e, hit e = i
    · rw [if_pos h, if_pos ((hmem i).1 h), mul_one]
    · rw [if_neg h, if_neg (fun h' => h ((hmem i).2 h')), mul_zero]
  rw [Finset.sum_congr rfl (fun i _ => h1 i), Finset.sum_ite_mem, Finset.univ_inter]

/-- The mask of the pairs `hit` names sums to the number of distinct pairs. -/
theorem sum_mask (hit : SUp.Idx → SOp.Idx) [∀ i, Decidable (∃ e, hit e = i)] :
    ∑ i' : SOp.Idx, (if (∃ e, hit e = i') then (1 : EReal) else 0) = ((Finset.univ.image hit).card : EReal) :=
  sum_indicator_image hit

/-- A 12000 × 12000 array times the mask sums to the array's sum over the distinct pairs. -/
theorem sum_mul_mask (hit : SUp.Idx → SOp.Idx) [∀ i, Decidable (∃ e, hit e = i)] (f : SOp.Idx → EReal) :
    ∑ i' : SOp.Idx, f i' * (if (∃ e, hit e = i') then (1 : EReal) else 0) = ∑ p ∈ Finset.univ.image hit, f p :=
  sum_mul_indicator_image hit f

end Cert.Spec.Mask

end
-- ==== Proof.RefMask.lean ====
import proofs.«408955_j56530359550020_1_alg».proof.Proof.Gen.ReferenceIdeal.Read
import proofs.«408955_j56530359550020_1_alg».proof.Proof.SpecMask

noncomputable section

open scoped BigOperators

namespace Cert.Bridge.Mask

open Cert.ReferenceIdeal Cert.ReferenceIdeal.Read
open Idealize.ShloMosaic Idealize.ShloMosaic.ValueIdx
open Cert.Spec.Mask

/-! ## The reference's index array, read at its two columns -/

/-- The wrap of a negative index (compare with zero, add the extent, select) leaves an index that is not
    negative as it is. -/
theorem wrap_id (x : BitVec 32) (h : 0 ≤ x.toInt) :
    Scalar.select (IntOp.cmpi .slt x 0#32) (IntOp.addi x 12000#32) x = x := by
  have h0 : (0#32 : BitVec 32).toInt = 0 := by decide
  have hs : x.slt 0#32 = false := by
    rw [Bool.eq_false_iff]
    intro hlt
    rw [BitVec.slt_iff_toInt_lt, h0] at hlt
    omega
  have hc : IntOp.cmpi .slt x 0#32 = 0#1 := by
    simp only [IntOp.cmpi, hs]
    rfl
  rw [hc]
  exact select_zero _ _

/-- Row 0 of the edge list as a flat vector: element `e` is entry `(0, e)`. -/
theorem v91_apply (x1 : IVec S2x384000 32) (e : Fin 384000) :
    val_main_v91 (F := Ideal) x1 (ix1 e) = x1 (ix2 (n0 := 2) (n1 := 384000) 0 e) := by
  rw [val_main_v91_apply, val_main_v90_apply]
  congr 1
  funext a
  refine Fin.ext ?_
  match a with
  | ⟨0, _⟩ => rfl
  | ⟨1, _⟩ => exact Nat.mod_eq_of_lt e.isLt

/-- Row 1 of the edge list as a flat vector: element `e` is entry `(1, e)`. -/
theorem v93_apply (x1 : IVec S2x384000 32) (e : Fin 384000) :
    val_main_v93 (F := Ideal) x1 (ix1 e) = x1 (ix2 (n0 := 2) (n1 := 384000) 1 e) := by
  rw [val_main_v93_apply, val_main_v92_apply]
  congr 1
  funext a
  refine Fin.ext ?_
  match a with
  | ⟨0, _⟩ => rfl
  | ⟨1, _⟩ => exact Nat.mod_eq_of_lt e.isLt

/-- Row 0 after the wrap: unchanged, the entries being in range. -/
theorem v98_apply (x1 : IVec S2x384000 32) (hin : ∀ j : S2x384000.Idx, 0 ≤ (x1 j).toInt ∧ (x1 j).toInt < 12000)
    (e : Fin 384000) :
    val_main_v98 (F := Ideal) x1 (ix1 e) = x1 (ix2 (n0 := 2) (n1 := 384000) 0 e) := by
  rw [val_main_v98_apply, val_main_v95_apply, val_main_v97_apply, val_main_v94_apply, val_main_c_18_apply,
    val_main_v96_apply, val_main_c_19_apply, v91_apply]
  exact wrap_id _ (hin _).1

/-- Row 1 after the wrap: unchanged, the entries being in range. -/
theorem v103_apply (x1 : IVec S2x384000 32) (hin : ∀ j : S2x384000.Idx, 0 ≤ (x1 j).toInt ∧ (x1 j).toInt < 12000)
    (e : Fin 384000) :
    val_main_v103 (F := Ideal) x1 (ix1 e) = x1 (ix2 (n0 := 2) (n1 := 384000) 1 e) := by
  rw [val_main_v103_apply, val_main_v100_apply, val_main_v102_apply, val_main_v99_apply, val_main_c_20_apply,
    val_main_v101_apply, val_main_c_21_apply, v93_apply]
  exact wrap_id _ (hin _).1

/-- Column 0 of the index array is row 0 of the edge list. -/
theorem v106_col0 (x1 : IVec S2x384000 32) (hin : ∀ j : S2x384000.Idx, 0 ≤ (x1 j).toInt ∧ (x1 j).toInt < 12000)
    (e : Fin 384000) :
    val_main_v106 (F := Ideal) x1 (ix2 (n0 := 384000) (n1 := 2) e 0) = x1 (ix2 (n0 := 2) (n1 := 384000) 0 e) := by
  have hc : val_main_v106 (F := Ideal) x1 (ix2 (n0 := 384000) (n1 := 2) e 0)
      = val_main_v104 (F := Ideal) x1 (ix2 (n0 := 384000) (n1 := 1) e 0) := by
    unfold val_main_v106
    exact concatenate_pair_apply_left (t := S384000x2) (s₁ := S384000x1) (s₂ := S384000x1) 1
      (val_main_v104 (F := Ideal) x1) (val_main_v105 (F := Ideal) x1) Gen.concatenates_S384000x1_S384000x1_S384000x2_d1
      (ix2 (n0 := 384000) (n1 := 2) e 0) rfl (ix2 (n0 := 384000) (n1 := 1) e 0)
      (fun b => match b with | ⟨0, _⟩ => rfl | ⟨1, _⟩ => rfl)
  rw [hc, val_main_v104_apply]
  exact v98_apply x1 hin e

/-- Column 1 of the index array is row 1 of the edge list. -/
theorem v106_col1 (x1 : IVec S2x384000 32) (hin : ∀ j : S2x384000.Idx, 0 ≤ (x1 j).toInt ∧ (x1 j).toInt < 12000)
    (e : Fin 384000) :
    val_main_v106 (F := Ideal) x1 (ix2 (n0 := 384000) (n1 := 2) e 1) = x1 (ix2 (n0 := 2) (n1 := 384000) 1 e) := by
  have hc : val_main_v106 (F := Ideal) x1 (ix2 (n0 := 384000) (n1 := 2) e 1)
      = val_main_v105 (F := Ideal) x1 (ix2 (n0 := 384000) (n1 := 1) e 0) := by
    unfold val_main_v106
    exact concatenate_pair_apply_right (t := S384000x2) (s₁ := S384000x1) (s₂ := S384000x1) 1
      (val_main_v104 (F := Ideal) x1) (val_main_v105 (F := Ideal) x1) Gen.concatenates_S384000x1_S384000x1_S384000x2_d1
      (ix2 (n0 := 384000) (n1 := 2) e 1) rfl rfl (ix2 (n0 := 384000) (n1 := 1) e 0)
      (fun b => match b with | ⟨0, _⟩ => fun _ => rfl | ⟨1, _⟩ => fun hb => absurd rfl hb) rfl
  rw [hc, val_main_v105_apply]
  exact v103_apply x1 hin e

/-- The index array at `(e, c)` is the edge list at `(c, e)`. -/
theorem v106_apply (x1 : IVec S2x384000 32) (hin : ∀ j : S2x384000.Idx, 0 ≤ (x1 j).toInt ∧ (x1 j).toInt < 12000)
    (e : Fin 384000) (c : Fin 2) :
    val_main_v106 (F := Ideal) x1 (ix2 (n0 := 384000) (n1 := 2) e c) = x1 (ix2 (n0 := 2) (n1 := 384000) c e) := by
  match c with
  | ⟨0, _⟩ => exact v106_col0 x1 hin e
  | ⟨1, _⟩ => exact v106_col1 x1 hin e

/-- Every entry of the index array is in range. -/
theorem v106_inRange (x1 : IVec S2x384000 32) (hin : ∀ j : S2x384000.Idx, 0 ≤ (x1 j).toInt ∧ (x1 j).toInt < 12000)
    (k : S384000x2.Idx) :
    0 ≤ (val_main_v106 (F := Ideal) x1 k).toInt ∧ (val_main_v106 (F := Ideal) x1 k).toInt < 12000 := by
  obtain ⟨a, b, rfl⟩ : ∃ a b, k = ix2 (n0 := 384000) (n1 := 2) a b := ⟨k 0, k 1, eq_ix2 k⟩
  rw [v106_apply x1 hin]
  exact hin _

/-! ## The mask: the indicator of the distinct edges -/

/-- The word `0x3F800000` reads the real number one. -/
theorem ofBits_one_f32 : Ideal.ofBits .f32 0x3F800000#32 = 1 := by
  simp [Ideal.ofBits, Ideal.ieee, -EReal.coe_mul]; norm_num

/-- Edge `e`'s source node: entry `(0, e)` of the edge list, read unsigned. -/
def src (x1 : IVec S2x384000 32) (hin : ∀ j : S2x384000.Idx, 0 ≤ (x1 j).toInt ∧ (x1 j).toInt < 12000)
    (e : Fin 384000) : Fin 12000 :=
  ⟨(x1 (ValueIdx.ix2 (n0 := 2) (n1 := 384000) 0 e)).toNat, toNat_lt_of_inRange _ (hin _)⟩

/-- Edge `e`'s destination node: entry `(1, e)` of the edge list, read unsigned. -/
def dst (x1 : IVec S2x384000 32) (hin : ∀ j : S2x384000.Idx, 0 ≤ (x1 j).toInt ∧ (x1 j).toInt < 12000)
    (e : Fin 384000) : Fin 12000 :=
  ⟨(x1 (ValueIdx.ix2 (n0 := 2) (n1 := 384000) 1 e)).toNat, toNat_lt_of_inRange _ (hin _)⟩

/-- Where update `e` of the reference's scatter lands: at `(src e, dst e)`. -/
theorem hitIdx_eq (x1 : IVec S2x384000 32) (hin : ∀ j : S2x384000.Idx, 0 ≤ (x1 j).toInt ∧ (x1 j).toInt < 12000)
    (e : SUp.Idx) :
    hitIdx (val_main_v106 (F := Ideal) x1) (v106_inRange x1 hin) e
      = ix2 (n0 := 12000) (n1 := 12000) (src x1 hin (e 0)) (dst x1 hin (e 0)) := by
  funext a
  refine Fin.ext ?_
  match a with
  | ⟨0, _⟩ =>
    show (val_main_v106 (F := Ideal) x1 (ix2 (n0 := 384000) (n1 := 2) (e 0) 0)).toNat
      = (x1 (ix2 (n0 := 2) (n1 := 384000) 0 (e 0))).toNat
    exact congrArg BitVec.toNat (v106_apply x1 hin (e 0) 0)
  | ⟨1, _⟩ =>
    show (val_main_v106 (F := Ideal) x1 (ix2 (n0 := 384000) (n1 := 2) (e 0) 1)).toNat
      = (x1 (ix2 (n0 := 2) (n1 := 384000) 1 (e 0))).toNat
    exact congrArg BitVec.toNat (v106_apply x1 hin (e 0) 1)

/-- THE MASK AT `(i, j)`: one when some edge is `(i, j)`, zero otherwise. -/
theorem mask_apply (x1 : IVec S2x384000 32) (hin : ∀ j : S2x384000.Idx, 0 ≤ (x1 j).toInt ∧ (x1 j).toInt < 12000)
    (i j : Fin 12000) [Decidable (∃ e : Fin 384000, src x1 hin e = i ∧ dst x1 hin e = j)] :
    val_main_v108 (F := Ideal) x1 (ix2 (n0 := 12000) (n1 := 12000) i j)
      = if (∃ e : Fin 384000, src x1 hin e = i ∧ dst x1 hin e = j) then (1 : EReal) else 0 := by
  classical
  have h107 : val_main_v107 (F := Ideal) = fun _ => (1 : EReal) := by
    funext k
    rw [val_main_v107_apply, val_main_cst_22_apply]
    exact ofBits_one_f32
  have h89 : val_main_v89 (F := Ideal) (ix2 (n0 := 12000) (n1 := 12000) i j) = (0 : EReal) := by
    rw [val_main_v89_apply, val_main_cst_17_apply]
    exact Ideal.ofBits_zero_f32
  unfold val_main_v108
  rw [h107]
  rw [scatter_pairs_apply scatter_S12000x12000_S384000x2_S384000_n_01_01_1 rfl rfl rfl rfl
    (val_main_v106 (F := Ideal) x1) (v106_inRange x1 hin) (val_main_v89 (F := Ideal)) (1 : EReal)
    (ix2 (n0 := 12000) (n1 := 12000) i j), h89]
  refine if_congr ?_ rfl rfl
  constructor
  · rintro ⟨e, he⟩
    rw [hitIdx_eq x1 hin] at he
    exact ⟨e 0, congrFun he 0, congrFun he 1⟩
  · rintro ⟨e, h1, h2⟩
    refine ⟨ix1 e, ?_⟩
    rw [hitIdx_eq x1 hin, ← h1, ← h2]

/-! ## The two sums -/

/-- A sum over the 12000 × 12000 indices is the sum over the pairs of coordinates. -/
theorem sum_idx_pairs (g : S12000x12000.Idx → EReal) :
    ∑ j : S12000x12000.Idx, g j = ∑ p : Fin 12000 × Fin 12000, g (ix2 (n0 := 12000) (n1 := 12000) p.1 p.2) := by
  rw [sum_idx2 g, Fintype.sum_prod_type]

/-- Some edge has source `p.1` and destination `p.2` exactly when some edge is the pair `p`. -/
theorem exists_edge_iff (x1 : IVec S2x384000 32)
    (hin : ∀ j : S2x384000.Idx, 0 ≤ (x1 j).toInt ∧ (x1 j).toInt < 12000) (p : Fin 12000 × Fin 12000) :
    (∃ e : Fin 384000, src x1 hin e = p.1 ∧ dst x1 hin e = p.2)
      ↔ ∃ e : Fin 384000, (fun e : Fin 384000 => (src x1 hin e, dst x1 hin e)) e = p := by
  constructor
  · rintro ⟨e, h1, h2⟩
    exact ⟨e, Prod.ext h1 h2⟩
  · rintro ⟨e, he⟩
    exact ⟨e, congrArg Prod.fst he, congrArg Prod.snd he⟩

/-- THE POSITIVE COUNT: the mask's sum is the number of distinct edges. -/
theorem pos_cnt_eq (x1 : IVec S2x384000 32)
    (hin : ∀ j : S2x384000.Idx, 0 ≤ (x1 j).toInt ∧ (x1 j).toInt < 12000) :
    val_main_v109 (F := Ideal) x1 ValueIdx.ix0
      = ((Finset.univ.image (fun e : Fin 384000 => (src x1 hin e, dst x1 hin e))).card : EReal) := by
  classical
  have h0 : val_main_cst_23 (F := Ideal) (Shape.Idx.first Gen.h_S_) = (0 : EReal) := by
    rw [val_main_cst_23_apply]
    exact Ideal.ofBits_zero_f32
  rw [val_main_v109_apply, h0, zero_add, sum_idx_pairs,
    ← sum_indicator_image (fun e : Fin 384000 => (src x1 hin e, dst x1 hin e))]
  refine Finset.sum_congr rfl (fun p _ => ?_)
  rw [mask_apply x1 hin p.1 p.2]
  exact if_congr (exists_edge_iff x1 hin p) rfl rfl

/-- THE POSITIVE SUM: an array times the mask sums to the array's sum over the distinct edges. -/
theorem pos_sum_eq (x1 : IVec S2x384000 32)
    (hin : ∀ j : S2x384000.Idx, 0 ≤ (x1 j).toInt ∧ (x1 j).toInt < 12000) (f : S12000x12000.Idx → EReal) :
    (∑ j : S12000x12000.Idx, f j * val_main_v108 (F := Ideal) x1 j)
      = ∑ p ∈ Finset.univ.image (fun e : Fin 384000 => (src x1 hin e, dst x1 hin e)),
          f (ix2 (n0 := 12000) (n1 := 12000) p.1 p.2) := by
  classical
  rw [sum_idx_pairs (fun j => f j * val_main_v108 (F := Ideal) x1 j),
    ← sum_mul_indicator_image (fun e : Fin 384000 => (src x1 hin e, dst x1 hin e))
      (fun p => f (ix2 (n0 := 12000) (n1 := 12000) p.1 p.2))]
  refine Finset.sum_congr rfl (fun p _ => ?_)
  show f (ix2 (n0 := 12000) (n1 := 12000) p.1 p.2)
      * val_main_v108 (F := Ideal) x1 (ix2 (n0 := 12000) (n1 := 12000) p.1 p.2) = _
  rw [mask_apply x1 hin p.1 p.2]
  exact congrArg (fun t => f (ix2 (n0 := 12000) (n1 := 12000) p.1 p.2) * t) (if_congr (exists_edge_iff x1 hin p) rfl rfl)

end Cert.Bridge.Mask

end
-- ==== Proof.KernelSort.lean ====
import proofs.«408955_j56530359550020_1_alg».proof.Proof.Gen.KernelIdeal.Regions
import proofs.«408955_j56530359550020_1_alg».proof.Proof.SpecDedup
import Idealize.ShloMosaic.Lib.StableHlo.Run
import Idealize.ShloMosaic.Lib.ValueIdx
import Idealize.ShloMosaic.Lib.SortFacts
import Idealize.ShloMosaic.Lib.StableHlo.Predicate
import Idealize.ShloMosaic.Lib.Pipeline.Value
import Idealize.ShloMosaic.PureOps.Ideal.Laws

/-!
# The host operations between regions 2 and 3, read at an index

Between its second and third kernel regions the program squares and totals the column sums, numbers every edge by
`src · 12000 + dst`, sorts the edges by that number (a stable sort carrying the positions), marks a sorted position
"first" when its number differs from the one before it, and gathers the source and destination rows of the node table
in sorted order. Each buffer the third region reads is stated here at one index, over the sorting permutation of the
integer keys.
-/

set_option maxRecDepth 16384

noncomputable section

namespace Cert.Bridge.Sort

open Idealize.ShloMosaic Idealize.ShloMosaic.TcCoe Idealize.ShloMosaic.ValueIdx
open Cert.KernelIdeal Cert.KernelIdeal.Gen
open Cert.KernelIdeal.Facts₀ Cert.KernelIdeal.Facts

variable (m : (ℓ : Loc nD τ sig) → Buf (Elt Ideal) ℓ) (outs : Outs (F := Ideal)) (c : Dev nD)

/-- Region 2's two outputs as the host operations after it find them: the per-node rows and the column sums. -/
abbrev Zv : S12000x64.Idx → EReal := V7 m outs c main_v82_0
abbrev Sv : S1x64.Idx → EReal := V7 m outs c main_v82_1

/-- What the first host stretch leaves in the total's buffer, over any incoming contents: the sum-reduction, from the
    zero word, of the column sums squared. -/
theorem v84_of (W : Valuation τ sig (Elt Ideal)) :
    (StableHlo.after hostOps3 W main_v84 : S_.Idx → EReal)
      = Host.reduceAdd (mulf (W main_v82_1 : S1x64.Idx → EReal) (W main_v82_1)) (constant (F := Ideal) S_ .f32 0x00000000#32) Facts₀.reducesTo_S1x64_S_d0_1 Facts₀.h_S_ := by
  dsimp only [hostOps3]; after_results

/-- The total: the sum of the squares of the 64 column sums. -/
theorem total_apply :
    (V10 m outs c main_v84 : S_.Idx → EReal) ix0 = ∑ k : Fin 64, Sv m outs c (ix2 0 k) * Sv m outs c (ix2 0 k) := by
  rw [V10_of m outs c main_v84 (by decide), V9_of m outs c main_v84 (by decide)]
  show (StableHlo.after hostOps3 (V7 m outs c) main_v84 : S_.Idx → EReal) ix0 = _
  rw [v84_of]
  unfold Host.reduceAdd
  show Ideal.hostReduceAdd _ _ _ ix0 = _
  rw [Ideal.hostReduceAdd_total _ (fun b => b.elim0)]
  show Ideal.ofBits .f32 0x00000000#32 + _ = _
  rw [Ideal.ofBits_zero_f32, zero_add, sum_idx2]
  simp only [Fin.sum_univ_one]
  rfl

/-! ## The three host stretches, over any incoming contents -/

section stretches
variable (W : Valuation τ sig (Elt Ideal))

/-- The wrap of negative indices put before an index: a negative word has the extent added. -/
def wrap (n : BitVec 32) (i : S384000.Idx → BitVec 32) : S384000.Idx → BitVec 32 :=
  select (cmpi .slt i (broadcastInDim S384000 ![] Facts₀.bcast_S_S384000 (constantI S_ 32 0#32)))
    (addi i (broadcastInDim S384000 ![] Facts₀.bcast_S_S384000 (constantI S_ 32 n))) i

/-- The indexing `table[i]` on a table of 384000 words. -/
def take (x i : S384000.Idx → BitVec 32) : S384000.Idx → BitVec 32 :=
  Host.gather gather_S384000_S384000x1_S384000_n_0_n_n_0_1_1 x (broadcastInDim S384000x1 ![0] Facts₀.bcast_S384000_S384000x1_0 i)

/-- The indexing `z[i]`: whole rows of the node table. -/
def takeRows (z : S12000x64.Idx → EReal) (i : S384000.Idx → BitVec 32) : S384000x64.Idx → EReal :=
  Host.gather gather_S12000x64_S384000x1_S384000x64_1_0_n_n_0_1_164 z (broadcastInDim S384000x1 ![0] Facts₀.bcast_S384000_S384000x1_0 i)

/-- Row `r` of the edge list as a vector of words. -/
def edgeRow (x : S2x384000.Idx → BitVec 32) (r : Nat) (h : S2x384000.Slices ![r, 0] S1x384000) : S384000.Idx → BitVec 32 :=
  shapeCast S384000 (extractStridedSlice S1x384000 ![r, 0] x h) Facts₀.shapeCasts_S1x384000_S384000

theorem v86_of : (StableHlo.after hostOps3 W main_v86 : S384000.Idx → BitVec 32)
    = edgeRow (W main_arg1) 0 Facts₀.slices_S2x384000_S1x384000_0_0 := by
  dsimp only [hostOps3]; after_results; rfl

theorem v88_of : (StableHlo.after hostOps3 W main_v88 : S384000.Idx → BitVec 32)
    = edgeRow (W main_arg1) 1 Facts₀.slices_S2x384000_S1x384000_1_0 := by
  dsimp only [hostOps3]; after_results; rfl

theorem v91_of : (StableHlo.after hostOps3 W main_v91 : S384000.Idx → BitVec 32)
    = addi (muli (edgeRow (W main_arg1) 0 Facts₀.slices_S2x384000_S1x384000_0_0)
        (broadcastInDim S384000 ![] Facts₀.bcast_S_S384000 (constantI S_ 32 12000#32)))
        (edgeRow (W main_arg1) 1 Facts₀.slices_S2x384000_S1x384000_1_0) := by
  dsimp only [hostOps3]; after_results; rfl

theorem v92_of : (StableHlo.after hostOps3_1 W main_v92 : S384000.Idx → BitVec 32)
    = (Host.sort2 S384000 0 comparator_i32_i32_d0 (W main_v91 : S384000.Idx → BitVec 32) (iotaInDim S384000 32 0)).2 := by
  dsimp only [hostOps3_1]; after_results; rfl

theorem v99_of : (StableHlo.after hostOps3_2 W main_v99 : S384000.Idx → BitVec 32)
    = take (W main_v91) (wrap 384000#32 (W main_v92)) := by
  dsimp only [hostOps3_2]; after_results; rfl

end stretches

section stretches2
variable (W : Valuation τ sig (Elt Ideal))

/-- The "first of its run" mask of a sorted vector of words: true at position 0, elsewhere whether the word differs
    from the one before it. -/
def firstMask (k : S384000.Idx → BitVec 32) : S384000.Idx → BitVec 1 :=
  concatenate S384000 0
    [⟨S1, broadcastInDim S1 ![] Facts₀.bcast_S_S1 (constantI S_ 1 1#1)⟩,
     ⟨S383999, cmpi .ne (extractStridedSlice S383999 ![1] k Facts₀.slices_S384000_S383999_1)
        (extractStridedSlice S383999 ![0] k Facts₀.slices_S384000_S383999_0)⟩]
    Facts₀.concatenates_S1_S383999_S384000_d0

theorem v106_of : (StableHlo.after hostOps3_2 W main_v106 : S384000.Idx → BitVec 32)
    = take (W main_v86) (wrap 384000#32 (W main_v92)) := by
  dsimp only [hostOps3_2]; after_results_simp; rfl

theorem v113_of : (StableHlo.after hostOps3_2 W main_v113 : S384000.Idx → BitVec 32)
    = take (W main_v88) (wrap 384000#32 (W main_v92)) := by
  dsimp only [hostOps3_2]; after_results_simp; rfl

theorem v120_of : (StableHlo.after hostOps3_2 W main_v120 : S384000x1.Idx → EReal)
    = broadcastInDim S384000x1 ![0] Facts₀.bcast_S384000_S384000x1_0
        (uitofp (F := Ideal) .f32 (firstMask (take (W main_v91) (wrap 384000#32 (W main_v92))))) := by
  dsimp only [hostOps3_2]; after_results_simp; rfl

theorem v127_of : (StableHlo.after hostOps3_2 W main_v127 : S384000x64.Idx → EReal)
    = takeRows (W main_v82_0) (wrap 12000#32 (take (W main_v86) (wrap 384000#32 (W main_v92)))) := by
  dsimp only [hostOps3_2]; after_results_simp; rfl

theorem v134_of : (StableHlo.after hostOps3_2 W main_v134 : S384000x64.Idx → EReal)
    = takeRows (W main_v82_0) (wrap 12000#32 (take (W main_v88) (wrap 384000#32 (W main_v92)))) := by
  dsimp only [hostOps3_2]; after_results_simp; rfl

end stretches2

private theorem getElem_of_eq_singleton {β : Type} {l : List β} {b : β} (h : l = [b]) (i : Nat) (hi : i < l.length) :
    l[i] = b := by
  subst h
  have : i = 0 := by simpa using hi
  subst this; rfl

open Idealize.ShloMosaic.StableHlo.Predicate in
/-- THE ROW TAKE. A gather of whole rows of an [N × C] table by an [n × 1] column of row numbers (one collapsed,
    start-indexed row axis; the column axis an offset axis) reads, at (p, q), the table at row "start index p, read
    signed and clamped into the table" and column q. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 ⟨min (idx (ix2 p 0)).toInt.toNat (N - 1), by omega⟩ q) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = min (idx (ix2 p 0)).toInt.toNat (N - 1)
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = _
    rw [hsl]
    have hsi : d.siIdx (ix2 p q) ⟨List.idxOf (0 : Fin 2) d.startIndexMap, List.idxOf_lt_length_iff.2 hm⟩ = ix2 p 0 := by
      funext b
      apply Fin.ext
      match b with
      | ⟨0, _⟩ =>
        unfold GatherDims.siIdx
        rw [dif_neg (by rw [hivd]; show ¬ (0 : ℕ) = 1; omega)]
        unfold GatherDims.siCoord
        simp only [Fin.val_cast]
        have hbd : d.batchDims = [0] := by show Shape.kept _ d.offsetDims = _; rw [hoff]; rfl
        rw [getElem_of_eq_singleton hbd]
        rfl
      | ⟨1, _⟩ =>
        unfold GatherDims.siIdx
        rw [dif_pos (by rw [hivd])]
        show List.idxOf (0 : Fin 2) d.startIndexMap = 0
        rw [hsim]; simp
    rw [hsi]
  | ⟨1, _⟩ =>
    have hk : (1 : Fin 2) ∈ d.sKept := by rw [GatherDims.mem_sKept, hcoll]; exact ⟨fun h => absurd (congrArg Fin.val (List.mem_singleton.mp h)) (by show (1 : ℕ) ≠ 0; omega), hb _⟩
    have hm : (1 : Fin 2) ∉ d.startIndexMap := by rw [hsim]; exact fun h => absurd (congrArg Fin.val (List.mem_singleton.mp h)) (by show (1 : ℕ) ≠ 0; omega)
    show d.start (ix2 p q) idx 1 + d.batchCoord (ix2 p q) 1 + d.offCoord (ix2 p q) 1 = q.val
    rw [GatherDims.batchCoord_eq_zero _ _ _ (hb _)]
    unfold GatherDims.start GatherDims.offCoord
    rw [dif_neg hm, dif_pos hk]
    simp only [Nat.zero_add, Nat.add_zero]
    rw [getElem_of_eq_singleton hoff]
    rfl

/-! ## Words -/

open Idealize.ShloMosaic.StableHlo.Predicate in
/-- A non-negative signed word is its unsigned value, below `2^31`. -/
theorem toNat_of_toInt_nonneg {a : BitVec 32} (h : 0 ≤ a.toInt) : (a.toNat : ℤ) = a.toInt ∧ a.toNat < 2 ^ 31 := by
  have hlt := a.isLt
  rw [BitVec.toInt_eq_toNat_cond] at h ⊢
  split at h <;> rename_i hc
  · rw [if_pos hc]; exact ⟨rfl, by omega⟩
  · exfalso; omega

/-- A word in `[0, 12000)` as a signed number is in `[0, 12000)` as a natural number. -/
theorem toNat_lt_of_toInt {a : BitVec 32} (h : 0 ≤ a.toInt ∧ a.toInt < 12000) : a.toNat < 12000 := by
  have := toNat_of_toInt_nonneg h.1; omega

/-- The edge number of two node words below 12000 does not wrap. -/
theorem toNat_key {a b : BitVec 32} (ha : a.toNat < 12000) (hb : b.toNat < 12000) :
    (IntOp.addi (IntOp.muli a 12000#32) b).toNat = a.toNat * 12000 + b.toNat := by
  unfold IntOp.addi IntOp.muli
  rw [BitVec.toNat_add, BitVec.toNat_mul]
  have h12 : (12000#32 : BitVec 32).toNat = 12000 := rfl
  rw [h12, Nat.mod_eq_of_lt (a := a.toNat * 12000) (by omega), Nat.mod_eq_of_lt (by omega)]

/-- A signed compare with zero of a non-negative word is false. -/
theorem slt_zero_ne_one {a : BitVec 32} (h : 0 ≤ a.toInt) : IntOp.cmpi .slt a 0#32 ≠ 1#1 := by
  unfold IntOp.cmpi
  intro e
  have := (Idealize.ShloMosaic.StableHlo.Predicate.ofBool_eq_one_iff _).mp e
  simp only [BitVec.slt, decide_eq_true_eq] at this
  have h0 : (0#32 : BitVec 32).toInt = 0 := by decide
  omega

/-- The "differs" compare of two words. -/
theorem cmpi_ne_eq_one_iff {a b : BitVec 32} : IntOp.cmpi .ne a b = 1#1 ↔ a ≠ b := by
  unfold IntOp.cmpi
  rw [Idealize.ShloMosaic.StableHlo.Predicate.ofBool_eq_one_iff]
  simp

/-! ## The pieces read at an index -/

open Idealize.ShloMosaic.StableHlo.Predicate in
theorem ixP_eq {n : Nat} (p : Fin n) : ixP p = ix2 p (0 : Fin 1) := by
  funext a; match a with | ⟨0, _⟩ => rfl | ⟨1, _⟩ => rfl

/-- A broadcast scalar constant reads the constant. -/
theorem bcastConst_apply (b : BitVec 32) (j : S384000.Idx) :
    broadcastInDim S384000 ![] Facts₀.bcast_S_S384000 (constantI S_ 32 b) j = b := by
  rw [Idealize.ShloMosaic.StableHlo.Predicate.bcast_scalar _ Facts₀.h_S_]; rfl

/-- The wrap leaves a non-negative word alone. -/
theorem wrap_apply (n : BitVec 32) (i : S384000.Idx → BitVec 32) (j : S384000.Idx) (h : 0 ≤ (i j).toInt) :
    wrap n i j = i j := by
  unfold wrap
  show Scalar.select (IntOp.cmpi .slt (i j) (broadcastInDim S384000 ![] Facts₀.bcast_S_S384000 (constantI S_ 32 0#32) j)) _ (i j) = i j
  rw [bcastConst_apply]
  unfold Scalar.select
  exact if_neg (slt_zero_ne_one h)

/-- `table[i]` at position `p` when word `i p` is the in-range position `q`. -/
theorem take_apply (x i : S384000.Idx → BitVec 32) (p q : Fin 384000) (h : (i (Shape.Idx.ofFin p)).toInt = q.val) :
    take x i (Shape.Idx.ofFin p) = x (Shape.Idx.ofFin q) := by
  unfold take
  rw [Idealize.ShloMosaic.StableHlo.Predicate.gather_take _ rfl rfl rfl rfl _ _ _ (by decide)]
  refine congrArg x (congrArg Shape.Idx.ofFin (Fin.ext ?_))
  have := q.isLt
  show min (broadcastInDim S384000x1 ![0] Facts₀.bcast_S384000_S384000x1_0 i (Idealize.ShloMosaic.StableHlo.Predicate.ixP p)).toInt.toNat (384000 - 1) = q.val
  rw [Idealize.ShloMosaic.StableHlo.Predicate.bcast_col1, h, Int.toNat_natCast]; omega

/-- `z[i]` at row `p`, column `h`: the row the word names, read signed and clamped into the table. -/
theorem takeRows_apply (z : S12000x64.Idx → EReal) (i : S384000.Idx → BitVec 32) (p : Fin 384000) (h : Fin 64) :
    takeRows z i (ix2 p h) = z (ix2 ⟨min (i (Shape.Idx.ofFin p)).toInt.toNat 11999, by omega⟩ h) := by
  unfold takeRows
  rw [gather_rows _ rfl rfl rfl rfl rfl _ _ _ _ (by decide)]
  refine congrArg z (congrArg (fun r => ix2 r h) (Fin.ext ?_))
  show min (broadcastInDim S384000x1 ![0] Facts₀.bcast_S384000_S384000x1_0 i (ix2 p 0)).toInt.toNat (12000 - 1) = _
  rw [← ixP_eq, Idealize.ShloMosaic.StableHlo.Predicate.bcast_col1]

/-- Row `r` of the edge list at position `e`. -/
theorem edgeRow_apply (x : S2x384000.Idx → BitVec 32) (r : Fin 2) (h : S2x384000.Slices ![r.val, 0] S1x384000) (e : Fin 384000) :
    edgeRow x r.val h (Shape.Idx.ofFin e) = x (ix2 r e) := by
  unfold edgeRow
  refine (shapeCast_apply _ _ _ (ix2 (0 : Fin 1) e) ?_).trans ?_
  · rw [Shape.rowMajor_val_two, Shape.rowMajor_val_one]; show 0 * 384000 + e.val = e.val; omega
  · refine extractStridedSlice_apply _ _ _ _ (ix2 r e) ?_
    intro a
    match a with
    | ⟨0, _⟩ => show r.val = r.val + 0; omega
    | ⟨1, _⟩ => show e.val = 0 + e.val; omega

/-! ## The edges, their numbers and the sorting permutation -/

/-- The edge list (two rows of node words) as the program finds it. -/
abbrev X1 : S2x384000.Idx → BitVec 32 := m ((c : Thread nD τ).loc main_arg1)

/-- Edge `e`'s source node: its word read signed and clamped into the node table, which is how the row gather reads
    it (for words already in `[0, 12000)` this is the word's value: `src_val`). -/
def src (e : Fin 384000) : Fin 12000 := ⟨min (X1 m c (ix2 0 e)).toInt.toNat 11999, by omega⟩
/-- Edge `e`'s destination node, likewise. -/
def dst (e : Fin 384000) : Fin 12000 := ⟨min (X1 m c (ix2 1 e)).toInt.toNat 11999, by omega⟩
/-- Edge `e`'s number: source times the node count plus destination. -/
def keyZ (e : Fin 384000) : ℤ := ((src m c e).val : ℤ) * 12000 + ((dst m c e).val : ℤ)
/-- The stable permutation that sorts the edges by their numbers: sorted position `a` holds edge `π a`. -/
def π : Fin 384000 → Fin 384000 := sortedFrom (fun k k' => decide (keyZ m c k < keyZ m c k'))
/-- The edge number as the program computes it, on 32-bit words. -/
def keyW (e : Fin 384000) : BitVec 32 := IntOp.addi (IntOp.muli (X1 m c (ix2 0 e)) 12000#32) (X1 m c (ix2 1 e))

theorem π_bijective : Function.Bijective (π m c) := Cert.Spec.Dedup.sortedFrom_bijective _

theorem π_sorted (a b : Fin 384000) (h : a ≤ b) : keyZ m c (π m c a) ≤ keyZ m c (π m c b) :=
  Cert.Spec.Dedup.sortedFrom_sorted (keyZ m c) a b h

/-- On a rank-1 shape a two-operand sort along axis 0 reads its second operand through `sortedFrom` of the comparator
    on the pairs. -/
theorem sort2_rank1_snd {n : Nat} {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- An argsort (a sort carrying the positions): position `e` of the result is the word of the position the sort's
    permutation sends `e` to, for any relation `R` the comparator computes on the keys. Stated for any length. -/
theorem argsort_apply {n : Nat} (cmp : BitVec 32 × BitVec 32 → BitVec 32 × BitVec 32 → BitVec 1)
    (x : (⟨1, ![n]⟩ : Shape).Idx → BitVec 32) (R : Fin n → Fin n → Bool)
    (hR : ∀ k k' : Fin n, (cmp (x (Shape.Idx.ofFin k), BitVec.ofNat 32 k.val) (x (Shape.Idx.ofFin k'), BitVec.ofNat 32 k'.val) == 1#1) = R k k')
    (e : Fin n) :
    (Host.sort2 ⟨1, ![n]⟩ 0 cmp x (iotaInDim ⟨1, ![n]⟩ 32 0)).2 (Shape.Idx.ofFin e) = BitVec.ofNat 32 (sortedFrom R e).val := by
  rw [sort2_rank1_snd]
  show BitVec.ofNat 32 (sortedFrom (fun k k' : Fin n => cmp (x (Shape.Idx.ofFin k), BitVec.ofNat 32 k.val)
    (x (Shape.Idx.ofFin k'), BitVec.ofNat 32 k'.val) == 1#1) e).val = _
  rw [show (fun k k' : Fin n => cmp (x (Shape.Idx.ofFin k), BitVec.ofNat 32 k.val)
    (x (Shape.Idx.ofFin k'), BitVec.ofNat 32 k'.val) == 1#1) = R from funext fun k => funext fun k' => hR k k']

theorem edgeRow0_apply (x : S2x384000.Idx → BitVec 32) (h : S2x384000.Slices ![0, 0] S1x384000) (e : Fin 384000) :
    edgeRow x 0 h (Shape.Idx.ofFin e) = x (ix2 0 e) := edgeRow_apply x 0 h e
theorem edgeRow1_apply (x : S2x384000.Idx → BitVec 32) (h : S2x384000.Slices ![1, 0] S1x384000) (e : Fin 384000) :
    edgeRow x 1 h (Shape.Idx.ofFin e) = x (ix2 1 e) := edgeRow_apply x 1 h e

/-- No host operation and no region before the sort writes the edge list. -/
theorem V7_arg1 : (V7 m outs c main_arg1 : S2x384000.Idx → BitVec 32) = X1 m c := by
  rw [V7_of m outs c main_arg1 (by decide), V6_of m outs c main_arg1 (by decide), V5_of m outs c main_arg1 (by decide),
    V4_of m outs c main_arg1 (by decide), V3_of m outs c main_arg1 (by decide), V2_of m outs c main_arg1 (by decide),
    V1_of m c main_arg1 (by decide)]

theorem V8_v91 (e : Fin 384000) : (V8 m outs c main_v91 : S384000.Idx → BitVec 32) (Shape.Idx.ofFin e) = keyW m c e := by
  show (StableHlo.after hostOps3 (V7 m outs c) main_v91 : S384000.Idx → BitVec 32) _ = _
  rw [v91_of, V7_arg1]
  show IntOp.addi (IntOp.muli (edgeRow (X1 m c) 0 _ (Shape.Idx.ofFin e))
    (broadcastInDim S384000 ![] Facts₀.bcast_S_S384000 (constantI S_ 32 12000#32) (Shape.Idx.ofFin e)))
    (edgeRow (X1 m c) 1 _ (Shape.Idx.ofFin e)) = _
  rw [edgeRow0_apply, edgeRow1_apply, bcastConst_apply]
  rfl

theorem V9_v91 (e : Fin 384000) : (V9 m outs c main_v91 : S384000.Idx → BitVec 32) (Shape.Idx.ofFin e) = keyW m c e := by
  rw [V9_of m outs c main_v91 (by decide)]; exact V8_v91 m outs c e

theorem V9_v86 (e : Fin 384000) : (V9 m outs c main_v86 : S384000.Idx → BitVec 32) (Shape.Idx.ofFin e) = X1 m c (ix2 0 e) := by
  rw [V9_of m outs c main_v86 (by decide)]
  show (StableHlo.after hostOps3 (V7 m outs c) main_v86 : S384000.Idx → BitVec 32) _ = _
  rw [v86_of, V7_arg1, edgeRow0_apply]

theorem V9_v88 (e : Fin 384000) : (V9 m outs c main_v88 : S384000.Idx → BitVec 32) (Shape.Idx.ofFin e) = X1 m c (ix2 1 e) := by
  rw [V9_of m outs c main_v88 (by decide)]
  show (StableHlo.after hostOps3 (V7 m outs c) main_v88 : S384000.Idx → BitVec 32) _ = _
  rw [v88_of, V7_arg1, edgeRow1_apply]

theorem V9_v82_0 : (V9 m outs c main_v82_0 : S12000x64.Idx → EReal) = Zv m outs c := by
  rw [V9_of m outs c main_v82_0 (by decide), V8_of m outs c main_v82_0 (by decide)]

section facts
variable (hin : ∀ j : S2x384000.Idx, 0 ≤ (X1 m c j).toInt ∧ (X1 m c j).toInt < 12000)
include hin

theorem src_val (e : Fin 384000) : (src m c e).val = (X1 m c (ix2 0 e)).toNat := by
  have h1 := toNat_of_toInt_nonneg (hin (ix2 0 e)).1
  have h2 := (hin (ix2 0 e)).2
  show min (X1 m c (ix2 0 e)).toInt.toNat 11999 = _
  omega

theorem dst_val (e : Fin 384000) : (dst m c e).val = (X1 m c (ix2 1 e)).toNat := by
  have h1 := toNat_of_toInt_nonneg (hin (ix2 1 e)).1
  have h2 := (hin (ix2 1 e)).2
  show min (X1 m c (ix2 1 e)).toInt.toNat 11999 = _
  omega

theorem src_toInt (e : Fin 384000) : ((src m c e).val : ℤ) = (X1 m c (ix2 0 e)).toInt := by
  rw [src_val m c hin]; exact (toNat_of_toInt_nonneg (hin _).1).1

theorem dst_toInt (e : Fin 384000) : ((dst m c e).val : ℤ) = (X1 m c (ix2 1 e)).toInt := by
  rw [dst_val m c hin]; exact (toNat_of_toInt_nonneg (hin _).1).1

/-- The word edge number does not wrap: it is the integer edge number. -/
theorem keyW_toNat (e : Fin 384000) : (keyW m c e).toNat = (src m c e).val * 12000 + (dst m c e).val := by
  unfold keyW
  rw [toNat_key (toNat_lt_of_toInt (hin _)) (toNat_lt_of_toInt (hin _)), src_val m c hin, dst_val m c hin]

theorem keyW_lt (e : Fin 384000) : (keyW m c e).toNat < 2 ^ 31 := by
  rw [keyW_toNat m c hin]; have := (src m c e).isLt; have := (dst m c e).isLt; omega

theorem keyW_toInt (e : Fin 384000) : (keyW m c e).toInt = keyZ m c e := by
  rw [Idealize.ShloMosaic.StableHlo.Predicate.toInt_eq_toNat_of_lt (keyW_lt m c hin e), keyW_toNat m c hin]
  unfold keyZ; push_cast; rfl

theorem keyW_eq_iff (e e' : Fin 384000) : keyW m c e = keyW m c e' ↔ keyZ m c e = keyZ m c e' := by
  rw [← keyW_toInt m c hin, ← keyW_toInt m c hin]
  exact ⟨fun h => by rw [h], fun h => BitVec.eq_of_toInt_eq h⟩

/-- The program's comparator on two edges' words is the strict order of their numbers. -/
theorem comparator_keyW (k k' : Fin 384000) (a b : BitVec 32) :
    (comparator_i32_i32_d0 (keyW m c k, a) (keyW m c k', b) == 1#1) = decide (keyZ m c k < keyZ m c k') := by
  show (IntOp.cmpi .slt (keyW m c k) (keyW m c k') == 1#1) = _
  have h1 := keyW_toNat m c hin k
  have h2 := keyW_toNat m c hin k'
  rw [Bool.eq_iff_iff, beq_iff_eq, decide_eq_true_iff,
    Idealize.ShloMosaic.StableHlo.Predicate.slt_iff_toNat (keyW_lt m c hin k) (keyW_lt m c hin k')]
  unfold keyZ
  omega

/-- THE PROGRAM'S PERMUTATION: the argsort's output at sorted position `e` is the word of `π e`. -/
theorem V9_v92 (e : Fin 384000) :
    (V9 m outs c main_v92 : S384000.Idx → BitVec 32) (Shape.Idx.ofFin e) = BitVec.ofNat 32 (π m c e).val := by
  show (StableHlo.after hostOps3_1 (V8 m outs c) main_v92 : S384000.Idx → BitVec 32) _ = _
  rw [v92_of]
  exact argsort_apply comparator_i32_i32_d0 _ _
    (fun k k' => by rw [V8_v91 m outs c, V8_v91 m outs c]; exact comparator_keyW m c hin k k' _ _) e

end facts

/-! ## The mask of first positions, read at an index -/

/-- A one-bit word converted to a real is `1` or `0`. -/
theorem uitofp_bit (b : BitVec 1) : (FloatOps.uitofp (F := Ideal) .f32 b : EReal) = if b = 1#1 then 1 else 0 := by
  have hb : ∀ v : BitVec 1, v = 0#1 ∨ v = 1#1 := by decide
  rcases hb b with rfl | rfl
  · show (((0#1 : BitVec 1).toNat : ℝ) : EReal) = _
    rw [if_neg (by decide)]; simp
  · show (((1#1 : BitVec 1).toNat : ℝ) : EReal) = _
    rw [if_pos rfl]; simp

/-- The mask at position `e`: true at position `0`, elsewhere whether the word differs from the one before. -/
theorem firstMask_apply (k : S384000.Idx → BitVec 32) (e : Fin 384000) :
    firstMask k (Shape.Idx.ofFin e)
      = if e.val = 0 then 1#1 else IntOp.cmpi .ne (k (Shape.Idx.ofFin e)) (k (Shape.Idx.ofFin (Cert.Spec.Dedup.prev e))) := by
  unfold firstMask
  by_cases h0 : e.val = 0
  · rw [if_pos h0]
    refine (concatenate_pair_apply_left (t := S384000) (s₁ := S1) (s₂ := S383999) (0 : Fin 1) _ _ Facts₀.concatenates_S1_S383999_S384000_d0 (Shape.Idx.ofFin e) rfl
      (Shape.Idx.ofFin (0 : Fin 1)) ?_).trans ?_
    · intro b
      obtain rfl : b = 0 := Subsingleton.elim _ _
      show (0 : ℕ) = e.val
      omega
    · rw [Idealize.ShloMosaic.StableHlo.Predicate.bcast_scalar _ Facts₀.h_S_]; rfl
  · rw [if_neg h0]
    have he : e.val - 1 < 383999 := by have := e.isLt; omega
    refine (concatenate_pair_apply_right (t := S384000) (s₁ := S1) (s₂ := S383999) (0 : Fin 1) _ _ Facts₀.concatenates_S1_S383999_S384000_d0 (Shape.Idx.ofFin e) rfl rfl
      (Shape.Idx.ofFin (⟨e.val - 1, he⟩ : Fin 383999)) ?_ ?_).trans ?_
    · intro b hb
      exact absurd (Subsingleton.elim _ _) hb
    · show (e.val - 1) + 1 = e.val
      omega
    · show IntOp.cmpi .ne (extractStridedSlice S383999 ![1] k _ (Shape.Idx.ofFin (⟨e.val - 1, he⟩ : Fin 383999)))
        (extractStridedSlice S383999 ![0] k _ (Shape.Idx.ofFin (⟨e.val - 1, he⟩ : Fin 383999))) = _
      rw [extractStridedSlice_apply ![1] k _ _ (Shape.Idx.ofFin e) (fun a => by
            obtain rfl : a = 0 := Subsingleton.elim _ _
            show e.val = 1 + (e.val - 1)
            omega),
        extractStridedSlice_apply ![0] k _ _ (Shape.Idx.ofFin (Cert.Spec.Dedup.prev e)) (fun a => by
            obtain rfl : a = 0 := Subsingleton.elim _ _
            show e.val - 1 = 0 + (e.val - 1)
            omega)]

/-! ## What the third region reads -/

section finals
variable (hin : ∀ j : S2x384000.Idx, 0 ≤ (X1 m c j).toInt ∧ (X1 m c j).toInt < 12000)
include hin

/-- The argsort's output is a position: the wrap leaves it, and as a signed number it is `π e`. -/
theorem ord_toInt (e : Fin 384000) :
    (wrap 384000#32 (V9 m outs c main_v92 : S384000.Idx → BitVec 32) (Shape.Idx.ofFin e)).toInt = ((π m c e).val : ℤ) := by
  have hlt : (π m c e).val < 2 ^ 31 := by have := (π m c e).isLt; omega
  have h0 : (BitVec.ofNat 32 (π m c e).val).toInt = ((π m c e).val : ℤ) :=
    Idealize.ShloMosaic.StableHlo.Predicate.toInt_ofNat_small _ hlt
  rw [wrap_apply _ _ _ (by rw [V9_v92 m outs c hin, h0]; exact Int.natCast_nonneg _), V9_v92 m outs c hin, h0]

/-- The sorted edge numbers (words): position `e` holds edge `π e`'s. -/
theorem sortedKey_apply (e : Fin 384000) :
    take (V9 m outs c main_v91) (wrap 384000#32 (V9 m outs c main_v92)) (Shape.Idx.ofFin e) = keyW m c (π m c e) := by
  rw [take_apply _ _ e (π m c e) (ord_toInt m outs c hin e), V9_v91]

/-- The sorted source words. -/
theorem sortedSrc_apply (e : Fin 384000) :
    take (V9 m outs c main_v86) (wrap 384000#32 (V9 m outs c main_v92)) (Shape.Idx.ofFin e) = X1 m c (ix2 0 (π m c e)) := by
  rw [take_apply _ _ e (π m c e) (ord_toInt m outs c hin e), V9_v86]

/-- The sorted destination words. -/
theorem sortedDst_apply (e : Fin 384000) :
    take (V9 m outs c main_v88) (wrap 384000#32 (V9 m outs c main_v92)) (Shape.Idx.ofFin e) = X1 m c (ix2 1 (π m c e)) := by
  rw [take_apply _ _ e (π m c e) (ord_toInt m outs c hin e), V9_v88]

/-- The gathered source rows: sorted position `e` holds the node-table row of edge `π e`'s source. -/
theorem gsrc_apply (e : Fin 384000) (h : Fin 64) :
    (V10 m outs c main_v127 : S384000x64.Idx → EReal) (ix2 e h) = Zv m outs c (ix2 (src m c (π m c e)) h) := by
  show (StableHlo.after hostOps3_2 (V9 m outs c) main_v127 : S384000x64.Idx → EReal) _ = _
  rw [v127_of, takeRows_apply, V9_v82_0]
  refine congrArg (Zv m outs c) (congrArg (fun r => ix2 r h) (Fin.ext ?_))
  show min (wrap 12000#32 (take (V9 m outs c main_v86) (wrap 384000#32 (V9 m outs c main_v92))) (Shape.Idx.ofFin e)).toInt.toNat 11999
    = min (X1 m c (ix2 0 (π m c e))).toInt.toNat 11999
  rw [wrap_apply _ _ _ (by rw [sortedSrc_apply m outs c hin]; exact (hin _).1), sortedSrc_apply m outs c hin]

/-- The gathered destination rows. -/
theorem gdst_apply (e : Fin 384000) (h : Fin 64) :
    (V10 m outs c main_v134 : S384000x64.Idx → EReal) (ix2 e h) = Zv m outs c (ix2 (dst m c (π m c e)) h) := by
  show (StableHlo.after hostOps3_2 (V9 m outs c) main_v134 : S384000x64.Idx → EReal) _ = _
  rw [v134_of, takeRows_apply, V9_v82_0]
  refine congrArg (Zv m outs c) (congrArg (fun r => ix2 r h) (Fin.ext ?_))
  show min (wrap 12000#32 (take (V9 m outs c main_v88) (wrap 384000#32 (V9 m outs c main_v92))) (Shape.Idx.ofFin e)).toInt.toNat 11999
    = min (X1 m c (ix2 1 (π m c e))).toInt.toNat 11999
  rw [wrap_apply _ _ _ (by rw [sortedDst_apply m outs c hin]; exact (hin _).1), sortedDst_apply m outs c hin]

/-- The keep mask: `1` at the first sorted position of each distinct edge number, `0` elsewhere. -/
theorem keep_apply (e : Fin 384000) :
    (V10 m outs c main_v120 : S384000x1.Idx → EReal) (ix2 e 0)
      = if Cert.Spec.Dedup.First (keyZ m c) (π m c) e then (1 : EReal) else 0 := by
  show (StableHlo.after hostOps3_2 (V9 m outs c) main_v120 : S384000x1.Idx → EReal) _ = _
  rw [v120_of, ← ixP_eq, Idealize.ShloMosaic.StableHlo.Predicate.bcast_col1]
  show FloatOps.uitofp (F := Ideal) .f32 (firstMask _ (Shape.Idx.ofFin e)) = _
  rw [uitofp_bit, firstMask_apply]
  refine if_congr ?_ rfl rfl
  rw [Cert.Spec.Dedup.first_iff]
  by_cases h0 : e.val = 0
  · rw [if_pos h0]; exact ⟨fun _ => Or.inl h0, fun _ => rfl⟩
  · rw [if_neg h0, cmpi_ne_eq_one_iff, sortedKey_apply m outs c hin, sortedKey_apply m outs c hin]
    constructor
    · intro hne
      exact Or.inr ⟨Nat.pos_of_ne_zero h0, fun heq => hne ((keyW_eq_iff m c hin _ _).mpr heq.symm)⟩
    · rintro (h | ⟨_, hne⟩)
      · exact absurd h h0
      · exact fun heq => hne ((keyW_eq_iff m c hin _ _).mp heq).symm

end finals

-- From here on the sorting permutation is used through its facts only: a bijection, sorted keys, the program's argsort.
attribute [irreducible] π

end Cert.Bridge.Sort

end
-- ==== Proof.KernelPos.lean ====
import proofs.«408955_j56530359550020_1_alg».proof.Proof.SpecDedup
import proofs.«408955_j56530359550020_1_alg».proof.Proof.Segs
import proofs.«408955_j56530359550020_1_alg».proof.Proof.Region3Value
import proofs.«408955_j56530359550020_1_alg».proof.Proof.RefMask
import proofs.«408955_j56530359550020_1_alg».proof.Proof.KernelSort

set_option maxRecDepth 16384

noncomputable section

open scoped BigOperators

namespace Cert.Bridge.Pos

/-! ## A sum over the first sorted positions is a sum over the distinct pairs -/

section core
variable {M : Type} [AddCommMonoid M] {n N : ℕ}

open Classical in
/-- A function of a pair of indices below `N`, read off the pair's row-major number `s · N + d`: the numbering is
    injective, so the number names its pair; off the numbering's range the value is zero (never used). -/
def decode (N : ℕ) (g : Fin N × Fin N → M) (k : ℤ) : M :=
  if h : ∃ p : Fin N × Fin N, ((p.1.val : ℤ) * (N : ℤ) + (p.2.val : ℤ)) = k then g (Classical.choose h) else 0

/-- At a pair's number the decoded function is the function at the pair. -/
theorem decode_enc (g : Fin N × Fin N → M) (p : Fin N × Fin N) :
    decode N g ((p.1.val : ℤ) * (N : ℤ) + (p.2.val : ℤ)) = g p := by
  have h : ∃ q : Fin N × Fin N, ((q.1.val : ℤ) * (N : ℤ) + (q.2.val : ℤ)) = (p.1.val : ℤ) * (N : ℤ) + (p.2.val : ℤ) :=
    ⟨p, rfl⟩
  unfold decode
  rw [dif_pos h]
  exact congrArg g (Cert.Spec.Dedup.pairInt_injective N (Classical.choose_spec h))

/-- DEDUPLICATION BY SORTING, FOR PAIRS: the edges `(src e, dst e)` are numbered `src e · N + dst e` and sorted by
    that number (`π` a bijection of the positions leaving the numbers weakly increasing); a quantity of the pair,
    summed over the sorted positions that are first for their number, is its sum over the SET of distinct pairs. -/
theorem sum_first_pairs (src dst : Fin n → Fin N) (key : Fin n → ℤ)
    (hkey : ∀ e, key e = ((src e).val : ℤ) * (N : ℤ) + ((dst e).val : ℤ))
    (π : Fin n → Fin n) (hπ : Function.Bijective π)
    (hsorted : ∀ a b : Fin n, a ≤ b → key (π a) ≤ key (π b)) (g : Fin N × Fin N → M) :
    (∑ e : Fin n, if Cert.Spec.Dedup.First key π e then g (src (π e), dst (π e)) else 0)
      = ∑ p ∈ Finset.univ.image (fun e => (src e, dst e)), g p := by
  have hkeyfun : key = fun e => ((src e).val : ℤ) * (N : ℤ) + ((dst e).val : ℤ) := funext hkey
  have h1 : ∀ e, g (src (π e), dst (π e)) = decode N g (key (π e)) := by
    intro e
    rw [hkey]
    exact (decode_enc g (src (π e), dst (π e))).symm
  have h2 : (∑ e : Fin n, if Cert.Spec.Dedup.First key π e then g (src (π e), dst (π e)) else 0)
      = ∑ e : Fin n, if Cert.Spec.Dedup.First key π e then decode N g (key (π e)) else 0 :=
    Finset.sum_congr rfl (fun e _ => by rw [h1 e])
  rw [h2, Cert.Spec.Dedup.sum_first_eq_sum_image key π hπ hsorted (decode N g), hkeyfun]
  exact Cert.Spec.Dedup.sum_image_keyInt_eq_sum_image_pair src dst (decode N g) g (decode_enc g)

end core

/-! ## The kernel's two accumulated sums -/

section kernel

open Idealize.ShloMosaic Idealize.ShloMosaic.TcCoe Idealize.ShloMosaic.ValueIdx
open Cert.KernelIdeal Cert.KernelIdeal.Gen

variable (m : (ℓ : Loc nD τ sig) → Buf (Elt Ideal) ℓ)

/-- The edge list on core `c`, as launched. -/
abbrev edges (c : Dev nD) : IVec S2x384000 32 := m ((c.tc : Thread nD τ).loc main_arg1)

/-- Region 2's node table on core `c`, as a function of its index. -/
abbrev Ztab (c : Dev nD) : S12000x64.Idx → EReal := Segs.o7a m c

/-- The node table as the host operations before region 3 find it. -/
abbrev Zin (c : Dev nD) : S12000x64.Idx → EReal := V7 m (Segs.outsC m) c main_v82_0

/-- Region 3's output pair on core `c`, as a function of its index. -/
abbrev Oout (c : Dev nD) : S1x2.Idx → EReal := Segs.o11 m c

/-- The node table the host operations before region 3 read is the one region 2 leaves. -/
theorem Zin_eq (c : Dev nD) : Zin m c = Ztab m c := by
  show Function.update (Function.update (V6 m (Segs.outsC m) c) main_v82_0 (Segs.outsC m 7 main_v82_0 c))
    main_v82_1 (Segs.outsC m 7 main_v82_1 c) main_v82_0 = _
  rw [Function.update_of_ne (by decide), Function.update_self, Segs.outsC_7a]

/-- Region 3's output is its proof data's fourth array after the last grid point. -/
theorem Oout_eq (c : Dev nD) : Oout m c = Cert.KernelIdeal.R3V.outArr (Segs.datV3 m) c := rfl

/-- The inner product of two rows of a node table, as a function of the pair of rows. -/
def rowDot (Z : S12000x64.Idx → EReal) (p : Fin 12000 × Fin 12000) : EReal :=
  ∑ h : Fin 64, Z (ix2 (n0 := 12000) (n1 := 64) p.1 h) * Z (ix2 (n0 := 12000) (n1 := 64) p.2 h)

/-- A quantity of the pair summed over the first sorted positions is its sum over the distinct edges, the edges
    spelled as the reference's: the sort's source and destination are the edge list's two rows read unsigned. -/
theorem sum_sorted_marks (c : Dev nD)
    (hin : ∀ j : S2x384000.Idx, 0 ≤ (edges m c j).toInt ∧ (edges m c j).toInt < 12000)
    (srcS dstS : Fin 384000 → Fin 12000) (keyZ : Fin 384000 → ℤ) (π : Fin 384000 → Fin 384000)
    (hsrc : ∀ e, (srcS e).val = (edges m c (ix2 (n0 := 2) (n1 := 384000) 0 e)).toNat)
    (hdst : ∀ e, (dstS e).val = (edges m c (ix2 (n0 := 2) (n1 := 384000) 1 e)).toNat)
    (hkey : ∀ e, keyZ e = ((srcS e).val : ℤ) * 12000 + ((dstS e).val : ℤ))
    (hπ : Function.Bijective π) (hsorted : ∀ a b : Fin 384000, a ≤ b → keyZ (π a) ≤ keyZ (π b))
    (g : Fin 12000 × Fin 12000 → EReal) :
    (∑ e : Fin 384000, if Cert.Spec.Dedup.First keyZ π e then g (srcS (π e), dstS (π e)) else 0)
      = ∑ p ∈ Finset.univ.image (fun e : Fin 384000 =>
          (Cert.Bridge.Mask.src (edges m c) hin e, Cert.Bridge.Mask.dst (edges m c) hin e)), g p := by
  have hS : srcS = Cert.Bridge.Mask.src (edges m c) hin := funext fun e => Fin.ext (hsrc e)
  have hD : dstS = Cert.Bridge.Mask.dst (edges m c) hin := funext fun e => Fin.ext (hdst e)
  rw [← hS, ← hD]
  refine sum_first_pairs srcS dstS keyZ (fun e => ?_) π hπ hsorted g
  rw [hkey e]
  norm_num

/-- THE FIRST TOTAL, GIVEN WHAT THE SORT LEAVES: the sum over the distinct edges of the inner product of the node
    table's two rows. Region 3 totals, over the sorted positions, the inner product of the gathered source and
    destination rows times the "first" mark; the mark is the indicator of a first position, the gathers are the node
    table's rows at the sorted edge, the sort a bijection leaving the edge numbers weakly increasing. -/
theorem psum_K_of (c : Dev nD)
    (hin : ∀ j : S2x384000.Idx, 0 ≤ (edges m c j).toInt ∧ (edges m c j).toInt < 12000)
    (srcS dstS : Fin 384000 → Fin 12000) (keyZ : Fin 384000 → ℤ) (π : Fin 384000 → Fin 384000)
    (hsrc : ∀ e, (srcS e).val = (edges m c (ix2 (n0 := 2) (n1 := 384000) 0 e)).toNat)
    (hdst : ∀ e, (dstS e).val = (edges m c (ix2 (n0 := 2) (n1 := 384000) 1 e)).toNat)
    (hkey : ∀ e, keyZ e = ((srcS e).val : ℤ) * 12000 + ((dstS e).val : ℤ))
    (hπ : Function.Bijective π) (hsorted : ∀ a b : Fin 384000, a ≤ b → keyZ (π a) ≤ keyZ (π b))
    (hkeep : ∀ e : Fin 384000, Cert.KernelIdeal.R3V.arrK (Segs.datV3 m) c (ix2 (n0 := 384000) (n1 := 1) e 0)
      = if Cert.Spec.Dedup.First keyZ π e then (1 : EReal) else 0)
    (hgsrc : ∀ (e : Fin 384000) (h : Fin 64),
      Cert.KernelIdeal.R3V.arrA (Segs.datV3 m) c (ix2 (n0 := 384000) (n1 := 64) e h)
        = Zin m c (ix2 (n0 := 12000) (n1 := 64) (srcS (π e)) h))
    (hgdst : ∀ (e : Fin 384000) (h : Fin 64),
      Cert.KernelIdeal.R3V.arrB (Segs.datV3 m) c (ix2 (n0 := 384000) (n1 := 64) e h)
        = Zin m c (ix2 (n0 := 12000) (n1 := 64) (dstS (π e)) h)) :
    Oout m c (ix2 (n0 := 1) (n1 := 2) 0 0)
      = ∑ p ∈ Finset.univ.image (fun e : Fin 384000 =>
          (Cert.Bridge.Mask.src (edges m c) hin e, Cert.Bridge.Mask.dst (edges m c) hin e)),
          ∑ h : Fin 64, Ztab m c (ix2 (n0 := 12000) (n1 := 64) p.1 h) * Ztab m c (ix2 (n0 := 12000) (n1 := 64) p.2 h) := by
  have hsum : ∀ e : Fin 384000,
      (∑ h : Fin 64, Cert.KernelIdeal.R3V.arrA (Segs.datV3 m) c (ix2 (n0 := 384000) (n1 := 64) e h)
            * Cert.KernelIdeal.R3V.arrB (Segs.datV3 m) c (ix2 (n0 := 384000) (n1 := 64) e h))
          * Cert.KernelIdeal.R3V.arrK (Segs.datV3 m) c (ix2 (n0 := 384000) (n1 := 1) e 0)
        = if Cert.Spec.Dedup.First keyZ π e then rowDot (Ztab m c) (srcS (π e), dstS (π e)) else 0 := by
    intro e
    have hdot : (∑ h : Fin 64, Cert.KernelIdeal.R3V.arrA (Segs.datV3 m) c (ix2 (n0 := 384000) (n1 := 64) e h)
            * Cert.KernelIdeal.R3V.arrB (Segs.datV3 m) c (ix2 (n0 := 384000) (n1 := 64) e h))
        = rowDot (Ztab m c) (srcS (π e), dstS (π e)) := by
      unfold rowDot
      refine Finset.sum_congr rfl (fun h _ => ?_)
      rw [hgsrc e h, hgdst e h, Zin_eq]
    rw [hkeep e, hdot]
    by_cases hf : Cert.Spec.Dedup.First keyZ π e
    · rw [if_pos hf, if_pos hf, mul_one]
    · rw [if_neg hf, if_neg hf, mul_zero]
  rw [Oout_eq, Cert.KernelIdeal.R3V.psum_eq (Segs.datV3 m) c, Finset.sum_congr rfl (fun e _ => hsum e)]
  exact sum_sorted_marks m c hin srcS dstS keyZ π hsrc hdst hkey hπ hsorted (rowDot (Ztab m c))

/-- THE SECOND TOTAL, GIVEN WHAT THE SORT LEAVES: the number of distinct edges. -/
theorem pcnt_K_of (c : Dev nD)
    (hin : ∀ j : S2x384000.Idx, 0 ≤ (edges m c j).toInt ∧ (edges m c j).toInt < 12000)
    (srcS dstS : Fin 384000 → Fin 12000) (keyZ : Fin 384000 → ℤ) (π : Fin 384000 → Fin 384000)
    (hsrc : ∀ e, (srcS e).val = (edges m c (ix2 (n0 := 2) (n1 := 384000) 0 e)).toNat)
    (hdst : ∀ e, (dstS e).val = (edges m c (ix2 (n0 := 2) (n1 := 384000) 1 e)).toNat)
    (hkey : ∀ e, keyZ e = ((srcS e).val : ℤ) * 12000 + ((dstS e).val : ℤ))
    (hπ : Function.Bijective π) (hsorted : ∀ a b : Fin 384000, a ≤ b → keyZ (π a) ≤ keyZ (π b))
    (hkeep : ∀ e : Fin 384000, Cert.KernelIdeal.R3V.arrK (Segs.datV3 m) c (ix2 (n0 := 384000) (n1 := 1) e 0)
      = if Cert.Spec.Dedup.First keyZ π e then (1 : EReal) else 0) :
    Oout m c (ix2 (n0 := 1) (n1 := 2) 0 1)
      = ((Finset.univ.image (fun e : Fin 384000 =>
          (Cert.Bridge.Mask.src (edges m c) hin e, Cert.Bridge.Mask.dst (edges m c) hin e))).card : EReal) := by
  rw [Oout_eq, Cert.KernelIdeal.R3V.pcnt_eq (Segs.datV3 m) c, Finset.sum_congr rfl (fun e _ => hkeep e),
    sum_sorted_marks m c hin srcS dstS keyZ π hsrc hdst hkey hπ hsorted (fun _ => (1 : EReal)),
    Finset.sum_const, nsmul_one]

end kernel

/-! ## The two totals, the sort's facts supplied -/

section final

open Idealize.ShloMosaic Idealize.ShloMosaic.TcCoe Idealize.ShloMosaic.ValueIdx
open Cert.KernelIdeal Cert.KernelIdeal.Gen

variable (m : (ℓ : Loc nD τ sig) → Buf (Elt Ideal) ℓ)

/-- THE FIRST TOTAL: the sum over the distinct edges of the inner product of the node table's two rows. -/
theorem psum_K (c : Dev nD)
    (hin : ∀ j : S2x384000.Idx, 0 ≤ (edges m c j).toInt ∧ (edges m c j).toInt < 12000) :
    Oout m c (ix2 (n0 := 1) (n1 := 2) 0 0)
      = ∑ p ∈ Finset.univ.image (fun e : Fin 384000 =>
          (Cert.Bridge.Mask.src (edges m c) hin e, Cert.Bridge.Mask.dst (edges m c) hin e)),
          ∑ h : Fin 64, Ztab m c (ix2 (n0 := 12000) (n1 := 64) p.1 h) * Ztab m c (ix2 (n0 := 12000) (n1 := 64) p.2 h) :=
  psum_K_of m c hin (Cert.Bridge.Sort.src m c) (Cert.Bridge.Sort.dst m c) (Cert.Bridge.Sort.keyZ m c)
    (Cert.Bridge.Sort.π m c) (Cert.Bridge.Sort.src_val m c hin) (Cert.Bridge.Sort.dst_val m c hin) (fun _ => rfl)
    (Cert.Bridge.Sort.π_bijective m c) (Cert.Bridge.Sort.π_sorted m c)
    (Cert.Bridge.Sort.keep_apply m (Segs.outsC m) c hin) (Cert.Bridge.Sort.gsrc_apply m (Segs.outsC m) c hin)
    (Cert.Bridge.Sort.gdst_apply m (Segs.outsC m) c hin)

/-- THE SECOND TOTAL: the number of distinct edges. -/
theorem pcnt_K (c : Dev nD)
    (hin : ∀ j : S2x384000.Idx, 0 ≤ (edges m c j).toInt ∧ (edges m c j).toInt < 12000) :
    Oout m c (ix2 (n0 := 1) (n1 := 2) 0 1)
      = ((Finset.univ.image (fun e : Fin 384000 =>
          (Cert.Bridge.Mask.src (edges m c) hin e, Cert.Bridge.Mask.dst (edges m c) hin e))).card : EReal) :=
  pcnt_K_of m c hin (Cert.Bridge.Sort.src m c) (Cert.Bridge.Sort.dst m c) (Cert.Bridge.Sort.keyZ m c)
    (Cert.Bridge.Sort.π m c) (Cert.Bridge.Sort.src_val m c hin) (Cert.Bridge.Sort.dst_val m c hin) (fun _ => rfl)
    (Cert.Bridge.Sort.π_bijective m c) (Cert.Bridge.Sort.π_sorted m c)
    (Cert.Bridge.Sort.keep_apply m (Segs.outsC m) c hin)

end final

end Cert.Bridge.Pos

end
-- ==== Proof.PreDecode.lean ====
/-
  The precondition, decoded. The printed predicate is a conjunction, at the one index of the rank-0 shape, of six
  "all entries" reductions by `and`; its last conjunct reduces, over both axes of the [2 × 384000] integer array,
  the entrywise conjunction of "entry ≥ 0, signed" and "entry < 12000, signed". If the whole conjunction is 1 then
  the last conjunct is 1, so every entry of the reduced array is 1, so each entry x of the integer array satisfies
  0 ≤ x.toInt and x.toInt < 12000 (the constants 0 and 12000 read signed as themselves).
-/
import Idealize.ShloMosaic.PureOps.Ideal
import Idealize.ShloMosaic.PureOps.BitExact
import Idealize.ShloMosaic.Lib.ValueIdx
import Idealize.ShloMosaic.Lib.ReduceAll
import proofs.«408955_j56530359550020_1_alg».proof.Defs

noncomputable section

namespace Cert.Bridge.Pre

open Idealize.ShloMosaic Idealize.SL.Sem
open Cert.Pre_finite_inputs

/-- The rank-0 shape has one index. -/
instance subsingleton_S_Idx : Subsingleton S_.Idx := ⟨fun a b => funext fun d => d.elim0⟩

/-- The constants of the two comparisons, read signed. -/
theorem toInt_zero32 : (0#32 : BitVec 32).toInt = 0 := by decide
theorem toInt_12000 : (12000#32 : BitVec 32).toInt = 12000 := by decide

/-- If the printed precondition is all ones, every entry of the integer argument lies in [0, 12000), signed. -/
theorem idx_in_range {F : FTy → Type} [FloatOps F] [Facts] (a0 : FVec F S12000x128 .f32) (a1 : IVec S2x384000 32)
    (a2 : FVec F S128x64 .f32) (a3 : FVec F S64 .f32) (a4 : FVec F S64x64 .f32) (a5 : FVec F S64 .f32)
    (h : fn (F := F) a0 a1 a2 a3 a4 a5 = fun _ => 1#1) :
    ∀ j : S2x384000.Idx, 0 ≤ (a1 j).toInt ∧ (a1 j).toInt < 12000 := by
  intro j
  have e := congrFun h ValueIdx.ix0
  dsimp only [fn, fn_part1] at e
  -- the outermost `and`: its second operand is the reduction over the integer array
  have e2 := (IntOp.andi_eq_one.1 e).2
  -- a reduction by `and` over all axes that is 1 met only 1s
  have e3 := Host.reduce_andi_all _ _ _ _ _ e2 j
  -- the entry at j: the conjunction of the two comparisons against the broadcast constants
  obtain ⟨hge, hlt⟩ := IntOp.andi_eq_one.1 e3
  have hge' := IntOp.cmpi_sge.1 hge
  have hlt' := IntOp.cmpi_slt.1 hlt
  refine ⟨?_, ?_⟩
  · have : (0#32 : BitVec 32).toInt ≤ (a1 j).toInt := hge'
    rwa [toInt_zero32] at this
  · have : (a1 j).toInt < (12000#32 : BitVec 32).toInt := hlt'
    rwa [toInt_12000] at this

/-- The same range, read off `KernelIdeal`'s own precondition at a device: every entry of its integer argument lies in
    [0, 12000), signed. -/
theorem range_of_Pre_KernelIdeal [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ j : Cert.KernelIdeal.S2x384000.Idx,
      0 ≤ ((m ((c.tc : Thread Cert.KernelIdeal.nD Cert.KernelIdeal.τ).loc Cert.KernelIdeal.main_arg1)) j).toInt
      ∧ ((m ((c.tc : Thread Cert.KernelIdeal.nD Cert.KernelIdeal.τ).loc Cert.KernelIdeal.main_arg1)) j).toInt < 12000 :=
  idx_in_range (F := Ideal) _ _ _ _ _ _ (h c)

/-- The same range, read off `Kernel`'s own precondition at a device: every entry of its integer argument lies in
    [0, 12000), signed. -/
theorem range_of_Pre_Kernel [hP : Cert.Pre_finite_inputs.Facts]
    (m : (ℓ : Loc Cert.Kernel.nD Cert.Kernel.τ Cert.Kernel.sig) → Buf (Elt Bits) ℓ)
    (h : Cert.Pre_Kernel m) (c : Dev Cert.Kernel.nD) :
    ∀ j : Cert.Kernel.S2x384000.Idx,
      0 ≤ ((m ((c.tc : Thread Cert.Kernel.nD Cert.Kernel.τ).loc Cert.Kernel.main_arg1)) j).toInt
      ∧ ((m ((c.tc : Thread Cert.Kernel.nD Cert.Kernel.τ).loc Cert.Kernel.main_arg1)) j).toInt < 12000 :=
  idx_in_range (F := Bits) _ _ _ _ _ _ (h c)

/-- The same range, read off `ReferenceIdeal`'s own precondition at a device: every entry of its integer argument lies in
    [0, 12000), signed. -/
theorem range_of_Pre_ReferenceIdeal [hP : Cert.Pre_finite_inputs.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    ∀ j : Cert.ReferenceIdeal.S2x384000.Idx,
      0 ≤ ((m ((c.tc : Thread Cert.ReferenceIdeal.nD Cert.ReferenceIdeal.τ).loc Cert.ReferenceIdeal.main_arg1)) j).toInt
      ∧ ((m ((c.tc : Thread Cert.ReferenceIdeal.nD Cert.ReferenceIdeal.τ).loc Cert.ReferenceIdeal.main_arg1)) j).toInt < 12000 :=
  idx_in_range (F := Ideal) _ _ _ _ _ _ (h c)

end Cert.Bridge.Pre

end
-- ==== Proof.Bridge.lean ====
/- The idealized kernel program and the idealized reference end with the same number.
   Both results are tailF pos_sum pos_cnt total for one function tailF of three extended reals, so it is enough
   that the three agree. total: the kernel's is the sum over the 64 columns of the squared column sums of z, the
   reference's the sum of all entries of z·zᵀ; they agree because z is finite. pos_sum and pos_cnt: both are sums
   over the set of node pairs that occur as an edge — of the pairs' inner products of rows of z, and of ones —, the
   kernel's by sorting and marking first occurrences, the reference's through its scattered mask. The rows of z
   and the edge endpoints are the same on both sides. -/
import proofs.«408955_j56530359550020_1_alg».proof.Proof.KernelRun
import proofs.«408955_j56530359550020_1_alg».proof.Proof.KernelTail
import proofs.«408955_j56530359550020_1_alg».proof.Proof.KernelEmb
import proofs.«408955_j56530359550020_1_alg».proof.Proof.KernelPos
import proofs.«408955_j56530359550020_1_alg».proof.Proof.KernelSort
import proofs.«408955_j56530359550020_1_alg».proof.Proof.RefStages
import proofs.«408955_j56530359550020_1_alg».proof.Proof.RefMask
import proofs.«408955_j56530359550020_1_alg».proof.Proof.PreDecode
import proofs.«408955_j56530359550020_1_alg».proof.Proof.Gen.Pre_finite_inputs
import proofs.«408955_j56530359550020_1_alg».proof.Proof.Gen.KernelIdeal
import proofs.«408955_j56530359550020_1_alg».proof.Proof.Gen.ReferenceIdeal

set_option maxRecDepth 16384

noncomputable section

namespace Cert.Bridge

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The kernel program's result, over what its regions leave, is the reference's result stage of the same arguments. -/
theorem result_eq (hpre : Cert.Pre_KernelIdeal (hPre_finite_inputs := Cert.Pre_finite_inputs.Gen.facts) m) (c : Dev nD) :
    (V12 m (Segs.outs m) c main_v146 : S_.Idx → EReal)
      = Cert.ReferenceIdeal.Read.val_main_v119 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := by
  have hin := Pre.range_of_Pre_KernelIdeal (hP := Cert.Pre_finite_inputs.Gen.facts) m hpre c
  funext i
  obtain rfl : i = ix0 := funext fun d => d.elim0
  rw [Tail.result_apply m (Segs.outs m) c, Ref.result_eq]
  -- the three scalars
  have hps : (Segs.outs m 11 main_v135 c : S1x2.Idx → EReal) (ix2 0 0)
      = Cert.ReferenceIdeal.Read.val_main_v111 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) ix0 := by
    rw [Segs.outs_11, Ref.pos_sum_apply, Mask.pos_sum_eq _ hin]
    refine (Pos.psum_K m c hin).trans (Finset.sum_congr rfl fun p _ => ?_)
    rw [Ref.sim_apply]
    refine Finset.sum_congr rfl fun k _ => ?_
    rw [← Emb.z_eq m c p.1 k, ← Emb.z_eq m c p.2 k]
  have hpc : (Segs.outs m 11 main_v135 c : S1x2.Idx → EReal) (ix2 0 1)
      = Cert.ReferenceIdeal.Read.val_main_v109 (F := Ideal) (m ((c.tc : Thread nD τ).loc main_arg1)) ix0 := by
    rw [Segs.outs_11, Mask.pos_cnt_eq _ hin]
    exact Pos.pcnt_K m c hin
  have hS : ∀ k : Fin 64, (Sort.Sv m (Segs.outs m) c (ix2 0 k) : EReal)
      = (∑ r : Fin 12000, Cert.ReferenceIdeal.Read.val_main_v86 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (ix2 r k) : EReal) := fun k => by
    show ((Function.update (Function.update (V6 m (Segs.outs m) c) main_v82_0 (Segs.outs m 7 main_v82_0 c)) main_v82_1 (Segs.outs m 7 main_v82_1 c) main_v82_1 : S1x64.Idx → EReal) (ix2 0 k) : EReal) = _
    rw [Function.update_self, Segs.outs_7b]
    exact Emb.S_eq m c k
  have htot : ((V10 m (Segs.outs m) c main_v84 : S_.Idx → EReal) ix0 : EReal)
      = Cert.ReferenceIdeal.Read.val_main_v112 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) ix0 := by
    refine (Sort.total_apply m (Segs.outs m) c).trans ?_
    rw [Ref.total_eq]
    simp only [hS]
  rw [hps, hpc, htot]

/-- The two idealized programs, run from memories that agree on the arguments, end with the same result. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => V12 m (Segs.outs m) c main_v146, Segs.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v119_eq, (hagree c).1, (hagree c).2.1, (hagree c).2.2.1, (hagree c).2.2.2.1, (hagree c).2.2.2.2.1, (hagree c).2.2.2.2.2]
  exact (result_eq m hpre c).symm

end Cert.Bridge

end
-- ==== Proof.lean ====
/- The certificate's claim. Both programs compute a graph-contrastive loss from node features x, an edge list and two
   layers' weights: two graph convolutions give an embedding, its rows are normalised to z, and with sim = z·zᵀ the
   result is −(pos_sum / pos_cnt) + (total − pos_sum) / (n² − pos_cnt), where total sums sim over all node pairs and
   pos_sum, pos_cnt sum sim, resp. 1, over the SET of node pairs that occur as an edge.
   The kernel program and the reference share every host operation of the convolutions; the kernel forms the two
   matrix products block by block (equal to the whole products index by index), normalises block by block while
   accumulating the column sums S of z, takes total as S·S — equal to the double sum because every entry of z is
   finite, whatever the embedding: a row with an infinite entry has norm ⊤ and x / ⊤ = 0 —, and obtains the sums
   over distinct edges by sorting the keys src·n + dst, marking each first occurrence and accumulating the marked
   inner products over 32 blocks; the reference scatters ones into an n×n mask instead. The two agree when every
   edge endpoint lies in [0, n): the precondition's last conjunct (outside it the reference's scatter drops an
   edge that the kernel's clamped gather keeps).
   The three frames need no precondition: each region's body obligation and the host stretches never fault. -/
import proofs.«408955_j56530359550020_1_alg».proof.Defs
import proofs.«408955_j56530359550020_1_alg».proof.Proof.Gen.Kernel
import proofs.«408955_j56530359550020_1_alg».proof.Proof.Gen.KernelIdeal
import proofs.«408955_j56530359550020_1_alg».proof.Proof.Gen.ReferenceIdeal
import proofs.«408955_j56530359550020_1_alg».proof.Proof.Gen.Pre_finite_inputs
import proofs.«408955_j56530359550020_1_alg».proof.Proof.Gen.ReferenceIdeal.Run
import proofs.«408955_j56530359550020_1_alg».proof.Proof.Bits.Frame
import proofs.«408955_j56530359550020_1_alg».proof.Proof.Frame
import proofs.«408955_j56530359550020_1_alg».proof.Proof.Bridge
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Segs.frame (F := Bits) m ρ

theorem frame_ki : @Cert.frame_KernelIdeal Cert.KernelIdeal.Gen.facts Cert.Pre_finite_inputs.Gen.facts :=
  fun m ρ _ => Cert.KernelIdeal.Segs.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Bridge.algebraic⟩

end Cert.Proof

end
